-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S50000x16 : Shape := ⟨2, ![50000, 16]⟩
abbrev S16x64 : Shape := ⟨2, ![16, 64]⟩
abbrev S500000 : Shape := ⟨1, ![500000]⟩
abbrev S_ : Shape := ⟨0, ![]⟩
abbrev S500000x1 : Shape := ⟨2, ![500000, 1]⟩
abbrev S500000x3 : Shape := ⟨2, ![500000, 3]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S50000x16 : S_.BroadcastsInDim S50000x16 (![] : Fin 0 → Fin S50000x16.rank)
  reducesTo_S50000x16_S_d0_1 : S50000x16.ReducesTo [0, 1] S_
  bcast_S_S16x64 : S_.BroadcastsInDim S16x64 (![] : Fin 0 → Fin S16x64.rank)
  reducesTo_S16x64_S_d0_1 : S16x64.ReducesTo [0, 1] S_
  bcast_S_S500000 : S_.BroadcastsInDim S500000 (![] : Fin 0 → Fin S500000.rank)
  bcast_S500000_S500000x1_0 : S500000.BroadcastsInDim S500000x1 (![0] : Fin 1 → Fin S500000x1.rank)
  reducesTo_S500000x3_S500000_d1 : S500000x3.ReducesTo [1] S500000
  reducesTo_S500000_S_d0 : S500000.ReducesTo [0] S_
  gather_S50000x3_S500000x1_S500000x3_1_0_n_n_0_1_13_wf : GatherDims.WF S50000x3 S500000x1 S500000x3 [1] [0] [] [0] [] 1 ![1, 3]

variable [Facts]

def gather_S50000x3_S500000x1_S500000x3_1_0_n_n_0_1_13 : GatherDims S50000x3 S500000x1 S500000x3 where
  offsetDims := [1]
  collapsedSliceDims := [0]
  operandBatchingDims := []
  startIndicesBatchingDims := []
  startIndexMap := [0]
  indexVectorDim := 1
  sliceSizes := ![1, 3]
  wf := gather_S50000x3_S500000x1_S500000x3_1_0_n_n_0_1_13_wf
def fn_part3 {F : FTy → Type} [FloatOps F] (main_v33 : IVec S_ 1) (main_v51 : FVec F S500000 .f32) (main_cst_17 : FVec F S_ .f32) : IVec S_ 1 :=
  let main_v52 : FVec F S500000 .f32 := broadcastInDim S500000 ![] bcast_S_S500000 main_cst_17
  let main_v53 : IVec S500000 1 := cmpf .une main_v51 main_v52
  let main_c_18 : IVec S_ 1 := constantI S_ 1 1#1
  let main_v54 : IVec S_ 1 := (fun x v => Host.reduce IntOp.andi x v reducesTo_S500000_S_d0 h_S_) main_v53 main_c_18
  let main_v55 : IVec S_ 1 := andi main_v33 main_v54
  main_v55

def fn_part2 {F : FTy → Type} [FloatOps F] (main_arg0 : FVec F S50000x3 .f32) (main_arg7 : IVec S500000 32) (main_arg8 : IVec S500000 32) (main_v33 : IVec S_ 1) : IVec S_ 1 :=
  let main_c_12 : IVec S_ 32 := constantI S_ 32 0#32
  let main_v34 : IVec S500000 32 := broadcastInDim S500000 ![] bcast_S_S500000 main_c_12
  let main_v35 : IVec S500000 1 := cmpi .slt main_arg8 main_v34
  let main_c_13 : IVec S_ 32 := constantI S_ 32 50000#32
  let main_v36 : IVec S500000 32 := broadcastInDim S500000 ![] bcast_S_S500000 main_c_13
  let main_v37 : IVec S500000 32 := addi main_arg8 main_v36
  let main_v38 : IVec S500000 32 := select main_v35 main_v37 main_arg8
  let main_v39 : IVec S500000x1 32 := broadcastInDim S500000x1 ![0] bcast_S500000_S500000x1_0 main_v38
  let main_v40 : FVec F S500000x3 .f32 := (fun x i => Host.gather gather_S50000x3_S500000x1_S500000x3_1_0_n_n_0_1_13 x i) main_arg0 main_v39
  let main_c_14 : IVec S_ 32 := constantI S_ 32 0#32
  let main_v41 : IVec S500000 32 := broadcastInDim S500000 ![] bcast_S_S500000 main_c_14
  let main_v42 : IVec S500000 1 := cmpi .slt main_arg7 main_v41
  let main_c_15 : IVec S_ 32 := constantI S_ 32 50000#32
  let main_v43 : IVec S500000 32 := broadcastInDim S500000 ![] bcast_S_S500000 main_c_15
  let main_v44 : IVec S500000 32 := addi main_arg7 main_v43
  let main_v45 : IVec S500000 32 := select main_v42 main_v44 main_arg7
  let main_v46 : IVec S500000x1 32 := broadcastInDim S500000x1 ![0] bcast_S500000_S500000x1_0 main_v45
  let main_v47 : FVec F S500000x3 .f32 := (fun x i => Host.gather gather_S50000x3_S500000x1_S500000x3_1_0_n_n_0_1_13 x i) main_arg0 main_v46
  let main_v48 : FVec F S500000x3 .f32 := subf main_v40 main_v47
  let main_v49 : FVec F S500000x3 .f32 := mulf main_v48 main_v48
  let main_cst_16 : FVec F S_ .f32 := constant S_ .f32 0x00000000#32
  let main_v50 : FVec F S500000 .f32 := (fun x v => Host.reduceAdd x v reducesTo_S500000x3_S500000_d1 h_S_) main_v49 main_cst_16
  let main_v51 : FVec F S500000 .f32 := Host.sqrt main_v50
  let main_cst_17 : FVec F S_ .f32 := constant S_ .f32 0x00000000#32
  fn_part3 (F := F) main_v33 main_v51 main_cst_17

def fn_part1 {F : FTy → Type} [FloatOps F] (main_arg0 : FVec F S50000x3 .f32) (main_arg4 : FVec F S16x64 .f32) (main_arg5 : FVec F S16x64 .f32) (main_arg6 : FVec F S16x64 .f32) (main_arg7 : IVec S500000 32) (main_arg8 : IVec S500000 32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S16x64 .f32 := Host.absf main_arg4
  let main_cst_6 : FVec F S_ .f32 := constant S_ .f32 0x7F800000#32
  let main_v20 : FVec F S16x64 .f32 := broadcastInDim S16x64 ![] bcast_S_S16x64 main_cst_6
  let main_v21 : IVec S16x64 1 := cmpf .olt main_v19 main_v20
  let main_c_7 : IVec S_ 1 := constantI S_ 1 1#1
  let main_v22 : IVec S_ 1 := (fun x v => Host.reduce IntOp.andi x v reducesTo_S16x64_S_d0_1 h_S_) main_v21 main_c_7
  let main_v23 : IVec S_ 1 := andi main_v18 main_v22
  let main_v24 : FVec F S16x64 .f32 := Host.absf main_arg5
  let main_cst_8 : FVec F S_ .f32 := constant S_ .f32 0x7F800000#32
  let main_v25 : FVec F S16x64 .f32 := broadcastInDim S16x64 ![] bcast_S_S16x64 main_cst_8
  let main_v26 : IVec S16x64 1 := cmpf .olt main_v24 main_v25
  let main_c_9 : IVec S_ 1 := constantI S_ 1 1#1
  let main_v27 : IVec S_ 1 := (fun x v => Host.reduce IntOp.andi x v reducesTo_S16x64_S_d0_1 h_S_) main_v26 main_c_9
  let main_v28 : IVec S_ 1 := andi main_v23 main_v27
  let main_v29 : FVec F S16x64 .f32 := Host.absf main_arg6
  let main_cst_10 : FVec F S_ .f32 := constant S_ .f32 0x7F800000#32
  let main_v30 : FVec F S16x64 .f32 := broadcastInDim S16x64 ![] bcast_S_S16x64 main_cst_10
  let main_v31 : IVec S16x64 1 := cmpf .olt main_v29 main_v30
  let main_c_11 : IVec S_ 1 := constantI S_ 1 1#1
  let main_v32 : IVec S_ 1 := (fun x v => Host.reduce IntOp.andi x v reducesTo_S16x64_S_d0_1 h_S_) main_v31 main_c_11
  let main_v33 : IVec S_ 1 := andi main_v28 main_v32
  fn_part2 (F := F) main_arg0 main_arg7 main_arg8 main_v33

def fn {F : FTy → Type} [FloatOps F] (main_arg0 : FVec F S50000x3 .f32) (main_arg1 : FVec F S50000x16 .f32) (main_arg2 : FVec F S16x64 .f32) (main_arg3 : FVec F S16x64 .f32) (main_arg4 : FVec F S16x64 .f32) (main_arg5 : FVec F S16x64 .f32) (main_arg6 : FVec F S16x64 .f32) (main_arg7 : IVec S500000 32) (main_arg8 : IVec S500000 32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S50000x16 .f32 := Host.absf main_arg1
  let main_cst_0 : FVec F S_ .f32 := constant S_ .f32 0x7F800000#32
  let main_v5 : FVec F S50000x16 .f32 := broadcastInDim S50000x16 ![] bcast_S_S50000x16 main_cst_0
  let main_v6 : IVec S50000x16 1 := cmpf .olt main_v4 main_v5
  let main_c_1 : IVec S_ 1 := constantI S_ 1 1#1
  let main_v7 : IVec S_ 1 := (fun x v => Host.reduce IntOp.andi x v reducesTo_S50000x16_S_d0_1 h_S_) main_v6 main_c_1
  let main_v8 : IVec S_ 1 := andi main_v3 main_v7
  let main_v9 : FVec F S16x64 .f32 := Host.absf main_arg2
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_v14 : FVec F S16x64 .f32 := Host.absf main_arg3
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg0 main_arg4 main_arg5 main_arg6 main_arg7 main_arg8 main_v13 main_v16
-- ==== Kernel.lean ====
abbrev S50000x3 : Shape := ⟨2, ![50000, 3]⟩
abbrev S50000x16 : Shape := ⟨2, ![50000, 16]⟩
abbrev S16x64 : Shape := ⟨2, ![16, 64]⟩
abbrev S500000 : Shape := ⟨1, ![500000]⟩
abbrev S_ : Shape := ⟨0, ![]⟩
abbrev S500000x1 : Shape := ⟨2, ![500000, 1]⟩
abbrev S500000x3 : Shape := ⟨2, ![500000, 3]⟩
abbrev S500000x16 : Shape := ⟨2, ![500000, 16]⟩
abbrev S500000x19 : Shape := ⟨2, ![500000, 19]⟩
abbrev S500000x256 : Shape := ⟨2, ![500000, 256]⟩
abbrev S4000x19 : Shape := ⟨2, ![4000, 19]⟩
abbrev S4000x256 : Shape := ⟨2, ![4000, 256]⟩
abbrev S4000x1 : Shape := ⟨2, ![4000, 1]⟩
abbrev S4000x16 : Shape := ⟨2, ![4000, 16]⟩
abbrev S50000x256 : Shape := ⟨2, ![50000, 256]⟩
abbrev S50000x1024 : Shape := ⟨2, ![50000, 1024]⟩
abbrev S2000x256 : Shape := ⟨2, ![2000, 256]⟩
abbrev S2000x16 : Shape := ⟨2, ![2000, 16]⟩
abbrev S2000x1024 : Shape := ⟨2, ![2000, 1024]⟩
abbrev S2000x64 : Shape := ⟨2, ![2000, 64]⟩

abbrev nBuf : Space → Nat
  | .hbm => 47
  | .vmem => 15
  | .smem => 0
  | _ => 0

abbrev bufTy : (tb : Table) → Fin (tcTables nBuf tb) → BufTy
  | .hbm, ⟨0, _⟩ => ⟨S50000x3, .f32⟩
  | .hbm, ⟨1, _⟩ => ⟨S50000x16, .f32⟩
  | .hbm, ⟨2, _⟩ => ⟨S16x64, .f32⟩
  | .hbm, ⟨3, _⟩ => ⟨S16x64, .f32⟩
  | .hbm, ⟨4, _⟩ => ⟨S16x64, .f32⟩
  | .hbm, ⟨5, _⟩ => ⟨S16x64, .f32⟩
  | .hbm, ⟨6, _⟩ => ⟨S16x64, .f32⟩
  | .hbm, ⟨7, _⟩ => ⟨S500000, .i32⟩
  | .hbm, ⟨8, _⟩ => ⟨S500000, .i32⟩
  | .hbm, ⟨9, _⟩ => ⟨S_, .i32⟩
  | .hbm, ⟨10, _⟩ => ⟨S500000, .i32⟩
  | .hbm, ⟨11, _⟩ => ⟨S500000, .i1⟩
  | .hbm, ⟨12, _⟩ => ⟨S_, .i32⟩
  | .hbm, ⟨13, _⟩ => ⟨S500000, .i32⟩
  | .hbm, ⟨14, _⟩ => ⟨S500000, .i32⟩
  | .hbm, ⟨15, _⟩ => ⟨S500000, .i32⟩
  | .hbm, ⟨16, _⟩ => ⟨S500000x1, .i32⟩
  | .hbm, ⟨17, _⟩ => ⟨S500000x3, .f32⟩
  | .hbm, ⟨18, _⟩ => ⟨S_, .i32⟩
  | .hbm, ⟨19, _⟩ => ⟨S500000, .i32⟩
  | .hbm, ⟨20, _⟩ => ⟨S500000, .i1⟩
  | .hbm, ⟨21, _⟩ => ⟨S_, .i32⟩
  | .hbm, ⟨22, _⟩ => ⟨S500000, .i32⟩
  | .hbm, ⟨23, _⟩ => ⟨S500000, .i32⟩
  | .hbm, ⟨24, _⟩ => ⟨S500000, .i32⟩
  | .hbm, ⟨25, _⟩ => ⟨S500000x1, .i32⟩
  | .hbm, ⟨26, _⟩ => ⟨S500000x3, .f32⟩
  | .hbm, ⟨27, _⟩ => ⟨S500000x3, .f32⟩
  | .hbm, ⟨28, _⟩ => ⟨S_, .i32⟩
  | .hbm, ⟨29, _⟩ => ⟨S500000, .i32⟩
  | .hbm, ⟨30, _⟩ => ⟨S500000, .i1⟩
  | .hbm, ⟨31, _⟩ => ⟨S_, .i32⟩
  | .hbm, ⟨32, _⟩ => ⟨S500000, .i32⟩
  | .hbm, ⟨33, _⟩ => ⟨S500000, .i32⟩
  | .hbm, ⟨34, _⟩ => ⟨S500000, .i32⟩
  | .hbm, ⟨35, _⟩ => ⟨S500000x1, .i32⟩
  | .hbm, ⟨36, _⟩ => ⟨S500000x16, .f32⟩
  | .hbm, ⟨37, _⟩ => ⟨S500000x19, .f32⟩
  | .hbm, ⟨38, _⟩ => ⟨S500000x256, .f32⟩
  | .hbm, ⟨39, _⟩ => ⟨S_, .f32⟩
  | .hbm, ⟨40, _⟩ => ⟨S50000x256, .f32⟩
  | .hbm, ⟨41, _⟩ => ⟨S500000x1, .i32⟩
  | .hbm, ⟨42, _⟩ => ⟨S50000x256, .f32⟩
  | .hbm, ⟨43, _⟩ => ⟨S_, .f32⟩
  | .hbm, ⟨44, _⟩ => ⟨S50000x256, .f32⟩
  | .hbm, ⟨45, _⟩ => ⟨S50000x256, .f32⟩
  | .hbm, ⟨46, _⟩ => ⟨S50000x1024, .f32⟩
  | .local _ .vmem, ⟨0, _⟩ => ⟨S4000x19, .f32⟩
  | .local _ .vmem, ⟨1, _⟩ => ⟨S4000x19, .f32⟩
  | .local _ .vmem, ⟨2, _⟩ => ⟨S4000x256, .f32⟩
  | .local _ .vmem, ⟨3, _⟩ => ⟨S4000x256, .f32⟩
  | .local _ .vmem, ⟨4, _⟩ => ⟨S2000x256, .f32⟩
  | .local _ .vmem, ⟨5, _⟩ => ⟨S2000x256, .f32⟩
  | .local _ .vmem, ⟨6, _⟩ => ⟨S2000x16, .f32⟩
  | .local _ .vmem, ⟨7, _⟩ => ⟨S2000x16, .f32⟩
  | .local _ .vmem, ⟨8, _⟩ => ⟨S16x64, .f32⟩
  | .local _ .vmem, ⟨9, _⟩ => ⟨S16x64, .f32⟩
  | .local _ .vmem, ⟨10, _⟩ => ⟨S16x64, .f32⟩
  | .local _ .vmem, ⟨11, _⟩ => ⟨S16x64, .f32⟩
  | .local _ .vmem, ⟨12, _⟩ => ⟨S16x64, .f32⟩
  | .local _ .vmem, ⟨13, _⟩ => ⟨S2000x1024, .f32⟩
  | .local _ .vmem, ⟨14, _⟩ => ⟨S2000x1024, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_c_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem7_1 : DmaSem sig := 14

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x19 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S16x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x3_S500000x16_S500000x19_d1 : Shape.Concatenates [S500000x3, S500000x16] S500000x19 1
  inb_S4000x19_S4000x1_0_0 : ∀ a, (![0, 0] : Fin 2 → Nat) a + S4000x1.size a ≤ S4000x19.size a
  h_S4000x1 : 0 < S4000x1.numel
  shapeCasts_S4000x1_S4000x1 : S4000x1.ShapeCasts S4000x1
  inb_S4000x19_S4000x1_0_1 : ∀ a, (![0, 1] : Fin 2 → Nat) a + S4000x1.size a ≤ S4000x19.size a
  inb_S4000x19_S4000x1_0_2 : ∀ a, (![0, 2] : Fin 2 → Nat) a + S4000x1.size a ≤ S4000x19.size a
  inb_S4000x19_S4000x16_0_3 : ∀ a, (![0, 3] : Fin 2 → Nat) a + S4000x16.size a ≤ S4000x19.size a
  h_S4000x16 : 0 < S4000x16.numel
  shapeCasts_S4000x16_S4000x16 : S4000x16.ShapeCasts S4000x16
  inb_S4000x256_S4000x16_0_0 : ∀ a, (![0, 0] : Fin 2 → Nat) a + S4000x16.size a ≤ S4000x256.size a
  broadcasts_S4000x1_S4000x16 : S4000x1.Broadcasts S4000x16
  inb_S4000x256_S4000x16_0_16 : ∀ a, (![0, 16] : Fin 2 → Nat) a + S4000x16.size a ≤ S4000x256.size a
  inb_S4000x256_S4000x16_0_32 : ∀ a, (![0, 32] : Fin 2 → Nat) a + S4000x16.size a ≤ S4000x256.size a
  inb_S4000x256_S4000x16_0_48 : ∀ a, (![0, 48] : Fin 2 → Nat) a + S4000x16.size a ≤ S4000x256.size a
  inb_S4000x256_S4000x16_0_64 : ∀ a, (![0, 64] : Fin 2 → Nat) a + S4000x16.size a ≤ S4000x256.size a
  inb_S4000x256_S4000x16_0_80 : ∀ a, (![0, 80] : Fin 2 → Nat) a + S4000x16.size a ≤ S4000x256.size a
  inb_S4000x256_S4000x16_0_96 : ∀ a, (![0, 96] : Fin 2 → Nat) a + S4000x16.size a ≤ S4000x256.size a
  inb_S4000x256_S4000x16_0_112 : ∀ a, (![0, 112] : Fin 2 → Nat) a + S4000x16.size a ≤ S4000x256.size a
  inb_S4000x256_S4000x16_0_128 : ∀ a, (![0, 128] : Fin 2 → Nat) a + S4000x16.size a ≤ S4000x256.size a
  inb_S4000x256_S4000x16_0_144 : ∀ a, (![0, 144] : Fin 2 → Nat) a + S4000x16.size a ≤ S4000x256.size a
  inb_S4000x256_S4000x16_0_160 : ∀ a, (![0, 160] : Fin 2 → Nat) a + S4000x16.size a ≤ S4000x256.size a
  inb_S4000x256_S4000x16_0_176 : ∀ a, (![0, 176] : Fin 2 → Nat) a + S4000x16.size a ≤ S4000x256.size a
  inb_S4000x256_S4000x16_0_192 : ∀ a, (![0, 192] : Fin 2 → Nat) a + S4000x16.size a ≤ S4000x256.size a
  inb_S4000x256_S4000x16_0_208 : ∀ a, (![0, 208] : Fin 2 → Nat) a + S4000x16.size a ≤ S4000x256.size a
  inb_S4000x256_S4000x16_0_224 : ∀ a, (![0, 224] : Fin 2 → Nat) a + S4000x16.size a ≤ S4000x256.size a
  inb_S4000x256_S4000x16_0_240 : ∀ a, (![0, 240] : Fin 2 → Nat) a + S4000x16.size a ≤ S4000x256.size a
  bcast_S_S50000x256 : S_.BroadcastsInDim S50000x256 (![] : Fin 0 → Fin S50000x256.rank)
  inb_S2000x16_S2000x16_0_0 : ∀ a, (![0, 0] : Fin 2 → Nat) a + S2000x16.size a ≤ S2000x16.size a
  h_S2000x16 : 0 < S2000x16.numel
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  inb_S2000x256_S2000x16_0_0 : ∀ a, (![0, 0] : Fin 2 → Nat) a + S2000x16.size a ≤ S2000x256.size a
  shapeCasts_S2000x16_S2000x16 : S2000x16.ShapeCasts S2000x16
  inb_S2000x1024_S2000x64_0_0 : ∀ a, (![0, 0] : Fin 2 → Nat) a + S2000x64.size a ≤ S2000x1024.size a
  h_S2000x64 : 0 < S2000x64.numel
  inb_S2000x256_S2000x16_0_16 : ∀ a, (![0, 16] : Fin 2 → Nat) a + S2000x16.size a ≤ S2000x256.size a
  inb_S2000x1024_S2000x64_0_64 : ∀ a, (![0, 64] : Fin 2 → Nat) a + S2000x64.size a ≤ S2000x1024.size a
  inb_S2000x256_S2000x16_0_32 : ∀ a, (![0, 32] : Fin 2 → Nat) a + S2000x16.size a ≤ S2000x256.size a
  inb_S2000x1024_S2000x64_0_128 : ∀ a, (![0, 128] : Fin 2 → Nat) a + S2000x64.size a ≤ S2000x1024.size a
  inb_S2000x256_S2000x16_0_48 : ∀ a, (![0, 48] : Fin 2 → Nat) a + S2000x16.size a ≤ S2000x256.size a
  inb_S2000x1024_S2000x64_0_192 : ∀ a, (![0, 192] : Fin 2 → Nat) a + S2000x64.size a ≤ S2000x1024.size a
  inb_S2000x256_S2000x16_0_64 : ∀ a, (![0, 64] : Fin 2 → Nat) a + S2000x16.size a ≤ S2000x256.size a
  inb_S2000x1024_S2000x64_0_256 : ∀ a, (![0, 256] : Fin 2 → Nat) a + S2000x64.size a ≤ S2000x1024.size a
  inb_S2000x256_S2000x16_0_80 : ∀ a, (![0, 80] : Fin 2 → Nat) a + S2000x16.size a ≤ S2000x256.size a
  inb_S2000x1024_S2000x64_0_320 : ∀ a, (![0, 320] : Fin 2 → Nat) a + S2000x64.size a ≤ S2000x1024.size a
  inb_S2000x256_S2000x16_0_96 : ∀ a, (![0, 96] : Fin 2 → Nat) a + S2000x16.size a ≤ S2000x256.size a
  inb_S2000x1024_S2000x64_0_384 : ∀ a, (![0, 384] : Fin 2 → Nat) a + S2000x64.size a ≤ S2000x1024.size a
  inb_S2000x256_S2000x16_0_112 : ∀ a, (![0, 112] : Fin 2 → Nat) a + S2000x16.size a ≤ S2000x256.size a
  inb_S2000x1024_S2000x64_0_448 : ∀ a, (![0, 448] : Fin 2 → Nat) a + S2000x64.size a ≤ S2000x1024.size a
  inb_S2000x256_S2000x16_0_128 : ∀ a, (![0, 128] : Fin 2 → Nat) a + S2000x16.size a ≤ S2000x256.size a
  inb_S2000x1024_S2000x64_0_512 : ∀ a, (![0, 512] : Fin 2 → Nat) a + S2000x64.size a ≤ S2000x1024.size a
  inb_S2000x256_S2000x16_0_144 : ∀ a, (![0, 144] : Fin 2 → Nat) a + S2000x16.size a ≤ S2000x256.size a
  inb_S2000x1024_S2000x64_0_576 : ∀ a, (![0, 576] : Fin 2 → Nat) a + S2000x64.size a ≤ S2000x1024.size a
  inb_S2000x256_S2000x16_0_160 : ∀ a, (![0, 160] : Fin 2 → Nat) a + S2000x16.size a ≤ S2000x256.size a
  inb_S2000x1024_S2000x64_0_640 : ∀ a, (![0, 640] : Fin 2 → Nat) a + S2000x64.size a ≤ S2000x1024.size a
  inb_S2000x256_S2000x16_0_176 : ∀ a, (![0, 176] : Fin 2 → Nat) a + S2000x16.size a ≤ S2000x256.size a
  inb_S2000x1024_S2000x64_0_704 : ∀ a, (![0, 704] : Fin 2 → Nat) a + S2000x64.size a ≤ S2000x1024.size a
  inb_S2000x256_S2000x16_0_192 : ∀ a, (![0, 192] : Fin 2 → Nat) a + S2000x16.size a ≤ S2000x256.size a
  inb_S2000x1024_S2000x64_0_768 : ∀ a, (![0, 768] : Fin 2 → Nat) a + S2000x64.size a ≤ S2000x1024.size a
  inb_S2000x256_S2000x16_0_208 : ∀ a, (![0, 208] : Fin 2 → Nat) a + S2000x16.size a ≤ S2000x256.size a
  inb_S2000x1024_S2000x64_0_832 : ∀ a, (![0, 832] : Fin 2 → Nat) a + S2000x64.size a ≤ S2000x1024.size a
  inb_S2000x256_S2000x16_0_224 : ∀ a, (![0, 224] : Fin 2 → Nat) a + S2000x16.size a ≤ S2000x256.size a
  inb_S2000x1024_S2000x64_0_896 : ∀ a, (![0, 896] : Fin 2 → Nat) a + S2000x64.size a ≤ S2000x1024.size a
  inb_S2000x256_S2000x16_0_240 : ∀ a, (![0, 240] : Fin 2 → Nat) a + S2000x16.size a ≤ S2000x256.size a
  inb_S2000x1024_S2000x64_0_960 : ∀ a, (![0, 960] : Fin 2 → Nat) a + S2000x64.size a ≤ S2000x1024.size a
  gather_S50000x3_S500000x1_S500000x3_1_0_n_n_0_1_13_wf : GatherDims.WF S50000x3 S500000x1 S500000x3 [1] [0] [] [0] [] 1 ![1, 3]
  gather_S50000x16_S500000x1_S500000x16_1_0_n_n_0_1_116_wf : GatherDims.WF S50000x16 S500000x1 S500000x16 [1] [0] [] [0] [] 1 ![1, 16]
  scatter_S50000x256_S500000x1_S500000x256_1_0_0_1_wf : ScatterDims.WF S50000x256 S500000x1 S500000x256 [1] [0] [0] 1
  dot_S2000x16_S16x64_S2000x64_1_0_0_1_n_n_wf : DotDims.WF S2000x16 S16x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x19.size a ≤ S500000x19.size a
  hwx0_0 : ∀ i : grid0.Coords, EltTy.bits .f32 = 32 ∨ (Rect.block (s := S500000x19) S4000x19.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x256.size a ≤ S500000x256.size a
  hwx0_1 : ∀ i : grid0.Coords, EltTy.bits .f32 = 32 ∨ (Rect.block (s := S500000x256) S4000x256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x16.size a ≤ S50000x16.size a
  hwx1_1 : ∀ i : grid1.Coords, EltTy.bits .f32 = 32 ∨ (Rect.block (s := S50000x16) S2000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x64.size a ≤ S16x64.size a
  hwx1_2 : ∀ i : grid1.Coords, EltTy.bits .f32 = 32 ∨ (Rect.block (s := S16x64) S16x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x64.size a ≤ S16x64.size a
  hwx1_3 : ∀ i : grid1.Coords, EltTy.bits .f32 = 32 ∨ (Rect.block (s := S16x64) S16x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x64.size a ≤ S16x64.size a
  hwx1_4 : ∀ i : grid1.Coords, EltTy.bits .f32 = 32 ∨ (Rect.block (s := S16x64) S16x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x64.size a ≤ S16x64.size a
  hwx1_5 : ∀ i : grid1.Coords, EltTy.bits .f32 = 32 ∨ (Rect.block (s := S16x64) S16x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S16x64.size a ≤ S16x64.size a
  hwx1_6 : ∀ i : grid1.Coords, EltTy.bits .f32 = 32 ∨ (Rect.block (s := S16x64) S16x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x1024.size a ≤ S50000x1024.size a
  hwx1_7 : ∀ i : grid1.Coords, EltTy.bits .f32 = 32 ∨ (Rect.block (s := S50000x1024) S2000x1024.size (cc1_transform_7 i) (hinb1_7 i)).WholeWords (EltTy.packing .f32)

variable [Facts₀]

def gather_S50000x3_S500000x1_S500000x3_1_0_n_n_0_1_13 : GatherDims S50000x3 S500000x1 S500000x3 where
  offsetDims := [1]
  collapsedSliceDims := [0]
  operandBatchingDims := []
  startIndicesBatchingDims := []
  startIndexMap := [0]
  indexVectorDim := 1
  sliceSizes := ![1, 3]
  wf := gather_S50000x3_S500000x1_S500000x3_1_0_n_n_0_1_13_wf
def gather_S50000x16_S500000x1_S500000x16_1_0_n_n_0_1_116 : GatherDims S50000x16 S500000x1 S500000x16 where
  offsetDims := [1]
  collapsedSliceDims := [0]
  operandBatchingDims := []
  startIndicesBatchingDims := []
  startIndexMap := [0]
  indexVectorDim := 1
  sliceSizes := ![1, 16]
  wf := gather_S50000x16_S500000x1_S500000x16_1_0_n_n_0_1_116_wf
def scatter_S50000x256_S500000x1_S500000x256_1_0_0_1 : ScatterDims S50000x256 S500000x1 S500000x256 where
  updateWindowDims := [1]
  insertedWindowDims := [0]
  scatterDimsToOperandDims := [0]
  indexVectorDim := 1
  wf := scatter_S50000x256_S500000x1_S500000x256_1_0_0_1_wf
def dot_S2000x16_S16x64_S2000x64_1_0_0_1_n_n : DotDims S2000x16 S16x64 S2000x64 where
  lhsContracting := [1]
  rhsContracting := [0]
  lhsNonContracting := [0]
  rhsNonContracting := [1]
  lhsBatch := []
  rhsBatch := []
  wf := dot_S2000x16_S16x64_S2000x64_1_0_0_1_n_n_wf

abbrev win0_0 : Pipeline.Window sig grid0 :=
  Pipeline.Window.ofSpec (Memref.whole main_v22) S4000x19.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S4000x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v28) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S16x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S16x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S16x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S16x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg6) S16x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v29) S2000x1024.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x3 : Shape := ⟨2, ![50000, 3]⟩
abbrev S50000x16 : Shape := ⟨2, ![50000, 16]⟩
abbrev S16x64 : Shape := ⟨2, ![16, 64]⟩
abbrev S500000 : Shape := ⟨1, ![500000]⟩
abbrev S_ : Shape := ⟨0, ![]⟩
abbrev S500000x1 : Shape := ⟨2, ![500000, 1]⟩
abbrev S500000x3 : Shape := ⟨2, ![500000, 3]⟩
abbrev S500000x5 : Shape := ⟨2, ![500000, 5]⟩
abbrev S500000x7 : Shape := ⟨2, ![500000, 7]⟩
abbrev S500000x15 : Shape := ⟨2, ![500000, 15]⟩
abbrev S500000x16 : Shape := ⟨2, ![500000, 16]⟩
abbrev S500000x15x1 : Shape := ⟨3, ![500000, 15, 1]⟩
abbrev S500000x1x16 : Shape := ⟨3, ![500000, 1, 16]⟩
abbrev S500000x15x16 : Shape := ⟨3, ![500000, 15, 16]⟩
abbrev S500000x16x16 : Shape := ⟨3, ![500000, 16, 16]⟩
abbrev S50000x16x16 : Shape := ⟨3, ![50000, 16, 16]⟩
abbrev S50000x1x16 : Shape := ⟨3, ![50000, 1, 16]⟩
abbrev S50000x1x64 : Shape := ⟨3, ![50000, 1, 64]⟩
abbrev S50000x3x16 : Shape := ⟨3, ![50000, 3, 16]⟩
abbrev S50000x3x64 : Shape := ⟨3, ![50000, 3, 64]⟩
abbrev S50000x5x16 : Shape := ⟨3, ![50000, 5, 16]⟩
abbrev S50000x5x64 : Shape := ⟨3, ![50000, 5, 64]⟩
abbrev S50000x7x16 : Shape := ⟨3, ![50000, 7, 16]⟩
abbrev S50000x7x64 : Shape := ⟨3, ![50000, 7, 64]⟩
abbrev S50000x64 : Shape := ⟨2, ![50000, 64]⟩
abbrev S50000x192 : Shape := ⟨2, ![50000, 192]⟩
abbrev S50000x320 : Shape := ⟨2, ![50000, 320]⟩
abbrev S50000x448 : Shape := ⟨2, ![50000, 448]⟩
abbrev S50000x1024 : Shape := ⟨2, ![50000, 1024]⟩

abbrev nBuf : Space → Nat
  | .hbm => 200
  | .vmem => 0
  | .smem => 0
  | _ => 0

abbrev hbmTy0_0 (i : Nat) : BufTy := match i % 128 with
  | 0 => ⟨S50000x3, .f32⟩
  | 1 => ⟨S50000x16, .f32⟩
  | 2 => ⟨S16x64, .f32⟩
  | 3 => ⟨S16x64, .f32⟩
  | 4 => ⟨S16x64, .f32⟩
  | 5 => ⟨S16x64, .f32⟩
  | 6 => ⟨S16x64, .f32⟩
  | 7 => ⟨S500000, .i32⟩
  | 8 => ⟨S500000, .i32⟩
  | 9 => ⟨S_, .i32⟩
  | 10 => ⟨S500000, .i32⟩
  | 11 => ⟨S500000, .i1⟩
  | 12 => ⟨S_, .i32⟩
  | 13 => ⟨S500000, .i32⟩
  | 14 => ⟨S500000, .i32⟩
  | 15 => ⟨S500000, .i32⟩
  | 16 => ⟨S500000x1, .i32⟩
  | 17 => ⟨S500000x3, .f32⟩
  | 18 => ⟨S_, .i32⟩
  | 19 => ⟨S500000, .i32⟩
  | 20 => ⟨S500000, .i1⟩
  | 21 => ⟨S_, .i32⟩
  | 22 => ⟨S500000, .i32⟩
  | 23 => ⟨S500000, .i32⟩
  | 24 => ⟨S500000, .i32⟩
  | 25 => ⟨S500000x1, .i32⟩
  | 26 => ⟨S500000x3, .f32⟩
  | 27 => ⟨S500000x3, .f32⟩
  | 28 => ⟨S500000x3, .f32⟩
  | 29 => ⟨S_, .f32⟩
  | 30 => ⟨S500000, .f32⟩
  | 31 => ⟨S500000x1, .f32⟩
  | 32 => ⟨S500000x1, .f32⟩
  | 33 => ⟨S500000x3, .f32⟩
  | 34 => ⟨S500000x3, .f32⟩
  | 35 => ⟨S500000x1, .f32⟩
  | 36 => ⟨S500000, .f32⟩
  | 37 => ⟨S500000x1, .f32⟩
  | 38 => ⟨S500000, .f32⟩
  | 39 => ⟨S500000x1, .f32⟩
  | 40 => ⟨S500000, .f32⟩
  | 41 => ⟨S500000, .f32⟩
  | 42 => ⟨S500000, .f32⟩
  | 43 => ⟨S500000, .f32⟩
  | 44 => ⟨S500000x1, .f32⟩
  | 45 => ⟨S500000x1, .f32⟩
  | 46 => ⟨S500000x1, .f32⟩
  | 47 => ⟨S500000x3, .f32⟩
  | 48 => ⟨S_, .f32⟩
  | 49 => ⟨S500000x3, .f32⟩
  | 50 => ⟨S500000x3, .f32⟩
  | 51 => ⟨S_, .f32⟩
  | 52 => ⟨S500000, .f32⟩
  | 53 => ⟨S500000, .f32⟩
  | 54 => ⟨S500000, .f32⟩
  | 55 => ⟨S_, .f32⟩
  | 56 => ⟨S500000, .f32⟩
  | 57 => ⟨S500000, .f32⟩
  | 58 => ⟨S500000, .f32⟩
  | 59 => ⟨S500000, .f32⟩
  | 60 => ⟨S_, .f32⟩
  | 61 => ⟨S500000, .f32⟩
  | 62 => ⟨S500000, .f32⟩
  | 63 => ⟨S500000, .f32⟩
  | 64 => ⟨S_, .f32⟩
  | 65 => ⟨S500000, .f32⟩
  | 66 => ⟨S500000, .f32⟩
  | 67 => ⟨S500000, .f32⟩
  | 68 => ⟨S500000, .f32⟩
  | 69 => ⟨S_, .f32⟩
  | 70 => ⟨S500000, .f32⟩
  | 71 => ⟨S500000, .f32⟩
  | 72 => ⟨S500000x1, .f32⟩
  | 73 => ⟨S500000x1, .f32⟩
  | 74 => ⟨S500000x1, .f32⟩
  | 75 => ⟨S500000x1, .f32⟩
  | 76 => ⟨S500000x1, .f32⟩
  | 77 => ⟨S500000x5, .f32⟩
  | 78 => ⟨S_, .f32⟩
  | 79 => ⟨S500000x5, .f32⟩
  | 80 => ⟨S500000x5, .f32⟩
  | 81 => ⟨S500000, .f32⟩
  | 82 => ⟨S500000, .f32⟩
  | 83 => ⟨S500000, .f32⟩
  | 84 => ⟨S_, .f32⟩
  | 85 => ⟨S500000, .f32⟩
  | 86 => ⟨S500000, .f32⟩
  | 87 => ⟨S_, .f32⟩
  | 88 => ⟨S500000, .f32⟩
  | 89 => ⟨S500000, .f32⟩
  | 90 => ⟨S500000, .f32⟩
  | 91 => ⟨S_, .f32⟩
  | 92 => ⟨S500000, .f32⟩
  | 93 => ⟨S500000, .f32⟩
  | 94 => ⟨S500000, .f32⟩
  | 95 => ⟨S500000, .f32⟩
  | 96 => ⟨S_, .f32⟩
  | 97 => ⟨S500000, .f32⟩
  | 98 => ⟨S500000, .f32⟩
  | 99 => ⟨S500000, .f32⟩
  | 100 => ⟨S_, .f32⟩
  | 101 => ⟨S500000, .f32⟩
  | 102 => ⟨S500000, .f32⟩
  | 103 => ⟨S_, .f32⟩
  | 104 => ⟨S500000, .f32⟩
  | 105 => ⟨S500000, .f32⟩
  | 106 => ⟨S_, .f32⟩
  | 107 => ⟨S500000, .f32⟩
  | 108 => ⟨S500000, .f32⟩
  | 109 => ⟨S500000, .f32⟩
  | 110 => ⟨S_, .f32⟩
  | 111 => ⟨S500000, .f32⟩
  | 112 => ⟨S500000, .f32⟩
  | 113 => ⟨S500000, .f32⟩
  | 114 => ⟨S500000, .f32⟩
  | 115 => ⟨S_, .f32⟩
  | 116 => ⟨S500000, .f32⟩
  | 117 => ⟨S500000, .f32⟩
  | 118 => ⟨S_, .f32⟩
  | 119 => ⟨S500000, .f32⟩
  | 120 => ⟨S500000, .f32⟩
  | 121 => ⟨S500000, .f32⟩
  | 122 => ⟨S500000, .f32⟩
  | 123 => ⟨S500000, .f32⟩
  | 124 => ⟨S_, .f32⟩
  | 125 => ⟨S500000, .f32⟩
  | 126 => ⟨S500000, .f32⟩
  | 127 => ⟨S500000, .f32⟩
  | _ => ⟨S50000x3, .f32⟩

abbrev hbmTy0_1 (i : Nat) : BufTy := match i % 128 with
  | 0 => ⟨S500000, .f32⟩
  | 1 => ⟨S500000, .f32⟩
  | 2 => ⟨S500000, .f32⟩
  | 3 => ⟨S_, .f32⟩
  | 4 => ⟨S500000, .f32⟩
  | 5 => ⟨S500000, .f32⟩
  | 6 => ⟨S500000x1, .f32⟩
  | 7 => ⟨S500000x1, .f32⟩
  | 8 => ⟨S500000x1, .f32⟩
  | 9 => ⟨S500000x1, .f32⟩
  | 10 => ⟨S500000x1, .f32⟩
  | 11 => ⟨S500000x1, .f32⟩
  | 12 => ⟨S500000x1, .f32⟩
  | 13 => ⟨S500000x7, .f32⟩
  | 14 => ⟨S_, .f32⟩
  | 15 => ⟨S500000x7, .f32⟩
  | 16 => ⟨S500000x7, .f32⟩
  | 17 => ⟨S500000x15, .f32⟩
  | 18 => ⟨S_, .i32⟩
  | 19 => ⟨S500000, .i32⟩
  | 20 => ⟨S500000, .i1⟩
  | 21 => ⟨S_, .i32⟩
  | 22 => ⟨S500000, .i32⟩
  | 23 => ⟨S500000, .i32⟩
  | 24 => ⟨S500000, .i32⟩
  | 25 => ⟨S500000x1, .i32⟩
  | 26 => ⟨S500000x16, .f32⟩
  | 27 => ⟨S500000x15x1, .f32⟩
  | 28 => ⟨S500000x1x16, .f32⟩
  | 29 => ⟨S500000x15x16, .f32⟩
  | 30 => ⟨S500000x15x16, .f32⟩
  | 31 => ⟨S500000x15x16, .f32⟩
  | 32 => ⟨S500000x1x16, .f32⟩
  | 33 => ⟨S500000x16x16, .f32⟩
  | 34 => ⟨S_, .f32⟩
  | 35 => ⟨S50000x16x16, .f32⟩
  | 36 => ⟨S500000x1, .i32⟩
  | 37 => ⟨S50000x16x16, .f32⟩
  | 38 => ⟨S_, .f32⟩
  | 39 => ⟨S50000x16x16, .f32⟩
  | 40 => ⟨S50000x16x16, .f32⟩
  | 41 => ⟨S50000x1x16, .f32⟩
  | 42 => ⟨S50000x1x64, .f32⟩
  | 43 => ⟨S_, .f32⟩
  | 44 => ⟨S50000x1x64, .f32⟩
  | 45 => ⟨S50000x1x64, .f32⟩
  | 46 => ⟨S50000x3x16, .f32⟩
  | 47 => ⟨S50000x3x64, .f32⟩
  | 48 => ⟨S_, .f32⟩
  | 49 => ⟨S50000x3x64, .f32⟩
  | 50 => ⟨S50000x3x64, .f32⟩
  | 51 => ⟨S50000x5x16, .f32⟩
  | 52 => ⟨S50000x5x64, .f32⟩
  | 53 => ⟨S_, .f32⟩
  | 54 => ⟨S50000x5x64, .f32⟩
  | 55 => ⟨S50000x5x64, .f32⟩
  | 56 => ⟨S50000x7x16, .f32⟩
  | 57 => ⟨S50000x7x64, .f32⟩
  | 58 => ⟨S_, .f32⟩
  | 59 => ⟨S50000x7x64, .f32⟩
  | 60 => ⟨S50000x7x64, .f32⟩
  | 61 => ⟨S50000x64, .f32⟩
  | 62 => ⟨S50000x1x64, .f32⟩
  | 63 => ⟨S_, .f32⟩
  | 64 => ⟨S50000x1x64, .f32⟩
  | 65 => ⟨S50000x1x64, .f32⟩
  | 66 => ⟨S50000x1x64, .f32⟩
  | 67 => ⟨S50000x64, .f32⟩
  | 68 => ⟨S50000x192, .f32⟩
  | 69 => ⟨S50000x320, .f32⟩
  | 70 => ⟨S50000x448, .f32⟩
  | 71 => ⟨S50000x1024, .f32⟩
  | _ => ⟨S50000x3, .f32⟩

abbrev hbmTy (i : Nat) : BufTy := match i / 128 with
  | 0 => hbmTy0_0 i
  | 1 => hbmTy0_1 i
  | _ => ⟨S50000x3, .f32⟩

abbrev bufTy : (tb : Table) → Fin (tcTables nBuf tb) → BufTy
  | .hbm, ⟨i, _⟩ => hbmTy i
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_call0_v0 : Ref sig .tc := ⟨.hbm, 28, rfl⟩
abbrev main_call0_cst : Ref sig .tc := ⟨.hbm, 29, rfl⟩
abbrev main_call0_v1 : Ref sig .tc := ⟨.hbm, 30, rfl⟩
abbrev main_call0_v2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_4 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_6 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_7 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_8 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_9 : Ref sig .tc := ⟨.hbm, 84, rfl⟩
abbrev main_v60 : Ref sig .tc := ⟨.hbm, 85, rfl⟩
abbrev main_v61 : Ref sig .tc := ⟨.hbm, 86, rfl⟩
abbrev main_cst_10 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_11 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_12 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_13 : Ref sig .tc := ⟨.hbm, 100, rfl⟩
abbrev main_v72 : Ref sig .tc := ⟨.hbm, 101, rfl⟩
abbrev main_v73 : Ref sig .tc := ⟨.hbm, 102, rfl⟩
abbrev main_cst_14 : Ref sig .tc := ⟨.hbm, 103, rfl⟩
abbrev main_v74 : Ref sig .tc := ⟨.hbm, 104, rfl⟩
abbrev main_v75 : Ref sig .tc := ⟨.hbm, 105, rfl⟩
abbrev main_cst_15 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_16 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_17 : Ref sig .tc := ⟨.hbm, 115, rfl⟩
abbrev main_v83 : Ref sig .tc := ⟨.hbm, 116, rfl⟩
abbrev main_v84 : Ref sig .tc := ⟨.hbm, 117, rfl⟩
abbrev main_cst_18 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_19 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_20 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_cst_21 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_c_22 : Ref sig .tc := ⟨.hbm, 146, rfl⟩
abbrev main_v109 : Ref sig .tc := ⟨.hbm, 147, rfl⟩
abbrev main_v110 : Ref sig .tc := ⟨.hbm, 148, rfl⟩
abbrev main_c_23 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_cst_24 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_cst_25 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_cst_26 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_cst_27 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_cst_28 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_cst_29 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_cst_30 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  reducesTo_S500000x3_S500000_d1 : S500000x3.ReducesTo [1] S500000
  h_S_ : 0 < S_.numel
  bcast_S500000x1_S500000x3_0_1 : S500000x1.BroadcastsInDim S500000x3 (![0, 1] : Fin 2 → Fin S500000x3.rank)
  slices_S500000x3_S500000x1_0_0 : S500000x3.Slices ![0, 0] S500000x1
  shapeCasts_S500000x1_S500000 : S500000x1.ShapeCasts S500000
  slices_S500000x3_S500000x1_0_1 : S500000x3.Slices ![0, 1] S500000x1
  slices_S500000x3_S500000x1_0_2 : S500000x3.Slices ![0, 2] S500000x1
  concatenates_S500000x1_S500000x1_S500000x1_S500000x3_d1 : Shape.Concatenates [S500000x1, S500000x1, S500000x1] S500000x3 1
  bcast_S_S500000x3 : S_.BroadcastsInDim S500000x3 (![] : Fin 0 → Fin S500000x3.rank)
  concatenates_S500000x1_S500000x1_S500000x1_S500000x1_S500000x1_S500000x5_d1 : Shape.Concatenates [S500000x1, S500000x1, S500000x1, S500000x1, S500000x1] S500000x5 1
  bcast_S_S500000x5 : S_.BroadcastsInDim S500000x5 (![] : Fin 0 → Fin S500000x5.rank)
  concatenates_S500000x1_S500000x1_S500000x1_S500000x1_S500000x1_S500000x1_S500000x1_S500000x7_d1 : Shape.Concatenates [S500000x1, S500000x1, S500000x1, S500000x1, S500000x1, S500000x1, S500000x1] S500000x7 1
  bcast_S_S500000x7 : S_.BroadcastsInDim S500000x7 (![] : Fin 0 → Fin S500000x7.rank)
  concatenates_S500000x3_S500000x5_S500000x7_S500000x15_d1 : Shape.Concatenates [S500000x3, S500000x5, S500000x7] S500000x15 1
  bcast_S500000x15_S500000x15x1_0_1 : S500000x15.BroadcastsInDim S500000x15x1 (![0, 1] : Fin 2 → Fin S500000x15x1.rank)
  bcast_S500000x16_S500000x1x16_0_2 : S500000x16.BroadcastsInDim S500000x1x16 (![0, 2] : Fin 2 → Fin S500000x1x16.rank)
  bcast_S500000x15x1_S500000x15x16_0_1_2 : S500000x15x1.BroadcastsInDim S500000x15x16 (![0, 1, 2] : Fin 3 → Fin S500000x15x16.rank)
  bcast_S500000x1x16_S500000x15x16_0_1_2 : S500000x1x16.BroadcastsInDim S500000x15x16 (![0, 1, 2] : Fin 3 → Fin S500000x15x16.rank)
  concatenates_S500000x1x16_S500000x15x16_S500000x16x16_d1 : Shape.Concatenates [S500000x1x16, S500000x15x16] S500000x16x16 1
  bcast_S_S50000x16x16 : S_.BroadcastsInDim S50000x16x16 (![] : Fin 0 → Fin S50000x16x16.rank)
  slices_S50000x16x16_S50000x1x16_0_0_0 : S50000x16x16.Slices ![0, 0, 0] S50000x1x16
  bcast_S_S50000x1x64 : S_.BroadcastsInDim S50000x1x64 (![] : Fin 0 → Fin S50000x1x64.rank)
  slices_S50000x16x16_S50000x3x16_0_1_0 : S50000x16x16.Slices ![0, 1, 0] S50000x3x16
  bcast_S_S50000x3x64 : S_.BroadcastsInDim S50000x3x64 (![] : Fin 0 → Fin S50000x3x64.rank)
  slices_S50000x16x16_S50000x5x16_0_4_0 : S50000x16x16.Slices ![0, 4, 0] S50000x5x16
  bcast_S_S50000x5x64 : S_.BroadcastsInDim S50000x5x64 (![] : Fin 0 → Fin S50000x5x64.rank)
  slices_S50000x16x16_S50000x7x16_0_9_0 : S50000x16x16.Slices ![0, 9, 0] S50000x7x16
  bcast_S_S50000x7x64 : S_.BroadcastsInDim S50000x7x64 (![] : Fin 0 → Fin S50000x7x64.rank)
  bcast_S50000x64_S50000x1x64_0_2 : S50000x64.BroadcastsInDim S50000x1x64 (![0, 2] : Fin 2 → Fin S50000x1x64.rank)
  shapeCasts_S50000x1x64_S50000x64 : S50000x1x64.ShapeCasts S50000x64
  shapeCasts_S50000x3x64_S50000x192 : S50000x3x64.ShapeCasts S50000x192
  shapeCasts_S50000x5x64_S50000x320 : S50000x5x64.ShapeCasts S50000x320
  shapeCasts_S50000x7x64_S50000x448 : S50000x7x64.ShapeCasts S50000x448
  concatenates_S50000x64_S50000x192_S50000x320_S50000x448_S50000x1024_d1 : Shape.Concatenates [S50000x64, S50000x192, S50000x320, S50000x448] S50000x1024 1
  gather_S50000x3_S500000x1_S500000x3_1_0_n_n_0_1_13_wf : GatherDims.WF S50000x3 S500000x1 S500000x3 [1] [0] [] [0] [] 1 ![1, 3]
  gather_S50000x16_S500000x1_S500000x16_1_0_n_n_0_1_116_wf : GatherDims.WF S50000x16 S500000x1 S500000x16 [1] [0] [] [0] [] 1 ![1, 16]
  scatter_S50000x16x16_S500000x1_S500000x16x16_12_0_0_1_wf : ScatterDims.WF S50000x16x16 S500000x1 S500000x16x16 [1, 2] [0] [0] 1
  dot_S50000x1x16_S16x64_S50000x1x64_2_0_01_1_n_n_wf : DotDims.WF S50000x1x16 S16x64 S50000x1x64 [2] [0] [0, 1] [1] [] []
  dot_S50000x3x16_S16x64_S50000x3x64_2_0_01_1_n_n_wf : DotDims.WF S50000x3x16 S16x64 S50000x3x64 [2] [0] [0, 1] [1] [] []
  dot_S50000x5x16_S16x64_S50000x5x64_2_0_01_1_n_n_wf : DotDims.WF S50000x5x16 S16x64 S50000x5x64 [2] [0] [0, 1] [1] [] []
  dot_S50000x7x16_S16x64_S50000x7x64_2_0_01_1_n_n_wf : DotDims.WF S50000x7x16 S16x64 S50000x7x64 [2] [0] [0, 1] [1] [] []
  dot_S50000x16_S16x64_S50000x64_1_0_0_1_n_n_wf : DotDims.WF S50000x16 S16x64 S50000x64 [1] [0] [0] [1] [] []

variable [Facts₀]

def gather_S50000x3_S500000x1_S500000x3_1_0_n_n_0_1_13 : GatherDims S50000x3 S500000x1 S500000x3 where
  offsetDims := [1]
  collapsedSliceDims := [0]
  operandBatchingDims := []
  startIndicesBatchingDims := []
  startIndexMap := [0]
  indexVectorDim := 1
  sliceSizes := ![1, 3]
  wf := gather_S50000x3_S500000x1_S500000x3_1_0_n_n_0_1_13_wf
def gather_S50000x16_S500000x1_S500000x16_1_0_n_n_0_1_116 : GatherDims S50000x16 S500000x1 S500000x16 where
  offsetDims := [1]
  collapsedSliceDims := [0]
  operandBatchingDims := []
  startIndicesBatchingDims := []
  startIndexMap := [0]
  indexVectorDim := 1
  sliceSizes := ![1, 16]
  wf := gather_S50000x16_S500000x1_S500000x16_1_0_n_n_0_1_116_wf
def scatter_S50000x16x16_S500000x1_S500000x16x16_12_0_0_1 : ScatterDims S50000x16x16 S500000x1 S500000x16x16 where
  updateWindowDims := [1, 2]
  insertedWindowDims := [0]
  scatterDimsToOperandDims := [0]
  indexVectorDim := 1
  wf := scatter_S50000x16x16_S500000x1_S500000x16x16_12_0_0_1_wf
def dot_S50000x1x16_S16x64_S50000x1x64_2_0_01_1_n_n : DotDims S50000x1x16 S16x64 S50000x1x64 where
  lhsContracting := [2]
  rhsContracting := [0]
  lhsNonContracting := [0, 1]
  rhsNonContracting := [1]
  lhsBatch := []
  rhsBatch := []
  wf := dot_S50000x1x16_S16x64_S50000x1x64_2_0_01_1_n_n_wf
def dot_S50000x3x16_S16x64_S50000x3x64_2_0_01_1_n_n : DotDims S50000x3x16 S16x64 S50000x3x64 where
  lhsContracting := [2]
  rhsContracting := [0]
  lhsNonContracting := [0, 1]
  rhsNonContracting := [1]
  lhsBatch := []
  rhsBatch := []
  wf := dot_S50000x3x16_S16x64_S50000x3x64_2_0_01_1_n_n_wf
def dot_S50000x5x16_S16x64_S50000x5x64_2_0_01_1_n_n : DotDims S50000x5x16 S16x64 S50000x5x64 where
  lhsContracting := [2]
  rhsContracting := [0]
  lhsNonContracting := [0, 1]
  rhsNonContracting := [1]
  lhsBatch := []
  rhsBatch := []
  wf := dot_S50000x5x16_S16x64_S50000x5x64_2_0_01_1_n_n_wf
def dot_S50000x7x16_S16x64_S50000x7x64_2_0_01_1_n_n : DotDims S50000x7x16 S16x64 S50000x7x64 where
  lhsContracting := [2]
  rhsContracting := [0]
  lhsNonContracting := [0, 1]
  rhsNonContracting := [1]
  lhsBatch := []
  rhsBatch := []
  wf := dot_S50000x7x16_S16x64_S50000x7x64_2_0_01_1_n_n_wf
def dot_S50000x16_S16x64_S50000x64_1_0_0_1_n_n : DotDims S50000x16 S16x64 S50000x64 where
  lhsContracting := [1]
  rhsContracting := [0]
  lhsNonContracting := [0]
  rhsNonContracting := [1]
  lhsBatch := []
  rhsBatch := []
  wf := dot_S50000x16_S16x64_S50000x64_1_0_0_1_n_n_wf

class Facts : Prop extends Facts₀ where

variable [Facts]
-- ==== Proof.Cat.lean ====
/-
  A concatenation of n arrays written with the arrays as plain arguments: the list form `concatenate t a [⟨s₁, x₁⟩, …] h`
  carries a side condition on the list's shapes after the list, which keeps a rewriting pass out of the pieces; the
  wrapped form is the same function, and its pieces can be rewritten one by one.
-/
import Idealize.ShloMosaic.PureOps

noncomputable section

namespace Cert.Cat

open Idealize.ShloMosaic

variable {α : Type}

/-- The concatenation of 2 pieces, the pieces as plain arguments. -/
def cat2 (t : Shape) (a : Fin t.rank) (s1 s2 : Shape) (h : Shape.Concatenates [s1, s2] t a) (x1 : s1.Idx → α) (x2 : s2.Idx → α) : t.Idx → α :=
  concatenate t a [⟨s1, x1⟩, ⟨s2, x2⟩] h
theorem cat2_intro (t : Shape) (a : Fin t.rank) (s1 s2 : Shape) (h : Shape.Concatenates [s1, s2] t a) (x1 : s1.Idx → α) (x2 : s2.Idx → α) :
    concatenate t a [⟨s1, x1⟩, ⟨s2, x2⟩] h = cat2 t a s1 s2 h x1 x2 := rfl

/-- The concatenation of 3 pieces, the pieces as plain arguments. -/
def cat3 (t : Shape) (a : Fin t.rank) (s1 s2 s3 : Shape) (h : Shape.Concatenates [s1, s2, s3] t a) (x1 : s1.Idx → α) (x2 : s2.Idx → α) (x3 : s3.Idx → α) : t.Idx → α :=
  concatenate t a [⟨s1, x1⟩, ⟨s2, x2⟩, ⟨s3, x3⟩] h
theorem cat3_intro (t : Shape) (a : Fin t.rank) (s1 s2 s3 : Shape) (h : Shape.Concatenates [s1, s2, s3] t a) (x1 : s1.Idx → α) (x2 : s2.Idx → α) (x3 : s3.Idx → α) :
    concatenate t a [⟨s1, x1⟩, ⟨s2, x2⟩, ⟨s3, x3⟩] h = cat3 t a s1 s2 s3 h x1 x2 x3 := rfl

/-- The concatenation of 4 pieces, the pieces as plain arguments. -/
def cat4 (t : Shape) (a : Fin t.rank) (s1 s2 s3 s4 : Shape) (h : Shape.Concatenates [s1, s2, s3, s4] t a) (x1 : s1.Idx → α) (x2 : s2.Idx → α) (x3 : s3.Idx → α) (x4 : s4.Idx → α) : t.Idx → α :=
  concatenate t a [⟨s1, x1⟩, ⟨s2, x2⟩, ⟨s3, x3⟩, ⟨s4, x4⟩] h
theorem cat4_intro (t : Shape) (a : Fin t.rank) (s1 s2 s3 s4 : Shape) (h : Shape.Concatenates [s1, s2, s3, s4] t a) (x1 : s1.Idx → α) (x2 : s2.Idx → α) (x3 : s3.Idx → α) (x4 : s4.Idx → α) :
    concatenate t a [⟨s1, x1⟩, ⟨s2, x2⟩, ⟨s3, x3⟩, ⟨s4, x4⟩] h = cat4 t a s1 s2 s3 s4 h x1 x2 x3 x4 := rfl

/-- The concatenation of 5 pieces, the pieces as plain arguments. -/
def cat5 (t : Shape) (a : Fin t.rank) (s1 s2 s3 s4 s5 : Shape) (h : Shape.Concatenates [s1, s2, s3, s4, s5] t a) (x1 : s1.Idx → α) (x2 : s2.Idx → α) (x3 : s3.Idx → α) (x4 : s4.Idx → α) (x5 : s5.Idx → α) : t.Idx → α :=
  concatenate t a [⟨s1, x1⟩, ⟨s2, x2⟩, ⟨s3, x3⟩, ⟨s4, x4⟩, ⟨s5, x5⟩] h
theorem cat5_intro (t : Shape) (a : Fin t.rank) (s1 s2 s3 s4 s5 : Shape) (h : Shape.Concatenates [s1, s2, s3, s4, s5] t a) (x1 : s1.Idx → α) (x2 : s2.Idx → α) (x3 : s3.Idx → α) (x4 : s4.Idx → α) (x5 : s5.Idx → α) :
    concatenate t a [⟨s1, x1⟩, ⟨s2, x2⟩, ⟨s3, x3⟩, ⟨s4, x4⟩, ⟨s5, x5⟩] h = cat5 t a s1 s2 s3 s4 s5 h x1 x2 x3 x4 x5 := rfl

/-- The concatenation of 7 pieces, the pieces as plain arguments. -/
def cat7 (t : Shape) (a : Fin t.rank) (s1 s2 s3 s4 s5 s6 s7 : Shape) (h : Shape.Concatenates [s1, s2, s3, s4, s5, s6, s7] t a) (x1 : s1.Idx → α) (x2 : s2.Idx → α) (x3 : s3.Idx → α) (x4 : s4.Idx → α) (x5 : s5.Idx → α) (x6 : s6.Idx → α) (x7 : s7.Idx → α) : t.Idx → α :=
  concatenate t a [⟨s1, x1⟩, ⟨s2, x2⟩, ⟨s3, x3⟩, ⟨s4, x4⟩, ⟨s5, x5⟩, ⟨s6, x6⟩, ⟨s7, x7⟩] h
theorem cat7_intro (t : Shape) (a : Fin t.rank) (s1 s2 s3 s4 s5 s6 s7 : Shape) (h : Shape.Concatenates [s1, s2, s3, s4, s5, s6, s7] t a) (x1 : s1.Idx → α) (x2 : s2.Idx → α) (x3 : s3.Idx → α) (x4 : s4.Idx → α) (x5 : s5.Idx → α) (x6 : s6.Idx → α) (x7 : s7.Idx → α) :
    concatenate t a [⟨s1, x1⟩, ⟨s2, x2⟩, ⟨s3, x3⟩, ⟨s4, x4⟩, ⟨s5, x5⟩, ⟨s6, x6⟩, ⟨s7, x7⟩] h = cat7 t a s1 s2 s3 s4 s5 s6 s7 h x1 x2 x3 x4 x5 x6 x7 := rfl

end Cert.Cat

end
-- ==== Proof.RefStages.lean ====
import proofs.«181800_j70411693850655_1_alg».proof.Proof.RefRead
import proofs.«181800_j70411693850655_1_alg».proof.Proof.Cat

set_option maxRecDepth 8192
set_option maxHeartbeats 4000000

noncomputable section

namespace Cert.ReferenceIdeal.ValueP

open Cert.ReferenceIdeal Cert.ReferenceIdeal.Gen Cert.ReferenceIdeal.ReadP Idealize.ShloMosaic Idealize.ShloMosaic.TcCoe Idealize.SL.Sem Idealize.ShloMosaic.StableHlo Cert.Cat

variable {F : FTy → Type} [FloatOps F]

theorem at0_main_arg0 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 0) V (Proc.devRef .tc main_arg0) = a0 := h0
theorem at0_main_arg1 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 0) V (Proc.devRef .tc main_arg1) = a1 := h1
theorem at0_main_arg2 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 0) V (Proc.devRef .tc main_arg2) = a2 := h2
theorem at0_main_arg3 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 0) V (Proc.devRef .tc main_arg3) = a3 := h3
theorem at0_main_arg4 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 0) V (Proc.devRef .tc main_arg4) = a4 := h4
theorem at0_main_arg5 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 0) V (Proc.devRef .tc main_arg5) = a5 := h5
theorem at0_main_arg6 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 0) V (Proc.devRef .tc main_arg6) = a6 := h6
theorem at0_main_arg7 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 0) V (Proc.devRef .tc main_arg7) = a7 := h7
theorem at0_main_arg8 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 0) V (Proc.devRef .tc main_arg8) = a8 := h8
theorem at1_main_arg1 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 19) V (Proc.devRef .tc main_arg1) = a1 := by
  have e : (ops (F := F)).take 19 = (ops (F := F)).take 0 ++ ((ops (F := F)).drop 0).take 19 := rfl
  rw [e, after_append]; clear e
  have g_main_arg8 := at0_main_arg8 V a0 a1 a2 a3 a4 a5 a6 a7 a8 h0 h1 h2 h3 h4 h5 h6 h7 h8
  have g_main_arg0 := at0_main_arg0 V a0 a1 a2 a3 a4 a5 a6 a7 a8 h0 h1 h2 h3 h4 h5 h6 h7 h8
  have g_main_arg7 := at0_main_arg7 V a0 a1 a2 a3 a4 a5 a6 a7 a8 h0 h1 h2 h3 h4 h5 h6 h7 h8
  have g_main_arg1 := at0_main_arg1 V a0 a1 a2 a3 a4 a5 a6 a7 a8 h0 h1 h2 h3 h4 h5 h6 h7 h8
  generalize after ((ops (F := F)).take 0) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_arg8, g_main_arg0, g_main_arg7, g_main_arg1]
  try rfl
theorem at1_main_arg2 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 19) V (Proc.devRef .tc main_arg2) = a2 := by
  have e : (ops (F := F)).take 19 = (ops (F := F)).take 0 ++ ((ops (F := F)).drop 0).take 19 := rfl
  rw [e, after_append]; clear e
  have g_main_arg8 := at0_main_arg8 V a0 a1 a2 a3 a4 a5 a6 a7 a8 h0 h1 h2 h3 h4 h5 h6 h7 h8
  have g_main_arg0 := at0_main_arg0 V a0 a1 a2 a3 a4 a5 a6 a7 a8 h0 h1 h2 h3 h4 h5 h6 h7 h8
  have g_main_arg7 := at0_main_arg7 V a0 a1 a2 a3 a4 a5 a6 a7 a8 h0 h1 h2 h3 h4 h5 h6 h7 h8
  have g_main_arg2 := at0_main_arg2 V a0 a1 a2 a3 a4 a5 a6 a7 a8 h0 h1 h2 h3 h4 h5 h6 h7 h8
  generalize after ((ops (F := F)).take 0) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_arg8, g_main_arg0, g_main_arg7, g_main_arg2]
  try rfl
theorem at1_main_arg3 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 19) V (Proc.devRef .tc main_arg3) = a3 := by
  have e : (ops (F := F)).take 19 = (ops (F := F)).take 0 ++ ((ops (F := F)).drop 0).take 19 := rfl
  rw [e, after_append]; clear e
  have g_main_arg8 := at0_main_arg8 V a0 a1 a2 a3 a4 a5 a6 a7 a8 h0 h1 h2 h3 h4 h5 h6 h7 h8
  have g_main_arg0 := at0_main_arg0 V a0 a1 a2 a3 a4 a5 a6 a7 a8 h0 h1 h2 h3 h4 h5 h6 h7 h8
  have g_main_arg7 := at0_main_arg7 V a0 a1 a2 a3 a4 a5 a6 a7 a8 h0 h1 h2 h3 h4 h5 h6 h7 h8
  have g_main_arg3 := at0_main_arg3 V a0 a1 a2 a3 a4 a5 a6 a7 a8 h0 h1 h2 h3 h4 h5 h6 h7 h8
  generalize after ((ops (F := F)).take 0) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_arg8, g_main_arg0, g_main_arg7, g_main_arg3]
  try rfl
theorem at1_main_arg4 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 19) V (Proc.devRef .tc main_arg4) = a4 := by
  have e : (ops (F := F)).take 19 = (ops (F := F)).take 0 ++ ((ops (F := F)).drop 0).take 19 := rfl
  rw [e, after_append]; clear e
  have g_main_arg8 := at0_main_arg8 V a0 a1 a2 a3 a4 a5 a6 a7 a8 h0 h1 h2 h3 h4 h5 h6 h7 h8
  have g_main_arg0 := at0_main_arg0 V a0 a1 a2 a3 a4 a5 a6 a7 a8 h0 h1 h2 h3 h4 h5 h6 h7 h8
  have g_main_arg7 := at0_main_arg7 V a0 a1 a2 a3 a4 a5 a6 a7 a8 h0 h1 h2 h3 h4 h5 h6 h7 h8
  have g_main_arg4 := at0_main_arg4 V a0 a1 a2 a3 a4 a5 a6 a7 a8 h0 h1 h2 h3 h4 h5 h6 h7 h8
  generalize after ((ops (F := F)).take 0) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_arg8, g_main_arg0, g_main_arg7, g_main_arg4]
  try rfl
theorem at1_main_arg5 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 19) V (Proc.devRef .tc main_arg5) = a5 := by
  have e : (ops (F := F)).take 19 = (ops (F := F)).take 0 ++ ((ops (F := F)).drop 0).take 19 := rfl
  rw [e, after_append]; clear e
  have g_main_arg8 := at0_main_arg8 V a0 a1 a2 a3 a4 a5 a6 a7 a8 h0 h1 h2 h3 h4 h5 h6 h7 h8
  have g_main_arg0 := at0_main_arg0 V a0 a1 a2 a3 a4 a5 a6 a7 a8 h0 h1 h2 h3 h4 h5 h6 h7 h8
  have g_main_arg7 := at0_main_arg7 V a0 a1 a2 a3 a4 a5 a6 a7 a8 h0 h1 h2 h3 h4 h5 h6 h7 h8
  have g_main_arg5 := at0_main_arg5 V a0 a1 a2 a3 a4 a5 a6 a7 a8 h0 h1 h2 h3 h4 h5 h6 h7 h8
  generalize after ((ops (F := F)).take 0) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_arg8, g_main_arg0, g_main_arg7, g_main_arg5]
  try rfl
theorem at1_main_arg6 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 19) V (Proc.devRef .tc main_arg6) = a6 := by
  have e : (ops (F := F)).take 19 = (ops (F := F)).take 0 ++ ((ops (F := F)).drop 0).take 19 := rfl
  rw [e, after_append]; clear e
  have g_main_arg8 := at0_main_arg8 V a0 a1 a2 a3 a4 a5 a6 a7 a8 h0 h1 h2 h3 h4 h5 h6 h7 h8
  have g_main_arg0 := at0_main_arg0 V a0 a1 a2 a3 a4 a5 a6 a7 a8 h0 h1 h2 h3 h4 h5 h6 h7 h8
  have g_main_arg7 := at0_main_arg7 V a0 a1 a2 a3 a4 a5 a6 a7 a8 h0 h1 h2 h3 h4 h5 h6 h7 h8
  have g_main_arg6 := at0_main_arg6 V a0 a1 a2 a3 a4 a5 a6 a7 a8 h0 h1 h2 h3 h4 h5 h6 h7 h8
  generalize after ((ops (F := F)).take 0) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_arg8, g_main_arg0, g_main_arg7, g_main_arg6]
  try rfl
theorem at1_main_arg7 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 19) V (Proc.devRef .tc main_arg7) = a7 := by
  have e : (ops (F := F)).take 19 = (ops (F := F)).take 0 ++ ((ops (F := F)).drop 0).take 19 := rfl
  rw [e, after_append]; clear e
  have g_main_arg8 := at0_main_arg8 V a0 a1 a2 a3 a4 a5 a6 a7 a8 h0 h1 h2 h3 h4 h5 h6 h7 h8
  have g_main_arg0 := at0_main_arg0 V a0 a1 a2 a3 a4 a5 a6 a7 a8 h0 h1 h2 h3 h4 h5 h6 h7 h8
  have g_main_arg7 := at0_main_arg7 V a0 a1 a2 a3 a4 a5 a6 a7 a8 h0 h1 h2 h3 h4 h5 h6 h7 h8
  generalize after ((ops (F := F)).take 0) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_arg8, g_main_arg0, g_main_arg7]
  try rfl
theorem at1_main_arg8 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 19) V (Proc.devRef .tc main_arg8) = a8 := by
  have e : (ops (F := F)).take 19 = (ops (F := F)).take 0 ++ ((ops (F := F)).drop 0).take 19 := rfl
  rw [e, after_append]; clear e
  have g_main_arg8 := at0_main_arg8 V a0 a1 a2 a3 a4 a5 a6 a7 a8 h0 h1 h2 h3 h4 h5 h6 h7 h8
  have g_main_arg0 := at0_main_arg0 V a0 a1 a2 a3 a4 a5 a6 a7 a8 h0 h1 h2 h3 h4 h5 h6 h7 h8
  have g_main_arg7 := at0_main_arg7 V a0 a1 a2 a3 a4 a5 a6 a7 a8 h0 h1 h2 h3 h4 h5 h6 h7 h8
  generalize after ((ops (F := F)).take 0) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_arg8, g_main_arg0, g_main_arg7]
  try rfl
theorem at1_main_v14 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 19) V (Proc.devRef .tc main_v14) = val_main_v14 (F := F) a0 a7 a8 := by
  have e : (ops (F := F)).take 19 = (ops (F := F)).take 0 ++ ((ops (F := F)).drop 0).take 19 := rfl
  rw [e, after_append]; clear e
  have g_main_arg8 := at0_main_arg8 V a0 a1 a2 a3 a4 a5 a6 a7 a8 h0 h1 h2 h3 h4 h5 h6 h7 h8
  have g_main_arg0 := at0_main_arg0 V a0 a1 a2 a3 a4 a5 a6 a7 a8 h0 h1 h2 h3 h4 h5 h6 h7 h8
  have g_main_arg7 := at0_main_arg7 V a0 a1 a2 a3 a4 a5 a6 a7 a8 h0 h1 h2 h3 h4 h5 h6 h7 h8
  generalize after ((ops (F := F)).take 0) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_arg8, g_main_arg0, g_main_arg7]
  try rfl
theorem at2_main_arg1 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 26) V (Proc.devRef .tc main_arg1) = a1 := by
  have e : (ops (F := F)).take 26 = (ops (F := F)).take 19 ++ ((ops (F := F)).drop 19).take 7 := rfl
  rw [e, after_append]; clear e
  have g_main_v14 := at1_main_v14 V a0 a1 a2 a3 a4 a5 a6 a7 a8 h0 h1 h2 h3 h4 h5 h6 h7 h8
  have g_main_arg1 := at1_main_arg1 V a0 a1 a2 a3 a4 a5 a6 a7 a8 h0 h1 h2 h3 h4 h5 h6 h7 h8
  generalize after ((ops (F := F)).take 19) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v14, g_main_arg1]
  try rfl
theorem at2_main_arg2 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 26) V (Proc.devRef .tc main_arg2) = a2 := by
  have e : (ops (F := F)).take 26 = (ops (F := F)).take 19 ++ ((ops (F := F)).drop 19).take 7 := rfl
  rw [e, after_append]; clear e
  have g_main_v14 := at1_main_v14 V a0 a1 a2 a3 a4 a5 a6 a7 a8 h0 h1 h2 h3 h4 h5 h6 h7 h8
  have g_main_arg2 := at1_main_arg2 V a0 a1 a2 a3 a4 a5 a6 a7 a8 h0 h1 h2 h3 h4 h5 h6 h7 h8
  generalize after ((ops (F := F)).take 19) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v14, g_main_arg2]
  try rfl
theorem at2_main_arg3 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 26) V (Proc.devRef .tc main_arg3) = a3 := by
  have e : (ops (F := F)).take 26 = (ops (F := F)).take 19 ++ ((ops (F := F)).drop 19).take 7 := rfl
  rw [e, after_append]; clear e
  have g_main_v14 := at1_main_v14 V a0 a1 a2 a3 a4 a5 a6 a7 a8 h0 h1 h2 h3 h4 h5 h6 h7 h8
  have g_main_arg3 := at1_main_arg3 V a0 a1 a2 a3 a4 a5 a6 a7 a8 h0 h1 h2 h3 h4 h5 h6 h7 h8
  generalize after ((ops (F := F)).take 19) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v14, g_main_arg3]
  try rfl
theorem at2_main_arg4 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 26) V (Proc.devRef .tc main_arg4) = a4 := by
  have e : (ops (F := F)).take 26 = (ops (F := F)).take 19 ++ ((ops (F := F)).drop 19).take 7 := rfl
  rw [e, after_append]; clear e
  have g_main_v14 := at1_main_v14 V a0 a1 a2 a3 a4 a5 a6 a7 a8 h0 h1 h2 h3 h4 h5 h6 h7 h8
  have g_main_arg4 := at1_main_arg4 V a0 a1 a2 a3 a4 a5 a6 a7 a8 h0 h1 h2 h3 h4 h5 h6 h7 h8
  generalize after ((ops (F := F)).take 19) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v14, g_main_arg4]
  try rfl
theorem at2_main_arg5 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 26) V (Proc.devRef .tc main_arg5) = a5 := by
  have e : (ops (F := F)).take 26 = (ops (F := F)).take 19 ++ ((ops (F := F)).drop 19).take 7 := rfl
  rw [e, after_append]; clear e
  have g_main_v14 := at1_main_v14 V a0 a1 a2 a3 a4 a5 a6 a7 a8 h0 h1 h2 h3 h4 h5 h6 h7 h8
  have g_main_arg5 := at1_main_arg5 V a0 a1 a2 a3 a4 a5 a6 a7 a8 h0 h1 h2 h3 h4 h5 h6 h7 h8
  generalize after ((ops (F := F)).take 19) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v14, g_main_arg5]
  try rfl
theorem at2_main_arg6 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 26) V (Proc.devRef .tc main_arg6) = a6 := by
  have e : (ops (F := F)).take 26 = (ops (F := F)).take 19 ++ ((ops (F := F)).drop 19).take 7 := rfl
  rw [e, after_append]; clear e
  have g_main_v14 := at1_main_v14 V a0 a1 a2 a3 a4 a5 a6 a7 a8 h0 h1 h2 h3 h4 h5 h6 h7 h8
  have g_main_arg6 := at1_main_arg6 V a0 a1 a2 a3 a4 a5 a6 a7 a8 h0 h1 h2 h3 h4 h5 h6 h7 h8
  generalize after ((ops (F := F)).take 19) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v14, g_main_arg6]
  try rfl
theorem at2_main_arg7 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 26) V (Proc.devRef .tc main_arg7) = a7 := by
  have e : (ops (F := F)).take 26 = (ops (F := F)).take 19 ++ ((ops (F := F)).drop 19).take 7 := rfl
  rw [e, after_append]; clear e
  have g_main_v14 := at1_main_v14 V a0 a1 a2 a3 a4 a5 a6 a7 a8 h0 h1 h2 h3 h4 h5 h6 h7 h8
  have g_main_arg7 := at1_main_arg7 V a0 a1 a2 a3 a4 a5 a6 a7 a8 h0 h1 h2 h3 h4 h5 h6 h7 h8
  generalize after ((ops (F := F)).take 19) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v14, g_main_arg7]
  try rfl
theorem at2_main_arg8 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 26) V (Proc.devRef .tc main_arg8) = a8 := by
  have e : (ops (F := F)).take 26 = (ops (F := F)).take 19 ++ ((ops (F := F)).drop 19).take 7 := rfl
  rw [e, after_append]; clear e
  have g_main_v14 := at1_main_v14 V a0 a1 a2 a3 a4 a5 a6 a7 a8 h0 h1 h2 h3 h4 h5 h6 h7 h8
  have g_main_arg8 := at1_main_arg8 V a0 a1 a2 a3 a4 a5 a6 a7 a8 h0 h1 h2 h3 h4 h5 h6 h7 h8
  generalize after ((ops (F := F)).take 19) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v14, g_main_arg8]
  try rfl
theorem at2_main_v17 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 26) V (Proc.devRef .tc main_v17) = val_main_v17 (F := F) a0 a7 a8 := by
  have e : (ops (F := F)).take 26 = (ops (F := F)).take 19 ++ ((ops (F := F)).drop 19).take 7 := rfl
  rw [e, after_append]; clear e
  have g_main_v14 := at1_main_v14 V a0 a1 a2 a3 a4 a5 a6 a7 a8 h0 h1 h2 h3 h4 h5 h6 h7 h8
  generalize after ((ops (F := F)).take 19) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v14]
  try rfl
theorem at3_main_arg1 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 28) V (Proc.devRef .tc main_arg1) = a1 := by
  have e : (ops (F := F)).take 28 = (ops (F := F)).take 26 ++ ((ops (F := F)).drop 26).take 2 := rfl
  rw [e, after_append]; clear e
  have g_main_v17 := at2_main_v17 V a0 a1 a2 a3 a4 a5 a6 a7 a8 h0 h1 h2 h3 h4 h5 h6 h7 h8
  have g_main_arg1 := at2_main_arg1 V a0 a1 a2 a3 a4 a5 a6 a7 a8 h0 h1 h2 h3 h4 h5 h6 h7 h8
  generalize after ((ops (F := F)).take 26) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v17, g_main_arg1]
  try rfl
theorem at3_main_arg2 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 28) V (Proc.devRef .tc main_arg2) = a2 := by
  have e : (ops (F := F)).take 28 = (ops (F := F)).take 26 ++ ((ops (F := F)).drop 26).take 2 := rfl
  rw [e, after_append]; clear e
  have g_main_v17 := at2_main_v17 V a0 a1 a2 a3 a4 a5 a6 a7 a8 h0 h1 h2 h3 h4 h5 h6 h7 h8
  have g_main_arg2 := at2_main_arg2 V a0 a1 a2 a3 a4 a5 a6 a7 a8 h0 h1 h2 h3 h4 h5 h6 h7 h8
  generalize after ((ops (F := F)).take 26) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v17, g_main_arg2]
  try rfl
theorem at3_main_arg3 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 28) V (Proc.devRef .tc main_arg3) = a3 := by
  have e : (ops (F := F)).take 28 = (ops (F := F)).take 26 ++ ((ops (F := F)).drop 26).take 2 := rfl
  rw [e, after_append]; clear e
  have g_main_v17 := at2_main_v17 V a0 a1 a2 a3 a4 a5 a6 a7 a8 h0 h1 h2 h3 h4 h5 h6 h7 h8
  have g_main_arg3 := at2_main_arg3 V a0 a1 a2 a3 a4 a5 a6 a7 a8 h0 h1 h2 h3 h4 h5 h6 h7 h8
  generalize after ((ops (F := F)).take 26) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v17, g_main_arg3]
  try rfl
theorem at3_main_arg4 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 28) V (Proc.devRef .tc main_arg4) = a4 := by
  have e : (ops (F := F)).take 28 = (ops (F := F)).take 26 ++ ((ops (F := F)).drop 26).take 2 := rfl
  rw [e, after_append]; clear e
  have g_main_v17 := at2_main_v17 V a0 a1 a2 a3 a4 a5 a6 a7 a8 h0 h1 h2 h3 h4 h5 h6 h7 h8
  have g_main_arg4 := at2_main_arg4 V a0 a1 a2 a3 a4 a5 a6 a7 a8 h0 h1 h2 h3 h4 h5 h6 h7 h8
  generalize after ((ops (F := F)).take 26) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v17, g_main_arg4]
  try rfl
theorem at3_main_arg5 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 28) V (Proc.devRef .tc main_arg5) = a5 := by
  have e : (ops (F := F)).take 28 = (ops (F := F)).take 26 ++ ((ops (F := F)).drop 26).take 2 := rfl
  rw [e, after_append]; clear e
  have g_main_v17 := at2_main_v17 V a0 a1 a2 a3 a4 a5 a6 a7 a8 h0 h1 h2 h3 h4 h5 h6 h7 h8
  have g_main_arg5 := at2_main_arg5 V a0 a1 a2 a3 a4 a5 a6 a7 a8 h0 h1 h2 h3 h4 h5 h6 h7 h8
  generalize after ((ops (F := F)).take 26) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v17, g_main_arg5]
  try rfl
theorem at3_main_arg6 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 28) V (Proc.devRef .tc main_arg6) = a6 := by
  have e : (ops (F := F)).take 28 = (ops (F := F)).take 26 ++ ((ops (F := F)).drop 26).take 2 := rfl
  rw [e, after_append]; clear e
  have g_main_v17 := at2_main_v17 V a0 a1 a2 a3 a4 a5 a6 a7 a8 h0 h1 h2 h3 h4 h5 h6 h7 h8
  have g_main_arg6 := at2_main_arg6 V a0 a1 a2 a3 a4 a5 a6 a7 a8 h0 h1 h2 h3 h4 h5 h6 h7 h8
  generalize after ((ops (F := F)).take 26) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v17, g_main_arg6]
  try rfl
theorem at3_main_arg7 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 28) V (Proc.devRef .tc main_arg7) = a7 := by
  have e : (ops (F := F)).take 28 = (ops (F := F)).take 26 ++ ((ops (F := F)).drop 26).take 2 := rfl
  rw [e, after_append]; clear e
  have g_main_v17 := at2_main_v17 V a0 a1 a2 a3 a4 a5 a6 a7 a8 h0 h1 h2 h3 h4 h5 h6 h7 h8
  have g_main_arg7 := at2_main_arg7 V a0 a1 a2 a3 a4 a5 a6 a7 a8 h0 h1 h2 h3 h4 h5 h6 h7 h8
  generalize after ((ops (F := F)).take 26) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v17, g_main_arg7]
  try rfl
theorem at3_main_arg8 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 28) V (Proc.devRef .tc main_arg8) = a8 := by
  have e : (ops (F := F)).take 28 = (ops (F := F)).take 26 ++ ((ops (F := F)).drop 26).take 2 := rfl
  rw [e, after_append]; clear e
  have g_main_v17 := at2_main_v17 V a0 a1 a2 a3 a4 a5 a6 a7 a8 h0 h1 h2 h3 h4 h5 h6 h7 h8
  have g_main_arg8 := at2_main_arg8 V a0 a1 a2 a3 a4 a5 a6 a7 a8 h0 h1 h2 h3 h4 h5 h6 h7 h8
  generalize after ((ops (F := F)).take 26) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v17, g_main_arg8]
  try rfl
theorem at3_main_v17 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 28) V (Proc.devRef .tc main_v17) = val_main_v17 (F := F) a0 a7 a8 := by
  have e : (ops (F := F)).take 28 = (ops (F := F)).take 26 ++ ((ops (F := F)).drop 26).take 2 := rfl
  rw [e, after_append]; clear e
  have g_main_v17 := at2_main_v17 V a0 a1 a2 a3 a4 a5 a6 a7 a8 h0 h1 h2 h3 h4 h5 h6 h7 h8
  generalize after ((ops (F := F)).take 26) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v17]
  try rfl
theorem at3_main_v19 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 28) V (Proc.devRef .tc main_v19) = val_main_v19 (F := F) a0 a7 a8 := by
  have e : (ops (F := F)).take 28 = (ops (F := F)).take 26 ++ ((ops (F := F)).drop 26).take 2 := rfl
  rw [e, after_append]; clear e
  have g_main_v17 := at2_main_v17 V a0 a1 a2 a3 a4 a5 a6 a7 a8 h0 h1 h2 h3 h4 h5 h6 h7 h8
  generalize after ((ops (F := F)).take 26) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v17]
  try rfl
theorem at4_main_arg1 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 30) V (Proc.devRef .tc main_arg1) = a1 := by
  have e : (ops (F := F)).take 30 = (ops (F := F)).take 28 ++ ((ops (F := F)).drop 28).take 2 := rfl
  rw [e, after_append]; clear e
  have g_main_v17 := at3_main_v17 V a0 a1 a2 a3 a4 a5 a6 a7 a8 h0 h1 h2 h3 h4 h5 h6 h7 h8
  have g_main_arg1 := at3_main_arg1 V a0 a1 a2 a3 a4 a5 a6 a7 a8 h0 h1 h2 h3 h4 h5 h6 h7 h8
  generalize after ((ops (F := F)).take 28) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v17, g_main_arg1]
  try rfl
theorem at4_main_arg2 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 30) V (Proc.devRef .tc main_arg2) = a2 := by
  have e : (ops (F := F)).take 30 = (ops (F := F)).take 28 ++ ((ops (F := F)).drop 28).take 2 := rfl
  rw [e, after_append]; clear e
  have g_main_v17 := at3_main_v17 V a0 a1 a2 a3 a4 a5 a6 a7 a8 h0 h1 h2 h3 h4 h5 h6 h7 h8
  have g_main_arg2 := at3_main_arg2 V a0 a1 a2 a3 a4 a5 a6 a7 a8 h0 h1 h2 h3 h4 h5 h6 h7 h8
  generalize after ((ops (F := F)).take 28) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v17, g_main_arg2]
  try rfl
theorem at4_main_arg3 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 30) V (Proc.devRef .tc main_arg3) = a3 := by
  have e : (ops (F := F)).take 30 = (ops (F := F)).take 28 ++ ((ops (F := F)).drop 28).take 2 := rfl
  rw [e, after_append]; clear e
  have g_main_v17 := at3_main_v17 V a0 a1 a2 a3 a4 a5 a6 a7 a8 h0 h1 h2 h3 h4 h5 h6 h7 h8
  have g_main_arg3 := at3_main_arg3 V a0 a1 a2 a3 a4 a5 a6 a7 a8 h0 h1 h2 h3 h4 h5 h6 h7 h8
  generalize after ((ops (F := F)).take 28) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v17, g_main_arg3]
  try rfl
theorem at4_main_arg4 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 30) V (Proc.devRef .tc main_arg4) = a4 := by
  have e : (ops (F := F)).take 30 = (ops (F := F)).take 28 ++ ((ops (F := F)).drop 28).take 2 := rfl
  rw [e, after_append]; clear e
  have g_main_v17 := at3_main_v17 V a0 a1 a2 a3 a4 a5 a6 a7 a8 h0 h1 h2 h3 h4 h5 h6 h7 h8
  have g_main_arg4 := at3_main_arg4 V a0 a1 a2 a3 a4 a5 a6 a7 a8 h0 h1 h2 h3 h4 h5 h6 h7 h8
  generalize after ((ops (F := F)).take 28) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v17, g_main_arg4]
  try rfl
theorem at4_main_arg5 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 30) V (Proc.devRef .tc main_arg5) = a5 := by
  have e : (ops (F := F)).take 30 = (ops (F := F)).take 28 ++ ((ops (F := F)).drop 28).take 2 := rfl
  rw [e, after_append]; clear e
  have g_main_v17 := at3_main_v17 V a0 a1 a2 a3 a4 a5 a6 a7 a8 h0 h1 h2 h3 h4 h5 h6 h7 h8
  have g_main_arg5 := at3_main_arg5 V a0 a1 a2 a3 a4 a5 a6 a7 a8 h0 h1 h2 h3 h4 h5 h6 h7 h8
  generalize after ((ops (F := F)).take 28) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v17, g_main_arg5]
  try rfl
theorem at4_main_arg6 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 30) V (Proc.devRef .tc main_arg6) = a6 := by
  have e : (ops (F := F)).take 30 = (ops (F := F)).take 28 ++ ((ops (F := F)).drop 28).take 2 := rfl
  rw [e, after_append]; clear e
  have g_main_v17 := at3_main_v17 V a0 a1 a2 a3 a4 a5 a6 a7 a8 h0 h1 h2 h3 h4 h5 h6 h7 h8
  have g_main_arg6 := at3_main_arg6 V a0 a1 a2 a3 a4 a5 a6 a7 a8 h0 h1 h2 h3 h4 h5 h6 h7 h8
  generalize after ((ops (F := F)).take 28) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v17, g_main_arg6]
  try rfl
theorem at4_main_arg7 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 30) V (Proc.devRef .tc main_arg7) = a7 := by
  have e : (ops (F := F)).take 30 = (ops (F := F)).take 28 ++ ((ops (F := F)).drop 28).take 2 := rfl
  rw [e, after_append]; clear e
  have g_main_v17 := at3_main_v17 V a0 a1 a2 a3 a4 a5 a6 a7 a8 h0 h1 h2 h3 h4 h5 h6 h7 h8
  have g_main_arg7 := at3_main_arg7 V a0 a1 a2 a3 a4 a5 a6 a7 a8 h0 h1 h2 h3 h4 h5 h6 h7 h8
  generalize after ((ops (F := F)).take 28) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v17, g_main_arg7]
  try rfl
theorem at4_main_arg8 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 30) V (Proc.devRef .tc main_arg8) = a8 := by
  have e : (ops (F := F)).take 30 = (ops (F := F)).take 28 ++ ((ops (F := F)).drop 28).take 2 := rfl
  rw [e, after_append]; clear e
  have g_main_v17 := at3_main_v17 V a0 a1 a2 a3 a4 a5 a6 a7 a8 h0 h1 h2 h3 h4 h5 h6 h7 h8
  have g_main_arg8 := at3_main_arg8 V a0 a1 a2 a3 a4 a5 a6 a7 a8 h0 h1 h2 h3 h4 h5 h6 h7 h8
  generalize after ((ops (F := F)).take 28) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v17, g_main_arg8]
  try rfl
theorem at4_main_v17 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 30) V (Proc.devRef .tc main_v17) = val_main_v17 (F := F) a0 a7 a8 := by
  have e : (ops (F := F)).take 30 = (ops (F := F)).take 28 ++ ((ops (F := F)).drop 28).take 2 := rfl
  rw [e, after_append]; clear e
  have g_main_v17 := at3_main_v17 V a0 a1 a2 a3 a4 a5 a6 a7 a8 h0 h1 h2 h3 h4 h5 h6 h7 h8
  generalize after ((ops (F := F)).take 28) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v17]
  try rfl
theorem at4_main_v19 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 30) V (Proc.devRef .tc main_v19) = val_main_v19 (F := F) a0 a7 a8 := by
  have e : (ops (F := F)).take 30 = (ops (F := F)).take 28 ++ ((ops (F := F)).drop 28).take 2 := rfl
  rw [e, after_append]; clear e
  have g_main_v17 := at3_main_v17 V a0 a1 a2 a3 a4 a5 a6 a7 a8 h0 h1 h2 h3 h4 h5 h6 h7 h8
  have g_main_v19 := at3_main_v19 V a0 a1 a2 a3 a4 a5 a6 a7 a8 h0 h1 h2 h3 h4 h5 h6 h7 h8
  generalize after ((ops (F := F)).take 28) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v17, g_main_v19]
  try rfl
theorem at4_main_v21 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 30) V (Proc.devRef .tc main_v21) = val_main_v21 (F := F) a0 a7 a8 := by
  have e : (ops (F := F)).take 30 = (ops (F := F)).take 28 ++ ((ops (F := F)).drop 28).take 2 := rfl
  rw [e, after_append]; clear e
  have g_main_v17 := at3_main_v17 V a0 a1 a2 a3 a4 a5 a6 a7 a8 h0 h1 h2 h3 h4 h5 h6 h7 h8
  generalize after ((ops (F := F)).take 28) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v17]
  try rfl
theorem at5_main_arg1 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 32) V (Proc.devRef .tc main_arg1) = a1 := by
  have e : (ops (F := F)).take 32 = (ops (F := F)).take 30 ++ ((ops (F := F)).drop 30).take 2 := rfl
  rw [e, after_append]; clear e
  have g_main_v17 := at4_main_v17 V a0 a1 a2 a3 a4 a5 a6 a7 a8 h0 h1 h2 h3 h4 h5 h6 h7 h8
  have g_main_arg1 := at4_main_arg1 V a0 a1 a2 a3 a4 a5 a6 a7 a8 h0 h1 h2 h3 h4 h5 h6 h7 h8
  generalize after ((ops (F := F)).take 30) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v17, g_main_arg1]
  try rfl
theorem at5_main_arg2 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 32) V (Proc.devRef .tc main_arg2) = a2 := by
  have e : (ops (F := F)).take 32 = (ops (F := F)).take 30 ++ ((ops (F := F)).drop 30).take 2 := rfl
  rw [e, after_append]; clear e
  have g_main_v17 := at4_main_v17 V a0 a1 a2 a3 a4 a5 a6 a7 a8 h0 h1 h2 h3 h4 h5 h6 h7 h8
  have g_main_arg2 := at4_main_arg2 V a0 a1 a2 a3 a4 a5 a6 a7 a8 h0 h1 h2 h3 h4 h5 h6 h7 h8
  generalize after ((ops (F := F)).take 30) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v17, g_main_arg2]
  try rfl
theorem at5_main_arg3 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 32) V (Proc.devRef .tc main_arg3) = a3 := by
  have e : (ops (F := F)).take 32 = (ops (F := F)).take 30 ++ ((ops (F := F)).drop 30).take 2 := rfl
  rw [e, after_append]; clear e
  have g_main_v17 := at4_main_v17 V a0 a1 a2 a3 a4 a5 a6 a7 a8 h0 h1 h2 h3 h4 h5 h6 h7 h8
  have g_main_arg3 := at4_main_arg3 V a0 a1 a2 a3 a4 a5 a6 a7 a8 h0 h1 h2 h3 h4 h5 h6 h7 h8
  generalize after ((ops (F := F)).take 30) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v17, g_main_arg3]
  try rfl
theorem at5_main_arg4 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 32) V (Proc.devRef .tc main_arg4) = a4 := by
  have e : (ops (F := F)).take 32 = (ops (F := F)).take 30 ++ ((ops (F := F)).drop 30).take 2 := rfl
  rw [e, after_append]; clear e
  have g_main_v17 := at4_main_v17 V a0 a1 a2 a3 a4 a5 a6 a7 a8 h0 h1 h2 h3 h4 h5 h6 h7 h8
  have g_main_arg4 := at4_main_arg4 V a0 a1 a2 a3 a4 a5 a6 a7 a8 h0 h1 h2 h3 h4 h5 h6 h7 h8
  generalize after ((ops (F := F)).take 30) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v17, g_main_arg4]
  try rfl
theorem at5_main_arg5 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 32) V (Proc.devRef .tc main_arg5) = a5 := by
  have e : (ops (F := F)).take 32 = (ops (F := F)).take 30 ++ ((ops (F := F)).drop 30).take 2 := rfl
  rw [e, after_append]; clear e
  have g_main_v17 := at4_main_v17 V a0 a1 a2 a3 a4 a5 a6 a7 a8 h0 h1 h2 h3 h4 h5 h6 h7 h8
  have g_main_arg5 := at4_main_arg5 V a0 a1 a2 a3 a4 a5 a6 a7 a8 h0 h1 h2 h3 h4 h5 h6 h7 h8
  generalize after ((ops (F := F)).take 30) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v17, g_main_arg5]
  try rfl
theorem at5_main_arg6 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 32) V (Proc.devRef .tc main_arg6) = a6 := by
  have e : (ops (F := F)).take 32 = (ops (F := F)).take 30 ++ ((ops (F := F)).drop 30).take 2 := rfl
  rw [e, after_append]; clear e
  have g_main_v17 := at4_main_v17 V a0 a1 a2 a3 a4 a5 a6 a7 a8 h0 h1 h2 h3 h4 h5 h6 h7 h8
  have g_main_arg6 := at4_main_arg6 V a0 a1 a2 a3 a4 a5 a6 a7 a8 h0 h1 h2 h3 h4 h5 h6 h7 h8
  generalize after ((ops (F := F)).take 30) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v17, g_main_arg6]
  try rfl
theorem at5_main_arg7 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 32) V (Proc.devRef .tc main_arg7) = a7 := by
  have e : (ops (F := F)).take 32 = (ops (F := F)).take 30 ++ ((ops (F := F)).drop 30).take 2 := rfl
  rw [e, after_append]; clear e
  have g_main_v17 := at4_main_v17 V a0 a1 a2 a3 a4 a5 a6 a7 a8 h0 h1 h2 h3 h4 h5 h6 h7 h8
  have g_main_arg7 := at4_main_arg7 V a0 a1 a2 a3 a4 a5 a6 a7 a8 h0 h1 h2 h3 h4 h5 h6 h7 h8
  generalize after ((ops (F := F)).take 30) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v17, g_main_arg7]
  try rfl
theorem at5_main_arg8 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 32) V (Proc.devRef .tc main_arg8) = a8 := by
  have e : (ops (F := F)).take 32 = (ops (F := F)).take 30 ++ ((ops (F := F)).drop 30).take 2 := rfl
  rw [e, after_append]; clear e
  have g_main_v17 := at4_main_v17 V a0 a1 a2 a3 a4 a5 a6 a7 a8 h0 h1 h2 h3 h4 h5 h6 h7 h8
  have g_main_arg8 := at4_main_arg8 V a0 a1 a2 a3 a4 a5 a6 a7 a8 h0 h1 h2 h3 h4 h5 h6 h7 h8
  generalize after ((ops (F := F)).take 30) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v17, g_main_arg8]
  try rfl
theorem at5_main_v19 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 32) V (Proc.devRef .tc main_v19) = val_main_v19 (F := F) a0 a7 a8 := by
  have e : (ops (F := F)).take 32 = (ops (F := F)).take 30 ++ ((ops (F := F)).drop 30).take 2 := rfl
  rw [e, after_append]; clear e
  have g_main_v17 := at4_main_v17 V a0 a1 a2 a3 a4 a5 a6 a7 a8 h0 h1 h2 h3 h4 h5 h6 h7 h8
  have g_main_v19 := at4_main_v19 V a0 a1 a2 a3 a4 a5 a6 a7 a8 h0 h1 h2 h3 h4 h5 h6 h7 h8
  generalize after ((ops (F := F)).take 30) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v17, g_main_v19]
  try rfl
theorem at5_main_v21 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 32) V (Proc.devRef .tc main_v21) = val_main_v21 (F := F) a0 a7 a8 := by
  have e : (ops (F := F)).take 32 = (ops (F := F)).take 30 ++ ((ops (F := F)).drop 30).take 2 := rfl
  rw [e, after_append]; clear e
  have g_main_v17 := at4_main_v17 V a0 a1 a2 a3 a4 a5 a6 a7 a8 h0 h1 h2 h3 h4 h5 h6 h7 h8
  have g_main_v21 := at4_main_v21 V a0 a1 a2 a3 a4 a5 a6 a7 a8 h0 h1 h2 h3 h4 h5 h6 h7 h8
  generalize after ((ops (F := F)).take 30) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v17, g_main_v21]
  try rfl
theorem at5_main_v23 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 32) V (Proc.devRef .tc main_v23) = val_main_v23 (F := F) a0 a7 a8 := by
  have e : (ops (F := F)).take 32 = (ops (F := F)).take 30 ++ ((ops (F := F)).drop 30).take 2 := rfl
  rw [e, after_append]; clear e
  have g_main_v17 := at4_main_v17 V a0 a1 a2 a3 a4 a5 a6 a7 a8 h0 h1 h2 h3 h4 h5 h6 h7 h8
  generalize after ((ops (F := F)).take 30) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v17]
  try rfl
theorem at6_main_arg1 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 33) V (Proc.devRef .tc main_arg1) = a1 := by
  have e : (ops (F := F)).take 33 = (ops (F := F)).take 32 ++ ((ops (F := F)).drop 32).take 1 := rfl
  rw [e, after_append]; clear e
  have g_main_v19 := at5_main_v19 V a0 a1 a2 a3 a4 a5 a6 a7 a8 h0 h1 h2 h3 h4 h5 h6 h7 h8
  have g_main_arg1 := at5_main_arg1 V a0 a1 a2 a3 a4 a5 a6 a7 a8 h0 h1 h2 h3 h4 h5 h6 h7 h8
  generalize after ((ops (F := F)).take 32) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v19, g_main_arg1]
  try rfl
theorem at6_main_arg2 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 33) V (Proc.devRef .tc main_arg2) = a2 := by
  have e : (ops (F := F)).take 33 = (ops (F := F)).take 32 ++ ((ops (F := F)).drop 32).take 1 := rfl
  rw [e, after_append]; clear e
  have g_main_v19 := at5_main_v19 V a0 a1 a2 a3 a4 a5 a6 a7 a8 h0 h1 h2 h3 h4 h5 h6 h7 h8
  have g_main_arg2 := at5_main_arg2 V a0 a1 a2 a3 a4 a5 a6 a7 a8 h0 h1 h2 h3 h4 h5 h6 h7 h8
  generalize after ((ops (F := F)).take 32) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v19, g_main_arg2]
  try rfl
theorem at6_main_arg3 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 33) V (Proc.devRef .tc main_arg3) = a3 := by
  have e : (ops (F := F)).take 33 = (ops (F := F)).take 32 ++ ((ops (F := F)).drop 32).take 1 := rfl
  rw [e, after_append]; clear e
  have g_main_v19 := at5_main_v19 V a0 a1 a2 a3 a4 a5 a6 a7 a8 h0 h1 h2 h3 h4 h5 h6 h7 h8
  have g_main_arg3 := at5_main_arg3 V a0 a1 a2 a3 a4 a5 a6 a7 a8 h0 h1 h2 h3 h4 h5 h6 h7 h8
  generalize after ((ops (F := F)).take 32) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v19, g_main_arg3]
  try rfl
theorem at6_main_arg4 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 33) V (Proc.devRef .tc main_arg4) = a4 := by
  have e : (ops (F := F)).take 33 = (ops (F := F)).take 32 ++ ((ops (F := F)).drop 32).take 1 := rfl
  rw [e, after_append]; clear e
  have g_main_v19 := at5_main_v19 V a0 a1 a2 a3 a4 a5 a6 a7 a8 h0 h1 h2 h3 h4 h5 h6 h7 h8
  have g_main_arg4 := at5_main_arg4 V a0 a1 a2 a3 a4 a5 a6 a7 a8 h0 h1 h2 h3 h4 h5 h6 h7 h8
  generalize after ((ops (F := F)).take 32) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v19, g_main_arg4]
  try rfl
theorem at6_main_arg5 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 33) V (Proc.devRef .tc main_arg5) = a5 := by
  have e : (ops (F := F)).take 33 = (ops (F := F)).take 32 ++ ((ops (F := F)).drop 32).take 1 := rfl
  rw [e, after_append]; clear e
  have g_main_v19 := at5_main_v19 V a0 a1 a2 a3 a4 a5 a6 a7 a8 h0 h1 h2 h3 h4 h5 h6 h7 h8
  have g_main_arg5 := at5_main_arg5 V a0 a1 a2 a3 a4 a5 a6 a7 a8 h0 h1 h2 h3 h4 h5 h6 h7 h8
  generalize after ((ops (F := F)).take 32) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v19, g_main_arg5]
  try rfl
theorem at6_main_arg6 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 33) V (Proc.devRef .tc main_arg6) = a6 := by
  have e : (ops (F := F)).take 33 = (ops (F := F)).take 32 ++ ((ops (F := F)).drop 32).take 1 := rfl
  rw [e, after_append]; clear e
  have g_main_v19 := at5_main_v19 V a0 a1 a2 a3 a4 a5 a6 a7 a8 h0 h1 h2 h3 h4 h5 h6 h7 h8
  have g_main_arg6 := at5_main_arg6 V a0 a1 a2 a3 a4 a5 a6 a7 a8 h0 h1 h2 h3 h4 h5 h6 h7 h8
  generalize after ((ops (F := F)).take 32) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v19, g_main_arg6]
  try rfl
theorem at6_main_arg7 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 33) V (Proc.devRef .tc main_arg7) = a7 := by
  have e : (ops (F := F)).take 33 = (ops (F := F)).take 32 ++ ((ops (F := F)).drop 32).take 1 := rfl
  rw [e, after_append]; clear e
  have g_main_v19 := at5_main_v19 V a0 a1 a2 a3 a4 a5 a6 a7 a8 h0 h1 h2 h3 h4 h5 h6 h7 h8
  have g_main_arg7 := at5_main_arg7 V a0 a1 a2 a3 a4 a5 a6 a7 a8 h0 h1 h2 h3 h4 h5 h6 h7 h8
  generalize after ((ops (F := F)).take 32) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v19, g_main_arg7]
  try rfl
theorem at6_main_arg8 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 33) V (Proc.devRef .tc main_arg8) = a8 := by
  have e : (ops (F := F)).take 33 = (ops (F := F)).take 32 ++ ((ops (F := F)).drop 32).take 1 := rfl
  rw [e, after_append]; clear e
  have g_main_v19 := at5_main_v19 V a0 a1 a2 a3 a4 a5 a6 a7 a8 h0 h1 h2 h3 h4 h5 h6 h7 h8
  have g_main_arg8 := at5_main_arg8 V a0 a1 a2 a3 a4 a5 a6 a7 a8 h0 h1 h2 h3 h4 h5 h6 h7 h8
  generalize after ((ops (F := F)).take 32) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v19, g_main_arg8]
  try rfl
theorem at6_main_v19 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 33) V (Proc.devRef .tc main_v19) = val_main_v19 (F := F) a0 a7 a8 := by
  have e : (ops (F := F)).take 33 = (ops (F := F)).take 32 ++ ((ops (F := F)).drop 32).take 1 := rfl
  rw [e, after_append]; clear e
  have g_main_v19 := at5_main_v19 V a0 a1 a2 a3 a4 a5 a6 a7 a8 h0 h1 h2 h3 h4 h5 h6 h7 h8
  generalize after ((ops (F := F)).take 32) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v19]
  try rfl
theorem at6_main_v21 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 33) V (Proc.devRef .tc main_v21) = val_main_v21 (F := F) a0 a7 a8 := by
  have e : (ops (F := F)).take 33 = (ops (F := F)).take 32 ++ ((ops (F := F)).drop 32).take 1 := rfl
  rw [e, after_append]; clear e
  have g_main_v19 := at5_main_v19 V a0 a1 a2 a3 a4 a5 a6 a7 a8 h0 h1 h2 h3 h4 h5 h6 h7 h8
  have g_main_v21 := at5_main_v21 V a0 a1 a2 a3 a4 a5 a6 a7 a8 h0 h1 h2 h3 h4 h5 h6 h7 h8
  generalize after ((ops (F := F)).take 32) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v19, g_main_v21]
  try rfl
theorem at6_main_v23 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 33) V (Proc.devRef .tc main_v23) = val_main_v23 (F := F) a0 a7 a8 := by
  have e : (ops (F := F)).take 33 = (ops (F := F)).take 32 ++ ((ops (F := F)).drop 32).take 1 := rfl
  rw [e, after_append]; clear e
  have g_main_v19 := at5_main_v19 V a0 a1 a2 a3 a4 a5 a6 a7 a8 h0 h1 h2 h3 h4 h5 h6 h7 h8
  have g_main_v23 := at5_main_v23 V a0 a1 a2 a3 a4 a5 a6 a7 a8 h0 h1 h2 h3 h4 h5 h6 h7 h8
  generalize after ((ops (F := F)).take 32) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v19, g_main_v23]
  try rfl
theorem at6_main_v24 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 33) V (Proc.devRef .tc main_v24) = val_main_v24 (F := F) a0 a7 a8 := by
  have e : (ops (F := F)).take 33 = (ops (F := F)).take 32 ++ ((ops (F := F)).drop 32).take 1 := rfl
  rw [e, after_append]; clear e
  have g_main_v19 := at5_main_v19 V a0 a1 a2 a3 a4 a5 a6 a7 a8 h0 h1 h2 h3 h4 h5 h6 h7 h8
  generalize after ((ops (F := F)).take 32) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v19]
  try rfl
theorem at7_main_arg1 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 34) V (Proc.devRef .tc main_arg1) = a1 := by
  have e : (ops (F := F)).take 34 = (ops (F := F)).take 33 ++ ((ops (F := F)).drop 33).take 1 := rfl
  rw [e, after_append]; clear e
  have g_main_v21 := at6_main_v21 V a0 a1 a2 a3 a4 a5 a6 a7 a8 h0 h1 h2 h3 h4 h5 h6 h7 h8
  have g_main_arg1 := at6_main_arg1 V a0 a1 a2 a3 a4 a5 a6 a7 a8 h0 h1 h2 h3 h4 h5 h6 h7 h8
  generalize after ((ops (F := F)).take 33) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v21, g_main_arg1]
  try rfl
theorem at7_main_arg2 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 34) V (Proc.devRef .tc main_arg2) = a2 := by
  have e : (ops (F := F)).take 34 = (ops (F := F)).take 33 ++ ((ops (F := F)).drop 33).take 1 := rfl
  rw [e, after_append]; clear e
  have g_main_v21 := at6_main_v21 V a0 a1 a2 a3 a4 a5 a6 a7 a8 h0 h1 h2 h3 h4 h5 h6 h7 h8
  have g_main_arg2 := at6_main_arg2 V a0 a1 a2 a3 a4 a5 a6 a7 a8 h0 h1 h2 h3 h4 h5 h6 h7 h8
  generalize after ((ops (F := F)).take 33) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v21, g_main_arg2]
  try rfl
theorem at7_main_arg3 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 34) V (Proc.devRef .tc main_arg3) = a3 := by
  have e : (ops (F := F)).take 34 = (ops (F := F)).take 33 ++ ((ops (F := F)).drop 33).take 1 := rfl
  rw [e, after_append]; clear e
  have g_main_v21 := at6_main_v21 V a0 a1 a2 a3 a4 a5 a6 a7 a8 h0 h1 h2 h3 h4 h5 h6 h7 h8
  have g_main_arg3 := at6_main_arg3 V a0 a1 a2 a3 a4 a5 a6 a7 a8 h0 h1 h2 h3 h4 h5 h6 h7 h8
  generalize after ((ops (F := F)).take 33) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v21, g_main_arg3]
  try rfl
theorem at7_main_arg4 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 34) V (Proc.devRef .tc main_arg4) = a4 := by
  have e : (ops (F := F)).take 34 = (ops (F := F)).take 33 ++ ((ops (F := F)).drop 33).take 1 := rfl
  rw [e, after_append]; clear e
  have g_main_v21 := at6_main_v21 V a0 a1 a2 a3 a4 a5 a6 a7 a8 h0 h1 h2 h3 h4 h5 h6 h7 h8
  have g_main_arg4 := at6_main_arg4 V a0 a1 a2 a3 a4 a5 a6 a7 a8 h0 h1 h2 h3 h4 h5 h6 h7 h8
  generalize after ((ops (F := F)).take 33) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v21, g_main_arg4]
  try rfl
theorem at7_main_arg5 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 34) V (Proc.devRef .tc main_arg5) = a5 := by
  have e : (ops (F := F)).take 34 = (ops (F := F)).take 33 ++ ((ops (F := F)).drop 33).take 1 := rfl
  rw [e, after_append]; clear e
  have g_main_v21 := at6_main_v21 V a0 a1 a2 a3 a4 a5 a6 a7 a8 h0 h1 h2 h3 h4 h5 h6 h7 h8
  have g_main_arg5 := at6_main_arg5 V a0 a1 a2 a3 a4 a5 a6 a7 a8 h0 h1 h2 h3 h4 h5 h6 h7 h8
  generalize after ((ops (F := F)).take 33) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v21, g_main_arg5]
  try rfl
theorem at7_main_arg6 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 34) V (Proc.devRef .tc main_arg6) = a6 := by
  have e : (ops (F := F)).take 34 = (ops (F := F)).take 33 ++ ((ops (F := F)).drop 33).take 1 := rfl
  rw [e, after_append]; clear e
  have g_main_v21 := at6_main_v21 V a0 a1 a2 a3 a4 a5 a6 a7 a8 h0 h1 h2 h3 h4 h5 h6 h7 h8
  have g_main_arg6 := at6_main_arg6 V a0 a1 a2 a3 a4 a5 a6 a7 a8 h0 h1 h2 h3 h4 h5 h6 h7 h8
  generalize after ((ops (F := F)).take 33) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v21, g_main_arg6]
  try rfl
theorem at7_main_arg7 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 34) V (Proc.devRef .tc main_arg7) = a7 := by
  have e : (ops (F := F)).take 34 = (ops (F := F)).take 33 ++ ((ops (F := F)).drop 33).take 1 := rfl
  rw [e, after_append]; clear e
  have g_main_v21 := at6_main_v21 V a0 a1 a2 a3 a4 a5 a6 a7 a8 h0 h1 h2 h3 h4 h5 h6 h7 h8
  have g_main_arg7 := at6_main_arg7 V a0 a1 a2 a3 a4 a5 a6 a7 a8 h0 h1 h2 h3 h4 h5 h6 h7 h8
  generalize after ((ops (F := F)).take 33) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v21, g_main_arg7]
  try rfl
theorem at7_main_arg8 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 34) V (Proc.devRef .tc main_arg8) = a8 := by
  have e : (ops (F := F)).take 34 = (ops (F := F)).take 33 ++ ((ops (F := F)).drop 33).take 1 := rfl
  rw [e, after_append]; clear e
  have g_main_v21 := at6_main_v21 V a0 a1 a2 a3 a4 a5 a6 a7 a8 h0 h1 h2 h3 h4 h5 h6 h7 h8
  have g_main_arg8 := at6_main_arg8 V a0 a1 a2 a3 a4 a5 a6 a7 a8 h0 h1 h2 h3 h4 h5 h6 h7 h8
  generalize after ((ops (F := F)).take 33) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v21, g_main_arg8]
  try rfl
theorem at7_main_v19 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 34) V (Proc.devRef .tc main_v19) = val_main_v19 (F := F) a0 a7 a8 := by
  have e : (ops (F := F)).take 34 = (ops (F := F)).take 33 ++ ((ops (F := F)).drop 33).take 1 := rfl
  rw [e, after_append]; clear e
  have g_main_v21 := at6_main_v21 V a0 a1 a2 a3 a4 a5 a6 a7 a8 h0 h1 h2 h3 h4 h5 h6 h7 h8
  have g_main_v19 := at6_main_v19 V a0 a1 a2 a3 a4 a5 a6 a7 a8 h0 h1 h2 h3 h4 h5 h6 h7 h8
  generalize after ((ops (F := F)).take 33) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v21, g_main_v19]
  try rfl
theorem at7_main_v21 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 34) V (Proc.devRef .tc main_v21) = val_main_v21 (F := F) a0 a7 a8 := by
  have e : (ops (F := F)).take 34 = (ops (F := F)).take 33 ++ ((ops (F := F)).drop 33).take 1 := rfl
  rw [e, after_append]; clear e
  have g_main_v21 := at6_main_v21 V a0 a1 a2 a3 a4 a5 a6 a7 a8 h0 h1 h2 h3 h4 h5 h6 h7 h8
  generalize after ((ops (F := F)).take 33) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v21]
  try rfl
theorem at7_main_v23 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 34) V (Proc.devRef .tc main_v23) = val_main_v23 (F := F) a0 a7 a8 := by
  have e : (ops (F := F)).take 34 = (ops (F := F)).take 33 ++ ((ops (F := F)).drop 33).take 1 := rfl
  rw [e, after_append]; clear e
  have g_main_v21 := at6_main_v21 V a0 a1 a2 a3 a4 a5 a6 a7 a8 h0 h1 h2 h3 h4 h5 h6 h7 h8
  have g_main_v23 := at6_main_v23 V a0 a1 a2 a3 a4 a5 a6 a7 a8 h0 h1 h2 h3 h4 h5 h6 h7 h8
  generalize after ((ops (F := F)).take 33) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v21, g_main_v23]
  try rfl
theorem at7_main_v24 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 34) V (Proc.devRef .tc main_v24) = val_main_v24 (F := F) a0 a7 a8 := by
  have e : (ops (F := F)).take 34 = (ops (F := F)).take 33 ++ ((ops (F := F)).drop 33).take 1 := rfl
  rw [e, after_append]; clear e
  have g_main_v21 := at6_main_v21 V a0 a1 a2 a3 a4 a5 a6 a7 a8 h0 h1 h2 h3 h4 h5 h6 h7 h8
  have g_main_v24 := at6_main_v24 V a0 a1 a2 a3 a4 a5 a6 a7 a8 h0 h1 h2 h3 h4 h5 h6 h7 h8
  generalize after ((ops (F := F)).take 33) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v21, g_main_v24]
  try rfl
theorem at7_main_v25 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 34) V (Proc.devRef .tc main_v25) = val_main_v25 (F := F) a0 a7 a8 := by
  have e : (ops (F := F)).take 34 = (ops (F := F)).take 33 ++ ((ops (F := F)).drop 33).take 1 := rfl
  rw [e, after_append]; clear e
  have g_main_v21 := at6_main_v21 V a0 a1 a2 a3 a4 a5 a6 a7 a8 h0 h1 h2 h3 h4 h5 h6 h7 h8
  generalize after ((ops (F := F)).take 33) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v21]
  try rfl
theorem at8_main_arg1 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 35) V (Proc.devRef .tc main_arg1) = a1 := by
  have e : (ops (F := F)).take 35 = (ops (F := F)).take 34 ++ ((ops (F := F)).drop 34).take 1 := rfl
  rw [e, after_append]; clear e
  have g_main_v23 := at7_main_v23 V a0 a1 a2 a3 a4 a5 a6 a7 a8 h0 h1 h2 h3 h4 h5 h6 h7 h8
  have g_main_arg1 := at7_main_arg1 V a0 a1 a2 a3 a4 a5 a6 a7 a8 h0 h1 h2 h3 h4 h5 h6 h7 h8
  generalize after ((ops (F := F)).take 34) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v23, g_main_arg1]
  try rfl
theorem at8_main_arg2 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 35) V (Proc.devRef .tc main_arg2) = a2 := by
  have e : (ops (F := F)).take 35 = (ops (F := F)).take 34 ++ ((ops (F := F)).drop 34).take 1 := rfl
  rw [e, after_append]; clear e
  have g_main_v23 := at7_main_v23 V a0 a1 a2 a3 a4 a5 a6 a7 a8 h0 h1 h2 h3 h4 h5 h6 h7 h8
  have g_main_arg2 := at7_main_arg2 V a0 a1 a2 a3 a4 a5 a6 a7 a8 h0 h1 h2 h3 h4 h5 h6 h7 h8
  generalize after ((ops (F := F)).take 34) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v23, g_main_arg2]
  try rfl
theorem at8_main_arg3 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 35) V (Proc.devRef .tc main_arg3) = a3 := by
  have e : (ops (F := F)).take 35 = (ops (F := F)).take 34 ++ ((ops (F := F)).drop 34).take 1 := rfl
  rw [e, after_append]; clear e
  have g_main_v23 := at7_main_v23 V a0 a1 a2 a3 a4 a5 a6 a7 a8 h0 h1 h2 h3 h4 h5 h6 h7 h8
  have g_main_arg3 := at7_main_arg3 V a0 a1 a2 a3 a4 a5 a6 a7 a8 h0 h1 h2 h3 h4 h5 h6 h7 h8
  generalize after ((ops (F := F)).take 34) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v23, g_main_arg3]
  try rfl
theorem at8_main_arg4 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 35) V (Proc.devRef .tc main_arg4) = a4 := by
  have e : (ops (F := F)).take 35 = (ops (F := F)).take 34 ++ ((ops (F := F)).drop 34).take 1 := rfl
  rw [e, after_append]; clear e
  have g_main_v23 := at7_main_v23 V a0 a1 a2 a3 a4 a5 a6 a7 a8 h0 h1 h2 h3 h4 h5 h6 h7 h8
  have g_main_arg4 := at7_main_arg4 V a0 a1 a2 a3 a4 a5 a6 a7 a8 h0 h1 h2 h3 h4 h5 h6 h7 h8
  generalize after ((ops (F := F)).take 34) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v23, g_main_arg4]
  try rfl
theorem at8_main_arg5 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 35) V (Proc.devRef .tc main_arg5) = a5 := by
  have e : (ops (F := F)).take 35 = (ops (F := F)).take 34 ++ ((ops (F := F)).drop 34).take 1 := rfl
  rw [e, after_append]; clear e
  have g_main_v23 := at7_main_v23 V a0 a1 a2 a3 a4 a5 a6 a7 a8 h0 h1 h2 h3 h4 h5 h6 h7 h8
  have g_main_arg5 := at7_main_arg5 V a0 a1 a2 a3 a4 a5 a6 a7 a8 h0 h1 h2 h3 h4 h5 h6 h7 h8
  generalize after ((ops (F := F)).take 34) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v23, g_main_arg5]
  try rfl
theorem at8_main_arg6 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 35) V (Proc.devRef .tc main_arg6) = a6 := by
  have e : (ops (F := F)).take 35 = (ops (F := F)).take 34 ++ ((ops (F := F)).drop 34).take 1 := rfl
  rw [e, after_append]; clear e
  have g_main_v23 := at7_main_v23 V a0 a1 a2 a3 a4 a5 a6 a7 a8 h0 h1 h2 h3 h4 h5 h6 h7 h8
  have g_main_arg6 := at7_main_arg6 V a0 a1 a2 a3 a4 a5 a6 a7 a8 h0 h1 h2 h3 h4 h5 h6 h7 h8
  generalize after ((ops (F := F)).take 34) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v23, g_main_arg6]
  try rfl
theorem at8_main_arg7 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 35) V (Proc.devRef .tc main_arg7) = a7 := by
  have e : (ops (F := F)).take 35 = (ops (F := F)).take 34 ++ ((ops (F := F)).drop 34).take 1 := rfl
  rw [e, after_append]; clear e
  have g_main_v23 := at7_main_v23 V a0 a1 a2 a3 a4 a5 a6 a7 a8 h0 h1 h2 h3 h4 h5 h6 h7 h8
  have g_main_arg7 := at7_main_arg7 V a0 a1 a2 a3 a4 a5 a6 a7 a8 h0 h1 h2 h3 h4 h5 h6 h7 h8
  generalize after ((ops (F := F)).take 34) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v23, g_main_arg7]
  try rfl
theorem at8_main_arg8 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 35) V (Proc.devRef .tc main_arg8) = a8 := by
  have e : (ops (F := F)).take 35 = (ops (F := F)).take 34 ++ ((ops (F := F)).drop 34).take 1 := rfl
  rw [e, after_append]; clear e
  have g_main_v23 := at7_main_v23 V a0 a1 a2 a3 a4 a5 a6 a7 a8 h0 h1 h2 h3 h4 h5 h6 h7 h8
  have g_main_arg8 := at7_main_arg8 V a0 a1 a2 a3 a4 a5 a6 a7 a8 h0 h1 h2 h3 h4 h5 h6 h7 h8
  generalize after ((ops (F := F)).take 34) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v23, g_main_arg8]
  try rfl
theorem at8_main_v19 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 35) V (Proc.devRef .tc main_v19) = val_main_v19 (F := F) a0 a7 a8 := by
  have e : (ops (F := F)).take 35 = (ops (F := F)).take 34 ++ ((ops (F := F)).drop 34).take 1 := rfl
  rw [e, after_append]; clear e
  have g_main_v23 := at7_main_v23 V a0 a1 a2 a3 a4 a5 a6 a7 a8 h0 h1 h2 h3 h4 h5 h6 h7 h8
  have g_main_v19 := at7_main_v19 V a0 a1 a2 a3 a4 a5 a6 a7 a8 h0 h1 h2 h3 h4 h5 h6 h7 h8
  generalize after ((ops (F := F)).take 34) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v23, g_main_v19]
  try rfl
theorem at8_main_v21 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 35) V (Proc.devRef .tc main_v21) = val_main_v21 (F := F) a0 a7 a8 := by
  have e : (ops (F := F)).take 35 = (ops (F := F)).take 34 ++ ((ops (F := F)).drop 34).take 1 := rfl
  rw [e, after_append]; clear e
  have g_main_v23 := at7_main_v23 V a0 a1 a2 a3 a4 a5 a6 a7 a8 h0 h1 h2 h3 h4 h5 h6 h7 h8
  have g_main_v21 := at7_main_v21 V a0 a1 a2 a3 a4 a5 a6 a7 a8 h0 h1 h2 h3 h4 h5 h6 h7 h8
  generalize after ((ops (F := F)).take 34) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v23, g_main_v21]
  try rfl
theorem at8_main_v23 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 35) V (Proc.devRef .tc main_v23) = val_main_v23 (F := F) a0 a7 a8 := by
  have e : (ops (F := F)).take 35 = (ops (F := F)).take 34 ++ ((ops (F := F)).drop 34).take 1 := rfl
  rw [e, after_append]; clear e
  have g_main_v23 := at7_main_v23 V a0 a1 a2 a3 a4 a5 a6 a7 a8 h0 h1 h2 h3 h4 h5 h6 h7 h8
  generalize after ((ops (F := F)).take 34) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v23]
  try rfl
theorem at8_main_v24 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 35) V (Proc.devRef .tc main_v24) = val_main_v24 (F := F) a0 a7 a8 := by
  have e : (ops (F := F)).take 35 = (ops (F := F)).take 34 ++ ((ops (F := F)).drop 34).take 1 := rfl
  rw [e, after_append]; clear e
  have g_main_v23 := at7_main_v23 V a0 a1 a2 a3 a4 a5 a6 a7 a8 h0 h1 h2 h3 h4 h5 h6 h7 h8
  have g_main_v24 := at7_main_v24 V a0 a1 a2 a3 a4 a5 a6 a7 a8 h0 h1 h2 h3 h4 h5 h6 h7 h8
  generalize after ((ops (F := F)).take 34) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v23, g_main_v24]
  try rfl
theorem at8_main_v25 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 35) V (Proc.devRef .tc main_v25) = val_main_v25 (F := F) a0 a7 a8 := by
  have e : (ops (F := F)).take 35 = (ops (F := F)).take 34 ++ ((ops (F := F)).drop 34).take 1 := rfl
  rw [e, after_append]; clear e
  have g_main_v23 := at7_main_v23 V a0 a1 a2 a3 a4 a5 a6 a7 a8 h0 h1 h2 h3 h4 h5 h6 h7 h8
  have g_main_v25 := at7_main_v25 V a0 a1 a2 a3 a4 a5 a6 a7 a8 h0 h1 h2 h3 h4 h5 h6 h7 h8
  generalize after ((ops (F := F)).take 34) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v23, g_main_v25]
  try rfl
theorem at8_main_v26 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 35) V (Proc.devRef .tc main_v26) = val_main_v26 (F := F) a0 a7 a8 := by
  have e : (ops (F := F)).take 35 = (ops (F := F)).take 34 ++ ((ops (F := F)).drop 34).take 1 := rfl
  rw [e, after_append]; clear e
  have g_main_v23 := at7_main_v23 V a0 a1 a2 a3 a4 a5 a6 a7 a8 h0 h1 h2 h3 h4 h5 h6 h7 h8
  generalize after ((ops (F := F)).take 34) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v23]
  try rfl
theorem at9_main_arg1 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 46) V (Proc.devRef .tc main_arg1) = a1 := by
  have e : (ops (F := F)).take 46 = (ops (F := F)).take 35 ++ ((ops (F := F)).drop 35).take 11 := rfl
  rw [e, after_append]; clear e
  have g_main_v19 := at8_main_v19 V a0 a1 a2 a3 a4 a5 a6 a7 a8 h0 h1 h2 h3 h4 h5 h6 h7 h8
  have g_main_v21 := at8_main_v21 V a0 a1 a2 a3 a4 a5 a6 a7 a8 h0 h1 h2 h3 h4 h5 h6 h7 h8
  have g_main_v23 := at8_main_v23 V a0 a1 a2 a3 a4 a5 a6 a7 a8 h0 h1 h2 h3 h4 h5 h6 h7 h8
  have g_main_arg1 := at8_main_arg1 V a0 a1 a2 a3 a4 a5 a6 a7 a8 h0 h1 h2 h3 h4 h5 h6 h7 h8
  generalize after ((ops (F := F)).take 35) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v19, g_main_v21, g_main_v23, g_main_arg1]
  try rfl
theorem at9_main_arg2 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 46) V (Proc.devRef .tc main_arg2) = a2 := by
  have e : (ops (F := F)).take 46 = (ops (F := F)).take 35 ++ ((ops (F := F)).drop 35).take 11 := rfl
  rw [e, after_append]; clear e
  have g_main_v19 := at8_main_v19 V a0 a1 a2 a3 a4 a5 a6 a7 a8 h0 h1 h2 h3 h4 h5 h6 h7 h8
  have g_main_v21 := at8_main_v21 V a0 a1 a2 a3 a4 a5 a6 a7 a8 h0 h1 h2 h3 h4 h5 h6 h7 h8
  have g_main_v23 := at8_main_v23 V a0 a1 a2 a3 a4 a5 a6 a7 a8 h0 h1 h2 h3 h4 h5 h6 h7 h8
  have g_main_arg2 := at8_main_arg2 V a0 a1 a2 a3 a4 a5 a6 a7 a8 h0 h1 h2 h3 h4 h5 h6 h7 h8
  generalize after ((ops (F := F)).take 35) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v19, g_main_v21, g_main_v23, g_main_arg2]
  try rfl
theorem at9_main_arg3 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 46) V (Proc.devRef .tc main_arg3) = a3 := by
  have e : (ops (F := F)).take 46 = (ops (F := F)).take 35 ++ ((ops (F := F)).drop 35).take 11 := rfl
  rw [e, after_append]; clear e
  have g_main_v19 := at8_main_v19 V a0 a1 a2 a3 a4 a5 a6 a7 a8 h0 h1 h2 h3 h4 h5 h6 h7 h8
  have g_main_v21 := at8_main_v21 V a0 a1 a2 a3 a4 a5 a6 a7 a8 h0 h1 h2 h3 h4 h5 h6 h7 h8
  have g_main_v23 := at8_main_v23 V a0 a1 a2 a3 a4 a5 a6 a7 a8 h0 h1 h2 h3 h4 h5 h6 h7 h8
  have g_main_arg3 := at8_main_arg3 V a0 a1 a2 a3 a4 a5 a6 a7 a8 h0 h1 h2 h3 h4 h5 h6 h7 h8
  generalize after ((ops (F := F)).take 35) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v19, g_main_v21, g_main_v23, g_main_arg3]
  try rfl
theorem at9_main_arg4 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 46) V (Proc.devRef .tc main_arg4) = a4 := by
  have e : (ops (F := F)).take 46 = (ops (F := F)).take 35 ++ ((ops (F := F)).drop 35).take 11 := rfl
  rw [e, after_append]; clear e
  have g_main_v19 := at8_main_v19 V a0 a1 a2 a3 a4 a5 a6 a7 a8 h0 h1 h2 h3 h4 h5 h6 h7 h8
  have g_main_v21 := at8_main_v21 V a0 a1 a2 a3 a4 a5 a6 a7 a8 h0 h1 h2 h3 h4 h5 h6 h7 h8
  have g_main_v23 := at8_main_v23 V a0 a1 a2 a3 a4 a5 a6 a7 a8 h0 h1 h2 h3 h4 h5 h6 h7 h8
  have g_main_arg4 := at8_main_arg4 V a0 a1 a2 a3 a4 a5 a6 a7 a8 h0 h1 h2 h3 h4 h5 h6 h7 h8
  generalize after ((ops (F := F)).take 35) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v19, g_main_v21, g_main_v23, g_main_arg4]
  try rfl
theorem at9_main_arg5 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 46) V (Proc.devRef .tc main_arg5) = a5 := by
  have e : (ops (F := F)).take 46 = (ops (F := F)).take 35 ++ ((ops (F := F)).drop 35).take 11 := rfl
  rw [e, after_append]; clear e
  have g_main_v19 := at8_main_v19 V a0 a1 a2 a3 a4 a5 a6 a7 a8 h0 h1 h2 h3 h4 h5 h6 h7 h8
  have g_main_v21 := at8_main_v21 V a0 a1 a2 a3 a4 a5 a6 a7 a8 h0 h1 h2 h3 h4 h5 h6 h7 h8
  have g_main_v23 := at8_main_v23 V a0 a1 a2 a3 a4 a5 a6 a7 a8 h0 h1 h2 h3 h4 h5 h6 h7 h8
  have g_main_arg5 := at8_main_arg5 V a0 a1 a2 a3 a4 a5 a6 a7 a8 h0 h1 h2 h3 h4 h5 h6 h7 h8
  generalize after ((ops (F := F)).take 35) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v19, g_main_v21, g_main_v23, g_main_arg5]
  try rfl
theorem at9_main_arg6 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 46) V (Proc.devRef .tc main_arg6) = a6 := by
  have e : (ops (F := F)).take 46 = (ops (F := F)).take 35 ++ ((ops (F := F)).drop 35).take 11 := rfl
  rw [e, after_append]; clear e
  have g_main_v19 := at8_main_v19 V a0 a1 a2 a3 a4 a5 a6 a7 a8 h0 h1 h2 h3 h4 h5 h6 h7 h8
  have g_main_v21 := at8_main_v21 V a0 a1 a2 a3 a4 a5 a6 a7 a8 h0 h1 h2 h3 h4 h5 h6 h7 h8
  have g_main_v23 := at8_main_v23 V a0 a1 a2 a3 a4 a5 a6 a7 a8 h0 h1 h2 h3 h4 h5 h6 h7 h8
  have g_main_arg6 := at8_main_arg6 V a0 a1 a2 a3 a4 a5 a6 a7 a8 h0 h1 h2 h3 h4 h5 h6 h7 h8
  generalize after ((ops (F := F)).take 35) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v19, g_main_v21, g_main_v23, g_main_arg6]
  try rfl
theorem at9_main_arg7 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 46) V (Proc.devRef .tc main_arg7) = a7 := by
  have e : (ops (F := F)).take 46 = (ops (F := F)).take 35 ++ ((ops (F := F)).drop 35).take 11 := rfl
  rw [e, after_append]; clear e
  have g_main_v19 := at8_main_v19 V a0 a1 a2 a3 a4 a5 a6 a7 a8 h0 h1 h2 h3 h4 h5 h6 h7 h8
  have g_main_v21 := at8_main_v21 V a0 a1 a2 a3 a4 a5 a6 a7 a8 h0 h1 h2 h3 h4 h5 h6 h7 h8
  have g_main_v23 := at8_main_v23 V a0 a1 a2 a3 a4 a5 a6 a7 a8 h0 h1 h2 h3 h4 h5 h6 h7 h8
  have g_main_arg7 := at8_main_arg7 V a0 a1 a2 a3 a4 a5 a6 a7 a8 h0 h1 h2 h3 h4 h5 h6 h7 h8
  generalize after ((ops (F := F)).take 35) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v19, g_main_v21, g_main_v23, g_main_arg7]
  try rfl
theorem at9_main_arg8 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 46) V (Proc.devRef .tc main_arg8) = a8 := by
  have e : (ops (F := F)).take 46 = (ops (F := F)).take 35 ++ ((ops (F := F)).drop 35).take 11 := rfl
  rw [e, after_append]; clear e
  have g_main_v19 := at8_main_v19 V a0 a1 a2 a3 a4 a5 a6 a7 a8 h0 h1 h2 h3 h4 h5 h6 h7 h8
  have g_main_v21 := at8_main_v21 V a0 a1 a2 a3 a4 a5 a6 a7 a8 h0 h1 h2 h3 h4 h5 h6 h7 h8
  have g_main_v23 := at8_main_v23 V a0 a1 a2 a3 a4 a5 a6 a7 a8 h0 h1 h2 h3 h4 h5 h6 h7 h8
  have g_main_arg8 := at8_main_arg8 V a0 a1 a2 a3 a4 a5 a6 a7 a8 h0 h1 h2 h3 h4 h5 h6 h7 h8
  generalize after ((ops (F := F)).take 35) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v19, g_main_v21, g_main_v23, g_main_arg8]
  try rfl
theorem at9_main_v19 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 46) V (Proc.devRef .tc main_v19) = val_main_v19 (F := F) a0 a7 a8 := by
  have e : (ops (F := F)).take 46 = (ops (F := F)).take 35 ++ ((ops (F := F)).drop 35).take 11 := rfl
  rw [e, after_append]; clear e
  have g_main_v19 := at8_main_v19 V a0 a1 a2 a3 a4 a5 a6 a7 a8 h0 h1 h2 h3 h4 h5 h6 h7 h8
  have g_main_v21 := at8_main_v21 V a0 a1 a2 a3 a4 a5 a6 a7 a8 h0 h1 h2 h3 h4 h5 h6 h7 h8
  have g_main_v23 := at8_main_v23 V a0 a1 a2 a3 a4 a5 a6 a7 a8 h0 h1 h2 h3 h4 h5 h6 h7 h8
  generalize after ((ops (F := F)).take 35) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v19, g_main_v21, g_main_v23]
  try rfl
theorem at9_main_v21 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 46) V (Proc.devRef .tc main_v21) = val_main_v21 (F := F) a0 a7 a8 := by
  have e : (ops (F := F)).take 46 = (ops (F := F)).take 35 ++ ((ops (F := F)).drop 35).take 11 := rfl
  rw [e, after_append]; clear e
  have g_main_v19 := at8_main_v19 V a0 a1 a2 a3 a4 a5 a6 a7 a8 h0 h1 h2 h3 h4 h5 h6 h7 h8
  have g_main_v21 := at8_main_v21 V a0 a1 a2 a3 a4 a5 a6 a7 a8 h0 h1 h2 h3 h4 h5 h6 h7 h8
  have g_main_v23 := at8_main_v23 V a0 a1 a2 a3 a4 a5 a6 a7 a8 h0 h1 h2 h3 h4 h5 h6 h7 h8
  generalize after ((ops (F := F)).take 35) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v19, g_main_v21, g_main_v23]
  try rfl
theorem at9_main_v23 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 46) V (Proc.devRef .tc main_v23) = val_main_v23 (F := F) a0 a7 a8 := by
  have e : (ops (F := F)).take 46 = (ops (F := F)).take 35 ++ ((ops (F := F)).drop 35).take 11 := rfl
  rw [e, after_append]; clear e
  have g_main_v19 := at8_main_v19 V a0 a1 a2 a3 a4 a5 a6 a7 a8 h0 h1 h2 h3 h4 h5 h6 h7 h8
  have g_main_v21 := at8_main_v21 V a0 a1 a2 a3 a4 a5 a6 a7 a8 h0 h1 h2 h3 h4 h5 h6 h7 h8
  have g_main_v23 := at8_main_v23 V a0 a1 a2 a3 a4 a5 a6 a7 a8 h0 h1 h2 h3 h4 h5 h6 h7 h8
  generalize after ((ops (F := F)).take 35) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v19, g_main_v21, g_main_v23]
  try rfl
theorem at9_main_v24 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 46) V (Proc.devRef .tc main_v24) = val_main_v24 (F := F) a0 a7 a8 := by
  have e : (ops (F := F)).take 46 = (ops (F := F)).take 35 ++ ((ops (F := F)).drop 35).take 11 := rfl
  rw [e, after_append]; clear e
  have g_main_v19 := at8_main_v19 V a0 a1 a2 a3 a4 a5 a6 a7 a8 h0 h1 h2 h3 h4 h5 h6 h7 h8
  have g_main_v21 := at8_main_v21 V a0 a1 a2 a3 a4 a5 a6 a7 a8 h0 h1 h2 h3 h4 h5 h6 h7 h8
  have g_main_v23 := at8_main_v23 V a0 a1 a2 a3 a4 a5 a6 a7 a8 h0 h1 h2 h3 h4 h5 h6 h7 h8
  have g_main_v24 := at8_main_v24 V a0 a1 a2 a3 a4 a5 a6 a7 a8 h0 h1 h2 h3 h4 h5 h6 h7 h8
  generalize after ((ops (F := F)).take 35) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v19, g_main_v21, g_main_v23, g_main_v24]
  try rfl
theorem at9_main_v25 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 46) V (Proc.devRef .tc main_v25) = val_main_v25 (F := F) a0 a7 a8 := by
  have e : (ops (F := F)).take 46 = (ops (F := F)).take 35 ++ ((ops (F := F)).drop 35).take 11 := rfl
  rw [e, after_append]; clear e
  have g_main_v19 := at8_main_v19 V a0 a1 a2 a3 a4 a5 a6 a7 a8 h0 h1 h2 h3 h4 h5 h6 h7 h8
  have g_main_v21 := at8_main_v21 V a0 a1 a2 a3 a4 a5 a6 a7 a8 h0 h1 h2 h3 h4 h5 h6 h7 h8
  have g_main_v23 := at8_main_v23 V a0 a1 a2 a3 a4 a5 a6 a7 a8 h0 h1 h2 h3 h4 h5 h6 h7 h8
  have g_main_v25 := at8_main_v25 V a0 a1 a2 a3 a4 a5 a6 a7 a8 h0 h1 h2 h3 h4 h5 h6 h7 h8
  generalize after ((ops (F := F)).take 35) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v19, g_main_v21, g_main_v23, g_main_v25]
  try rfl
theorem at9_main_v26 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 46) V (Proc.devRef .tc main_v26) = val_main_v26 (F := F) a0 a7 a8 := by
  have e : (ops (F := F)).take 46 = (ops (F := F)).take 35 ++ ((ops (F := F)).drop 35).take 11 := rfl
  rw [e, after_append]; clear e
  have g_main_v19 := at8_main_v19 V a0 a1 a2 a3 a4 a5 a6 a7 a8 h0 h1 h2 h3 h4 h5 h6 h7 h8
  have g_main_v21 := at8_main_v21 V a0 a1 a2 a3 a4 a5 a6 a7 a8 h0 h1 h2 h3 h4 h5 h6 h7 h8
  have g_main_v23 := at8_main_v23 V a0 a1 a2 a3 a4 a5 a6 a7 a8 h0 h1 h2 h3 h4 h5 h6 h7 h8
  have g_main_v26 := at8_main_v26 V a0 a1 a2 a3 a4 a5 a6 a7 a8 h0 h1 h2 h3 h4 h5 h6 h7 h8
  generalize after ((ops (F := F)).take 35) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v19, g_main_v21, g_main_v23, g_main_v26]
  try rfl
theorem at9_main_v32 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 46) V (Proc.devRef .tc main_v32) = val_main_v32 (F := F) a0 a7 a8 := by
  have e : (ops (F := F)).take 46 = (ops (F := F)).take 35 ++ ((ops (F := F)).drop 35).take 11 := rfl
  rw [e, after_append]; clear e
  have g_main_v19 := at8_main_v19 V a0 a1 a2 a3 a4 a5 a6 a7 a8 h0 h1 h2 h3 h4 h5 h6 h7 h8
  have g_main_v21 := at8_main_v21 V a0 a1 a2 a3 a4 a5 a6 a7 a8 h0 h1 h2 h3 h4 h5 h6 h7 h8
  have g_main_v23 := at8_main_v23 V a0 a1 a2 a3 a4 a5 a6 a7 a8 h0 h1 h2 h3 h4 h5 h6 h7 h8
  generalize after ((ops (F := F)).take 35) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v19, g_main_v21, g_main_v23]
  try rfl
theorem at9_main_v35 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 46) V (Proc.devRef .tc main_v35) = val_main_v35 (F := F) a0 a7 a8 := by
  have e : (ops (F := F)).take 46 = (ops (F := F)).take 35 ++ ((ops (F := F)).drop 35).take 11 := rfl
  rw [e, after_append]; clear e
  have g_main_v19 := at8_main_v19 V a0 a1 a2 a3 a4 a5 a6 a7 a8 h0 h1 h2 h3 h4 h5 h6 h7 h8
  have g_main_v21 := at8_main_v21 V a0 a1 a2 a3 a4 a5 a6 a7 a8 h0 h1 h2 h3 h4 h5 h6 h7 h8
  have g_main_v23 := at8_main_v23 V a0 a1 a2 a3 a4 a5 a6 a7 a8 h0 h1 h2 h3 h4 h5 h6 h7 h8
  generalize after ((ops (F := F)).take 35) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v19, g_main_v21, g_main_v23]
  try rfl
theorem at10_main_arg1 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 63) V (Proc.devRef .tc main_arg1) = a1 := by
  have e : (ops (F := F)).take 63 = (ops (F := F)).take 46 ++ ((ops (F := F)).drop 46).take 17 := rfl
  rw [e, after_append]; clear e
  have g_main_v19 := at9_main_v19 V a0 a1 a2 a3 a4 a5 a6 a7 a8 h0 h1 h2 h3 h4 h5 h6 h7 h8
  have g_main_v21 := at9_main_v21 V a0 a1 a2 a3 a4 a5 a6 a7 a8 h0 h1 h2 h3 h4 h5 h6 h7 h8
  have g_main_v24 := at9_main_v24 V a0 a1 a2 a3 a4 a5 a6 a7 a8 h0 h1 h2 h3 h4 h5 h6 h7 h8
  have g_main_v26 := at9_main_v26 V a0 a1 a2 a3 a4 a5 a6 a7 a8 h0 h1 h2 h3 h4 h5 h6 h7 h8
  have g_main_v25 := at9_main_v25 V a0 a1 a2 a3 a4 a5 a6 a7 a8 h0 h1 h2 h3 h4 h5 h6 h7 h8
  have g_main_v23 := at9_main_v23 V a0 a1 a2 a3 a4 a5 a6 a7 a8 h0 h1 h2 h3 h4 h5 h6 h7 h8
  have g_main_arg1 := at9_main_arg1 V a0 a1 a2 a3 a4 a5 a6 a7 a8 h0 h1 h2 h3 h4 h5 h6 h7 h8
  generalize after ((ops (F := F)).take 46) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v19, g_main_v21, g_main_v24, g_main_v26, g_main_v25, g_main_v23, g_main_arg1]
  try rfl
theorem at10_main_arg2 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 63) V (Proc.devRef .tc main_arg2) = a2 := by
  have e : (ops (F := F)).take 63 = (ops (F := F)).take 46 ++ ((ops (F := F)).drop 46).take 17 := rfl
  rw [e, after_append]; clear e
  have g_main_v19 := at9_main_v19 V a0 a1 a2 a3 a4 a5 a6 a7 a8 h0 h1 h2 h3 h4 h5 h6 h7 h8
  have g_main_v21 := at9_main_v21 V a0 a1 a2 a3 a4 a5 a6 a7 a8 h0 h1 h2 h3 h4 h5 h6 h7 h8
  have g_main_v24 := at9_main_v24 V a0 a1 a2 a3 a4 a5 a6 a7 a8 h0 h1 h2 h3 h4 h5 h6 h7 h8
  have g_main_v26 := at9_main_v26 V a0 a1 a2 a3 a4 a5 a6 a7 a8 h0 h1 h2 h3 h4 h5 h6 h7 h8
  have g_main_v25 := at9_main_v25 V a0 a1 a2 a3 a4 a5 a6 a7 a8 h0 h1 h2 h3 h4 h5 h6 h7 h8
  have g_main_v23 := at9_main_v23 V a0 a1 a2 a3 a4 a5 a6 a7 a8 h0 h1 h2 h3 h4 h5 h6 h7 h8
  have g_main_arg2 := at9_main_arg2 V a0 a1 a2 a3 a4 a5 a6 a7 a8 h0 h1 h2 h3 h4 h5 h6 h7 h8
  generalize after ((ops (F := F)).take 46) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v19, g_main_v21, g_main_v24, g_main_v26, g_main_v25, g_main_v23, g_main_arg2]
  try rfl
theorem at10_main_arg3 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 63) V (Proc.devRef .tc main_arg3) = a3 := by
  have e : (ops (F := F)).take 63 = (ops (F := F)).take 46 ++ ((ops (F := F)).drop 46).take 17 := rfl
  rw [e, after_append]; clear e
  have g_main_v19 := at9_main_v19 V a0 a1 a2 a3 a4 a5 a6 a7 a8 h0 h1 h2 h3 h4 h5 h6 h7 h8
  have g_main_v21 := at9_main_v21 V a0 a1 a2 a3 a4 a5 a6 a7 a8 h0 h1 h2 h3 h4 h5 h6 h7 h8
  have g_main_v24 := at9_main_v24 V a0 a1 a2 a3 a4 a5 a6 a7 a8 h0 h1 h2 h3 h4 h5 h6 h7 h8
  have g_main_v26 := at9_main_v26 V a0 a1 a2 a3 a4 a5 a6 a7 a8 h0 h1 h2 h3 h4 h5 h6 h7 h8
  have g_main_v25 := at9_main_v25 V a0 a1 a2 a3 a4 a5 a6 a7 a8 h0 h1 h2 h3 h4 h5 h6 h7 h8
  have g_main_v23 := at9_main_v23 V a0 a1 a2 a3 a4 a5 a6 a7 a8 h0 h1 h2 h3 h4 h5 h6 h7 h8
  have g_main_arg3 := at9_main_arg3 V a0 a1 a2 a3 a4 a5 a6 a7 a8 h0 h1 h2 h3 h4 h5 h6 h7 h8
  generalize after ((ops (F := F)).take 46) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v19, g_main_v21, g_main_v24, g_main_v26, g_main_v25, g_main_v23, g_main_arg3]
  try rfl
theorem at10_main_arg4 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 63) V (Proc.devRef .tc main_arg4) = a4 := by
  have e : (ops (F := F)).take 63 = (ops (F := F)).take 46 ++ ((ops (F := F)).drop 46).take 17 := rfl
  rw [e, after_append]; clear e
  have g_main_v19 := at9_main_v19 V a0 a1 a2 a3 a4 a5 a6 a7 a8 h0 h1 h2 h3 h4 h5 h6 h7 h8
  have g_main_v21 := at9_main_v21 V a0 a1 a2 a3 a4 a5 a6 a7 a8 h0 h1 h2 h3 h4 h5 h6 h7 h8
  have g_main_v24 := at9_main_v24 V a0 a1 a2 a3 a4 a5 a6 a7 a8 h0 h1 h2 h3 h4 h5 h6 h7 h8
  have g_main_v26 := at9_main_v26 V a0 a1 a2 a3 a4 a5 a6 a7 a8 h0 h1 h2 h3 h4 h5 h6 h7 h8
  have g_main_v25 := at9_main_v25 V a0 a1 a2 a3 a4 a5 a6 a7 a8 h0 h1 h2 h3 h4 h5 h6 h7 h8
  have g_main_v23 := at9_main_v23 V a0 a1 a2 a3 a4 a5 a6 a7 a8 h0 h1 h2 h3 h4 h5 h6 h7 h8
  have g_main_arg4 := at9_main_arg4 V a0 a1 a2 a3 a4 a5 a6 a7 a8 h0 h1 h2 h3 h4 h5 h6 h7 h8
  generalize after ((ops (F := F)).take 46) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v19, g_main_v21, g_main_v24, g_main_v26, g_main_v25, g_main_v23, g_main_arg4]
  try rfl
theorem at10_main_arg5 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 63) V (Proc.devRef .tc main_arg5) = a5 := by
  have e : (ops (F := F)).take 63 = (ops (F := F)).take 46 ++ ((ops (F := F)).drop 46).take 17 := rfl
  rw [e, after_append]; clear e
  have g_main_v19 := at9_main_v19 V a0 a1 a2 a3 a4 a5 a6 a7 a8 h0 h1 h2 h3 h4 h5 h6 h7 h8
  have g_main_v21 := at9_main_v21 V a0 a1 a2 a3 a4 a5 a6 a7 a8 h0 h1 h2 h3 h4 h5 h6 h7 h8
  have g_main_v24 := at9_main_v24 V a0 a1 a2 a3 a4 a5 a6 a7 a8 h0 h1 h2 h3 h4 h5 h6 h7 h8
  have g_main_v26 := at9_main_v26 V a0 a1 a2 a3 a4 a5 a6 a7 a8 h0 h1 h2 h3 h4 h5 h6 h7 h8
  have g_main_v25 := at9_main_v25 V a0 a1 a2 a3 a4 a5 a6 a7 a8 h0 h1 h2 h3 h4 h5 h6 h7 h8
  have g_main_v23 := at9_main_v23 V a0 a1 a2 a3 a4 a5 a6 a7 a8 h0 h1 h2 h3 h4 h5 h6 h7 h8
  have g_main_arg5 := at9_main_arg5 V a0 a1 a2 a3 a4 a5 a6 a7 a8 h0 h1 h2 h3 h4 h5 h6 h7 h8
  generalize after ((ops (F := F)).take 46) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v19, g_main_v21, g_main_v24, g_main_v26, g_main_v25, g_main_v23, g_main_arg5]
  try rfl
theorem at10_main_arg6 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 63) V (Proc.devRef .tc main_arg6) = a6 := by
  have e : (ops (F := F)).take 63 = (ops (F := F)).take 46 ++ ((ops (F := F)).drop 46).take 17 := rfl
  rw [e, after_append]; clear e
  have g_main_v19 := at9_main_v19 V a0 a1 a2 a3 a4 a5 a6 a7 a8 h0 h1 h2 h3 h4 h5 h6 h7 h8
  have g_main_v21 := at9_main_v21 V a0 a1 a2 a3 a4 a5 a6 a7 a8 h0 h1 h2 h3 h4 h5 h6 h7 h8
  have g_main_v24 := at9_main_v24 V a0 a1 a2 a3 a4 a5 a6 a7 a8 h0 h1 h2 h3 h4 h5 h6 h7 h8
  have g_main_v26 := at9_main_v26 V a0 a1 a2 a3 a4 a5 a6 a7 a8 h0 h1 h2 h3 h4 h5 h6 h7 h8
  have g_main_v25 := at9_main_v25 V a0 a1 a2 a3 a4 a5 a6 a7 a8 h0 h1 h2 h3 h4 h5 h6 h7 h8
  have g_main_v23 := at9_main_v23 V a0 a1 a2 a3 a4 a5 a6 a7 a8 h0 h1 h2 h3 h4 h5 h6 h7 h8
  have g_main_arg6 := at9_main_arg6 V a0 a1 a2 a3 a4 a5 a6 a7 a8 h0 h1 h2 h3 h4 h5 h6 h7 h8
  generalize after ((ops (F := F)).take 46) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v19, g_main_v21, g_main_v24, g_main_v26, g_main_v25, g_main_v23, g_main_arg6]
  try rfl
theorem at10_main_arg7 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 63) V (Proc.devRef .tc main_arg7) = a7 := by
  have e : (ops (F := F)).take 63 = (ops (F := F)).take 46 ++ ((ops (F := F)).drop 46).take 17 := rfl
  rw [e, after_append]; clear e
  have g_main_v19 := at9_main_v19 V a0 a1 a2 a3 a4 a5 a6 a7 a8 h0 h1 h2 h3 h4 h5 h6 h7 h8
  have g_main_v21 := at9_main_v21 V a0 a1 a2 a3 a4 a5 a6 a7 a8 h0 h1 h2 h3 h4 h5 h6 h7 h8
  have g_main_v24 := at9_main_v24 V a0 a1 a2 a3 a4 a5 a6 a7 a8 h0 h1 h2 h3 h4 h5 h6 h7 h8
  have g_main_v26 := at9_main_v26 V a0 a1 a2 a3 a4 a5 a6 a7 a8 h0 h1 h2 h3 h4 h5 h6 h7 h8
  have g_main_v25 := at9_main_v25 V a0 a1 a2 a3 a4 a5 a6 a7 a8 h0 h1 h2 h3 h4 h5 h6 h7 h8
  have g_main_v23 := at9_main_v23 V a0 a1 a2 a3 a4 a5 a6 a7 a8 h0 h1 h2 h3 h4 h5 h6 h7 h8
  have g_main_arg7 := at9_main_arg7 V a0 a1 a2 a3 a4 a5 a6 a7 a8 h0 h1 h2 h3 h4 h5 h6 h7 h8
  generalize after ((ops (F := F)).take 46) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v19, g_main_v21, g_main_v24, g_main_v26, g_main_v25, g_main_v23, g_main_arg7]
  try rfl
theorem at10_main_arg8 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 63) V (Proc.devRef .tc main_arg8) = a8 := by
  have e : (ops (F := F)).take 63 = (ops (F := F)).take 46 ++ ((ops (F := F)).drop 46).take 17 := rfl
  rw [e, after_append]; clear e
  have g_main_v19 := at9_main_v19 V a0 a1 a2 a3 a4 a5 a6 a7 a8 h0 h1 h2 h3 h4 h5 h6 h7 h8
  have g_main_v21 := at9_main_v21 V a0 a1 a2 a3 a4 a5 a6 a7 a8 h0 h1 h2 h3 h4 h5 h6 h7 h8
  have g_main_v24 := at9_main_v24 V a0 a1 a2 a3 a4 a5 a6 a7 a8 h0 h1 h2 h3 h4 h5 h6 h7 h8
  have g_main_v26 := at9_main_v26 V a0 a1 a2 a3 a4 a5 a6 a7 a8 h0 h1 h2 h3 h4 h5 h6 h7 h8
  have g_main_v25 := at9_main_v25 V a0 a1 a2 a3 a4 a5 a6 a7 a8 h0 h1 h2 h3 h4 h5 h6 h7 h8
  have g_main_v23 := at9_main_v23 V a0 a1 a2 a3 a4 a5 a6 a7 a8 h0 h1 h2 h3 h4 h5 h6 h7 h8
  have g_main_arg8 := at9_main_arg8 V a0 a1 a2 a3 a4 a5 a6 a7 a8 h0 h1 h2 h3 h4 h5 h6 h7 h8
  generalize after ((ops (F := F)).take 46) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v19, g_main_v21, g_main_v24, g_main_v26, g_main_v25, g_main_v23, g_main_arg8]
  try rfl
theorem at10_main_v19 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 63) V (Proc.devRef .tc main_v19) = val_main_v19 (F := F) a0 a7 a8 := by
  have e : (ops (F := F)).take 63 = (ops (F := F)).take 46 ++ ((ops (F := F)).drop 46).take 17 := rfl
  rw [e, after_append]; clear e
  have g_main_v19 := at9_main_v19 V a0 a1 a2 a3 a4 a5 a6 a7 a8 h0 h1 h2 h3 h4 h5 h6 h7 h8
  have g_main_v21 := at9_main_v21 V a0 a1 a2 a3 a4 a5 a6 a7 a8 h0 h1 h2 h3 h4 h5 h6 h7 h8
  have g_main_v24 := at9_main_v24 V a0 a1 a2 a3 a4 a5 a6 a7 a8 h0 h1 h2 h3 h4 h5 h6 h7 h8
  have g_main_v26 := at9_main_v26 V a0 a1 a2 a3 a4 a5 a6 a7 a8 h0 h1 h2 h3 h4 h5 h6 h7 h8
  have g_main_v25 := at9_main_v25 V a0 a1 a2 a3 a4 a5 a6 a7 a8 h0 h1 h2 h3 h4 h5 h6 h7 h8
  have g_main_v23 := at9_main_v23 V a0 a1 a2 a3 a4 a5 a6 a7 a8 h0 h1 h2 h3 h4 h5 h6 h7 h8
  generalize after ((ops (F := F)).take 46) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v19, g_main_v21, g_main_v24, g_main_v26, g_main_v25, g_main_v23]
  try rfl
theorem at10_main_v21 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 63) V (Proc.devRef .tc main_v21) = val_main_v21 (F := F) a0 a7 a8 := by
  have e : (ops (F := F)).take 63 = (ops (F := F)).take 46 ++ ((ops (F := F)).drop 46).take 17 := rfl
  rw [e, after_append]; clear e
  have g_main_v19 := at9_main_v19 V a0 a1 a2 a3 a4 a5 a6 a7 a8 h0 h1 h2 h3 h4 h5 h6 h7 h8
  have g_main_v21 := at9_main_v21 V a0 a1 a2 a3 a4 a5 a6 a7 a8 h0 h1 h2 h3 h4 h5 h6 h7 h8
  have g_main_v24 := at9_main_v24 V a0 a1 a2 a3 a4 a5 a6 a7 a8 h0 h1 h2 h3 h4 h5 h6 h7 h8
  have g_main_v26 := at9_main_v26 V a0 a1 a2 a3 a4 a5 a6 a7 a8 h0 h1 h2 h3 h4 h5 h6 h7 h8
  have g_main_v25 := at9_main_v25 V a0 a1 a2 a3 a4 a5 a6 a7 a8 h0 h1 h2 h3 h4 h5 h6 h7 h8
  have g_main_v23 := at9_main_v23 V a0 a1 a2 a3 a4 a5 a6 a7 a8 h0 h1 h2 h3 h4 h5 h6 h7 h8
  generalize after ((ops (F := F)).take 46) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v19, g_main_v21, g_main_v24, g_main_v26, g_main_v25, g_main_v23]
  try rfl
theorem at10_main_v23 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 63) V (Proc.devRef .tc main_v23) = val_main_v23 (F := F) a0 a7 a8 := by
  have e : (ops (F := F)).take 63 = (ops (F := F)).take 46 ++ ((ops (F := F)).drop 46).take 17 := rfl
  rw [e, after_append]; clear e
  have g_main_v19 := at9_main_v19 V a0 a1 a2 a3 a4 a5 a6 a7 a8 h0 h1 h2 h3 h4 h5 h6 h7 h8
  have g_main_v21 := at9_main_v21 V a0 a1 a2 a3 a4 a5 a6 a7 a8 h0 h1 h2 h3 h4 h5 h6 h7 h8
  have g_main_v24 := at9_main_v24 V a0 a1 a2 a3 a4 a5 a6 a7 a8 h0 h1 h2 h3 h4 h5 h6 h7 h8
  have g_main_v26 := at9_main_v26 V a0 a1 a2 a3 a4 a5 a6 a7 a8 h0 h1 h2 h3 h4 h5 h6 h7 h8
  have g_main_v25 := at9_main_v25 V a0 a1 a2 a3 a4 a5 a6 a7 a8 h0 h1 h2 h3 h4 h5 h6 h7 h8
  have g_main_v23 := at9_main_v23 V a0 a1 a2 a3 a4 a5 a6 a7 a8 h0 h1 h2 h3 h4 h5 h6 h7 h8
  generalize after ((ops (F := F)).take 46) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v19, g_main_v21, g_main_v24, g_main_v26, g_main_v25, g_main_v23]
  try rfl
theorem at10_main_v24 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 63) V (Proc.devRef .tc main_v24) = val_main_v24 (F := F) a0 a7 a8 := by
  have e : (ops (F := F)).take 63 = (ops (F := F)).take 46 ++ ((ops (F := F)).drop 46).take 17 := rfl
  rw [e, after_append]; clear e
  have g_main_v19 := at9_main_v19 V a0 a1 a2 a3 a4 a5 a6 a7 a8 h0 h1 h2 h3 h4 h5 h6 h7 h8
  have g_main_v21 := at9_main_v21 V a0 a1 a2 a3 a4 a5 a6 a7 a8 h0 h1 h2 h3 h4 h5 h6 h7 h8
  have g_main_v24 := at9_main_v24 V a0 a1 a2 a3 a4 a5 a6 a7 a8 h0 h1 h2 h3 h4 h5 h6 h7 h8
  have g_main_v26 := at9_main_v26 V a0 a1 a2 a3 a4 a5 a6 a7 a8 h0 h1 h2 h3 h4 h5 h6 h7 h8
  have g_main_v25 := at9_main_v25 V a0 a1 a2 a3 a4 a5 a6 a7 a8 h0 h1 h2 h3 h4 h5 h6 h7 h8
  have g_main_v23 := at9_main_v23 V a0 a1 a2 a3 a4 a5 a6 a7 a8 h0 h1 h2 h3 h4 h5 h6 h7 h8
  generalize after ((ops (F := F)).take 46) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v19, g_main_v21, g_main_v24, g_main_v26, g_main_v25, g_main_v23]
  try rfl
theorem at10_main_v25 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 63) V (Proc.devRef .tc main_v25) = val_main_v25 (F := F) a0 a7 a8 := by
  have e : (ops (F := F)).take 63 = (ops (F := F)).take 46 ++ ((ops (F := F)).drop 46).take 17 := rfl
  rw [e, after_append]; clear e
  have g_main_v19 := at9_main_v19 V a0 a1 a2 a3 a4 a5 a6 a7 a8 h0 h1 h2 h3 h4 h5 h6 h7 h8
  have g_main_v21 := at9_main_v21 V a0 a1 a2 a3 a4 a5 a6 a7 a8 h0 h1 h2 h3 h4 h5 h6 h7 h8
  have g_main_v24 := at9_main_v24 V a0 a1 a2 a3 a4 a5 a6 a7 a8 h0 h1 h2 h3 h4 h5 h6 h7 h8
  have g_main_v26 := at9_main_v26 V a0 a1 a2 a3 a4 a5 a6 a7 a8 h0 h1 h2 h3 h4 h5 h6 h7 h8
  have g_main_v25 := at9_main_v25 V a0 a1 a2 a3 a4 a5 a6 a7 a8 h0 h1 h2 h3 h4 h5 h6 h7 h8
  have g_main_v23 := at9_main_v23 V a0 a1 a2 a3 a4 a5 a6 a7 a8 h0 h1 h2 h3 h4 h5 h6 h7 h8
  generalize after ((ops (F := F)).take 46) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v19, g_main_v21, g_main_v24, g_main_v26, g_main_v25, g_main_v23]
  try rfl
theorem at10_main_v26 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 63) V (Proc.devRef .tc main_v26) = val_main_v26 (F := F) a0 a7 a8 := by
  have e : (ops (F := F)).take 63 = (ops (F := F)).take 46 ++ ((ops (F := F)).drop 46).take 17 := rfl
  rw [e, after_append]; clear e
  have g_main_v19 := at9_main_v19 V a0 a1 a2 a3 a4 a5 a6 a7 a8 h0 h1 h2 h3 h4 h5 h6 h7 h8
  have g_main_v21 := at9_main_v21 V a0 a1 a2 a3 a4 a5 a6 a7 a8 h0 h1 h2 h3 h4 h5 h6 h7 h8
  have g_main_v24 := at9_main_v24 V a0 a1 a2 a3 a4 a5 a6 a7 a8 h0 h1 h2 h3 h4 h5 h6 h7 h8
  have g_main_v26 := at9_main_v26 V a0 a1 a2 a3 a4 a5 a6 a7 a8 h0 h1 h2 h3 h4 h5 h6 h7 h8
  have g_main_v25 := at9_main_v25 V a0 a1 a2 a3 a4 a5 a6 a7 a8 h0 h1 h2 h3 h4 h5 h6 h7 h8
  have g_main_v23 := at9_main_v23 V a0 a1 a2 a3 a4 a5 a6 a7 a8 h0 h1 h2 h3 h4 h5 h6 h7 h8
  generalize after ((ops (F := F)).take 46) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v19, g_main_v21, g_main_v24, g_main_v26, g_main_v25, g_main_v23]
  try rfl
theorem at10_main_v32 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 63) V (Proc.devRef .tc main_v32) = val_main_v32 (F := F) a0 a7 a8 := by
  have e : (ops (F := F)).take 63 = (ops (F := F)).take 46 ++ ((ops (F := F)).drop 46).take 17 := rfl
  rw [e, after_append]; clear e
  have g_main_v19 := at9_main_v19 V a0 a1 a2 a3 a4 a5 a6 a7 a8 h0 h1 h2 h3 h4 h5 h6 h7 h8
  have g_main_v21 := at9_main_v21 V a0 a1 a2 a3 a4 a5 a6 a7 a8 h0 h1 h2 h3 h4 h5 h6 h7 h8
  have g_main_v24 := at9_main_v24 V a0 a1 a2 a3 a4 a5 a6 a7 a8 h0 h1 h2 h3 h4 h5 h6 h7 h8
  have g_main_v26 := at9_main_v26 V a0 a1 a2 a3 a4 a5 a6 a7 a8 h0 h1 h2 h3 h4 h5 h6 h7 h8
  have g_main_v25 := at9_main_v25 V a0 a1 a2 a3 a4 a5 a6 a7 a8 h0 h1 h2 h3 h4 h5 h6 h7 h8
  have g_main_v23 := at9_main_v23 V a0 a1 a2 a3 a4 a5 a6 a7 a8 h0 h1 h2 h3 h4 h5 h6 h7 h8
  have g_main_v32 := at9_main_v32 V a0 a1 a2 a3 a4 a5 a6 a7 a8 h0 h1 h2 h3 h4 h5 h6 h7 h8
  generalize after ((ops (F := F)).take 46) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v19, g_main_v21, g_main_v24, g_main_v26, g_main_v25, g_main_v23, g_main_v32]
  try rfl
theorem at10_main_v35 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 63) V (Proc.devRef .tc main_v35) = val_main_v35 (F := F) a0 a7 a8 := by
  have e : (ops (F := F)).take 63 = (ops (F := F)).take 46 ++ ((ops (F := F)).drop 46).take 17 := rfl
  rw [e, after_append]; clear e
  have g_main_v19 := at9_main_v19 V a0 a1 a2 a3 a4 a5 a6 a7 a8 h0 h1 h2 h3 h4 h5 h6 h7 h8
  have g_main_v21 := at9_main_v21 V a0 a1 a2 a3 a4 a5 a6 a7 a8 h0 h1 h2 h3 h4 h5 h6 h7 h8
  have g_main_v24 := at9_main_v24 V a0 a1 a2 a3 a4 a5 a6 a7 a8 h0 h1 h2 h3 h4 h5 h6 h7 h8
  have g_main_v26 := at9_main_v26 V a0 a1 a2 a3 a4 a5 a6 a7 a8 h0 h1 h2 h3 h4 h5 h6 h7 h8
  have g_main_v25 := at9_main_v25 V a0 a1 a2 a3 a4 a5 a6 a7 a8 h0 h1 h2 h3 h4 h5 h6 h7 h8
  have g_main_v23 := at9_main_v23 V a0 a1 a2 a3 a4 a5 a6 a7 a8 h0 h1 h2 h3 h4 h5 h6 h7 h8
  have g_main_v35 := at9_main_v35 V a0 a1 a2 a3 a4 a5 a6 a7 a8 h0 h1 h2 h3 h4 h5 h6 h7 h8
  generalize after ((ops (F := F)).take 46) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v19, g_main_v21, g_main_v24, g_main_v26, g_main_v25, g_main_v23, g_main_v35]
  try rfl
theorem at10_main_v38 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 63) V (Proc.devRef .tc main_v38) = val_main_v38 (F := F) a0 a7 a8 := by
  have e : (ops (F := F)).take 63 = (ops (F := F)).take 46 ++ ((ops (F := F)).drop 46).take 17 := rfl
  rw [e, after_append]; clear e
  have g_main_v19 := at9_main_v19 V a0 a1 a2 a3 a4 a5 a6 a7 a8 h0 h1 h2 h3 h4 h5 h6 h7 h8
  have g_main_v21 := at9_main_v21 V a0 a1 a2 a3 a4 a5 a6 a7 a8 h0 h1 h2 h3 h4 h5 h6 h7 h8
  have g_main_v24 := at9_main_v24 V a0 a1 a2 a3 a4 a5 a6 a7 a8 h0 h1 h2 h3 h4 h5 h6 h7 h8
  have g_main_v26 := at9_main_v26 V a0 a1 a2 a3 a4 a5 a6 a7 a8 h0 h1 h2 h3 h4 h5 h6 h7 h8
  have g_main_v25 := at9_main_v25 V a0 a1 a2 a3 a4 a5 a6 a7 a8 h0 h1 h2 h3 h4 h5 h6 h7 h8
  have g_main_v23 := at9_main_v23 V a0 a1 a2 a3 a4 a5 a6 a7 a8 h0 h1 h2 h3 h4 h5 h6 h7 h8
  generalize after ((ops (F := F)).take 46) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v19, g_main_v21, g_main_v24, g_main_v26, g_main_v25, g_main_v23]
  try rfl
theorem at10_main_v42 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 63) V (Proc.devRef .tc main_v42) = val_main_v42 (F := F) a0 a7 a8 := by
  have e : (ops (F := F)).take 63 = (ops (F := F)).take 46 ++ ((ops (F := F)).drop 46).take 17 := rfl
  rw [e, after_append]; clear e
  have g_main_v19 := at9_main_v19 V a0 a1 a2 a3 a4 a5 a6 a7 a8 h0 h1 h2 h3 h4 h5 h6 h7 h8
  have g_main_v21 := at9_main_v21 V a0 a1 a2 a3 a4 a5 a6 a7 a8 h0 h1 h2 h3 h4 h5 h6 h7 h8
  have g_main_v24 := at9_main_v24 V a0 a1 a2 a3 a4 a5 a6 a7 a8 h0 h1 h2 h3 h4 h5 h6 h7 h8
  have g_main_v26 := at9_main_v26 V a0 a1 a2 a3 a4 a5 a6 a7 a8 h0 h1 h2 h3 h4 h5 h6 h7 h8
  have g_main_v25 := at9_main_v25 V a0 a1 a2 a3 a4 a5 a6 a7 a8 h0 h1 h2 h3 h4 h5 h6 h7 h8
  have g_main_v23 := at9_main_v23 V a0 a1 a2 a3 a4 a5 a6 a7 a8 h0 h1 h2 h3 h4 h5 h6 h7 h8
  generalize after ((ops (F := F)).take 46) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v19, g_main_v21, g_main_v24, g_main_v26, g_main_v25, g_main_v23]
  try rfl
theorem at10_main_v45 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 63) V (Proc.devRef .tc main_v45) = val_main_v45 (F := F) a0 a7 a8 := by
  have e : (ops (F := F)).take 63 = (ops (F := F)).take 46 ++ ((ops (F := F)).drop 46).take 17 := rfl
  rw [e, after_append]; clear e
  have g_main_v19 := at9_main_v19 V a0 a1 a2 a3 a4 a5 a6 a7 a8 h0 h1 h2 h3 h4 h5 h6 h7 h8
  have g_main_v21 := at9_main_v21 V a0 a1 a2 a3 a4 a5 a6 a7 a8 h0 h1 h2 h3 h4 h5 h6 h7 h8
  have g_main_v24 := at9_main_v24 V a0 a1 a2 a3 a4 a5 a6 a7 a8 h0 h1 h2 h3 h4 h5 h6 h7 h8
  have g_main_v26 := at9_main_v26 V a0 a1 a2 a3 a4 a5 a6 a7 a8 h0 h1 h2 h3 h4 h5 h6 h7 h8
  have g_main_v25 := at9_main_v25 V a0 a1 a2 a3 a4 a5 a6 a7 a8 h0 h1 h2 h3 h4 h5 h6 h7 h8
  have g_main_v23 := at9_main_v23 V a0 a1 a2 a3 a4 a5 a6 a7 a8 h0 h1 h2 h3 h4 h5 h6 h7 h8
  generalize after ((ops (F := F)).take 46) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v19, g_main_v21, g_main_v24, g_main_v26, g_main_v25, g_main_v23]
  try rfl
theorem at10_main_v48 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 63) V (Proc.devRef .tc main_v48) = val_main_v48 (F := F) a0 a7 a8 := by
  have e : (ops (F := F)).take 63 = (ops (F := F)).take 46 ++ ((ops (F := F)).drop 46).take 17 := rfl
  rw [e, after_append]; clear e
  have g_main_v19 := at9_main_v19 V a0 a1 a2 a3 a4 a5 a6 a7 a8 h0 h1 h2 h3 h4 h5 h6 h7 h8
  have g_main_v21 := at9_main_v21 V a0 a1 a2 a3 a4 a5 a6 a7 a8 h0 h1 h2 h3 h4 h5 h6 h7 h8
  have g_main_v24 := at9_main_v24 V a0 a1 a2 a3 a4 a5 a6 a7 a8 h0 h1 h2 h3 h4 h5 h6 h7 h8
  have g_main_v26 := at9_main_v26 V a0 a1 a2 a3 a4 a5 a6 a7 a8 h0 h1 h2 h3 h4 h5 h6 h7 h8
  have g_main_v25 := at9_main_v25 V a0 a1 a2 a3 a4 a5 a6 a7 a8 h0 h1 h2 h3 h4 h5 h6 h7 h8
  have g_main_v23 := at9_main_v23 V a0 a1 a2 a3 a4 a5 a6 a7 a8 h0 h1 h2 h3 h4 h5 h6 h7 h8
  generalize after ((ops (F := F)).take 46) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v19, g_main_v21, g_main_v24, g_main_v26, g_main_v25, g_main_v23]
  try rfl
theorem at11_main_arg1 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 87) V (Proc.devRef .tc main_arg1) = a1 := by
  have e : (ops (F := F)).take 87 = (ops (F := F)).take 63 ++ ((ops (F := F)).drop 63).take 24 := rfl
  rw [e, after_append]; clear e
  have g_main_v35 := at10_main_v35 V a0 a1 a2 a3 a4 a5 a6 a7 a8 h0 h1 h2 h3 h4 h5 h6 h7 h8
  have g_main_v38 := at10_main_v38 V a0 a1 a2 a3 a4 a5 a6 a7 a8 h0 h1 h2 h3 h4 h5 h6 h7 h8
  have g_main_v42 := at10_main_v42 V a0 a1 a2 a3 a4 a5 a6 a7 a8 h0 h1 h2 h3 h4 h5 h6 h7 h8
  have g_main_v45 := at10_main_v45 V a0 a1 a2 a3 a4 a5 a6 a7 a8 h0 h1 h2 h3 h4 h5 h6 h7 h8
  have g_main_v48 := at10_main_v48 V a0 a1 a2 a3 a4 a5 a6 a7 a8 h0 h1 h2 h3 h4 h5 h6 h7 h8
  have g_main_v23 := at10_main_v23 V a0 a1 a2 a3 a4 a5 a6 a7 a8 h0 h1 h2 h3 h4 h5 h6 h7 h8
  have g_main_v19 := at10_main_v19 V a0 a1 a2 a3 a4 a5 a6 a7 a8 h0 h1 h2 h3 h4 h5 h6 h7 h8
  have g_main_v21 := at10_main_v21 V a0 a1 a2 a3 a4 a5 a6 a7 a8 h0 h1 h2 h3 h4 h5 h6 h7 h8
  have g_main_v25 := at10_main_v25 V a0 a1 a2 a3 a4 a5 a6 a7 a8 h0 h1 h2 h3 h4 h5 h6 h7 h8
  have g_main_v24 := at10_main_v24 V a0 a1 a2 a3 a4 a5 a6 a7 a8 h0 h1 h2 h3 h4 h5 h6 h7 h8
  have g_main_v26 := at10_main_v26 V a0 a1 a2 a3 a4 a5 a6 a7 a8 h0 h1 h2 h3 h4 h5 h6 h7 h8
  have g_main_arg1 := at10_main_arg1 V a0 a1 a2 a3 a4 a5 a6 a7 a8 h0 h1 h2 h3 h4 h5 h6 h7 h8
  generalize after ((ops (F := F)).take 63) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v35, g_main_v38, g_main_v42, g_main_v45, g_main_v48, g_main_v23, g_main_v19, g_main_v21, g_main_v25, g_main_v24, g_main_v26, g_main_arg1]
  try rfl
theorem at11_main_arg2 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 87) V (Proc.devRef .tc main_arg2) = a2 := by
  have e : (ops (F := F)).take 87 = (ops (F := F)).take 63 ++ ((ops (F := F)).drop 63).take 24 := rfl
  rw [e, after_append]; clear e
  have g_main_v35 := at10_main_v35 V a0 a1 a2 a3 a4 a5 a6 a7 a8 h0 h1 h2 h3 h4 h5 h6 h7 h8
  have g_main_v38 := at10_main_v38 V a0 a1 a2 a3 a4 a5 a6 a7 a8 h0 h1 h2 h3 h4 h5 h6 h7 h8
  have g_main_v42 := at10_main_v42 V a0 a1 a2 a3 a4 a5 a6 a7 a8 h0 h1 h2 h3 h4 h5 h6 h7 h8
  have g_main_v45 := at10_main_v45 V a0 a1 a2 a3 a4 a5 a6 a7 a8 h0 h1 h2 h3 h4 h5 h6 h7 h8
  have g_main_v48 := at10_main_v48 V a0 a1 a2 a3 a4 a5 a6 a7 a8 h0 h1 h2 h3 h4 h5 h6 h7 h8
  have g_main_v23 := at10_main_v23 V a0 a1 a2 a3 a4 a5 a6 a7 a8 h0 h1 h2 h3 h4 h5 h6 h7 h8
  have g_main_v19 := at10_main_v19 V a0 a1 a2 a3 a4 a5 a6 a7 a8 h0 h1 h2 h3 h4 h5 h6 h7 h8
  have g_main_v21 := at10_main_v21 V a0 a1 a2 a3 a4 a5 a6 a7 a8 h0 h1 h2 h3 h4 h5 h6 h7 h8
  have g_main_v25 := at10_main_v25 V a0 a1 a2 a3 a4 a5 a6 a7 a8 h0 h1 h2 h3 h4 h5 h6 h7 h8
  have g_main_v24 := at10_main_v24 V a0 a1 a2 a3 a4 a5 a6 a7 a8 h0 h1 h2 h3 h4 h5 h6 h7 h8
  have g_main_v26 := at10_main_v26 V a0 a1 a2 a3 a4 a5 a6 a7 a8 h0 h1 h2 h3 h4 h5 h6 h7 h8
  have g_main_arg2 := at10_main_arg2 V a0 a1 a2 a3 a4 a5 a6 a7 a8 h0 h1 h2 h3 h4 h5 h6 h7 h8
  generalize after ((ops (F := F)).take 63) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v35, g_main_v38, g_main_v42, g_main_v45, g_main_v48, g_main_v23, g_main_v19, g_main_v21, g_main_v25, g_main_v24, g_main_v26, g_main_arg2]
  try rfl
theorem at11_main_arg3 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 87) V (Proc.devRef .tc main_arg3) = a3 := by
  have e : (ops (F := F)).take 87 = (ops (F := F)).take 63 ++ ((ops (F := F)).drop 63).take 24 := rfl
  rw [e, after_append]; clear e
  have g_main_v35 := at10_main_v35 V a0 a1 a2 a3 a4 a5 a6 a7 a8 h0 h1 h2 h3 h4 h5 h6 h7 h8
  have g_main_v38 := at10_main_v38 V a0 a1 a2 a3 a4 a5 a6 a7 a8 h0 h1 h2 h3 h4 h5 h6 h7 h8
  have g_main_v42 := at10_main_v42 V a0 a1 a2 a3 a4 a5 a6 a7 a8 h0 h1 h2 h3 h4 h5 h6 h7 h8
  have g_main_v45 := at10_main_v45 V a0 a1 a2 a3 a4 a5 a6 a7 a8 h0 h1 h2 h3 h4 h5 h6 h7 h8
  have g_main_v48 := at10_main_v48 V a0 a1 a2 a3 a4 a5 a6 a7 a8 h0 h1 h2 h3 h4 h5 h6 h7 h8
  have g_main_v23 := at10_main_v23 V a0 a1 a2 a3 a4 a5 a6 a7 a8 h0 h1 h2 h3 h4 h5 h6 h7 h8
  have g_main_v19 := at10_main_v19 V a0 a1 a2 a3 a4 a5 a6 a7 a8 h0 h1 h2 h3 h4 h5 h6 h7 h8
  have g_main_v21 := at10_main_v21 V a0 a1 a2 a3 a4 a5 a6 a7 a8 h0 h1 h2 h3 h4 h5 h6 h7 h8
  have g_main_v25 := at10_main_v25 V a0 a1 a2 a3 a4 a5 a6 a7 a8 h0 h1 h2 h3 h4 h5 h6 h7 h8
  have g_main_v24 := at10_main_v24 V a0 a1 a2 a3 a4 a5 a6 a7 a8 h0 h1 h2 h3 h4 h5 h6 h7 h8
  have g_main_v26 := at10_main_v26 V a0 a1 a2 a3 a4 a5 a6 a7 a8 h0 h1 h2 h3 h4 h5 h6 h7 h8
  have g_main_arg3 := at10_main_arg3 V a0 a1 a2 a3 a4 a5 a6 a7 a8 h0 h1 h2 h3 h4 h5 h6 h7 h8
  generalize after ((ops (F := F)).take 63) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v35, g_main_v38, g_main_v42, g_main_v45, g_main_v48, g_main_v23, g_main_v19, g_main_v21, g_main_v25, g_main_v24, g_main_v26, g_main_arg3]
  try rfl
theorem at11_main_arg4 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 87) V (Proc.devRef .tc main_arg4) = a4 := by
  have e : (ops (F := F)).take 87 = (ops (F := F)).take 63 ++ ((ops (F := F)).drop 63).take 24 := rfl
  rw [e, after_append]; clear e
  have g_main_v35 := at10_main_v35 V a0 a1 a2 a3 a4 a5 a6 a7 a8 h0 h1 h2 h3 h4 h5 h6 h7 h8
  have g_main_v38 := at10_main_v38 V a0 a1 a2 a3 a4 a5 a6 a7 a8 h0 h1 h2 h3 h4 h5 h6 h7 h8
  have g_main_v42 := at10_main_v42 V a0 a1 a2 a3 a4 a5 a6 a7 a8 h0 h1 h2 h3 h4 h5 h6 h7 h8
  have g_main_v45 := at10_main_v45 V a0 a1 a2 a3 a4 a5 a6 a7 a8 h0 h1 h2 h3 h4 h5 h6 h7 h8
  have g_main_v48 := at10_main_v48 V a0 a1 a2 a3 a4 a5 a6 a7 a8 h0 h1 h2 h3 h4 h5 h6 h7 h8
  have g_main_v23 := at10_main_v23 V a0 a1 a2 a3 a4 a5 a6 a7 a8 h0 h1 h2 h3 h4 h5 h6 h7 h8
  have g_main_v19 := at10_main_v19 V a0 a1 a2 a3 a4 a5 a6 a7 a8 h0 h1 h2 h3 h4 h5 h6 h7 h8
  have g_main_v21 := at10_main_v21 V a0 a1 a2 a3 a4 a5 a6 a7 a8 h0 h1 h2 h3 h4 h5 h6 h7 h8
  have g_main_v25 := at10_main_v25 V a0 a1 a2 a3 a4 a5 a6 a7 a8 h0 h1 h2 h3 h4 h5 h6 h7 h8
  have g_main_v24 := at10_main_v24 V a0 a1 a2 a3 a4 a5 a6 a7 a8 h0 h1 h2 h3 h4 h5 h6 h7 h8
  have g_main_v26 := at10_main_v26 V a0 a1 a2 a3 a4 a5 a6 a7 a8 h0 h1 h2 h3 h4 h5 h6 h7 h8
  have g_main_arg4 := at10_main_arg4 V a0 a1 a2 a3 a4 a5 a6 a7 a8 h0 h1 h2 h3 h4 h5 h6 h7 h8
  generalize after ((ops (F := F)).take 63) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v35, g_main_v38, g_main_v42, g_main_v45, g_main_v48, g_main_v23, g_main_v19, g_main_v21, g_main_v25, g_main_v24, g_main_v26, g_main_arg4]
  try rfl
theorem at11_main_arg5 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 87) V (Proc.devRef .tc main_arg5) = a5 := by
  have e : (ops (F := F)).take 87 = (ops (F := F)).take 63 ++ ((ops (F := F)).drop 63).take 24 := rfl
  rw [e, after_append]; clear e
  have g_main_v35 := at10_main_v35 V a0 a1 a2 a3 a4 a5 a6 a7 a8 h0 h1 h2 h3 h4 h5 h6 h7 h8
  have g_main_v38 := at10_main_v38 V a0 a1 a2 a3 a4 a5 a6 a7 a8 h0 h1 h2 h3 h4 h5 h6 h7 h8
  have g_main_v42 := at10_main_v42 V a0 a1 a2 a3 a4 a5 a6 a7 a8 h0 h1 h2 h3 h4 h5 h6 h7 h8
  have g_main_v45 := at10_main_v45 V a0 a1 a2 a3 a4 a5 a6 a7 a8 h0 h1 h2 h3 h4 h5 h6 h7 h8
  have g_main_v48 := at10_main_v48 V a0 a1 a2 a3 a4 a5 a6 a7 a8 h0 h1 h2 h3 h4 h5 h6 h7 h8
  have g_main_v23 := at10_main_v23 V a0 a1 a2 a3 a4 a5 a6 a7 a8 h0 h1 h2 h3 h4 h5 h6 h7 h8
  have g_main_v19 := at10_main_v19 V a0 a1 a2 a3 a4 a5 a6 a7 a8 h0 h1 h2 h3 h4 h5 h6 h7 h8
  have g_main_v21 := at10_main_v21 V a0 a1 a2 a3 a4 a5 a6 a7 a8 h0 h1 h2 h3 h4 h5 h6 h7 h8
  have g_main_v25 := at10_main_v25 V a0 a1 a2 a3 a4 a5 a6 a7 a8 h0 h1 h2 h3 h4 h5 h6 h7 h8
  have g_main_v24 := at10_main_v24 V a0 a1 a2 a3 a4 a5 a6 a7 a8 h0 h1 h2 h3 h4 h5 h6 h7 h8
  have g_main_v26 := at10_main_v26 V a0 a1 a2 a3 a4 a5 a6 a7 a8 h0 h1 h2 h3 h4 h5 h6 h7 h8
  have g_main_arg5 := at10_main_arg5 V a0 a1 a2 a3 a4 a5 a6 a7 a8 h0 h1 h2 h3 h4 h5 h6 h7 h8
  generalize after ((ops (F := F)).take 63) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v35, g_main_v38, g_main_v42, g_main_v45, g_main_v48, g_main_v23, g_main_v19, g_main_v21, g_main_v25, g_main_v24, g_main_v26, g_main_arg5]
  try rfl
theorem at11_main_arg6 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 87) V (Proc.devRef .tc main_arg6) = a6 := by
  have e : (ops (F := F)).take 87 = (ops (F := F)).take 63 ++ ((ops (F := F)).drop 63).take 24 := rfl
  rw [e, after_append]; clear e
  have g_main_v35 := at10_main_v35 V a0 a1 a2 a3 a4 a5 a6 a7 a8 h0 h1 h2 h3 h4 h5 h6 h7 h8
  have g_main_v38 := at10_main_v38 V a0 a1 a2 a3 a4 a5 a6 a7 a8 h0 h1 h2 h3 h4 h5 h6 h7 h8
  have g_main_v42 := at10_main_v42 V a0 a1 a2 a3 a4 a5 a6 a7 a8 h0 h1 h2 h3 h4 h5 h6 h7 h8
  have g_main_v45 := at10_main_v45 V a0 a1 a2 a3 a4 a5 a6 a7 a8 h0 h1 h2 h3 h4 h5 h6 h7 h8
  have g_main_v48 := at10_main_v48 V a0 a1 a2 a3 a4 a5 a6 a7 a8 h0 h1 h2 h3 h4 h5 h6 h7 h8
  have g_main_v23 := at10_main_v23 V a0 a1 a2 a3 a4 a5 a6 a7 a8 h0 h1 h2 h3 h4 h5 h6 h7 h8
  have g_main_v19 := at10_main_v19 V a0 a1 a2 a3 a4 a5 a6 a7 a8 h0 h1 h2 h3 h4 h5 h6 h7 h8
  have g_main_v21 := at10_main_v21 V a0 a1 a2 a3 a4 a5 a6 a7 a8 h0 h1 h2 h3 h4 h5 h6 h7 h8
  have g_main_v25 := at10_main_v25 V a0 a1 a2 a3 a4 a5 a6 a7 a8 h0 h1 h2 h3 h4 h5 h6 h7 h8
  have g_main_v24 := at10_main_v24 V a0 a1 a2 a3 a4 a5 a6 a7 a8 h0 h1 h2 h3 h4 h5 h6 h7 h8
  have g_main_v26 := at10_main_v26 V a0 a1 a2 a3 a4 a5 a6 a7 a8 h0 h1 h2 h3 h4 h5 h6 h7 h8
  have g_main_arg6 := at10_main_arg6 V a0 a1 a2 a3 a4 a5 a6 a7 a8 h0 h1 h2 h3 h4 h5 h6 h7 h8
  generalize after ((ops (F := F)).take 63) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v35, g_main_v38, g_main_v42, g_main_v45, g_main_v48, g_main_v23, g_main_v19, g_main_v21, g_main_v25, g_main_v24, g_main_v26, g_main_arg6]
  try rfl
theorem at11_main_arg7 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 87) V (Proc.devRef .tc main_arg7) = a7 := by
  have e : (ops (F := F)).take 87 = (ops (F := F)).take 63 ++ ((ops (F := F)).drop 63).take 24 := rfl
  rw [e, after_append]; clear e
  have g_main_v35 := at10_main_v35 V a0 a1 a2 a3 a4 a5 a6 a7 a8 h0 h1 h2 h3 h4 h5 h6 h7 h8
  have g_main_v38 := at10_main_v38 V a0 a1 a2 a3 a4 a5 a6 a7 a8 h0 h1 h2 h3 h4 h5 h6 h7 h8
  have g_main_v42 := at10_main_v42 V a0 a1 a2 a3 a4 a5 a6 a7 a8 h0 h1 h2 h3 h4 h5 h6 h7 h8
  have g_main_v45 := at10_main_v45 V a0 a1 a2 a3 a4 a5 a6 a7 a8 h0 h1 h2 h3 h4 h5 h6 h7 h8
  have g_main_v48 := at10_main_v48 V a0 a1 a2 a3 a4 a5 a6 a7 a8 h0 h1 h2 h3 h4 h5 h6 h7 h8
  have g_main_v23 := at10_main_v23 V a0 a1 a2 a3 a4 a5 a6 a7 a8 h0 h1 h2 h3 h4 h5 h6 h7 h8
  have g_main_v19 := at10_main_v19 V a0 a1 a2 a3 a4 a5 a6 a7 a8 h0 h1 h2 h3 h4 h5 h6 h7 h8
  have g_main_v21 := at10_main_v21 V a0 a1 a2 a3 a4 a5 a6 a7 a8 h0 h1 h2 h3 h4 h5 h6 h7 h8
  have g_main_v25 := at10_main_v25 V a0 a1 a2 a3 a4 a5 a6 a7 a8 h0 h1 h2 h3 h4 h5 h6 h7 h8
  have g_main_v24 := at10_main_v24 V a0 a1 a2 a3 a4 a5 a6 a7 a8 h0 h1 h2 h3 h4 h5 h6 h7 h8
  have g_main_v26 := at10_main_v26 V a0 a1 a2 a3 a4 a5 a6 a7 a8 h0 h1 h2 h3 h4 h5 h6 h7 h8
  have g_main_arg7 := at10_main_arg7 V a0 a1 a2 a3 a4 a5 a6 a7 a8 h0 h1 h2 h3 h4 h5 h6 h7 h8
  generalize after ((ops (F := F)).take 63) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v35, g_main_v38, g_main_v42, g_main_v45, g_main_v48, g_main_v23, g_main_v19, g_main_v21, g_main_v25, g_main_v24, g_main_v26, g_main_arg7]
  try rfl
theorem at11_main_arg8 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 87) V (Proc.devRef .tc main_arg8) = a8 := by
  have e : (ops (F := F)).take 87 = (ops (F := F)).take 63 ++ ((ops (F := F)).drop 63).take 24 := rfl
  rw [e, after_append]; clear e
  have g_main_v35 := at10_main_v35 V a0 a1 a2 a3 a4 a5 a6 a7 a8 h0 h1 h2 h3 h4 h5 h6 h7 h8
  have g_main_v38 := at10_main_v38 V a0 a1 a2 a3 a4 a5 a6 a7 a8 h0 h1 h2 h3 h4 h5 h6 h7 h8
  have g_main_v42 := at10_main_v42 V a0 a1 a2 a3 a4 a5 a6 a7 a8 h0 h1 h2 h3 h4 h5 h6 h7 h8
  have g_main_v45 := at10_main_v45 V a0 a1 a2 a3 a4 a5 a6 a7 a8 h0 h1 h2 h3 h4 h5 h6 h7 h8
  have g_main_v48 := at10_main_v48 V a0 a1 a2 a3 a4 a5 a6 a7 a8 h0 h1 h2 h3 h4 h5 h6 h7 h8
  have g_main_v23 := at10_main_v23 V a0 a1 a2 a3 a4 a5 a6 a7 a8 h0 h1 h2 h3 h4 h5 h6 h7 h8
  have g_main_v19 := at10_main_v19 V a0 a1 a2 a3 a4 a5 a6 a7 a8 h0 h1 h2 h3 h4 h5 h6 h7 h8
  have g_main_v21 := at10_main_v21 V a0 a1 a2 a3 a4 a5 a6 a7 a8 h0 h1 h2 h3 h4 h5 h6 h7 h8
  have g_main_v25 := at10_main_v25 V a0 a1 a2 a3 a4 a5 a6 a7 a8 h0 h1 h2 h3 h4 h5 h6 h7 h8
  have g_main_v24 := at10_main_v24 V a0 a1 a2 a3 a4 a5 a6 a7 a8 h0 h1 h2 h3 h4 h5 h6 h7 h8
  have g_main_v26 := at10_main_v26 V a0 a1 a2 a3 a4 a5 a6 a7 a8 h0 h1 h2 h3 h4 h5 h6 h7 h8
  have g_main_arg8 := at10_main_arg8 V a0 a1 a2 a3 a4 a5 a6 a7 a8 h0 h1 h2 h3 h4 h5 h6 h7 h8
  generalize after ((ops (F := F)).take 63) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v35, g_main_v38, g_main_v42, g_main_v45, g_main_v48, g_main_v23, g_main_v19, g_main_v21, g_main_v25, g_main_v24, g_main_v26, g_main_arg8]
  try rfl
theorem at11_main_v19 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 87) V (Proc.devRef .tc main_v19) = val_main_v19 (F := F) a0 a7 a8 := by
  have e : (ops (F := F)).take 87 = (ops (F := F)).take 63 ++ ((ops (F := F)).drop 63).take 24 := rfl
  rw [e, after_append]; clear e
  have g_main_v35 := at10_main_v35 V a0 a1 a2 a3 a4 a5 a6 a7 a8 h0 h1 h2 h3 h4 h5 h6 h7 h8
  have g_main_v38 := at10_main_v38 V a0 a1 a2 a3 a4 a5 a6 a7 a8 h0 h1 h2 h3 h4 h5 h6 h7 h8
  have g_main_v42 := at10_main_v42 V a0 a1 a2 a3 a4 a5 a6 a7 a8 h0 h1 h2 h3 h4 h5 h6 h7 h8
  have g_main_v45 := at10_main_v45 V a0 a1 a2 a3 a4 a5 a6 a7 a8 h0 h1 h2 h3 h4 h5 h6 h7 h8
  have g_main_v48 := at10_main_v48 V a0 a1 a2 a3 a4 a5 a6 a7 a8 h0 h1 h2 h3 h4 h5 h6 h7 h8
  have g_main_v23 := at10_main_v23 V a0 a1 a2 a3 a4 a5 a6 a7 a8 h0 h1 h2 h3 h4 h5 h6 h7 h8
  have g_main_v19 := at10_main_v19 V a0 a1 a2 a3 a4 a5 a6 a7 a8 h0 h1 h2 h3 h4 h5 h6 h7 h8
  have g_main_v21 := at10_main_v21 V a0 a1 a2 a3 a4 a5 a6 a7 a8 h0 h1 h2 h3 h4 h5 h6 h7 h8
  have g_main_v25 := at10_main_v25 V a0 a1 a2 a3 a4 a5 a6 a7 a8 h0 h1 h2 h3 h4 h5 h6 h7 h8
  have g_main_v24 := at10_main_v24 V a0 a1 a2 a3 a4 a5 a6 a7 a8 h0 h1 h2 h3 h4 h5 h6 h7 h8
  have g_main_v26 := at10_main_v26 V a0 a1 a2 a3 a4 a5 a6 a7 a8 h0 h1 h2 h3 h4 h5 h6 h7 h8
  generalize after ((ops (F := F)).take 63) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v35, g_main_v38, g_main_v42, g_main_v45, g_main_v48, g_main_v23, g_main_v19, g_main_v21, g_main_v25, g_main_v24, g_main_v26]
  try rfl
theorem at11_main_v21 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 87) V (Proc.devRef .tc main_v21) = val_main_v21 (F := F) a0 a7 a8 := by
  have e : (ops (F := F)).take 87 = (ops (F := F)).take 63 ++ ((ops (F := F)).drop 63).take 24 := rfl
  rw [e, after_append]; clear e
  have g_main_v35 := at10_main_v35 V a0 a1 a2 a3 a4 a5 a6 a7 a8 h0 h1 h2 h3 h4 h5 h6 h7 h8
  have g_main_v38 := at10_main_v38 V a0 a1 a2 a3 a4 a5 a6 a7 a8 h0 h1 h2 h3 h4 h5 h6 h7 h8
  have g_main_v42 := at10_main_v42 V a0 a1 a2 a3 a4 a5 a6 a7 a8 h0 h1 h2 h3 h4 h5 h6 h7 h8
  have g_main_v45 := at10_main_v45 V a0 a1 a2 a3 a4 a5 a6 a7 a8 h0 h1 h2 h3 h4 h5 h6 h7 h8
  have g_main_v48 := at10_main_v48 V a0 a1 a2 a3 a4 a5 a6 a7 a8 h0 h1 h2 h3 h4 h5 h6 h7 h8
  have g_main_v23 := at10_main_v23 V a0 a1 a2 a3 a4 a5 a6 a7 a8 h0 h1 h2 h3 h4 h5 h6 h7 h8
  have g_main_v19 := at10_main_v19 V a0 a1 a2 a3 a4 a5 a6 a7 a8 h0 h1 h2 h3 h4 h5 h6 h7 h8
  have g_main_v21 := at10_main_v21 V a0 a1 a2 a3 a4 a5 a6 a7 a8 h0 h1 h2 h3 h4 h5 h6 h7 h8
  have g_main_v25 := at10_main_v25 V a0 a1 a2 a3 a4 a5 a6 a7 a8 h0 h1 h2 h3 h4 h5 h6 h7 h8
  have g_main_v24 := at10_main_v24 V a0 a1 a2 a3 a4 a5 a6 a7 a8 h0 h1 h2 h3 h4 h5 h6 h7 h8
  have g_main_v26 := at10_main_v26 V a0 a1 a2 a3 a4 a5 a6 a7 a8 h0 h1 h2 h3 h4 h5 h6 h7 h8
  generalize after ((ops (F := F)).take 63) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v35, g_main_v38, g_main_v42, g_main_v45, g_main_v48, g_main_v23, g_main_v19, g_main_v21, g_main_v25, g_main_v24, g_main_v26]
  try rfl
theorem at11_main_v23 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 87) V (Proc.devRef .tc main_v23) = val_main_v23 (F := F) a0 a7 a8 := by
  have e : (ops (F := F)).take 87 = (ops (F := F)).take 63 ++ ((ops (F := F)).drop 63).take 24 := rfl
  rw [e, after_append]; clear e
  have g_main_v35 := at10_main_v35 V a0 a1 a2 a3 a4 a5 a6 a7 a8 h0 h1 h2 h3 h4 h5 h6 h7 h8
  have g_main_v38 := at10_main_v38 V a0 a1 a2 a3 a4 a5 a6 a7 a8 h0 h1 h2 h3 h4 h5 h6 h7 h8
  have g_main_v42 := at10_main_v42 V a0 a1 a2 a3 a4 a5 a6 a7 a8 h0 h1 h2 h3 h4 h5 h6 h7 h8
  have g_main_v45 := at10_main_v45 V a0 a1 a2 a3 a4 a5 a6 a7 a8 h0 h1 h2 h3 h4 h5 h6 h7 h8
  have g_main_v48 := at10_main_v48 V a0 a1 a2 a3 a4 a5 a6 a7 a8 h0 h1 h2 h3 h4 h5 h6 h7 h8
  have g_main_v23 := at10_main_v23 V a0 a1 a2 a3 a4 a5 a6 a7 a8 h0 h1 h2 h3 h4 h5 h6 h7 h8
  have g_main_v19 := at10_main_v19 V a0 a1 a2 a3 a4 a5 a6 a7 a8 h0 h1 h2 h3 h4 h5 h6 h7 h8
  have g_main_v21 := at10_main_v21 V a0 a1 a2 a3 a4 a5 a6 a7 a8 h0 h1 h2 h3 h4 h5 h6 h7 h8
  have g_main_v25 := at10_main_v25 V a0 a1 a2 a3 a4 a5 a6 a7 a8 h0 h1 h2 h3 h4 h5 h6 h7 h8
  have g_main_v24 := at10_main_v24 V a0 a1 a2 a3 a4 a5 a6 a7 a8 h0 h1 h2 h3 h4 h5 h6 h7 h8
  have g_main_v26 := at10_main_v26 V a0 a1 a2 a3 a4 a5 a6 a7 a8 h0 h1 h2 h3 h4 h5 h6 h7 h8
  generalize after ((ops (F := F)).take 63) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v35, g_main_v38, g_main_v42, g_main_v45, g_main_v48, g_main_v23, g_main_v19, g_main_v21, g_main_v25, g_main_v24, g_main_v26]
  try rfl
theorem at11_main_v24 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 87) V (Proc.devRef .tc main_v24) = val_main_v24 (F := F) a0 a7 a8 := by
  have e : (ops (F := F)).take 87 = (ops (F := F)).take 63 ++ ((ops (F := F)).drop 63).take 24 := rfl
  rw [e, after_append]; clear e
  have g_main_v35 := at10_main_v35 V a0 a1 a2 a3 a4 a5 a6 a7 a8 h0 h1 h2 h3 h4 h5 h6 h7 h8
  have g_main_v38 := at10_main_v38 V a0 a1 a2 a3 a4 a5 a6 a7 a8 h0 h1 h2 h3 h4 h5 h6 h7 h8
  have g_main_v42 := at10_main_v42 V a0 a1 a2 a3 a4 a5 a6 a7 a8 h0 h1 h2 h3 h4 h5 h6 h7 h8
  have g_main_v45 := at10_main_v45 V a0 a1 a2 a3 a4 a5 a6 a7 a8 h0 h1 h2 h3 h4 h5 h6 h7 h8
  have g_main_v48 := at10_main_v48 V a0 a1 a2 a3 a4 a5 a6 a7 a8 h0 h1 h2 h3 h4 h5 h6 h7 h8
  have g_main_v23 := at10_main_v23 V a0 a1 a2 a3 a4 a5 a6 a7 a8 h0 h1 h2 h3 h4 h5 h6 h7 h8
  have g_main_v19 := at10_main_v19 V a0 a1 a2 a3 a4 a5 a6 a7 a8 h0 h1 h2 h3 h4 h5 h6 h7 h8
  have g_main_v21 := at10_main_v21 V a0 a1 a2 a3 a4 a5 a6 a7 a8 h0 h1 h2 h3 h4 h5 h6 h7 h8
  have g_main_v25 := at10_main_v25 V a0 a1 a2 a3 a4 a5 a6 a7 a8 h0 h1 h2 h3 h4 h5 h6 h7 h8
  have g_main_v24 := at10_main_v24 V a0 a1 a2 a3 a4 a5 a6 a7 a8 h0 h1 h2 h3 h4 h5 h6 h7 h8
  have g_main_v26 := at10_main_v26 V a0 a1 a2 a3 a4 a5 a6 a7 a8 h0 h1 h2 h3 h4 h5 h6 h7 h8
  generalize after ((ops (F := F)).take 63) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v35, g_main_v38, g_main_v42, g_main_v45, g_main_v48, g_main_v23, g_main_v19, g_main_v21, g_main_v25, g_main_v24, g_main_v26]
  try rfl
theorem at11_main_v25 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 87) V (Proc.devRef .tc main_v25) = val_main_v25 (F := F) a0 a7 a8 := by
  have e : (ops (F := F)).take 87 = (ops (F := F)).take 63 ++ ((ops (F := F)).drop 63).take 24 := rfl
  rw [e, after_append]; clear e
  have g_main_v35 := at10_main_v35 V a0 a1 a2 a3 a4 a5 a6 a7 a8 h0 h1 h2 h3 h4 h5 h6 h7 h8
  have g_main_v38 := at10_main_v38 V a0 a1 a2 a3 a4 a5 a6 a7 a8 h0 h1 h2 h3 h4 h5 h6 h7 h8
  have g_main_v42 := at10_main_v42 V a0 a1 a2 a3 a4 a5 a6 a7 a8 h0 h1 h2 h3 h4 h5 h6 h7 h8
  have g_main_v45 := at10_main_v45 V a0 a1 a2 a3 a4 a5 a6 a7 a8 h0 h1 h2 h3 h4 h5 h6 h7 h8
  have g_main_v48 := at10_main_v48 V a0 a1 a2 a3 a4 a5 a6 a7 a8 h0 h1 h2 h3 h4 h5 h6 h7 h8
  have g_main_v23 := at10_main_v23 V a0 a1 a2 a3 a4 a5 a6 a7 a8 h0 h1 h2 h3 h4 h5 h6 h7 h8
  have g_main_v19 := at10_main_v19 V a0 a1 a2 a3 a4 a5 a6 a7 a8 h0 h1 h2 h3 h4 h5 h6 h7 h8
  have g_main_v21 := at10_main_v21 V a0 a1 a2 a3 a4 a5 a6 a7 a8 h0 h1 h2 h3 h4 h5 h6 h7 h8
  have g_main_v25 := at10_main_v25 V a0 a1 a2 a3 a4 a5 a6 a7 a8 h0 h1 h2 h3 h4 h5 h6 h7 h8
  have g_main_v24 := at10_main_v24 V a0 a1 a2 a3 a4 a5 a6 a7 a8 h0 h1 h2 h3 h4 h5 h6 h7 h8
  have g_main_v26 := at10_main_v26 V a0 a1 a2 a3 a4 a5 a6 a7 a8 h0 h1 h2 h3 h4 h5 h6 h7 h8
  generalize after ((ops (F := F)).take 63) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v35, g_main_v38, g_main_v42, g_main_v45, g_main_v48, g_main_v23, g_main_v19, g_main_v21, g_main_v25, g_main_v24, g_main_v26]
  try rfl
theorem at11_main_v26 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 87) V (Proc.devRef .tc main_v26) = val_main_v26 (F := F) a0 a7 a8 := by
  have e : (ops (F := F)).take 87 = (ops (F := F)).take 63 ++ ((ops (F := F)).drop 63).take 24 := rfl
  rw [e, after_append]; clear e
  have g_main_v35 := at10_main_v35 V a0 a1 a2 a3 a4 a5 a6 a7 a8 h0 h1 h2 h3 h4 h5 h6 h7 h8
  have g_main_v38 := at10_main_v38 V a0 a1 a2 a3 a4 a5 a6 a7 a8 h0 h1 h2 h3 h4 h5 h6 h7 h8
  have g_main_v42 := at10_main_v42 V a0 a1 a2 a3 a4 a5 a6 a7 a8 h0 h1 h2 h3 h4 h5 h6 h7 h8
  have g_main_v45 := at10_main_v45 V a0 a1 a2 a3 a4 a5 a6 a7 a8 h0 h1 h2 h3 h4 h5 h6 h7 h8
  have g_main_v48 := at10_main_v48 V a0 a1 a2 a3 a4 a5 a6 a7 a8 h0 h1 h2 h3 h4 h5 h6 h7 h8
  have g_main_v23 := at10_main_v23 V a0 a1 a2 a3 a4 a5 a6 a7 a8 h0 h1 h2 h3 h4 h5 h6 h7 h8
  have g_main_v19 := at10_main_v19 V a0 a1 a2 a3 a4 a5 a6 a7 a8 h0 h1 h2 h3 h4 h5 h6 h7 h8
  have g_main_v21 := at10_main_v21 V a0 a1 a2 a3 a4 a5 a6 a7 a8 h0 h1 h2 h3 h4 h5 h6 h7 h8
  have g_main_v25 := at10_main_v25 V a0 a1 a2 a3 a4 a5 a6 a7 a8 h0 h1 h2 h3 h4 h5 h6 h7 h8
  have g_main_v24 := at10_main_v24 V a0 a1 a2 a3 a4 a5 a6 a7 a8 h0 h1 h2 h3 h4 h5 h6 h7 h8
  have g_main_v26 := at10_main_v26 V a0 a1 a2 a3 a4 a5 a6 a7 a8 h0 h1 h2 h3 h4 h5 h6 h7 h8
  generalize after ((ops (F := F)).take 63) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v35, g_main_v38, g_main_v42, g_main_v45, g_main_v48, g_main_v23, g_main_v19, g_main_v21, g_main_v25, g_main_v24, g_main_v26]
  try rfl
theorem at11_main_v32 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 87) V (Proc.devRef .tc main_v32) = val_main_v32 (F := F) a0 a7 a8 := by
  have e : (ops (F := F)).take 87 = (ops (F := F)).take 63 ++ ((ops (F := F)).drop 63).take 24 := rfl
  rw [e, after_append]; clear e
  have g_main_v35 := at10_main_v35 V a0 a1 a2 a3 a4 a5 a6 a7 a8 h0 h1 h2 h3 h4 h5 h6 h7 h8
  have g_main_v38 := at10_main_v38 V a0 a1 a2 a3 a4 a5 a6 a7 a8 h0 h1 h2 h3 h4 h5 h6 h7 h8
  have g_main_v42 := at10_main_v42 V a0 a1 a2 a3 a4 a5 a6 a7 a8 h0 h1 h2 h3 h4 h5 h6 h7 h8
  have g_main_v45 := at10_main_v45 V a0 a1 a2 a3 a4 a5 a6 a7 a8 h0 h1 h2 h3 h4 h5 h6 h7 h8
  have g_main_v48 := at10_main_v48 V a0 a1 a2 a3 a4 a5 a6 a7 a8 h0 h1 h2 h3 h4 h5 h6 h7 h8
  have g_main_v23 := at10_main_v23 V a0 a1 a2 a3 a4 a5 a6 a7 a8 h0 h1 h2 h3 h4 h5 h6 h7 h8
  have g_main_v19 := at10_main_v19 V a0 a1 a2 a3 a4 a5 a6 a7 a8 h0 h1 h2 h3 h4 h5 h6 h7 h8
  have g_main_v21 := at10_main_v21 V a0 a1 a2 a3 a4 a5 a6 a7 a8 h0 h1 h2 h3 h4 h5 h6 h7 h8
  have g_main_v25 := at10_main_v25 V a0 a1 a2 a3 a4 a5 a6 a7 a8 h0 h1 h2 h3 h4 h5 h6 h7 h8
  have g_main_v24 := at10_main_v24 V a0 a1 a2 a3 a4 a5 a6 a7 a8 h0 h1 h2 h3 h4 h5 h6 h7 h8
  have g_main_v26 := at10_main_v26 V a0 a1 a2 a3 a4 a5 a6 a7 a8 h0 h1 h2 h3 h4 h5 h6 h7 h8
  have g_main_v32 := at10_main_v32 V a0 a1 a2 a3 a4 a5 a6 a7 a8 h0 h1 h2 h3 h4 h5 h6 h7 h8
  generalize after ((ops (F := F)).take 63) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v35, g_main_v38, g_main_v42, g_main_v45, g_main_v48, g_main_v23, g_main_v19, g_main_v21, g_main_v25, g_main_v24, g_main_v26, g_main_v32]
  try rfl
theorem at11_main_v35 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 87) V (Proc.devRef .tc main_v35) = val_main_v35 (F := F) a0 a7 a8 := by
  have e : (ops (F := F)).take 87 = (ops (F := F)).take 63 ++ ((ops (F := F)).drop 63).take 24 := rfl
  rw [e, after_append]; clear e
  have g_main_v35 := at10_main_v35 V a0 a1 a2 a3 a4 a5 a6 a7 a8 h0 h1 h2 h3 h4 h5 h6 h7 h8
  have g_main_v38 := at10_main_v38 V a0 a1 a2 a3 a4 a5 a6 a7 a8 h0 h1 h2 h3 h4 h5 h6 h7 h8
  have g_main_v42 := at10_main_v42 V a0 a1 a2 a3 a4 a5 a6 a7 a8 h0 h1 h2 h3 h4 h5 h6 h7 h8
  have g_main_v45 := at10_main_v45 V a0 a1 a2 a3 a4 a5 a6 a7 a8 h0 h1 h2 h3 h4 h5 h6 h7 h8
  have g_main_v48 := at10_main_v48 V a0 a1 a2 a3 a4 a5 a6 a7 a8 h0 h1 h2 h3 h4 h5 h6 h7 h8
  have g_main_v23 := at10_main_v23 V a0 a1 a2 a3 a4 a5 a6 a7 a8 h0 h1 h2 h3 h4 h5 h6 h7 h8
  have g_main_v19 := at10_main_v19 V a0 a1 a2 a3 a4 a5 a6 a7 a8 h0 h1 h2 h3 h4 h5 h6 h7 h8
  have g_main_v21 := at10_main_v21 V a0 a1 a2 a3 a4 a5 a6 a7 a8 h0 h1 h2 h3 h4 h5 h6 h7 h8
  have g_main_v25 := at10_main_v25 V a0 a1 a2 a3 a4 a5 a6 a7 a8 h0 h1 h2 h3 h4 h5 h6 h7 h8
  have g_main_v24 := at10_main_v24 V a0 a1 a2 a3 a4 a5 a6 a7 a8 h0 h1 h2 h3 h4 h5 h6 h7 h8
  have g_main_v26 := at10_main_v26 V a0 a1 a2 a3 a4 a5 a6 a7 a8 h0 h1 h2 h3 h4 h5 h6 h7 h8
  generalize after ((ops (F := F)).take 63) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v35, g_main_v38, g_main_v42, g_main_v45, g_main_v48, g_main_v23, g_main_v19, g_main_v21, g_main_v25, g_main_v24, g_main_v26]
  try rfl
theorem at11_main_v48 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 87) V (Proc.devRef .tc main_v48) = val_main_v48 (F := F) a0 a7 a8 := by
  have e : (ops (F := F)).take 87 = (ops (F := F)).take 63 ++ ((ops (F := F)).drop 63).take 24 := rfl
  rw [e, after_append]; clear e
  have g_main_v35 := at10_main_v35 V a0 a1 a2 a3 a4 a5 a6 a7 a8 h0 h1 h2 h3 h4 h5 h6 h7 h8
  have g_main_v38 := at10_main_v38 V a0 a1 a2 a3 a4 a5 a6 a7 a8 h0 h1 h2 h3 h4 h5 h6 h7 h8
  have g_main_v42 := at10_main_v42 V a0 a1 a2 a3 a4 a5 a6 a7 a8 h0 h1 h2 h3 h4 h5 h6 h7 h8
  have g_main_v45 := at10_main_v45 V a0 a1 a2 a3 a4 a5 a6 a7 a8 h0 h1 h2 h3 h4 h5 h6 h7 h8
  have g_main_v48 := at10_main_v48 V a0 a1 a2 a3 a4 a5 a6 a7 a8 h0 h1 h2 h3 h4 h5 h6 h7 h8
  have g_main_v23 := at10_main_v23 V a0 a1 a2 a3 a4 a5 a6 a7 a8 h0 h1 h2 h3 h4 h5 h6 h7 h8
  have g_main_v19 := at10_main_v19 V a0 a1 a2 a3 a4 a5 a6 a7 a8 h0 h1 h2 h3 h4 h5 h6 h7 h8
  have g_main_v21 := at10_main_v21 V a0 a1 a2 a3 a4 a5 a6 a7 a8 h0 h1 h2 h3 h4 h5 h6 h7 h8
  have g_main_v25 := at10_main_v25 V a0 a1 a2 a3 a4 a5 a6 a7 a8 h0 h1 h2 h3 h4 h5 h6 h7 h8
  have g_main_v24 := at10_main_v24 V a0 a1 a2 a3 a4 a5 a6 a7 a8 h0 h1 h2 h3 h4 h5 h6 h7 h8
  have g_main_v26 := at10_main_v26 V a0 a1 a2 a3 a4 a5 a6 a7 a8 h0 h1 h2 h3 h4 h5 h6 h7 h8
  generalize after ((ops (F := F)).take 63) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v35, g_main_v38, g_main_v42, g_main_v45, g_main_v48, g_main_v23, g_main_v19, g_main_v21, g_main_v25, g_main_v24, g_main_v26]
  try rfl
theorem at11_main_v56 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 87) V (Proc.devRef .tc main_v56) = val_main_v56 (F := F) a0 a7 a8 := by
  have e : (ops (F := F)).take 87 = (ops (F := F)).take 63 ++ ((ops (F := F)).drop 63).take 24 := rfl
  rw [e, after_append]; clear e
  have g_main_v35 := at10_main_v35 V a0 a1 a2 a3 a4 a5 a6 a7 a8 h0 h1 h2 h3 h4 h5 h6 h7 h8
  have g_main_v38 := at10_main_v38 V a0 a1 a2 a3 a4 a5 a6 a7 a8 h0 h1 h2 h3 h4 h5 h6 h7 h8
  have g_main_v42 := at10_main_v42 V a0 a1 a2 a3 a4 a5 a6 a7 a8 h0 h1 h2 h3 h4 h5 h6 h7 h8
  have g_main_v45 := at10_main_v45 V a0 a1 a2 a3 a4 a5 a6 a7 a8 h0 h1 h2 h3 h4 h5 h6 h7 h8
  have g_main_v48 := at10_main_v48 V a0 a1 a2 a3 a4 a5 a6 a7 a8 h0 h1 h2 h3 h4 h5 h6 h7 h8
  have g_main_v23 := at10_main_v23 V a0 a1 a2 a3 a4 a5 a6 a7 a8 h0 h1 h2 h3 h4 h5 h6 h7 h8
  have g_main_v19 := at10_main_v19 V a0 a1 a2 a3 a4 a5 a6 a7 a8 h0 h1 h2 h3 h4 h5 h6 h7 h8
  have g_main_v21 := at10_main_v21 V a0 a1 a2 a3 a4 a5 a6 a7 a8 h0 h1 h2 h3 h4 h5 h6 h7 h8
  have g_main_v25 := at10_main_v25 V a0 a1 a2 a3 a4 a5 a6 a7 a8 h0 h1 h2 h3 h4 h5 h6 h7 h8
  have g_main_v24 := at10_main_v24 V a0 a1 a2 a3 a4 a5 a6 a7 a8 h0 h1 h2 h3 h4 h5 h6 h7 h8
  have g_main_v26 := at10_main_v26 V a0 a1 a2 a3 a4 a5 a6 a7 a8 h0 h1 h2 h3 h4 h5 h6 h7 h8
  generalize after ((ops (F := F)).take 63) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v35, g_main_v38, g_main_v42, g_main_v45, g_main_v48, g_main_v23, g_main_v19, g_main_v21, g_main_v25, g_main_v24, g_main_v26]
  try rfl
theorem at11_main_v61 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 87) V (Proc.devRef .tc main_v61) = val_main_v61 (F := F) a0 a7 a8 := by
  have e : (ops (F := F)).take 87 = (ops (F := F)).take 63 ++ ((ops (F := F)).drop 63).take 24 := rfl
  rw [e, after_append]; clear e
  have g_main_v35 := at10_main_v35 V a0 a1 a2 a3 a4 a5 a6 a7 a8 h0 h1 h2 h3 h4 h5 h6 h7 h8
  have g_main_v38 := at10_main_v38 V a0 a1 a2 a3 a4 a5 a6 a7 a8 h0 h1 h2 h3 h4 h5 h6 h7 h8
  have g_main_v42 := at10_main_v42 V a0 a1 a2 a3 a4 a5 a6 a7 a8 h0 h1 h2 h3 h4 h5 h6 h7 h8
  have g_main_v45 := at10_main_v45 V a0 a1 a2 a3 a4 a5 a6 a7 a8 h0 h1 h2 h3 h4 h5 h6 h7 h8
  have g_main_v48 := at10_main_v48 V a0 a1 a2 a3 a4 a5 a6 a7 a8 h0 h1 h2 h3 h4 h5 h6 h7 h8
  have g_main_v23 := at10_main_v23 V a0 a1 a2 a3 a4 a5 a6 a7 a8 h0 h1 h2 h3 h4 h5 h6 h7 h8
  have g_main_v19 := at10_main_v19 V a0 a1 a2 a3 a4 a5 a6 a7 a8 h0 h1 h2 h3 h4 h5 h6 h7 h8
  have g_main_v21 := at10_main_v21 V a0 a1 a2 a3 a4 a5 a6 a7 a8 h0 h1 h2 h3 h4 h5 h6 h7 h8
  have g_main_v25 := at10_main_v25 V a0 a1 a2 a3 a4 a5 a6 a7 a8 h0 h1 h2 h3 h4 h5 h6 h7 h8
  have g_main_v24 := at10_main_v24 V a0 a1 a2 a3 a4 a5 a6 a7 a8 h0 h1 h2 h3 h4 h5 h6 h7 h8
  have g_main_v26 := at10_main_v26 V a0 a1 a2 a3 a4 a5 a6 a7 a8 h0 h1 h2 h3 h4 h5 h6 h7 h8
  generalize after ((ops (F := F)).take 63) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v35, g_main_v38, g_main_v42, g_main_v45, g_main_v48, g_main_v23, g_main_v19, g_main_v21, g_main_v25, g_main_v24, g_main_v26]
  try rfl
theorem at11_main_v64 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 87) V (Proc.devRef .tc main_v64) = val_main_v64 (F := F) a0 a7 a8 := by
  have e : (ops (F := F)).take 87 = (ops (F := F)).take 63 ++ ((ops (F := F)).drop 63).take 24 := rfl
  rw [e, after_append]; clear e
  have g_main_v35 := at10_main_v35 V a0 a1 a2 a3 a4 a5 a6 a7 a8 h0 h1 h2 h3 h4 h5 h6 h7 h8
  have g_main_v38 := at10_main_v38 V a0 a1 a2 a3 a4 a5 a6 a7 a8 h0 h1 h2 h3 h4 h5 h6 h7 h8
  have g_main_v42 := at10_main_v42 V a0 a1 a2 a3 a4 a5 a6 a7 a8 h0 h1 h2 h3 h4 h5 h6 h7 h8
  have g_main_v45 := at10_main_v45 V a0 a1 a2 a3 a4 a5 a6 a7 a8 h0 h1 h2 h3 h4 h5 h6 h7 h8
  have g_main_v48 := at10_main_v48 V a0 a1 a2 a3 a4 a5 a6 a7 a8 h0 h1 h2 h3 h4 h5 h6 h7 h8
  have g_main_v23 := at10_main_v23 V a0 a1 a2 a3 a4 a5 a6 a7 a8 h0 h1 h2 h3 h4 h5 h6 h7 h8
  have g_main_v19 := at10_main_v19 V a0 a1 a2 a3 a4 a5 a6 a7 a8 h0 h1 h2 h3 h4 h5 h6 h7 h8
  have g_main_v21 := at10_main_v21 V a0 a1 a2 a3 a4 a5 a6 a7 a8 h0 h1 h2 h3 h4 h5 h6 h7 h8
  have g_main_v25 := at10_main_v25 V a0 a1 a2 a3 a4 a5 a6 a7 a8 h0 h1 h2 h3 h4 h5 h6 h7 h8
  have g_main_v24 := at10_main_v24 V a0 a1 a2 a3 a4 a5 a6 a7 a8 h0 h1 h2 h3 h4 h5 h6 h7 h8
  have g_main_v26 := at10_main_v26 V a0 a1 a2 a3 a4 a5 a6 a7 a8 h0 h1 h2 h3 h4 h5 h6 h7 h8
  generalize after ((ops (F := F)).take 63) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v35, g_main_v38, g_main_v42, g_main_v45, g_main_v48, g_main_v23, g_main_v19, g_main_v21, g_main_v25, g_main_v24, g_main_v26]
  try rfl
theorem at11_main_v68 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 87) V (Proc.devRef .tc main_v68) = val_main_v68 (F := F) a0 a7 a8 := by
  have e : (ops (F := F)).take 87 = (ops (F := F)).take 63 ++ ((ops (F := F)).drop 63).take 24 := rfl
  rw [e, after_append]; clear e
  have g_main_v35 := at10_main_v35 V a0 a1 a2 a3 a4 a5 a6 a7 a8 h0 h1 h2 h3 h4 h5 h6 h7 h8
  have g_main_v38 := at10_main_v38 V a0 a1 a2 a3 a4 a5 a6 a7 a8 h0 h1 h2 h3 h4 h5 h6 h7 h8
  have g_main_v42 := at10_main_v42 V a0 a1 a2 a3 a4 a5 a6 a7 a8 h0 h1 h2 h3 h4 h5 h6 h7 h8
  have g_main_v45 := at10_main_v45 V a0 a1 a2 a3 a4 a5 a6 a7 a8 h0 h1 h2 h3 h4 h5 h6 h7 h8
  have g_main_v48 := at10_main_v48 V a0 a1 a2 a3 a4 a5 a6 a7 a8 h0 h1 h2 h3 h4 h5 h6 h7 h8
  have g_main_v23 := at10_main_v23 V a0 a1 a2 a3 a4 a5 a6 a7 a8 h0 h1 h2 h3 h4 h5 h6 h7 h8
  have g_main_v19 := at10_main_v19 V a0 a1 a2 a3 a4 a5 a6 a7 a8 h0 h1 h2 h3 h4 h5 h6 h7 h8
  have g_main_v21 := at10_main_v21 V a0 a1 a2 a3 a4 a5 a6 a7 a8 h0 h1 h2 h3 h4 h5 h6 h7 h8
  have g_main_v25 := at10_main_v25 V a0 a1 a2 a3 a4 a5 a6 a7 a8 h0 h1 h2 h3 h4 h5 h6 h7 h8
  have g_main_v24 := at10_main_v24 V a0 a1 a2 a3 a4 a5 a6 a7 a8 h0 h1 h2 h3 h4 h5 h6 h7 h8
  have g_main_v26 := at10_main_v26 V a0 a1 a2 a3 a4 a5 a6 a7 a8 h0 h1 h2 h3 h4 h5 h6 h7 h8
  generalize after ((ops (F := F)).take 63) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v35, g_main_v38, g_main_v42, g_main_v45, g_main_v48, g_main_v23, g_main_v19, g_main_v21, g_main_v25, g_main_v24, g_main_v26]
  try rfl
theorem at12_main_arg1 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 111) V (Proc.devRef .tc main_arg1) = a1 := by
  have e : (ops (F := F)).take 111 = (ops (F := F)).take 87 ++ ((ops (F := F)).drop 87).take 24 := rfl
  rw [e, after_append]; clear e
  have g_main_v68 := at11_main_v68 V a0 a1 a2 a3 a4 a5 a6 a7 a8 h0 h1 h2 h3 h4 h5 h6 h7 h8
  have g_main_v19 := at11_main_v19 V a0 a1 a2 a3 a4 a5 a6 a7 a8 h0 h1 h2 h3 h4 h5 h6 h7 h8
  have g_main_v21 := at11_main_v21 V a0 a1 a2 a3 a4 a5 a6 a7 a8 h0 h1 h2 h3 h4 h5 h6 h7 h8
  have g_main_v25 := at11_main_v25 V a0 a1 a2 a3 a4 a5 a6 a7 a8 h0 h1 h2 h3 h4 h5 h6 h7 h8
  have g_main_v24 := at11_main_v24 V a0 a1 a2 a3 a4 a5 a6 a7 a8 h0 h1 h2 h3 h4 h5 h6 h7 h8
  have g_main_v26 := at11_main_v26 V a0 a1 a2 a3 a4 a5 a6 a7 a8 h0 h1 h2 h3 h4 h5 h6 h7 h8
  have g_main_v23 := at11_main_v23 V a0 a1 a2 a3 a4 a5 a6 a7 a8 h0 h1 h2 h3 h4 h5 h6 h7 h8
  have g_main_arg1 := at11_main_arg1 V a0 a1 a2 a3 a4 a5 a6 a7 a8 h0 h1 h2 h3 h4 h5 h6 h7 h8
  generalize after ((ops (F := F)).take 87) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v68, g_main_v19, g_main_v21, g_main_v25, g_main_v24, g_main_v26, g_main_v23, g_main_arg1]
  try rfl
theorem at12_main_arg2 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 111) V (Proc.devRef .tc main_arg2) = a2 := by
  have e : (ops (F := F)).take 111 = (ops (F := F)).take 87 ++ ((ops (F := F)).drop 87).take 24 := rfl
  rw [e, after_append]; clear e
  have g_main_v68 := at11_main_v68 V a0 a1 a2 a3 a4 a5 a6 a7 a8 h0 h1 h2 h3 h4 h5 h6 h7 h8
  have g_main_v19 := at11_main_v19 V a0 a1 a2 a3 a4 a5 a6 a7 a8 h0 h1 h2 h3 h4 h5 h6 h7 h8
  have g_main_v21 := at11_main_v21 V a0 a1 a2 a3 a4 a5 a6 a7 a8 h0 h1 h2 h3 h4 h5 h6 h7 h8
  have g_main_v25 := at11_main_v25 V a0 a1 a2 a3 a4 a5 a6 a7 a8 h0 h1 h2 h3 h4 h5 h6 h7 h8
  have g_main_v24 := at11_main_v24 V a0 a1 a2 a3 a4 a5 a6 a7 a8 h0 h1 h2 h3 h4 h5 h6 h7 h8
  have g_main_v26 := at11_main_v26 V a0 a1 a2 a3 a4 a5 a6 a7 a8 h0 h1 h2 h3 h4 h5 h6 h7 h8
  have g_main_v23 := at11_main_v23 V a0 a1 a2 a3 a4 a5 a6 a7 a8 h0 h1 h2 h3 h4 h5 h6 h7 h8
  have g_main_arg2 := at11_main_arg2 V a0 a1 a2 a3 a4 a5 a6 a7 a8 h0 h1 h2 h3 h4 h5 h6 h7 h8
  generalize after ((ops (F := F)).take 87) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v68, g_main_v19, g_main_v21, g_main_v25, g_main_v24, g_main_v26, g_main_v23, g_main_arg2]
  try rfl
theorem at12_main_arg3 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 111) V (Proc.devRef .tc main_arg3) = a3 := by
  have e : (ops (F := F)).take 111 = (ops (F := F)).take 87 ++ ((ops (F := F)).drop 87).take 24 := rfl
  rw [e, after_append]; clear e
  have g_main_v68 := at11_main_v68 V a0 a1 a2 a3 a4 a5 a6 a7 a8 h0 h1 h2 h3 h4 h5 h6 h7 h8
  have g_main_v19 := at11_main_v19 V a0 a1 a2 a3 a4 a5 a6 a7 a8 h0 h1 h2 h3 h4 h5 h6 h7 h8
  have g_main_v21 := at11_main_v21 V a0 a1 a2 a3 a4 a5 a6 a7 a8 h0 h1 h2 h3 h4 h5 h6 h7 h8
  have g_main_v25 := at11_main_v25 V a0 a1 a2 a3 a4 a5 a6 a7 a8 h0 h1 h2 h3 h4 h5 h6 h7 h8
  have g_main_v24 := at11_main_v24 V a0 a1 a2 a3 a4 a5 a6 a7 a8 h0 h1 h2 h3 h4 h5 h6 h7 h8
  have g_main_v26 := at11_main_v26 V a0 a1 a2 a3 a4 a5 a6 a7 a8 h0 h1 h2 h3 h4 h5 h6 h7 h8
  have g_main_v23 := at11_main_v23 V a0 a1 a2 a3 a4 a5 a6 a7 a8 h0 h1 h2 h3 h4 h5 h6 h7 h8
  have g_main_arg3 := at11_main_arg3 V a0 a1 a2 a3 a4 a5 a6 a7 a8 h0 h1 h2 h3 h4 h5 h6 h7 h8
  generalize after ((ops (F := F)).take 87) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v68, g_main_v19, g_main_v21, g_main_v25, g_main_v24, g_main_v26, g_main_v23, g_main_arg3]
  try rfl
theorem at12_main_arg4 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 111) V (Proc.devRef .tc main_arg4) = a4 := by
  have e : (ops (F := F)).take 111 = (ops (F := F)).take 87 ++ ((ops (F := F)).drop 87).take 24 := rfl
  rw [e, after_append]; clear e
  have g_main_v68 := at11_main_v68 V a0 a1 a2 a3 a4 a5 a6 a7 a8 h0 h1 h2 h3 h4 h5 h6 h7 h8
  have g_main_v19 := at11_main_v19 V a0 a1 a2 a3 a4 a5 a6 a7 a8 h0 h1 h2 h3 h4 h5 h6 h7 h8
  have g_main_v21 := at11_main_v21 V a0 a1 a2 a3 a4 a5 a6 a7 a8 h0 h1 h2 h3 h4 h5 h6 h7 h8
  have g_main_v25 := at11_main_v25 V a0 a1 a2 a3 a4 a5 a6 a7 a8 h0 h1 h2 h3 h4 h5 h6 h7 h8
  have g_main_v24 := at11_main_v24 V a0 a1 a2 a3 a4 a5 a6 a7 a8 h0 h1 h2 h3 h4 h5 h6 h7 h8
  have g_main_v26 := at11_main_v26 V a0 a1 a2 a3 a4 a5 a6 a7 a8 h0 h1 h2 h3 h4 h5 h6 h7 h8
  have g_main_v23 := at11_main_v23 V a0 a1 a2 a3 a4 a5 a6 a7 a8 h0 h1 h2 h3 h4 h5 h6 h7 h8
  have g_main_arg4 := at11_main_arg4 V a0 a1 a2 a3 a4 a5 a6 a7 a8 h0 h1 h2 h3 h4 h5 h6 h7 h8
  generalize after ((ops (F := F)).take 87) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v68, g_main_v19, g_main_v21, g_main_v25, g_main_v24, g_main_v26, g_main_v23, g_main_arg4]
  try rfl
theorem at12_main_arg5 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 111) V (Proc.devRef .tc main_arg5) = a5 := by
  have e : (ops (F := F)).take 111 = (ops (F := F)).take 87 ++ ((ops (F := F)).drop 87).take 24 := rfl
  rw [e, after_append]; clear e
  have g_main_v68 := at11_main_v68 V a0 a1 a2 a3 a4 a5 a6 a7 a8 h0 h1 h2 h3 h4 h5 h6 h7 h8
  have g_main_v19 := at11_main_v19 V a0 a1 a2 a3 a4 a5 a6 a7 a8 h0 h1 h2 h3 h4 h5 h6 h7 h8
  have g_main_v21 := at11_main_v21 V a0 a1 a2 a3 a4 a5 a6 a7 a8 h0 h1 h2 h3 h4 h5 h6 h7 h8
  have g_main_v25 := at11_main_v25 V a0 a1 a2 a3 a4 a5 a6 a7 a8 h0 h1 h2 h3 h4 h5 h6 h7 h8
  have g_main_v24 := at11_main_v24 V a0 a1 a2 a3 a4 a5 a6 a7 a8 h0 h1 h2 h3 h4 h5 h6 h7 h8
  have g_main_v26 := at11_main_v26 V a0 a1 a2 a3 a4 a5 a6 a7 a8 h0 h1 h2 h3 h4 h5 h6 h7 h8
  have g_main_v23 := at11_main_v23 V a0 a1 a2 a3 a4 a5 a6 a7 a8 h0 h1 h2 h3 h4 h5 h6 h7 h8
  have g_main_arg5 := at11_main_arg5 V a0 a1 a2 a3 a4 a5 a6 a7 a8 h0 h1 h2 h3 h4 h5 h6 h7 h8
  generalize after ((ops (F := F)).take 87) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v68, g_main_v19, g_main_v21, g_main_v25, g_main_v24, g_main_v26, g_main_v23, g_main_arg5]
  try rfl
theorem at12_main_arg6 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 111) V (Proc.devRef .tc main_arg6) = a6 := by
  have e : (ops (F := F)).take 111 = (ops (F := F)).take 87 ++ ((ops (F := F)).drop 87).take 24 := rfl
  rw [e, after_append]; clear e
  have g_main_v68 := at11_main_v68 V a0 a1 a2 a3 a4 a5 a6 a7 a8 h0 h1 h2 h3 h4 h5 h6 h7 h8
  have g_main_v19 := at11_main_v19 V a0 a1 a2 a3 a4 a5 a6 a7 a8 h0 h1 h2 h3 h4 h5 h6 h7 h8
  have g_main_v21 := at11_main_v21 V a0 a1 a2 a3 a4 a5 a6 a7 a8 h0 h1 h2 h3 h4 h5 h6 h7 h8
  have g_main_v25 := at11_main_v25 V a0 a1 a2 a3 a4 a5 a6 a7 a8 h0 h1 h2 h3 h4 h5 h6 h7 h8
  have g_main_v24 := at11_main_v24 V a0 a1 a2 a3 a4 a5 a6 a7 a8 h0 h1 h2 h3 h4 h5 h6 h7 h8
  have g_main_v26 := at11_main_v26 V a0 a1 a2 a3 a4 a5 a6 a7 a8 h0 h1 h2 h3 h4 h5 h6 h7 h8
  have g_main_v23 := at11_main_v23 V a0 a1 a2 a3 a4 a5 a6 a7 a8 h0 h1 h2 h3 h4 h5 h6 h7 h8
  have g_main_arg6 := at11_main_arg6 V a0 a1 a2 a3 a4 a5 a6 a7 a8 h0 h1 h2 h3 h4 h5 h6 h7 h8
  generalize after ((ops (F := F)).take 87) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v68, g_main_v19, g_main_v21, g_main_v25, g_main_v24, g_main_v26, g_main_v23, g_main_arg6]
  try rfl
theorem at12_main_arg7 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 111) V (Proc.devRef .tc main_arg7) = a7 := by
  have e : (ops (F := F)).take 111 = (ops (F := F)).take 87 ++ ((ops (F := F)).drop 87).take 24 := rfl
  rw [e, after_append]; clear e
  have g_main_v68 := at11_main_v68 V a0 a1 a2 a3 a4 a5 a6 a7 a8 h0 h1 h2 h3 h4 h5 h6 h7 h8
  have g_main_v19 := at11_main_v19 V a0 a1 a2 a3 a4 a5 a6 a7 a8 h0 h1 h2 h3 h4 h5 h6 h7 h8
  have g_main_v21 := at11_main_v21 V a0 a1 a2 a3 a4 a5 a6 a7 a8 h0 h1 h2 h3 h4 h5 h6 h7 h8
  have g_main_v25 := at11_main_v25 V a0 a1 a2 a3 a4 a5 a6 a7 a8 h0 h1 h2 h3 h4 h5 h6 h7 h8
  have g_main_v24 := at11_main_v24 V a0 a1 a2 a3 a4 a5 a6 a7 a8 h0 h1 h2 h3 h4 h5 h6 h7 h8
  have g_main_v26 := at11_main_v26 V a0 a1 a2 a3 a4 a5 a6 a7 a8 h0 h1 h2 h3 h4 h5 h6 h7 h8
  have g_main_v23 := at11_main_v23 V a0 a1 a2 a3 a4 a5 a6 a7 a8 h0 h1 h2 h3 h4 h5 h6 h7 h8
  have g_main_arg7 := at11_main_arg7 V a0 a1 a2 a3 a4 a5 a6 a7 a8 h0 h1 h2 h3 h4 h5 h6 h7 h8
  generalize after ((ops (F := F)).take 87) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v68, g_main_v19, g_main_v21, g_main_v25, g_main_v24, g_main_v26, g_main_v23, g_main_arg7]
  try rfl
theorem at12_main_arg8 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 111) V (Proc.devRef .tc main_arg8) = a8 := by
  have e : (ops (F := F)).take 111 = (ops (F := F)).take 87 ++ ((ops (F := F)).drop 87).take 24 := rfl
  rw [e, after_append]; clear e
  have g_main_v68 := at11_main_v68 V a0 a1 a2 a3 a4 a5 a6 a7 a8 h0 h1 h2 h3 h4 h5 h6 h7 h8
  have g_main_v19 := at11_main_v19 V a0 a1 a2 a3 a4 a5 a6 a7 a8 h0 h1 h2 h3 h4 h5 h6 h7 h8
  have g_main_v21 := at11_main_v21 V a0 a1 a2 a3 a4 a5 a6 a7 a8 h0 h1 h2 h3 h4 h5 h6 h7 h8
  have g_main_v25 := at11_main_v25 V a0 a1 a2 a3 a4 a5 a6 a7 a8 h0 h1 h2 h3 h4 h5 h6 h7 h8
  have g_main_v24 := at11_main_v24 V a0 a1 a2 a3 a4 a5 a6 a7 a8 h0 h1 h2 h3 h4 h5 h6 h7 h8
  have g_main_v26 := at11_main_v26 V a0 a1 a2 a3 a4 a5 a6 a7 a8 h0 h1 h2 h3 h4 h5 h6 h7 h8
  have g_main_v23 := at11_main_v23 V a0 a1 a2 a3 a4 a5 a6 a7 a8 h0 h1 h2 h3 h4 h5 h6 h7 h8
  have g_main_arg8 := at11_main_arg8 V a0 a1 a2 a3 a4 a5 a6 a7 a8 h0 h1 h2 h3 h4 h5 h6 h7 h8
  generalize after ((ops (F := F)).take 87) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v68, g_main_v19, g_main_v21, g_main_v25, g_main_v24, g_main_v26, g_main_v23, g_main_arg8]
  try rfl
theorem at12_main_v19 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 111) V (Proc.devRef .tc main_v19) = val_main_v19 (F := F) a0 a7 a8 := by
  have e : (ops (F := F)).take 111 = (ops (F := F)).take 87 ++ ((ops (F := F)).drop 87).take 24 := rfl
  rw [e, after_append]; clear e
  have g_main_v68 := at11_main_v68 V a0 a1 a2 a3 a4 a5 a6 a7 a8 h0 h1 h2 h3 h4 h5 h6 h7 h8
  have g_main_v19 := at11_main_v19 V a0 a1 a2 a3 a4 a5 a6 a7 a8 h0 h1 h2 h3 h4 h5 h6 h7 h8
  have g_main_v21 := at11_main_v21 V a0 a1 a2 a3 a4 a5 a6 a7 a8 h0 h1 h2 h3 h4 h5 h6 h7 h8
  have g_main_v25 := at11_main_v25 V a0 a1 a2 a3 a4 a5 a6 a7 a8 h0 h1 h2 h3 h4 h5 h6 h7 h8
  have g_main_v24 := at11_main_v24 V a0 a1 a2 a3 a4 a5 a6 a7 a8 h0 h1 h2 h3 h4 h5 h6 h7 h8
  have g_main_v26 := at11_main_v26 V a0 a1 a2 a3 a4 a5 a6 a7 a8 h0 h1 h2 h3 h4 h5 h6 h7 h8
  have g_main_v23 := at11_main_v23 V a0 a1 a2 a3 a4 a5 a6 a7 a8 h0 h1 h2 h3 h4 h5 h6 h7 h8
  generalize after ((ops (F := F)).take 87) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v68, g_main_v19, g_main_v21, g_main_v25, g_main_v24, g_main_v26, g_main_v23]
  try rfl
theorem at12_main_v21 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 111) V (Proc.devRef .tc main_v21) = val_main_v21 (F := F) a0 a7 a8 := by
  have e : (ops (F := F)).take 111 = (ops (F := F)).take 87 ++ ((ops (F := F)).drop 87).take 24 := rfl
  rw [e, after_append]; clear e
  have g_main_v68 := at11_main_v68 V a0 a1 a2 a3 a4 a5 a6 a7 a8 h0 h1 h2 h3 h4 h5 h6 h7 h8
  have g_main_v19 := at11_main_v19 V a0 a1 a2 a3 a4 a5 a6 a7 a8 h0 h1 h2 h3 h4 h5 h6 h7 h8
  have g_main_v21 := at11_main_v21 V a0 a1 a2 a3 a4 a5 a6 a7 a8 h0 h1 h2 h3 h4 h5 h6 h7 h8
  have g_main_v25 := at11_main_v25 V a0 a1 a2 a3 a4 a5 a6 a7 a8 h0 h1 h2 h3 h4 h5 h6 h7 h8
  have g_main_v24 := at11_main_v24 V a0 a1 a2 a3 a4 a5 a6 a7 a8 h0 h1 h2 h3 h4 h5 h6 h7 h8
  have g_main_v26 := at11_main_v26 V a0 a1 a2 a3 a4 a5 a6 a7 a8 h0 h1 h2 h3 h4 h5 h6 h7 h8
  have g_main_v23 := at11_main_v23 V a0 a1 a2 a3 a4 a5 a6 a7 a8 h0 h1 h2 h3 h4 h5 h6 h7 h8
  generalize after ((ops (F := F)).take 87) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v68, g_main_v19, g_main_v21, g_main_v25, g_main_v24, g_main_v26, g_main_v23]
  try rfl
theorem at12_main_v23 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 111) V (Proc.devRef .tc main_v23) = val_main_v23 (F := F) a0 a7 a8 := by
  have e : (ops (F := F)).take 111 = (ops (F := F)).take 87 ++ ((ops (F := F)).drop 87).take 24 := rfl
  rw [e, after_append]; clear e
  have g_main_v68 := at11_main_v68 V a0 a1 a2 a3 a4 a5 a6 a7 a8 h0 h1 h2 h3 h4 h5 h6 h7 h8
  have g_main_v19 := at11_main_v19 V a0 a1 a2 a3 a4 a5 a6 a7 a8 h0 h1 h2 h3 h4 h5 h6 h7 h8
  have g_main_v21 := at11_main_v21 V a0 a1 a2 a3 a4 a5 a6 a7 a8 h0 h1 h2 h3 h4 h5 h6 h7 h8
  have g_main_v25 := at11_main_v25 V a0 a1 a2 a3 a4 a5 a6 a7 a8 h0 h1 h2 h3 h4 h5 h6 h7 h8
  have g_main_v24 := at11_main_v24 V a0 a1 a2 a3 a4 a5 a6 a7 a8 h0 h1 h2 h3 h4 h5 h6 h7 h8
  have g_main_v26 := at11_main_v26 V a0 a1 a2 a3 a4 a5 a6 a7 a8 h0 h1 h2 h3 h4 h5 h6 h7 h8
  have g_main_v23 := at11_main_v23 V a0 a1 a2 a3 a4 a5 a6 a7 a8 h0 h1 h2 h3 h4 h5 h6 h7 h8
  generalize after ((ops (F := F)).take 87) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v68, g_main_v19, g_main_v21, g_main_v25, g_main_v24, g_main_v26, g_main_v23]
  try rfl
theorem at12_main_v24 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 111) V (Proc.devRef .tc main_v24) = val_main_v24 (F := F) a0 a7 a8 := by
  have e : (ops (F := F)).take 111 = (ops (F := F)).take 87 ++ ((ops (F := F)).drop 87).take 24 := rfl
  rw [e, after_append]; clear e
  have g_main_v68 := at11_main_v68 V a0 a1 a2 a3 a4 a5 a6 a7 a8 h0 h1 h2 h3 h4 h5 h6 h7 h8
  have g_main_v19 := at11_main_v19 V a0 a1 a2 a3 a4 a5 a6 a7 a8 h0 h1 h2 h3 h4 h5 h6 h7 h8
  have g_main_v21 := at11_main_v21 V a0 a1 a2 a3 a4 a5 a6 a7 a8 h0 h1 h2 h3 h4 h5 h6 h7 h8
  have g_main_v25 := at11_main_v25 V a0 a1 a2 a3 a4 a5 a6 a7 a8 h0 h1 h2 h3 h4 h5 h6 h7 h8
  have g_main_v24 := at11_main_v24 V a0 a1 a2 a3 a4 a5 a6 a7 a8 h0 h1 h2 h3 h4 h5 h6 h7 h8
  have g_main_v26 := at11_main_v26 V a0 a1 a2 a3 a4 a5 a6 a7 a8 h0 h1 h2 h3 h4 h5 h6 h7 h8
  have g_main_v23 := at11_main_v23 V a0 a1 a2 a3 a4 a5 a6 a7 a8 h0 h1 h2 h3 h4 h5 h6 h7 h8
  generalize after ((ops (F := F)).take 87) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v68, g_main_v19, g_main_v21, g_main_v25, g_main_v24, g_main_v26, g_main_v23]
  try rfl
theorem at12_main_v25 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 111) V (Proc.devRef .tc main_v25) = val_main_v25 (F := F) a0 a7 a8 := by
  have e : (ops (F := F)).take 111 = (ops (F := F)).take 87 ++ ((ops (F := F)).drop 87).take 24 := rfl
  rw [e, after_append]; clear e
  have g_main_v68 := at11_main_v68 V a0 a1 a2 a3 a4 a5 a6 a7 a8 h0 h1 h2 h3 h4 h5 h6 h7 h8
  have g_main_v19 := at11_main_v19 V a0 a1 a2 a3 a4 a5 a6 a7 a8 h0 h1 h2 h3 h4 h5 h6 h7 h8
  have g_main_v21 := at11_main_v21 V a0 a1 a2 a3 a4 a5 a6 a7 a8 h0 h1 h2 h3 h4 h5 h6 h7 h8
  have g_main_v25 := at11_main_v25 V a0 a1 a2 a3 a4 a5 a6 a7 a8 h0 h1 h2 h3 h4 h5 h6 h7 h8
  have g_main_v24 := at11_main_v24 V a0 a1 a2 a3 a4 a5 a6 a7 a8 h0 h1 h2 h3 h4 h5 h6 h7 h8
  have g_main_v26 := at11_main_v26 V a0 a1 a2 a3 a4 a5 a6 a7 a8 h0 h1 h2 h3 h4 h5 h6 h7 h8
  have g_main_v23 := at11_main_v23 V a0 a1 a2 a3 a4 a5 a6 a7 a8 h0 h1 h2 h3 h4 h5 h6 h7 h8
  generalize after ((ops (F := F)).take 87) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v68, g_main_v19, g_main_v21, g_main_v25, g_main_v24, g_main_v26, g_main_v23]
  try rfl
theorem at12_main_v26 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 111) V (Proc.devRef .tc main_v26) = val_main_v26 (F := F) a0 a7 a8 := by
  have e : (ops (F := F)).take 111 = (ops (F := F)).take 87 ++ ((ops (F := F)).drop 87).take 24 := rfl
  rw [e, after_append]; clear e
  have g_main_v68 := at11_main_v68 V a0 a1 a2 a3 a4 a5 a6 a7 a8 h0 h1 h2 h3 h4 h5 h6 h7 h8
  have g_main_v19 := at11_main_v19 V a0 a1 a2 a3 a4 a5 a6 a7 a8 h0 h1 h2 h3 h4 h5 h6 h7 h8
  have g_main_v21 := at11_main_v21 V a0 a1 a2 a3 a4 a5 a6 a7 a8 h0 h1 h2 h3 h4 h5 h6 h7 h8
  have g_main_v25 := at11_main_v25 V a0 a1 a2 a3 a4 a5 a6 a7 a8 h0 h1 h2 h3 h4 h5 h6 h7 h8
  have g_main_v24 := at11_main_v24 V a0 a1 a2 a3 a4 a5 a6 a7 a8 h0 h1 h2 h3 h4 h5 h6 h7 h8
  have g_main_v26 := at11_main_v26 V a0 a1 a2 a3 a4 a5 a6 a7 a8 h0 h1 h2 h3 h4 h5 h6 h7 h8
  have g_main_v23 := at11_main_v23 V a0 a1 a2 a3 a4 a5 a6 a7 a8 h0 h1 h2 h3 h4 h5 h6 h7 h8
  generalize after ((ops (F := F)).take 87) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v68, g_main_v19, g_main_v21, g_main_v25, g_main_v24, g_main_v26, g_main_v23]
  try rfl
theorem at12_main_v32 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 111) V (Proc.devRef .tc main_v32) = val_main_v32 (F := F) a0 a7 a8 := by
  have e : (ops (F := F)).take 111 = (ops (F := F)).take 87 ++ ((ops (F := F)).drop 87).take 24 := rfl
  rw [e, after_append]; clear e
  have g_main_v68 := at11_main_v68 V a0 a1 a2 a3 a4 a5 a6 a7 a8 h0 h1 h2 h3 h4 h5 h6 h7 h8
  have g_main_v19 := at11_main_v19 V a0 a1 a2 a3 a4 a5 a6 a7 a8 h0 h1 h2 h3 h4 h5 h6 h7 h8
  have g_main_v21 := at11_main_v21 V a0 a1 a2 a3 a4 a5 a6 a7 a8 h0 h1 h2 h3 h4 h5 h6 h7 h8
  have g_main_v25 := at11_main_v25 V a0 a1 a2 a3 a4 a5 a6 a7 a8 h0 h1 h2 h3 h4 h5 h6 h7 h8
  have g_main_v24 := at11_main_v24 V a0 a1 a2 a3 a4 a5 a6 a7 a8 h0 h1 h2 h3 h4 h5 h6 h7 h8
  have g_main_v26 := at11_main_v26 V a0 a1 a2 a3 a4 a5 a6 a7 a8 h0 h1 h2 h3 h4 h5 h6 h7 h8
  have g_main_v23 := at11_main_v23 V a0 a1 a2 a3 a4 a5 a6 a7 a8 h0 h1 h2 h3 h4 h5 h6 h7 h8
  have g_main_v32 := at11_main_v32 V a0 a1 a2 a3 a4 a5 a6 a7 a8 h0 h1 h2 h3 h4 h5 h6 h7 h8
  generalize after ((ops (F := F)).take 87) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v68, g_main_v19, g_main_v21, g_main_v25, g_main_v24, g_main_v26, g_main_v23, g_main_v32]
  try rfl
theorem at12_main_v35 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 111) V (Proc.devRef .tc main_v35) = val_main_v35 (F := F) a0 a7 a8 := by
  have e : (ops (F := F)).take 111 = (ops (F := F)).take 87 ++ ((ops (F := F)).drop 87).take 24 := rfl
  rw [e, after_append]; clear e
  have g_main_v68 := at11_main_v68 V a0 a1 a2 a3 a4 a5 a6 a7 a8 h0 h1 h2 h3 h4 h5 h6 h7 h8
  have g_main_v19 := at11_main_v19 V a0 a1 a2 a3 a4 a5 a6 a7 a8 h0 h1 h2 h3 h4 h5 h6 h7 h8
  have g_main_v21 := at11_main_v21 V a0 a1 a2 a3 a4 a5 a6 a7 a8 h0 h1 h2 h3 h4 h5 h6 h7 h8
  have g_main_v25 := at11_main_v25 V a0 a1 a2 a3 a4 a5 a6 a7 a8 h0 h1 h2 h3 h4 h5 h6 h7 h8
  have g_main_v24 := at11_main_v24 V a0 a1 a2 a3 a4 a5 a6 a7 a8 h0 h1 h2 h3 h4 h5 h6 h7 h8
  have g_main_v26 := at11_main_v26 V a0 a1 a2 a3 a4 a5 a6 a7 a8 h0 h1 h2 h3 h4 h5 h6 h7 h8
  have g_main_v23 := at11_main_v23 V a0 a1 a2 a3 a4 a5 a6 a7 a8 h0 h1 h2 h3 h4 h5 h6 h7 h8
  have g_main_v35 := at11_main_v35 V a0 a1 a2 a3 a4 a5 a6 a7 a8 h0 h1 h2 h3 h4 h5 h6 h7 h8
  generalize after ((ops (F := F)).take 87) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v68, g_main_v19, g_main_v21, g_main_v25, g_main_v24, g_main_v26, g_main_v23, g_main_v35]
  try rfl
theorem at12_main_v48 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 111) V (Proc.devRef .tc main_v48) = val_main_v48 (F := F) a0 a7 a8 := by
  have e : (ops (F := F)).take 111 = (ops (F := F)).take 87 ++ ((ops (F := F)).drop 87).take 24 := rfl
  rw [e, after_append]; clear e
  have g_main_v68 := at11_main_v68 V a0 a1 a2 a3 a4 a5 a6 a7 a8 h0 h1 h2 h3 h4 h5 h6 h7 h8
  have g_main_v19 := at11_main_v19 V a0 a1 a2 a3 a4 a5 a6 a7 a8 h0 h1 h2 h3 h4 h5 h6 h7 h8
  have g_main_v21 := at11_main_v21 V a0 a1 a2 a3 a4 a5 a6 a7 a8 h0 h1 h2 h3 h4 h5 h6 h7 h8
  have g_main_v25 := at11_main_v25 V a0 a1 a2 a3 a4 a5 a6 a7 a8 h0 h1 h2 h3 h4 h5 h6 h7 h8
  have g_main_v24 := at11_main_v24 V a0 a1 a2 a3 a4 a5 a6 a7 a8 h0 h1 h2 h3 h4 h5 h6 h7 h8
  have g_main_v26 := at11_main_v26 V a0 a1 a2 a3 a4 a5 a6 a7 a8 h0 h1 h2 h3 h4 h5 h6 h7 h8
  have g_main_v23 := at11_main_v23 V a0 a1 a2 a3 a4 a5 a6 a7 a8 h0 h1 h2 h3 h4 h5 h6 h7 h8
  have g_main_v48 := at11_main_v48 V a0 a1 a2 a3 a4 a5 a6 a7 a8 h0 h1 h2 h3 h4 h5 h6 h7 h8
  generalize after ((ops (F := F)).take 87) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v68, g_main_v19, g_main_v21, g_main_v25, g_main_v24, g_main_v26, g_main_v23, g_main_v48]
  try rfl
theorem at12_main_v56 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 111) V (Proc.devRef .tc main_v56) = val_main_v56 (F := F) a0 a7 a8 := by
  have e : (ops (F := F)).take 111 = (ops (F := F)).take 87 ++ ((ops (F := F)).drop 87).take 24 := rfl
  rw [e, after_append]; clear e
  have g_main_v68 := at11_main_v68 V a0 a1 a2 a3 a4 a5 a6 a7 a8 h0 h1 h2 h3 h4 h5 h6 h7 h8
  have g_main_v19 := at11_main_v19 V a0 a1 a2 a3 a4 a5 a6 a7 a8 h0 h1 h2 h3 h4 h5 h6 h7 h8
  have g_main_v21 := at11_main_v21 V a0 a1 a2 a3 a4 a5 a6 a7 a8 h0 h1 h2 h3 h4 h5 h6 h7 h8
  have g_main_v25 := at11_main_v25 V a0 a1 a2 a3 a4 a5 a6 a7 a8 h0 h1 h2 h3 h4 h5 h6 h7 h8
  have g_main_v24 := at11_main_v24 V a0 a1 a2 a3 a4 a5 a6 a7 a8 h0 h1 h2 h3 h4 h5 h6 h7 h8
  have g_main_v26 := at11_main_v26 V a0 a1 a2 a3 a4 a5 a6 a7 a8 h0 h1 h2 h3 h4 h5 h6 h7 h8
  have g_main_v23 := at11_main_v23 V a0 a1 a2 a3 a4 a5 a6 a7 a8 h0 h1 h2 h3 h4 h5 h6 h7 h8
  have g_main_v56 := at11_main_v56 V a0 a1 a2 a3 a4 a5 a6 a7 a8 h0 h1 h2 h3 h4 h5 h6 h7 h8
  generalize after ((ops (F := F)).take 87) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v68, g_main_v19, g_main_v21, g_main_v25, g_main_v24, g_main_v26, g_main_v23, g_main_v56]
  try rfl
theorem at12_main_v61 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 111) V (Proc.devRef .tc main_v61) = val_main_v61 (F := F) a0 a7 a8 := by
  have e : (ops (F := F)).take 111 = (ops (F := F)).take 87 ++ ((ops (F := F)).drop 87).take 24 := rfl
  rw [e, after_append]; clear e
  have g_main_v68 := at11_main_v68 V a0 a1 a2 a3 a4 a5 a6 a7 a8 h0 h1 h2 h3 h4 h5 h6 h7 h8
  have g_main_v19 := at11_main_v19 V a0 a1 a2 a3 a4 a5 a6 a7 a8 h0 h1 h2 h3 h4 h5 h6 h7 h8
  have g_main_v21 := at11_main_v21 V a0 a1 a2 a3 a4 a5 a6 a7 a8 h0 h1 h2 h3 h4 h5 h6 h7 h8
  have g_main_v25 := at11_main_v25 V a0 a1 a2 a3 a4 a5 a6 a7 a8 h0 h1 h2 h3 h4 h5 h6 h7 h8
  have g_main_v24 := at11_main_v24 V a0 a1 a2 a3 a4 a5 a6 a7 a8 h0 h1 h2 h3 h4 h5 h6 h7 h8
  have g_main_v26 := at11_main_v26 V a0 a1 a2 a3 a4 a5 a6 a7 a8 h0 h1 h2 h3 h4 h5 h6 h7 h8
  have g_main_v23 := at11_main_v23 V a0 a1 a2 a3 a4 a5 a6 a7 a8 h0 h1 h2 h3 h4 h5 h6 h7 h8
  have g_main_v61 := at11_main_v61 V a0 a1 a2 a3 a4 a5 a6 a7 a8 h0 h1 h2 h3 h4 h5 h6 h7 h8
  generalize after ((ops (F := F)).take 87) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v68, g_main_v19, g_main_v21, g_main_v25, g_main_v24, g_main_v26, g_main_v23, g_main_v61]
  try rfl
theorem at12_main_v64 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 111) V (Proc.devRef .tc main_v64) = val_main_v64 (F := F) a0 a7 a8 := by
  have e : (ops (F := F)).take 111 = (ops (F := F)).take 87 ++ ((ops (F := F)).drop 87).take 24 := rfl
  rw [e, after_append]; clear e
  have g_main_v68 := at11_main_v68 V a0 a1 a2 a3 a4 a5 a6 a7 a8 h0 h1 h2 h3 h4 h5 h6 h7 h8
  have g_main_v19 := at11_main_v19 V a0 a1 a2 a3 a4 a5 a6 a7 a8 h0 h1 h2 h3 h4 h5 h6 h7 h8
  have g_main_v21 := at11_main_v21 V a0 a1 a2 a3 a4 a5 a6 a7 a8 h0 h1 h2 h3 h4 h5 h6 h7 h8
  have g_main_v25 := at11_main_v25 V a0 a1 a2 a3 a4 a5 a6 a7 a8 h0 h1 h2 h3 h4 h5 h6 h7 h8
  have g_main_v24 := at11_main_v24 V a0 a1 a2 a3 a4 a5 a6 a7 a8 h0 h1 h2 h3 h4 h5 h6 h7 h8
  have g_main_v26 := at11_main_v26 V a0 a1 a2 a3 a4 a5 a6 a7 a8 h0 h1 h2 h3 h4 h5 h6 h7 h8
  have g_main_v23 := at11_main_v23 V a0 a1 a2 a3 a4 a5 a6 a7 a8 h0 h1 h2 h3 h4 h5 h6 h7 h8
  have g_main_v64 := at11_main_v64 V a0 a1 a2 a3 a4 a5 a6 a7 a8 h0 h1 h2 h3 h4 h5 h6 h7 h8
  generalize after ((ops (F := F)).take 87) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v68, g_main_v19, g_main_v21, g_main_v25, g_main_v24, g_main_v26, g_main_v23, g_main_v64]
  try rfl
theorem at12_main_v71 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 111) V (Proc.devRef .tc main_v71) = val_main_v71 (F := F) a0 a7 a8 := by
  have e : (ops (F := F)).take 111 = (ops (F := F)).take 87 ++ ((ops (F := F)).drop 87).take 24 := rfl
  rw [e, after_append]; clear e
  have g_main_v68 := at11_main_v68 V a0 a1 a2 a3 a4 a5 a6 a7 a8 h0 h1 h2 h3 h4 h5 h6 h7 h8
  have g_main_v19 := at11_main_v19 V a0 a1 a2 a3 a4 a5 a6 a7 a8 h0 h1 h2 h3 h4 h5 h6 h7 h8
  have g_main_v21 := at11_main_v21 V a0 a1 a2 a3 a4 a5 a6 a7 a8 h0 h1 h2 h3 h4 h5 h6 h7 h8
  have g_main_v25 := at11_main_v25 V a0 a1 a2 a3 a4 a5 a6 a7 a8 h0 h1 h2 h3 h4 h5 h6 h7 h8
  have g_main_v24 := at11_main_v24 V a0 a1 a2 a3 a4 a5 a6 a7 a8 h0 h1 h2 h3 h4 h5 h6 h7 h8
  have g_main_v26 := at11_main_v26 V a0 a1 a2 a3 a4 a5 a6 a7 a8 h0 h1 h2 h3 h4 h5 h6 h7 h8
  have g_main_v23 := at11_main_v23 V a0 a1 a2 a3 a4 a5 a6 a7 a8 h0 h1 h2 h3 h4 h5 h6 h7 h8
  generalize after ((ops (F := F)).take 87) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v68, g_main_v19, g_main_v21, g_main_v25, g_main_v24, g_main_v26, g_main_v23]
  try rfl
theorem at12_main_v82 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 111) V (Proc.devRef .tc main_v82) = val_main_v82 (F := F) a0 a7 a8 := by
  have e : (ops (F := F)).take 111 = (ops (F := F)).take 87 ++ ((ops (F := F)).drop 87).take 24 := rfl
  rw [e, after_append]; clear e
  have g_main_v68 := at11_main_v68 V a0 a1 a2 a3 a4 a5 a6 a7 a8 h0 h1 h2 h3 h4 h5 h6 h7 h8
  have g_main_v19 := at11_main_v19 V a0 a1 a2 a3 a4 a5 a6 a7 a8 h0 h1 h2 h3 h4 h5 h6 h7 h8
  have g_main_v21 := at11_main_v21 V a0 a1 a2 a3 a4 a5 a6 a7 a8 h0 h1 h2 h3 h4 h5 h6 h7 h8
  have g_main_v25 := at11_main_v25 V a0 a1 a2 a3 a4 a5 a6 a7 a8 h0 h1 h2 h3 h4 h5 h6 h7 h8
  have g_main_v24 := at11_main_v24 V a0 a1 a2 a3 a4 a5 a6 a7 a8 h0 h1 h2 h3 h4 h5 h6 h7 h8
  have g_main_v26 := at11_main_v26 V a0 a1 a2 a3 a4 a5 a6 a7 a8 h0 h1 h2 h3 h4 h5 h6 h7 h8
  have g_main_v23 := at11_main_v23 V a0 a1 a2 a3 a4 a5 a6 a7 a8 h0 h1 h2 h3 h4 h5 h6 h7 h8
  generalize after ((ops (F := F)).take 87) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v68, g_main_v19, g_main_v21, g_main_v25, g_main_v24, g_main_v26, g_main_v23]
  try rfl
theorem at12_main_v84 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 111) V (Proc.devRef .tc main_v84) = val_main_v84 (F := F) a0 a7 a8 := by
  have e : (ops (F := F)).take 111 = (ops (F := F)).take 87 ++ ((ops (F := F)).drop 87).take 24 := rfl
  rw [e, after_append]; clear e
  have g_main_v68 := at11_main_v68 V a0 a1 a2 a3 a4 a5 a6 a7 a8 h0 h1 h2 h3 h4 h5 h6 h7 h8
  have g_main_v19 := at11_main_v19 V a0 a1 a2 a3 a4 a5 a6 a7 a8 h0 h1 h2 h3 h4 h5 h6 h7 h8
  have g_main_v21 := at11_main_v21 V a0 a1 a2 a3 a4 a5 a6 a7 a8 h0 h1 h2 h3 h4 h5 h6 h7 h8
  have g_main_v25 := at11_main_v25 V a0 a1 a2 a3 a4 a5 a6 a7 a8 h0 h1 h2 h3 h4 h5 h6 h7 h8
  have g_main_v24 := at11_main_v24 V a0 a1 a2 a3 a4 a5 a6 a7 a8 h0 h1 h2 h3 h4 h5 h6 h7 h8
  have g_main_v26 := at11_main_v26 V a0 a1 a2 a3 a4 a5 a6 a7 a8 h0 h1 h2 h3 h4 h5 h6 h7 h8
  have g_main_v23 := at11_main_v23 V a0 a1 a2 a3 a4 a5 a6 a7 a8 h0 h1 h2 h3 h4 h5 h6 h7 h8
  generalize after ((ops (F := F)).take 87) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v68, g_main_v19, g_main_v21, g_main_v25, g_main_v24, g_main_v26, g_main_v23]
  try rfl
theorem at12_main_v85 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 111) V (Proc.devRef .tc main_v85) = val_main_v85 (F := F) := by
  have e : (ops (F := F)).take 111 = (ops (F := F)).take 87 ++ ((ops (F := F)).drop 87).take 24 := rfl
  rw [e, after_append]; clear e
  have g_main_v68 := at11_main_v68 V a0 a1 a2 a3 a4 a5 a6 a7 a8 h0 h1 h2 h3 h4 h5 h6 h7 h8
  have g_main_v19 := at11_main_v19 V a0 a1 a2 a3 a4 a5 a6 a7 a8 h0 h1 h2 h3 h4 h5 h6 h7 h8
  have g_main_v21 := at11_main_v21 V a0 a1 a2 a3 a4 a5 a6 a7 a8 h0 h1 h2 h3 h4 h5 h6 h7 h8
  have g_main_v25 := at11_main_v25 V a0 a1 a2 a3 a4 a5 a6 a7 a8 h0 h1 h2 h3 h4 h5 h6 h7 h8
  have g_main_v24 := at11_main_v24 V a0 a1 a2 a3 a4 a5 a6 a7 a8 h0 h1 h2 h3 h4 h5 h6 h7 h8
  have g_main_v26 := at11_main_v26 V a0 a1 a2 a3 a4 a5 a6 a7 a8 h0 h1 h2 h3 h4 h5 h6 h7 h8
  have g_main_v23 := at11_main_v23 V a0 a1 a2 a3 a4 a5 a6 a7 a8 h0 h1 h2 h3 h4 h5 h6 h7 h8
  generalize after ((ops (F := F)).take 87) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v68, g_main_v19, g_main_v21, g_main_v25, g_main_v24, g_main_v26, g_main_v23]
  try rfl
theorem at13_main_arg1 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 135) V (Proc.devRef .tc main_arg1) = a1 := by
  have e : (ops (F := F)).take 135 = (ops (F := F)).take 111 ++ ((ops (F := F)).drop 111).take 24 := rfl
  rw [e, after_append]; clear e
  have g_main_v85 := at12_main_v85 V a0 a1 a2 a3 a4 a5 a6 a7 a8 h0 h1 h2 h3 h4 h5 h6 h7 h8
  have g_main_v25 := at12_main_v25 V a0 a1 a2 a3 a4 a5 a6 a7 a8 h0 h1 h2 h3 h4 h5 h6 h7 h8
  have g_main_v24 := at12_main_v24 V a0 a1 a2 a3 a4 a5 a6 a7 a8 h0 h1 h2 h3 h4 h5 h6 h7 h8
  have g_main_v26 := at12_main_v26 V a0 a1 a2 a3 a4 a5 a6 a7 a8 h0 h1 h2 h3 h4 h5 h6 h7 h8
  have g_main_v84 := at12_main_v84 V a0 a1 a2 a3 a4 a5 a6 a7 a8 h0 h1 h2 h3 h4 h5 h6 h7 h8
  have g_main_v48 := at12_main_v48 V a0 a1 a2 a3 a4 a5 a6 a7 a8 h0 h1 h2 h3 h4 h5 h6 h7 h8
  have g_main_v21 := at12_main_v21 V a0 a1 a2 a3 a4 a5 a6 a7 a8 h0 h1 h2 h3 h4 h5 h6 h7 h8
  have g_main_v23 := at12_main_v23 V a0 a1 a2 a3 a4 a5 a6 a7 a8 h0 h1 h2 h3 h4 h5 h6 h7 h8
  have g_main_v35 := at12_main_v35 V a0 a1 a2 a3 a4 a5 a6 a7 a8 h0 h1 h2 h3 h4 h5 h6 h7 h8
  have g_main_v19 := at12_main_v19 V a0 a1 a2 a3 a4 a5 a6 a7 a8 h0 h1 h2 h3 h4 h5 h6 h7 h8
  have g_main_v61 := at12_main_v61 V a0 a1 a2 a3 a4 a5 a6 a7 a8 h0 h1 h2 h3 h4 h5 h6 h7 h8
  have g_main_v64 := at12_main_v64 V a0 a1 a2 a3 a4 a5 a6 a7 a8 h0 h1 h2 h3 h4 h5 h6 h7 h8
  have g_main_v71 := at12_main_v71 V a0 a1 a2 a3 a4 a5 a6 a7 a8 h0 h1 h2 h3 h4 h5 h6 h7 h8
  have g_main_v82 := at12_main_v82 V a0 a1 a2 a3 a4 a5 a6 a7 a8 h0 h1 h2 h3 h4 h5 h6 h7 h8
  have g_main_arg1 := at12_main_arg1 V a0 a1 a2 a3 a4 a5 a6 a7 a8 h0 h1 h2 h3 h4 h5 h6 h7 h8
  generalize after ((ops (F := F)).take 111) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v85, g_main_v25, g_main_v24, g_main_v26, g_main_v84, g_main_v48, g_main_v21, g_main_v23, g_main_v35, g_main_v19, g_main_v61, g_main_v64, g_main_v71, g_main_v82, g_main_arg1]
  try rfl
theorem at13_main_arg2 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 135) V (Proc.devRef .tc main_arg2) = a2 := by
  have e : (ops (F := F)).take 135 = (ops (F := F)).take 111 ++ ((ops (F := F)).drop 111).take 24 := rfl
  rw [e, after_append]; clear e
  have g_main_v85 := at12_main_v85 V a0 a1 a2 a3 a4 a5 a6 a7 a8 h0 h1 h2 h3 h4 h5 h6 h7 h8
  have g_main_v25 := at12_main_v25 V a0 a1 a2 a3 a4 a5 a6 a7 a8 h0 h1 h2 h3 h4 h5 h6 h7 h8
  have g_main_v24 := at12_main_v24 V a0 a1 a2 a3 a4 a5 a6 a7 a8 h0 h1 h2 h3 h4 h5 h6 h7 h8
  have g_main_v26 := at12_main_v26 V a0 a1 a2 a3 a4 a5 a6 a7 a8 h0 h1 h2 h3 h4 h5 h6 h7 h8
  have g_main_v84 := at12_main_v84 V a0 a1 a2 a3 a4 a5 a6 a7 a8 h0 h1 h2 h3 h4 h5 h6 h7 h8
  have g_main_v48 := at12_main_v48 V a0 a1 a2 a3 a4 a5 a6 a7 a8 h0 h1 h2 h3 h4 h5 h6 h7 h8
  have g_main_v21 := at12_main_v21 V a0 a1 a2 a3 a4 a5 a6 a7 a8 h0 h1 h2 h3 h4 h5 h6 h7 h8
  have g_main_v23 := at12_main_v23 V a0 a1 a2 a3 a4 a5 a6 a7 a8 h0 h1 h2 h3 h4 h5 h6 h7 h8
  have g_main_v35 := at12_main_v35 V a0 a1 a2 a3 a4 a5 a6 a7 a8 h0 h1 h2 h3 h4 h5 h6 h7 h8
  have g_main_v19 := at12_main_v19 V a0 a1 a2 a3 a4 a5 a6 a7 a8 h0 h1 h2 h3 h4 h5 h6 h7 h8
  have g_main_v61 := at12_main_v61 V a0 a1 a2 a3 a4 a5 a6 a7 a8 h0 h1 h2 h3 h4 h5 h6 h7 h8
  have g_main_v64 := at12_main_v64 V a0 a1 a2 a3 a4 a5 a6 a7 a8 h0 h1 h2 h3 h4 h5 h6 h7 h8
  have g_main_v71 := at12_main_v71 V a0 a1 a2 a3 a4 a5 a6 a7 a8 h0 h1 h2 h3 h4 h5 h6 h7 h8
  have g_main_v82 := at12_main_v82 V a0 a1 a2 a3 a4 a5 a6 a7 a8 h0 h1 h2 h3 h4 h5 h6 h7 h8
  have g_main_arg2 := at12_main_arg2 V a0 a1 a2 a3 a4 a5 a6 a7 a8 h0 h1 h2 h3 h4 h5 h6 h7 h8
  generalize after ((ops (F := F)).take 111) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v85, g_main_v25, g_main_v24, g_main_v26, g_main_v84, g_main_v48, g_main_v21, g_main_v23, g_main_v35, g_main_v19, g_main_v61, g_main_v64, g_main_v71, g_main_v82, g_main_arg2]
  try rfl
theorem at13_main_arg3 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 135) V (Proc.devRef .tc main_arg3) = a3 := by
  have e : (ops (F := F)).take 135 = (ops (F := F)).take 111 ++ ((ops (F := F)).drop 111).take 24 := rfl
  rw [e, after_append]; clear e
  have g_main_v85 := at12_main_v85 V a0 a1 a2 a3 a4 a5 a6 a7 a8 h0 h1 h2 h3 h4 h5 h6 h7 h8
  have g_main_v25 := at12_main_v25 V a0 a1 a2 a3 a4 a5 a6 a7 a8 h0 h1 h2 h3 h4 h5 h6 h7 h8
  have g_main_v24 := at12_main_v24 V a0 a1 a2 a3 a4 a5 a6 a7 a8 h0 h1 h2 h3 h4 h5 h6 h7 h8
  have g_main_v26 := at12_main_v26 V a0 a1 a2 a3 a4 a5 a6 a7 a8 h0 h1 h2 h3 h4 h5 h6 h7 h8
  have g_main_v84 := at12_main_v84 V a0 a1 a2 a3 a4 a5 a6 a7 a8 h0 h1 h2 h3 h4 h5 h6 h7 h8
  have g_main_v48 := at12_main_v48 V a0 a1 a2 a3 a4 a5 a6 a7 a8 h0 h1 h2 h3 h4 h5 h6 h7 h8
  have g_main_v21 := at12_main_v21 V a0 a1 a2 a3 a4 a5 a6 a7 a8 h0 h1 h2 h3 h4 h5 h6 h7 h8
  have g_main_v23 := at12_main_v23 V a0 a1 a2 a3 a4 a5 a6 a7 a8 h0 h1 h2 h3 h4 h5 h6 h7 h8
  have g_main_v35 := at12_main_v35 V a0 a1 a2 a3 a4 a5 a6 a7 a8 h0 h1 h2 h3 h4 h5 h6 h7 h8
  have g_main_v19 := at12_main_v19 V a0 a1 a2 a3 a4 a5 a6 a7 a8 h0 h1 h2 h3 h4 h5 h6 h7 h8
  have g_main_v61 := at12_main_v61 V a0 a1 a2 a3 a4 a5 a6 a7 a8 h0 h1 h2 h3 h4 h5 h6 h7 h8
  have g_main_v64 := at12_main_v64 V a0 a1 a2 a3 a4 a5 a6 a7 a8 h0 h1 h2 h3 h4 h5 h6 h7 h8
  have g_main_v71 := at12_main_v71 V a0 a1 a2 a3 a4 a5 a6 a7 a8 h0 h1 h2 h3 h4 h5 h6 h7 h8
  have g_main_v82 := at12_main_v82 V a0 a1 a2 a3 a4 a5 a6 a7 a8 h0 h1 h2 h3 h4 h5 h6 h7 h8
  have g_main_arg3 := at12_main_arg3 V a0 a1 a2 a3 a4 a5 a6 a7 a8 h0 h1 h2 h3 h4 h5 h6 h7 h8
  generalize after ((ops (F := F)).take 111) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v85, g_main_v25, g_main_v24, g_main_v26, g_main_v84, g_main_v48, g_main_v21, g_main_v23, g_main_v35, g_main_v19, g_main_v61, g_main_v64, g_main_v71, g_main_v82, g_main_arg3]
  try rfl
theorem at13_main_arg4 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 135) V (Proc.devRef .tc main_arg4) = a4 := by
  have e : (ops (F := F)).take 135 = (ops (F := F)).take 111 ++ ((ops (F := F)).drop 111).take 24 := rfl
  rw [e, after_append]; clear e
  have g_main_v85 := at12_main_v85 V a0 a1 a2 a3 a4 a5 a6 a7 a8 h0 h1 h2 h3 h4 h5 h6 h7 h8
  have g_main_v25 := at12_main_v25 V a0 a1 a2 a3 a4 a5 a6 a7 a8 h0 h1 h2 h3 h4 h5 h6 h7 h8
  have g_main_v24 := at12_main_v24 V a0 a1 a2 a3 a4 a5 a6 a7 a8 h0 h1 h2 h3 h4 h5 h6 h7 h8
  have g_main_v26 := at12_main_v26 V a0 a1 a2 a3 a4 a5 a6 a7 a8 h0 h1 h2 h3 h4 h5 h6 h7 h8
  have g_main_v84 := at12_main_v84 V a0 a1 a2 a3 a4 a5 a6 a7 a8 h0 h1 h2 h3 h4 h5 h6 h7 h8
  have g_main_v48 := at12_main_v48 V a0 a1 a2 a3 a4 a5 a6 a7 a8 h0 h1 h2 h3 h4 h5 h6 h7 h8
  have g_main_v21 := at12_main_v21 V a0 a1 a2 a3 a4 a5 a6 a7 a8 h0 h1 h2 h3 h4 h5 h6 h7 h8
  have g_main_v23 := at12_main_v23 V a0 a1 a2 a3 a4 a5 a6 a7 a8 h0 h1 h2 h3 h4 h5 h6 h7 h8
  have g_main_v35 := at12_main_v35 V a0 a1 a2 a3 a4 a5 a6 a7 a8 h0 h1 h2 h3 h4 h5 h6 h7 h8
  have g_main_v19 := at12_main_v19 V a0 a1 a2 a3 a4 a5 a6 a7 a8 h0 h1 h2 h3 h4 h5 h6 h7 h8
  have g_main_v61 := at12_main_v61 V a0 a1 a2 a3 a4 a5 a6 a7 a8 h0 h1 h2 h3 h4 h5 h6 h7 h8
  have g_main_v64 := at12_main_v64 V a0 a1 a2 a3 a4 a5 a6 a7 a8 h0 h1 h2 h3 h4 h5 h6 h7 h8
  have g_main_v71 := at12_main_v71 V a0 a1 a2 a3 a4 a5 a6 a7 a8 h0 h1 h2 h3 h4 h5 h6 h7 h8
  have g_main_v82 := at12_main_v82 V a0 a1 a2 a3 a4 a5 a6 a7 a8 h0 h1 h2 h3 h4 h5 h6 h7 h8
  have g_main_arg4 := at12_main_arg4 V a0 a1 a2 a3 a4 a5 a6 a7 a8 h0 h1 h2 h3 h4 h5 h6 h7 h8
  generalize after ((ops (F := F)).take 111) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v85, g_main_v25, g_main_v24, g_main_v26, g_main_v84, g_main_v48, g_main_v21, g_main_v23, g_main_v35, g_main_v19, g_main_v61, g_main_v64, g_main_v71, g_main_v82, g_main_arg4]
  try rfl
theorem at13_main_arg5 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 135) V (Proc.devRef .tc main_arg5) = a5 := by
  have e : (ops (F := F)).take 135 = (ops (F := F)).take 111 ++ ((ops (F := F)).drop 111).take 24 := rfl
  rw [e, after_append]; clear e
  have g_main_v85 := at12_main_v85 V a0 a1 a2 a3 a4 a5 a6 a7 a8 h0 h1 h2 h3 h4 h5 h6 h7 h8
  have g_main_v25 := at12_main_v25 V a0 a1 a2 a3 a4 a5 a6 a7 a8 h0 h1 h2 h3 h4 h5 h6 h7 h8
  have g_main_v24 := at12_main_v24 V a0 a1 a2 a3 a4 a5 a6 a7 a8 h0 h1 h2 h3 h4 h5 h6 h7 h8
  have g_main_v26 := at12_main_v26 V a0 a1 a2 a3 a4 a5 a6 a7 a8 h0 h1 h2 h3 h4 h5 h6 h7 h8
  have g_main_v84 := at12_main_v84 V a0 a1 a2 a3 a4 a5 a6 a7 a8 h0 h1 h2 h3 h4 h5 h6 h7 h8
  have g_main_v48 := at12_main_v48 V a0 a1 a2 a3 a4 a5 a6 a7 a8 h0 h1 h2 h3 h4 h5 h6 h7 h8
  have g_main_v21 := at12_main_v21 V a0 a1 a2 a3 a4 a5 a6 a7 a8 h0 h1 h2 h3 h4 h5 h6 h7 h8
  have g_main_v23 := at12_main_v23 V a0 a1 a2 a3 a4 a5 a6 a7 a8 h0 h1 h2 h3 h4 h5 h6 h7 h8
  have g_main_v35 := at12_main_v35 V a0 a1 a2 a3 a4 a5 a6 a7 a8 h0 h1 h2 h3 h4 h5 h6 h7 h8
  have g_main_v19 := at12_main_v19 V a0 a1 a2 a3 a4 a5 a6 a7 a8 h0 h1 h2 h3 h4 h5 h6 h7 h8
  have g_main_v61 := at12_main_v61 V a0 a1 a2 a3 a4 a5 a6 a7 a8 h0 h1 h2 h3 h4 h5 h6 h7 h8
  have g_main_v64 := at12_main_v64 V a0 a1 a2 a3 a4 a5 a6 a7 a8 h0 h1 h2 h3 h4 h5 h6 h7 h8
  have g_main_v71 := at12_main_v71 V a0 a1 a2 a3 a4 a5 a6 a7 a8 h0 h1 h2 h3 h4 h5 h6 h7 h8
  have g_main_v82 := at12_main_v82 V a0 a1 a2 a3 a4 a5 a6 a7 a8 h0 h1 h2 h3 h4 h5 h6 h7 h8
  have g_main_arg5 := at12_main_arg5 V a0 a1 a2 a3 a4 a5 a6 a7 a8 h0 h1 h2 h3 h4 h5 h6 h7 h8
  generalize after ((ops (F := F)).take 111) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v85, g_main_v25, g_main_v24, g_main_v26, g_main_v84, g_main_v48, g_main_v21, g_main_v23, g_main_v35, g_main_v19, g_main_v61, g_main_v64, g_main_v71, g_main_v82, g_main_arg5]
  try rfl
theorem at13_main_arg6 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 135) V (Proc.devRef .tc main_arg6) = a6 := by
  have e : (ops (F := F)).take 135 = (ops (F := F)).take 111 ++ ((ops (F := F)).drop 111).take 24 := rfl
  rw [e, after_append]; clear e
  have g_main_v85 := at12_main_v85 V a0 a1 a2 a3 a4 a5 a6 a7 a8 h0 h1 h2 h3 h4 h5 h6 h7 h8
  have g_main_v25 := at12_main_v25 V a0 a1 a2 a3 a4 a5 a6 a7 a8 h0 h1 h2 h3 h4 h5 h6 h7 h8
  have g_main_v24 := at12_main_v24 V a0 a1 a2 a3 a4 a5 a6 a7 a8 h0 h1 h2 h3 h4 h5 h6 h7 h8
  have g_main_v26 := at12_main_v26 V a0 a1 a2 a3 a4 a5 a6 a7 a8 h0 h1 h2 h3 h4 h5 h6 h7 h8
  have g_main_v84 := at12_main_v84 V a0 a1 a2 a3 a4 a5 a6 a7 a8 h0 h1 h2 h3 h4 h5 h6 h7 h8
  have g_main_v48 := at12_main_v48 V a0 a1 a2 a3 a4 a5 a6 a7 a8 h0 h1 h2 h3 h4 h5 h6 h7 h8
  have g_main_v21 := at12_main_v21 V a0 a1 a2 a3 a4 a5 a6 a7 a8 h0 h1 h2 h3 h4 h5 h6 h7 h8
  have g_main_v23 := at12_main_v23 V a0 a1 a2 a3 a4 a5 a6 a7 a8 h0 h1 h2 h3 h4 h5 h6 h7 h8
  have g_main_v35 := at12_main_v35 V a0 a1 a2 a3 a4 a5 a6 a7 a8 h0 h1 h2 h3 h4 h5 h6 h7 h8
  have g_main_v19 := at12_main_v19 V a0 a1 a2 a3 a4 a5 a6 a7 a8 h0 h1 h2 h3 h4 h5 h6 h7 h8
  have g_main_v61 := at12_main_v61 V a0 a1 a2 a3 a4 a5 a6 a7 a8 h0 h1 h2 h3 h4 h5 h6 h7 h8
  have g_main_v64 := at12_main_v64 V a0 a1 a2 a3 a4 a5 a6 a7 a8 h0 h1 h2 h3 h4 h5 h6 h7 h8
  have g_main_v71 := at12_main_v71 V a0 a1 a2 a3 a4 a5 a6 a7 a8 h0 h1 h2 h3 h4 h5 h6 h7 h8
  have g_main_v82 := at12_main_v82 V a0 a1 a2 a3 a4 a5 a6 a7 a8 h0 h1 h2 h3 h4 h5 h6 h7 h8
  have g_main_arg6 := at12_main_arg6 V a0 a1 a2 a3 a4 a5 a6 a7 a8 h0 h1 h2 h3 h4 h5 h6 h7 h8
  generalize after ((ops (F := F)).take 111) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v85, g_main_v25, g_main_v24, g_main_v26, g_main_v84, g_main_v48, g_main_v21, g_main_v23, g_main_v35, g_main_v19, g_main_v61, g_main_v64, g_main_v71, g_main_v82, g_main_arg6]
  try rfl
theorem at13_main_arg7 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 135) V (Proc.devRef .tc main_arg7) = a7 := by
  have e : (ops (F := F)).take 135 = (ops (F := F)).take 111 ++ ((ops (F := F)).drop 111).take 24 := rfl
  rw [e, after_append]; clear e
  have g_main_v85 := at12_main_v85 V a0 a1 a2 a3 a4 a5 a6 a7 a8 h0 h1 h2 h3 h4 h5 h6 h7 h8
  have g_main_v25 := at12_main_v25 V a0 a1 a2 a3 a4 a5 a6 a7 a8 h0 h1 h2 h3 h4 h5 h6 h7 h8
  have g_main_v24 := at12_main_v24 V a0 a1 a2 a3 a4 a5 a6 a7 a8 h0 h1 h2 h3 h4 h5 h6 h7 h8
  have g_main_v26 := at12_main_v26 V a0 a1 a2 a3 a4 a5 a6 a7 a8 h0 h1 h2 h3 h4 h5 h6 h7 h8
  have g_main_v84 := at12_main_v84 V a0 a1 a2 a3 a4 a5 a6 a7 a8 h0 h1 h2 h3 h4 h5 h6 h7 h8
  have g_main_v48 := at12_main_v48 V a0 a1 a2 a3 a4 a5 a6 a7 a8 h0 h1 h2 h3 h4 h5 h6 h7 h8
  have g_main_v21 := at12_main_v21 V a0 a1 a2 a3 a4 a5 a6 a7 a8 h0 h1 h2 h3 h4 h5 h6 h7 h8
  have g_main_v23 := at12_main_v23 V a0 a1 a2 a3 a4 a5 a6 a7 a8 h0 h1 h2 h3 h4 h5 h6 h7 h8
  have g_main_v35 := at12_main_v35 V a0 a1 a2 a3 a4 a5 a6 a7 a8 h0 h1 h2 h3 h4 h5 h6 h7 h8
  have g_main_v19 := at12_main_v19 V a0 a1 a2 a3 a4 a5 a6 a7 a8 h0 h1 h2 h3 h4 h5 h6 h7 h8
  have g_main_v61 := at12_main_v61 V a0 a1 a2 a3 a4 a5 a6 a7 a8 h0 h1 h2 h3 h4 h5 h6 h7 h8
  have g_main_v64 := at12_main_v64 V a0 a1 a2 a3 a4 a5 a6 a7 a8 h0 h1 h2 h3 h4 h5 h6 h7 h8
  have g_main_v71 := at12_main_v71 V a0 a1 a2 a3 a4 a5 a6 a7 a8 h0 h1 h2 h3 h4 h5 h6 h7 h8
  have g_main_v82 := at12_main_v82 V a0 a1 a2 a3 a4 a5 a6 a7 a8 h0 h1 h2 h3 h4 h5 h6 h7 h8
  have g_main_arg7 := at12_main_arg7 V a0 a1 a2 a3 a4 a5 a6 a7 a8 h0 h1 h2 h3 h4 h5 h6 h7 h8
  generalize after ((ops (F := F)).take 111) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v85, g_main_v25, g_main_v24, g_main_v26, g_main_v84, g_main_v48, g_main_v21, g_main_v23, g_main_v35, g_main_v19, g_main_v61, g_main_v64, g_main_v71, g_main_v82, g_main_arg7]
  try rfl
theorem at13_main_arg8 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 135) V (Proc.devRef .tc main_arg8) = a8 := by
  have e : (ops (F := F)).take 135 = (ops (F := F)).take 111 ++ ((ops (F := F)).drop 111).take 24 := rfl
  rw [e, after_append]; clear e
  have g_main_v85 := at12_main_v85 V a0 a1 a2 a3 a4 a5 a6 a7 a8 h0 h1 h2 h3 h4 h5 h6 h7 h8
  have g_main_v25 := at12_main_v25 V a0 a1 a2 a3 a4 a5 a6 a7 a8 h0 h1 h2 h3 h4 h5 h6 h7 h8
  have g_main_v24 := at12_main_v24 V a0 a1 a2 a3 a4 a5 a6 a7 a8 h0 h1 h2 h3 h4 h5 h6 h7 h8
  have g_main_v26 := at12_main_v26 V a0 a1 a2 a3 a4 a5 a6 a7 a8 h0 h1 h2 h3 h4 h5 h6 h7 h8
  have g_main_v84 := at12_main_v84 V a0 a1 a2 a3 a4 a5 a6 a7 a8 h0 h1 h2 h3 h4 h5 h6 h7 h8
  have g_main_v48 := at12_main_v48 V a0 a1 a2 a3 a4 a5 a6 a7 a8 h0 h1 h2 h3 h4 h5 h6 h7 h8
  have g_main_v21 := at12_main_v21 V a0 a1 a2 a3 a4 a5 a6 a7 a8 h0 h1 h2 h3 h4 h5 h6 h7 h8
  have g_main_v23 := at12_main_v23 V a0 a1 a2 a3 a4 a5 a6 a7 a8 h0 h1 h2 h3 h4 h5 h6 h7 h8
  have g_main_v35 := at12_main_v35 V a0 a1 a2 a3 a4 a5 a6 a7 a8 h0 h1 h2 h3 h4 h5 h6 h7 h8
  have g_main_v19 := at12_main_v19 V a0 a1 a2 a3 a4 a5 a6 a7 a8 h0 h1 h2 h3 h4 h5 h6 h7 h8
  have g_main_v61 := at12_main_v61 V a0 a1 a2 a3 a4 a5 a6 a7 a8 h0 h1 h2 h3 h4 h5 h6 h7 h8
  have g_main_v64 := at12_main_v64 V a0 a1 a2 a3 a4 a5 a6 a7 a8 h0 h1 h2 h3 h4 h5 h6 h7 h8
  have g_main_v71 := at12_main_v71 V a0 a1 a2 a3 a4 a5 a6 a7 a8 h0 h1 h2 h3 h4 h5 h6 h7 h8
  have g_main_v82 := at12_main_v82 V a0 a1 a2 a3 a4 a5 a6 a7 a8 h0 h1 h2 h3 h4 h5 h6 h7 h8
  have g_main_arg8 := at12_main_arg8 V a0 a1 a2 a3 a4 a5 a6 a7 a8 h0 h1 h2 h3 h4 h5 h6 h7 h8
  generalize after ((ops (F := F)).take 111) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v85, g_main_v25, g_main_v24, g_main_v26, g_main_v84, g_main_v48, g_main_v21, g_main_v23, g_main_v35, g_main_v19, g_main_v61, g_main_v64, g_main_v71, g_main_v82, g_main_arg8]
  try rfl
theorem at13_main_v32 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 135) V (Proc.devRef .tc main_v32) = val_main_v32 (F := F) a0 a7 a8 := by
  have e : (ops (F := F)).take 135 = (ops (F := F)).take 111 ++ ((ops (F := F)).drop 111).take 24 := rfl
  rw [e, after_append]; clear e
  have g_main_v85 := at12_main_v85 V a0 a1 a2 a3 a4 a5 a6 a7 a8 h0 h1 h2 h3 h4 h5 h6 h7 h8
  have g_main_v25 := at12_main_v25 V a0 a1 a2 a3 a4 a5 a6 a7 a8 h0 h1 h2 h3 h4 h5 h6 h7 h8
  have g_main_v24 := at12_main_v24 V a0 a1 a2 a3 a4 a5 a6 a7 a8 h0 h1 h2 h3 h4 h5 h6 h7 h8
  have g_main_v26 := at12_main_v26 V a0 a1 a2 a3 a4 a5 a6 a7 a8 h0 h1 h2 h3 h4 h5 h6 h7 h8
  have g_main_v84 := at12_main_v84 V a0 a1 a2 a3 a4 a5 a6 a7 a8 h0 h1 h2 h3 h4 h5 h6 h7 h8
  have g_main_v48 := at12_main_v48 V a0 a1 a2 a3 a4 a5 a6 a7 a8 h0 h1 h2 h3 h4 h5 h6 h7 h8
  have g_main_v21 := at12_main_v21 V a0 a1 a2 a3 a4 a5 a6 a7 a8 h0 h1 h2 h3 h4 h5 h6 h7 h8
  have g_main_v23 := at12_main_v23 V a0 a1 a2 a3 a4 a5 a6 a7 a8 h0 h1 h2 h3 h4 h5 h6 h7 h8
  have g_main_v35 := at12_main_v35 V a0 a1 a2 a3 a4 a5 a6 a7 a8 h0 h1 h2 h3 h4 h5 h6 h7 h8
  have g_main_v19 := at12_main_v19 V a0 a1 a2 a3 a4 a5 a6 a7 a8 h0 h1 h2 h3 h4 h5 h6 h7 h8
  have g_main_v61 := at12_main_v61 V a0 a1 a2 a3 a4 a5 a6 a7 a8 h0 h1 h2 h3 h4 h5 h6 h7 h8
  have g_main_v64 := at12_main_v64 V a0 a1 a2 a3 a4 a5 a6 a7 a8 h0 h1 h2 h3 h4 h5 h6 h7 h8
  have g_main_v71 := at12_main_v71 V a0 a1 a2 a3 a4 a5 a6 a7 a8 h0 h1 h2 h3 h4 h5 h6 h7 h8
  have g_main_v82 := at12_main_v82 V a0 a1 a2 a3 a4 a5 a6 a7 a8 h0 h1 h2 h3 h4 h5 h6 h7 h8
  have g_main_v32 := at12_main_v32 V a0 a1 a2 a3 a4 a5 a6 a7 a8 h0 h1 h2 h3 h4 h5 h6 h7 h8
  generalize after ((ops (F := F)).take 111) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v85, g_main_v25, g_main_v24, g_main_v26, g_main_v84, g_main_v48, g_main_v21, g_main_v23, g_main_v35, g_main_v19, g_main_v61, g_main_v64, g_main_v71, g_main_v82, g_main_v32]
  try rfl
theorem at13_main_v56 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 135) V (Proc.devRef .tc main_v56) = val_main_v56 (F := F) a0 a7 a8 := by
  have e : (ops (F := F)).take 135 = (ops (F := F)).take 111 ++ ((ops (F := F)).drop 111).take 24 := rfl
  rw [e, after_append]; clear e
  have g_main_v85 := at12_main_v85 V a0 a1 a2 a3 a4 a5 a6 a7 a8 h0 h1 h2 h3 h4 h5 h6 h7 h8
  have g_main_v25 := at12_main_v25 V a0 a1 a2 a3 a4 a5 a6 a7 a8 h0 h1 h2 h3 h4 h5 h6 h7 h8
  have g_main_v24 := at12_main_v24 V a0 a1 a2 a3 a4 a5 a6 a7 a8 h0 h1 h2 h3 h4 h5 h6 h7 h8
  have g_main_v26 := at12_main_v26 V a0 a1 a2 a3 a4 a5 a6 a7 a8 h0 h1 h2 h3 h4 h5 h6 h7 h8
  have g_main_v84 := at12_main_v84 V a0 a1 a2 a3 a4 a5 a6 a7 a8 h0 h1 h2 h3 h4 h5 h6 h7 h8
  have g_main_v48 := at12_main_v48 V a0 a1 a2 a3 a4 a5 a6 a7 a8 h0 h1 h2 h3 h4 h5 h6 h7 h8
  have g_main_v21 := at12_main_v21 V a0 a1 a2 a3 a4 a5 a6 a7 a8 h0 h1 h2 h3 h4 h5 h6 h7 h8
  have g_main_v23 := at12_main_v23 V a0 a1 a2 a3 a4 a5 a6 a7 a8 h0 h1 h2 h3 h4 h5 h6 h7 h8
  have g_main_v35 := at12_main_v35 V a0 a1 a2 a3 a4 a5 a6 a7 a8 h0 h1 h2 h3 h4 h5 h6 h7 h8
  have g_main_v19 := at12_main_v19 V a0 a1 a2 a3 a4 a5 a6 a7 a8 h0 h1 h2 h3 h4 h5 h6 h7 h8
  have g_main_v61 := at12_main_v61 V a0 a1 a2 a3 a4 a5 a6 a7 a8 h0 h1 h2 h3 h4 h5 h6 h7 h8
  have g_main_v64 := at12_main_v64 V a0 a1 a2 a3 a4 a5 a6 a7 a8 h0 h1 h2 h3 h4 h5 h6 h7 h8
  have g_main_v71 := at12_main_v71 V a0 a1 a2 a3 a4 a5 a6 a7 a8 h0 h1 h2 h3 h4 h5 h6 h7 h8
  have g_main_v82 := at12_main_v82 V a0 a1 a2 a3 a4 a5 a6 a7 a8 h0 h1 h2 h3 h4 h5 h6 h7 h8
  have g_main_v56 := at12_main_v56 V a0 a1 a2 a3 a4 a5 a6 a7 a8 h0 h1 h2 h3 h4 h5 h6 h7 h8
  generalize after ((ops (F := F)).take 111) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v85, g_main_v25, g_main_v24, g_main_v26, g_main_v84, g_main_v48, g_main_v21, g_main_v23, g_main_v35, g_main_v19, g_main_v61, g_main_v64, g_main_v71, g_main_v82, g_main_v56]
  try rfl
theorem at13_main_v105 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 135) V (Proc.devRef .tc main_v105) = val_main_v105 (F := F) a0 a7 a8 := by
  have e : (ops (F := F)).take 135 = (ops (F := F)).take 111 ++ ((ops (F := F)).drop 111).take 24 := rfl
  rw [e, after_append]; clear e
  have g_main_v85 := at12_main_v85 V a0 a1 a2 a3 a4 a5 a6 a7 a8 h0 h1 h2 h3 h4 h5 h6 h7 h8
  have g_main_v25 := at12_main_v25 V a0 a1 a2 a3 a4 a5 a6 a7 a8 h0 h1 h2 h3 h4 h5 h6 h7 h8
  have g_main_v24 := at12_main_v24 V a0 a1 a2 a3 a4 a5 a6 a7 a8 h0 h1 h2 h3 h4 h5 h6 h7 h8
  have g_main_v26 := at12_main_v26 V a0 a1 a2 a3 a4 a5 a6 a7 a8 h0 h1 h2 h3 h4 h5 h6 h7 h8
  have g_main_v84 := at12_main_v84 V a0 a1 a2 a3 a4 a5 a6 a7 a8 h0 h1 h2 h3 h4 h5 h6 h7 h8
  have g_main_v48 := at12_main_v48 V a0 a1 a2 a3 a4 a5 a6 a7 a8 h0 h1 h2 h3 h4 h5 h6 h7 h8
  have g_main_v21 := at12_main_v21 V a0 a1 a2 a3 a4 a5 a6 a7 a8 h0 h1 h2 h3 h4 h5 h6 h7 h8
  have g_main_v23 := at12_main_v23 V a0 a1 a2 a3 a4 a5 a6 a7 a8 h0 h1 h2 h3 h4 h5 h6 h7 h8
  have g_main_v35 := at12_main_v35 V a0 a1 a2 a3 a4 a5 a6 a7 a8 h0 h1 h2 h3 h4 h5 h6 h7 h8
  have g_main_v19 := at12_main_v19 V a0 a1 a2 a3 a4 a5 a6 a7 a8 h0 h1 h2 h3 h4 h5 h6 h7 h8
  have g_main_v61 := at12_main_v61 V a0 a1 a2 a3 a4 a5 a6 a7 a8 h0 h1 h2 h3 h4 h5 h6 h7 h8
  have g_main_v64 := at12_main_v64 V a0 a1 a2 a3 a4 a5 a6 a7 a8 h0 h1 h2 h3 h4 h5 h6 h7 h8
  have g_main_v71 := at12_main_v71 V a0 a1 a2 a3 a4 a5 a6 a7 a8 h0 h1 h2 h3 h4 h5 h6 h7 h8
  have g_main_v82 := at12_main_v82 V a0 a1 a2 a3 a4 a5 a6 a7 a8 h0 h1 h2 h3 h4 h5 h6 h7 h8
  generalize after ((ops (F := F)).take 111) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v85, g_main_v25, g_main_v24, g_main_v26, g_main_v84, g_main_v48, g_main_v21, g_main_v23, g_main_v35, g_main_v19, g_main_v61, g_main_v64, g_main_v71, g_main_v82]
  try rfl
theorem at13_main_v106 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 135) V (Proc.devRef .tc main_v106) = val_main_v106 (F := F) := by
  have e : (ops (F := F)).take 135 = (ops (F := F)).take 111 ++ ((ops (F := F)).drop 111).take 24 := rfl
  rw [e, after_append]; clear e
  have g_main_v85 := at12_main_v85 V a0 a1 a2 a3 a4 a5 a6 a7 a8 h0 h1 h2 h3 h4 h5 h6 h7 h8
  have g_main_v25 := at12_main_v25 V a0 a1 a2 a3 a4 a5 a6 a7 a8 h0 h1 h2 h3 h4 h5 h6 h7 h8
  have g_main_v24 := at12_main_v24 V a0 a1 a2 a3 a4 a5 a6 a7 a8 h0 h1 h2 h3 h4 h5 h6 h7 h8
  have g_main_v26 := at12_main_v26 V a0 a1 a2 a3 a4 a5 a6 a7 a8 h0 h1 h2 h3 h4 h5 h6 h7 h8
  have g_main_v84 := at12_main_v84 V a0 a1 a2 a3 a4 a5 a6 a7 a8 h0 h1 h2 h3 h4 h5 h6 h7 h8
  have g_main_v48 := at12_main_v48 V a0 a1 a2 a3 a4 a5 a6 a7 a8 h0 h1 h2 h3 h4 h5 h6 h7 h8
  have g_main_v21 := at12_main_v21 V a0 a1 a2 a3 a4 a5 a6 a7 a8 h0 h1 h2 h3 h4 h5 h6 h7 h8
  have g_main_v23 := at12_main_v23 V a0 a1 a2 a3 a4 a5 a6 a7 a8 h0 h1 h2 h3 h4 h5 h6 h7 h8
  have g_main_v35 := at12_main_v35 V a0 a1 a2 a3 a4 a5 a6 a7 a8 h0 h1 h2 h3 h4 h5 h6 h7 h8
  have g_main_v19 := at12_main_v19 V a0 a1 a2 a3 a4 a5 a6 a7 a8 h0 h1 h2 h3 h4 h5 h6 h7 h8
  have g_main_v61 := at12_main_v61 V a0 a1 a2 a3 a4 a5 a6 a7 a8 h0 h1 h2 h3 h4 h5 h6 h7 h8
  have g_main_v64 := at12_main_v64 V a0 a1 a2 a3 a4 a5 a6 a7 a8 h0 h1 h2 h3 h4 h5 h6 h7 h8
  have g_main_v71 := at12_main_v71 V a0 a1 a2 a3 a4 a5 a6 a7 a8 h0 h1 h2 h3 h4 h5 h6 h7 h8
  have g_main_v82 := at12_main_v82 V a0 a1 a2 a3 a4 a5 a6 a7 a8 h0 h1 h2 h3 h4 h5 h6 h7 h8
  generalize after ((ops (F := F)).take 111) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v85, g_main_v25, g_main_v24, g_main_v26, g_main_v84, g_main_v48, g_main_v21, g_main_v23, g_main_v35, g_main_v19, g_main_v61, g_main_v64, g_main_v71, g_main_v82]
  try rfl
theorem at14_main_arg1 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 146) V (Proc.devRef .tc main_arg1) = a1 := by
  have e : (ops (F := F)).take 146 = (ops (F := F)).take 135 ++ ((ops (F := F)).drop 135).take 11 := rfl
  rw [e, after_append]; clear e
  have g_main_v106 := at13_main_v106 V a0 a1 a2 a3 a4 a5 a6 a7 a8 h0 h1 h2 h3 h4 h5 h6 h7 h8
  have g_main_v105 := at13_main_v105 V a0 a1 a2 a3 a4 a5 a6 a7 a8 h0 h1 h2 h3 h4 h5 h6 h7 h8
  have g_main_v32 := at13_main_v32 V a0 a1 a2 a3 a4 a5 a6 a7 a8 h0 h1 h2 h3 h4 h5 h6 h7 h8
  have g_main_v56 := at13_main_v56 V a0 a1 a2 a3 a4 a5 a6 a7 a8 h0 h1 h2 h3 h4 h5 h6 h7 h8
  have g_main_arg7 := at13_main_arg7 V a0 a1 a2 a3 a4 a5 a6 a7 a8 h0 h1 h2 h3 h4 h5 h6 h7 h8
  have g_main_arg1 := at13_main_arg1 V a0 a1 a2 a3 a4 a5 a6 a7 a8 h0 h1 h2 h3 h4 h5 h6 h7 h8
  generalize after ((ops (F := F)).take 135) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v106, g_main_v105, g_main_v32, g_main_v56, g_main_arg7, g_main_arg1]
  try rfl
theorem at14_main_arg2 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 146) V (Proc.devRef .tc main_arg2) = a2 := by
  have e : (ops (F := F)).take 146 = (ops (F := F)).take 135 ++ ((ops (F := F)).drop 135).take 11 := rfl
  rw [e, after_append]; clear e
  have g_main_v106 := at13_main_v106 V a0 a1 a2 a3 a4 a5 a6 a7 a8 h0 h1 h2 h3 h4 h5 h6 h7 h8
  have g_main_v105 := at13_main_v105 V a0 a1 a2 a3 a4 a5 a6 a7 a8 h0 h1 h2 h3 h4 h5 h6 h7 h8
  have g_main_v32 := at13_main_v32 V a0 a1 a2 a3 a4 a5 a6 a7 a8 h0 h1 h2 h3 h4 h5 h6 h7 h8
  have g_main_v56 := at13_main_v56 V a0 a1 a2 a3 a4 a5 a6 a7 a8 h0 h1 h2 h3 h4 h5 h6 h7 h8
  have g_main_arg7 := at13_main_arg7 V a0 a1 a2 a3 a4 a5 a6 a7 a8 h0 h1 h2 h3 h4 h5 h6 h7 h8
  have g_main_arg1 := at13_main_arg1 V a0 a1 a2 a3 a4 a5 a6 a7 a8 h0 h1 h2 h3 h4 h5 h6 h7 h8
  have g_main_arg2 := at13_main_arg2 V a0 a1 a2 a3 a4 a5 a6 a7 a8 h0 h1 h2 h3 h4 h5 h6 h7 h8
  generalize after ((ops (F := F)).take 135) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v106, g_main_v105, g_main_v32, g_main_v56, g_main_arg7, g_main_arg1, g_main_arg2]
  try rfl
theorem at14_main_arg3 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 146) V (Proc.devRef .tc main_arg3) = a3 := by
  have e : (ops (F := F)).take 146 = (ops (F := F)).take 135 ++ ((ops (F := F)).drop 135).take 11 := rfl
  rw [e, after_append]; clear e
  have g_main_v106 := at13_main_v106 V a0 a1 a2 a3 a4 a5 a6 a7 a8 h0 h1 h2 h3 h4 h5 h6 h7 h8
  have g_main_v105 := at13_main_v105 V a0 a1 a2 a3 a4 a5 a6 a7 a8 h0 h1 h2 h3 h4 h5 h6 h7 h8
  have g_main_v32 := at13_main_v32 V a0 a1 a2 a3 a4 a5 a6 a7 a8 h0 h1 h2 h3 h4 h5 h6 h7 h8
  have g_main_v56 := at13_main_v56 V a0 a1 a2 a3 a4 a5 a6 a7 a8 h0 h1 h2 h3 h4 h5 h6 h7 h8
  have g_main_arg7 := at13_main_arg7 V a0 a1 a2 a3 a4 a5 a6 a7 a8 h0 h1 h2 h3 h4 h5 h6 h7 h8
  have g_main_arg1 := at13_main_arg1 V a0 a1 a2 a3 a4 a5 a6 a7 a8 h0 h1 h2 h3 h4 h5 h6 h7 h8
  have g_main_arg3 := at13_main_arg3 V a0 a1 a2 a3 a4 a5 a6 a7 a8 h0 h1 h2 h3 h4 h5 h6 h7 h8
  generalize after ((ops (F := F)).take 135) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v106, g_main_v105, g_main_v32, g_main_v56, g_main_arg7, g_main_arg1, g_main_arg3]
  try rfl
theorem at14_main_arg4 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 146) V (Proc.devRef .tc main_arg4) = a4 := by
  have e : (ops (F := F)).take 146 = (ops (F := F)).take 135 ++ ((ops (F := F)).drop 135).take 11 := rfl
  rw [e, after_append]; clear e
  have g_main_v106 := at13_main_v106 V a0 a1 a2 a3 a4 a5 a6 a7 a8 h0 h1 h2 h3 h4 h5 h6 h7 h8
  have g_main_v105 := at13_main_v105 V a0 a1 a2 a3 a4 a5 a6 a7 a8 h0 h1 h2 h3 h4 h5 h6 h7 h8
  have g_main_v32 := at13_main_v32 V a0 a1 a2 a3 a4 a5 a6 a7 a8 h0 h1 h2 h3 h4 h5 h6 h7 h8
  have g_main_v56 := at13_main_v56 V a0 a1 a2 a3 a4 a5 a6 a7 a8 h0 h1 h2 h3 h4 h5 h6 h7 h8
  have g_main_arg7 := at13_main_arg7 V a0 a1 a2 a3 a4 a5 a6 a7 a8 h0 h1 h2 h3 h4 h5 h6 h7 h8
  have g_main_arg1 := at13_main_arg1 V a0 a1 a2 a3 a4 a5 a6 a7 a8 h0 h1 h2 h3 h4 h5 h6 h7 h8
  have g_main_arg4 := at13_main_arg4 V a0 a1 a2 a3 a4 a5 a6 a7 a8 h0 h1 h2 h3 h4 h5 h6 h7 h8
  generalize after ((ops (F := F)).take 135) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v106, g_main_v105, g_main_v32, g_main_v56, g_main_arg7, g_main_arg1, g_main_arg4]
  try rfl
theorem at14_main_arg5 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 146) V (Proc.devRef .tc main_arg5) = a5 := by
  have e : (ops (F := F)).take 146 = (ops (F := F)).take 135 ++ ((ops (F := F)).drop 135).take 11 := rfl
  rw [e, after_append]; clear e
  have g_main_v106 := at13_main_v106 V a0 a1 a2 a3 a4 a5 a6 a7 a8 h0 h1 h2 h3 h4 h5 h6 h7 h8
  have g_main_v105 := at13_main_v105 V a0 a1 a2 a3 a4 a5 a6 a7 a8 h0 h1 h2 h3 h4 h5 h6 h7 h8
  have g_main_v32 := at13_main_v32 V a0 a1 a2 a3 a4 a5 a6 a7 a8 h0 h1 h2 h3 h4 h5 h6 h7 h8
  have g_main_v56 := at13_main_v56 V a0 a1 a2 a3 a4 a5 a6 a7 a8 h0 h1 h2 h3 h4 h5 h6 h7 h8
  have g_main_arg7 := at13_main_arg7 V a0 a1 a2 a3 a4 a5 a6 a7 a8 h0 h1 h2 h3 h4 h5 h6 h7 h8
  have g_main_arg1 := at13_main_arg1 V a0 a1 a2 a3 a4 a5 a6 a7 a8 h0 h1 h2 h3 h4 h5 h6 h7 h8
  have g_main_arg5 := at13_main_arg5 V a0 a1 a2 a3 a4 a5 a6 a7 a8 h0 h1 h2 h3 h4 h5 h6 h7 h8
  generalize after ((ops (F := F)).take 135) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v106, g_main_v105, g_main_v32, g_main_v56, g_main_arg7, g_main_arg1, g_main_arg5]
  try rfl
theorem at14_main_arg6 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 146) V (Proc.devRef .tc main_arg6) = a6 := by
  have e : (ops (F := F)).take 146 = (ops (F := F)).take 135 ++ ((ops (F := F)).drop 135).take 11 := rfl
  rw [e, after_append]; clear e
  have g_main_v106 := at13_main_v106 V a0 a1 a2 a3 a4 a5 a6 a7 a8 h0 h1 h2 h3 h4 h5 h6 h7 h8
  have g_main_v105 := at13_main_v105 V a0 a1 a2 a3 a4 a5 a6 a7 a8 h0 h1 h2 h3 h4 h5 h6 h7 h8
  have g_main_v32 := at13_main_v32 V a0 a1 a2 a3 a4 a5 a6 a7 a8 h0 h1 h2 h3 h4 h5 h6 h7 h8
  have g_main_v56 := at13_main_v56 V a0 a1 a2 a3 a4 a5 a6 a7 a8 h0 h1 h2 h3 h4 h5 h6 h7 h8
  have g_main_arg7 := at13_main_arg7 V a0 a1 a2 a3 a4 a5 a6 a7 a8 h0 h1 h2 h3 h4 h5 h6 h7 h8
  have g_main_arg1 := at13_main_arg1 V a0 a1 a2 a3 a4 a5 a6 a7 a8 h0 h1 h2 h3 h4 h5 h6 h7 h8
  have g_main_arg6 := at13_main_arg6 V a0 a1 a2 a3 a4 a5 a6 a7 a8 h0 h1 h2 h3 h4 h5 h6 h7 h8
  generalize after ((ops (F := F)).take 135) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v106, g_main_v105, g_main_v32, g_main_v56, g_main_arg7, g_main_arg1, g_main_arg6]
  try rfl
theorem at14_main_arg8 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 146) V (Proc.devRef .tc main_arg8) = a8 := by
  have e : (ops (F := F)).take 146 = (ops (F := F)).take 135 ++ ((ops (F := F)).drop 135).take 11 := rfl
  rw [e, after_append]; clear e
  have g_main_v106 := at13_main_v106 V a0 a1 a2 a3 a4 a5 a6 a7 a8 h0 h1 h2 h3 h4 h5 h6 h7 h8
  have g_main_v105 := at13_main_v105 V a0 a1 a2 a3 a4 a5 a6 a7 a8 h0 h1 h2 h3 h4 h5 h6 h7 h8
  have g_main_v32 := at13_main_v32 V a0 a1 a2 a3 a4 a5 a6 a7 a8 h0 h1 h2 h3 h4 h5 h6 h7 h8
  have g_main_v56 := at13_main_v56 V a0 a1 a2 a3 a4 a5 a6 a7 a8 h0 h1 h2 h3 h4 h5 h6 h7 h8
  have g_main_arg7 := at13_main_arg7 V a0 a1 a2 a3 a4 a5 a6 a7 a8 h0 h1 h2 h3 h4 h5 h6 h7 h8
  have g_main_arg1 := at13_main_arg1 V a0 a1 a2 a3 a4 a5 a6 a7 a8 h0 h1 h2 h3 h4 h5 h6 h7 h8
  have g_main_arg8 := at13_main_arg8 V a0 a1 a2 a3 a4 a5 a6 a7 a8 h0 h1 h2 h3 h4 h5 h6 h7 h8
  generalize after ((ops (F := F)).take 135) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v106, g_main_v105, g_main_v32, g_main_v56, g_main_arg7, g_main_arg1, g_main_arg8]
  try rfl
theorem at14_main_v108 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 146) V (Proc.devRef .tc main_v108) = val_main_v108 (F := F) a0 a7 a8 := by
  have e : (ops (F := F)).take 146 = (ops (F := F)).take 135 ++ ((ops (F := F)).drop 135).take 11 := rfl
  rw [e, after_append]; clear e
  have g_main_v106 := at13_main_v106 V a0 a1 a2 a3 a4 a5 a6 a7 a8 h0 h1 h2 h3 h4 h5 h6 h7 h8
  have g_main_v105 := at13_main_v105 V a0 a1 a2 a3 a4 a5 a6 a7 a8 h0 h1 h2 h3 h4 h5 h6 h7 h8
  have g_main_v32 := at13_main_v32 V a0 a1 a2 a3 a4 a5 a6 a7 a8 h0 h1 h2 h3 h4 h5 h6 h7 h8
  have g_main_v56 := at13_main_v56 V a0 a1 a2 a3 a4 a5 a6 a7 a8 h0 h1 h2 h3 h4 h5 h6 h7 h8
  have g_main_arg7 := at13_main_arg7 V a0 a1 a2 a3 a4 a5 a6 a7 a8 h0 h1 h2 h3 h4 h5 h6 h7 h8
  have g_main_arg1 := at13_main_arg1 V a0 a1 a2 a3 a4 a5 a6 a7 a8 h0 h1 h2 h3 h4 h5 h6 h7 h8
  generalize after ((ops (F := F)).take 135) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v106, g_main_v105, g_main_v32, g_main_v56, g_main_arg7, g_main_arg1]
  try rfl
theorem at14_main_v115 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 146) V (Proc.devRef .tc main_v115) = val_main_v115 (F := F) a1 a7 := by
  have e : (ops (F := F)).take 146 = (ops (F := F)).take 135 ++ ((ops (F := F)).drop 135).take 11 := rfl
  rw [e, after_append]; clear e
  have g_main_v106 := at13_main_v106 V a0 a1 a2 a3 a4 a5 a6 a7 a8 h0 h1 h2 h3 h4 h5 h6 h7 h8
  have g_main_v105 := at13_main_v105 V a0 a1 a2 a3 a4 a5 a6 a7 a8 h0 h1 h2 h3 h4 h5 h6 h7 h8
  have g_main_v32 := at13_main_v32 V a0 a1 a2 a3 a4 a5 a6 a7 a8 h0 h1 h2 h3 h4 h5 h6 h7 h8
  have g_main_v56 := at13_main_v56 V a0 a1 a2 a3 a4 a5 a6 a7 a8 h0 h1 h2 h3 h4 h5 h6 h7 h8
  have g_main_arg7 := at13_main_arg7 V a0 a1 a2 a3 a4 a5 a6 a7 a8 h0 h1 h2 h3 h4 h5 h6 h7 h8
  have g_main_arg1 := at13_main_arg1 V a0 a1 a2 a3 a4 a5 a6 a7 a8 h0 h1 h2 h3 h4 h5 h6 h7 h8
  generalize after ((ops (F := F)).take 135) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v106, g_main_v105, g_main_v32, g_main_v56, g_main_arg7, g_main_arg1]
  try rfl
theorem at15_main_arg1 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 160) V (Proc.devRef .tc main_arg1) = a1 := by
  have e : (ops (F := F)).take 160 = (ops (F := F)).take 146 ++ ((ops (F := F)).drop 146).take 14 := rfl
  rw [e, after_append]; clear e
  have g_main_v108 := at14_main_v108 V a0 a1 a2 a3 a4 a5 a6 a7 a8 h0 h1 h2 h3 h4 h5 h6 h7 h8
  have g_main_v115 := at14_main_v115 V a0 a1 a2 a3 a4 a5 a6 a7 a8 h0 h1 h2 h3 h4 h5 h6 h7 h8
  have g_main_arg8 := at14_main_arg8 V a0 a1 a2 a3 a4 a5 a6 a7 a8 h0 h1 h2 h3 h4 h5 h6 h7 h8
  have g_main_arg1 := at14_main_arg1 V a0 a1 a2 a3 a4 a5 a6 a7 a8 h0 h1 h2 h3 h4 h5 h6 h7 h8
  generalize after ((ops (F := F)).take 146) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v108, g_main_v115, g_main_arg8, g_main_arg1]
  try rfl
theorem at15_main_arg2 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 160) V (Proc.devRef .tc main_arg2) = a2 := by
  have e : (ops (F := F)).take 160 = (ops (F := F)).take 146 ++ ((ops (F := F)).drop 146).take 14 := rfl
  rw [e, after_append]; clear e
  have g_main_v108 := at14_main_v108 V a0 a1 a2 a3 a4 a5 a6 a7 a8 h0 h1 h2 h3 h4 h5 h6 h7 h8
  have g_main_v115 := at14_main_v115 V a0 a1 a2 a3 a4 a5 a6 a7 a8 h0 h1 h2 h3 h4 h5 h6 h7 h8
  have g_main_arg8 := at14_main_arg8 V a0 a1 a2 a3 a4 a5 a6 a7 a8 h0 h1 h2 h3 h4 h5 h6 h7 h8
  have g_main_arg2 := at14_main_arg2 V a0 a1 a2 a3 a4 a5 a6 a7 a8 h0 h1 h2 h3 h4 h5 h6 h7 h8
  generalize after ((ops (F := F)).take 146) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v108, g_main_v115, g_main_arg8, g_main_arg2]
  try rfl
theorem at15_main_arg3 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 160) V (Proc.devRef .tc main_arg3) = a3 := by
  have e : (ops (F := F)).take 160 = (ops (F := F)).take 146 ++ ((ops (F := F)).drop 146).take 14 := rfl
  rw [e, after_append]; clear e
  have g_main_v108 := at14_main_v108 V a0 a1 a2 a3 a4 a5 a6 a7 a8 h0 h1 h2 h3 h4 h5 h6 h7 h8
  have g_main_v115 := at14_main_v115 V a0 a1 a2 a3 a4 a5 a6 a7 a8 h0 h1 h2 h3 h4 h5 h6 h7 h8
  have g_main_arg8 := at14_main_arg8 V a0 a1 a2 a3 a4 a5 a6 a7 a8 h0 h1 h2 h3 h4 h5 h6 h7 h8
  have g_main_arg3 := at14_main_arg3 V a0 a1 a2 a3 a4 a5 a6 a7 a8 h0 h1 h2 h3 h4 h5 h6 h7 h8
  generalize after ((ops (F := F)).take 146) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v108, g_main_v115, g_main_arg8, g_main_arg3]
  try rfl
theorem at15_main_arg4 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 160) V (Proc.devRef .tc main_arg4) = a4 := by
  have e : (ops (F := F)).take 160 = (ops (F := F)).take 146 ++ ((ops (F := F)).drop 146).take 14 := rfl
  rw [e, after_append]; clear e
  have g_main_v108 := at14_main_v108 V a0 a1 a2 a3 a4 a5 a6 a7 a8 h0 h1 h2 h3 h4 h5 h6 h7 h8
  have g_main_v115 := at14_main_v115 V a0 a1 a2 a3 a4 a5 a6 a7 a8 h0 h1 h2 h3 h4 h5 h6 h7 h8
  have g_main_arg8 := at14_main_arg8 V a0 a1 a2 a3 a4 a5 a6 a7 a8 h0 h1 h2 h3 h4 h5 h6 h7 h8
  have g_main_arg4 := at14_main_arg4 V a0 a1 a2 a3 a4 a5 a6 a7 a8 h0 h1 h2 h3 h4 h5 h6 h7 h8
  generalize after ((ops (F := F)).take 146) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v108, g_main_v115, g_main_arg8, g_main_arg4]
  try rfl
theorem at15_main_arg5 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 160) V (Proc.devRef .tc main_arg5) = a5 := by
  have e : (ops (F := F)).take 160 = (ops (F := F)).take 146 ++ ((ops (F := F)).drop 146).take 14 := rfl
  rw [e, after_append]; clear e
  have g_main_v108 := at14_main_v108 V a0 a1 a2 a3 a4 a5 a6 a7 a8 h0 h1 h2 h3 h4 h5 h6 h7 h8
  have g_main_v115 := at14_main_v115 V a0 a1 a2 a3 a4 a5 a6 a7 a8 h0 h1 h2 h3 h4 h5 h6 h7 h8
  have g_main_arg8 := at14_main_arg8 V a0 a1 a2 a3 a4 a5 a6 a7 a8 h0 h1 h2 h3 h4 h5 h6 h7 h8
  have g_main_arg5 := at14_main_arg5 V a0 a1 a2 a3 a4 a5 a6 a7 a8 h0 h1 h2 h3 h4 h5 h6 h7 h8
  generalize after ((ops (F := F)).take 146) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v108, g_main_v115, g_main_arg8, g_main_arg5]
  try rfl
theorem at15_main_arg6 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 160) V (Proc.devRef .tc main_arg6) = a6 := by
  have e : (ops (F := F)).take 160 = (ops (F := F)).take 146 ++ ((ops (F := F)).drop 146).take 14 := rfl
  rw [e, after_append]; clear e
  have g_main_v108 := at14_main_v108 V a0 a1 a2 a3 a4 a5 a6 a7 a8 h0 h1 h2 h3 h4 h5 h6 h7 h8
  have g_main_v115 := at14_main_v115 V a0 a1 a2 a3 a4 a5 a6 a7 a8 h0 h1 h2 h3 h4 h5 h6 h7 h8
  have g_main_arg8 := at14_main_arg8 V a0 a1 a2 a3 a4 a5 a6 a7 a8 h0 h1 h2 h3 h4 h5 h6 h7 h8
  have g_main_arg6 := at14_main_arg6 V a0 a1 a2 a3 a4 a5 a6 a7 a8 h0 h1 h2 h3 h4 h5 h6 h7 h8
  generalize after ((ops (F := F)).take 146) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v108, g_main_v115, g_main_arg8, g_main_arg6]
  try rfl
theorem at15_main_v127 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 160) V (Proc.devRef .tc main_v127) = val_main_v127 (F := F) a0 a1 a7 a8 := by
  have e : (ops (F := F)).take 160 = (ops (F := F)).take 146 ++ ((ops (F := F)).drop 146).take 14 := rfl
  rw [e, after_append]; clear e
  have g_main_v108 := at14_main_v108 V a0 a1 a2 a3 a4 a5 a6 a7 a8 h0 h1 h2 h3 h4 h5 h6 h7 h8
  have g_main_v115 := at14_main_v115 V a0 a1 a2 a3 a4 a5 a6 a7 a8 h0 h1 h2 h3 h4 h5 h6 h7 h8
  have g_main_arg8 := at14_main_arg8 V a0 a1 a2 a3 a4 a5 a6 a7 a8 h0 h1 h2 h3 h4 h5 h6 h7 h8
  generalize after ((ops (F := F)).take 146) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v108, g_main_v115, g_main_arg8]
  try rfl
theorem at16_main_v131 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 184) V (Proc.devRef .tc main_v131) = val_main_v131 (F := F) a0 a1 a2 a7 a8 := by
  have e : (ops (F := F)).take 184 = (ops (F := F)).take 160 ++ ((ops (F := F)).drop 160).take 24 := rfl
  rw [e, after_append]; clear e
  have g_main_v127 := at15_main_v127 V a0 a1 a2 a3 a4 a5 a6 a7 a8 h0 h1 h2 h3 h4 h5 h6 h7 h8
  have g_main_arg2 := at15_main_arg2 V a0 a1 a2 a3 a4 a5 a6 a7 a8 h0 h1 h2 h3 h4 h5 h6 h7 h8
  have g_main_arg3 := at15_main_arg3 V a0 a1 a2 a3 a4 a5 a6 a7 a8 h0 h1 h2 h3 h4 h5 h6 h7 h8
  have g_main_arg4 := at15_main_arg4 V a0 a1 a2 a3 a4 a5 a6 a7 a8 h0 h1 h2 h3 h4 h5 h6 h7 h8
  have g_main_arg5 := at15_main_arg5 V a0 a1 a2 a3 a4 a5 a6 a7 a8 h0 h1 h2 h3 h4 h5 h6 h7 h8
  have g_main_arg1 := at15_main_arg1 V a0 a1 a2 a3 a4 a5 a6 a7 a8 h0 h1 h2 h3 h4 h5 h6 h7 h8
  have g_main_arg6 := at15_main_arg6 V a0 a1 a2 a3 a4 a5 a6 a7 a8 h0 h1 h2 h3 h4 h5 h6 h7 h8
  generalize after ((ops (F := F)).take 160) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v127, g_main_arg2, g_main_arg3, g_main_arg4, g_main_arg5, g_main_arg1, g_main_arg6]
  try rfl
theorem at16_main_v135 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 184) V (Proc.devRef .tc main_v135) = val_main_v135 (F := F) a0 a1 a3 a7 a8 := by
  have e : (ops (F := F)).take 184 = (ops (F := F)).take 160 ++ ((ops (F := F)).drop 160).take 24 := rfl
  rw [e, after_append]; clear e
  have g_main_v127 := at15_main_v127 V a0 a1 a2 a3 a4 a5 a6 a7 a8 h0 h1 h2 h3 h4 h5 h6 h7 h8
  have g_main_arg2 := at15_main_arg2 V a0 a1 a2 a3 a4 a5 a6 a7 a8 h0 h1 h2 h3 h4 h5 h6 h7 h8
  have g_main_arg3 := at15_main_arg3 V a0 a1 a2 a3 a4 a5 a6 a7 a8 h0 h1 h2 h3 h4 h5 h6 h7 h8
  have g_main_arg4 := at15_main_arg4 V a0 a1 a2 a3 a4 a5 a6 a7 a8 h0 h1 h2 h3 h4 h5 h6 h7 h8
  have g_main_arg5 := at15_main_arg5 V a0 a1 a2 a3 a4 a5 a6 a7 a8 h0 h1 h2 h3 h4 h5 h6 h7 h8
  have g_main_arg1 := at15_main_arg1 V a0 a1 a2 a3 a4 a5 a6 a7 a8 h0 h1 h2 h3 h4 h5 h6 h7 h8
  have g_main_arg6 := at15_main_arg6 V a0 a1 a2 a3 a4 a5 a6 a7 a8 h0 h1 h2 h3 h4 h5 h6 h7 h8
  generalize after ((ops (F := F)).take 160) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v127, g_main_arg2, g_main_arg3, g_main_arg4, g_main_arg5, g_main_arg1, g_main_arg6]
  try rfl
theorem at16_main_v139 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 184) V (Proc.devRef .tc main_v139) = val_main_v139 (F := F) a0 a1 a4 a7 a8 := by
  have e : (ops (F := F)).take 184 = (ops (F := F)).take 160 ++ ((ops (F := F)).drop 160).take 24 := rfl
  rw [e, after_append]; clear e
  have g_main_v127 := at15_main_v127 V a0 a1 a2 a3 a4 a5 a6 a7 a8 h0 h1 h2 h3 h4 h5 h6 h7 h8
  have g_main_arg2 := at15_main_arg2 V a0 a1 a2 a3 a4 a5 a6 a7 a8 h0 h1 h2 h3 h4 h5 h6 h7 h8
  have g_main_arg3 := at15_main_arg3 V a0 a1 a2 a3 a4 a5 a6 a7 a8 h0 h1 h2 h3 h4 h5 h6 h7 h8
  have g_main_arg4 := at15_main_arg4 V a0 a1 a2 a3 a4 a5 a6 a7 a8 h0 h1 h2 h3 h4 h5 h6 h7 h8
  have g_main_arg5 := at15_main_arg5 V a0 a1 a2 a3 a4 a5 a6 a7 a8 h0 h1 h2 h3 h4 h5 h6 h7 h8
  have g_main_arg1 := at15_main_arg1 V a0 a1 a2 a3 a4 a5 a6 a7 a8 h0 h1 h2 h3 h4 h5 h6 h7 h8
  have g_main_arg6 := at15_main_arg6 V a0 a1 a2 a3 a4 a5 a6 a7 a8 h0 h1 h2 h3 h4 h5 h6 h7 h8
  generalize after ((ops (F := F)).take 160) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v127, g_main_arg2, g_main_arg3, g_main_arg4, g_main_arg5, g_main_arg1, g_main_arg6]
  try rfl
theorem at16_main_v143 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 184) V (Proc.devRef .tc main_v143) = val_main_v143 (F := F) a0 a1 a5 a7 a8 := by
  have e : (ops (F := F)).take 184 = (ops (F := F)).take 160 ++ ((ops (F := F)).drop 160).take 24 := rfl
  rw [e, after_append]; clear e
  have g_main_v127 := at15_main_v127 V a0 a1 a2 a3 a4 a5 a6 a7 a8 h0 h1 h2 h3 h4 h5 h6 h7 h8
  have g_main_arg2 := at15_main_arg2 V a0 a1 a2 a3 a4 a5 a6 a7 a8 h0 h1 h2 h3 h4 h5 h6 h7 h8
  have g_main_arg3 := at15_main_arg3 V a0 a1 a2 a3 a4 a5 a6 a7 a8 h0 h1 h2 h3 h4 h5 h6 h7 h8
  have g_main_arg4 := at15_main_arg4 V a0 a1 a2 a3 a4 a5 a6 a7 a8 h0 h1 h2 h3 h4 h5 h6 h7 h8
  have g_main_arg5 := at15_main_arg5 V a0 a1 a2 a3 a4 a5 a6 a7 a8 h0 h1 h2 h3 h4 h5 h6 h7 h8
  have g_main_arg1 := at15_main_arg1 V a0 a1 a2 a3 a4 a5 a6 a7 a8 h0 h1 h2 h3 h4 h5 h6 h7 h8
  have g_main_arg6 := at15_main_arg6 V a0 a1 a2 a3 a4 a5 a6 a7 a8 h0 h1 h2 h3 h4 h5 h6 h7 h8
  generalize after ((ops (F := F)).take 160) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v127, g_main_arg2, g_main_arg3, g_main_arg4, g_main_arg5, g_main_arg1, g_main_arg6]
  try rfl
theorem at16_main_v145 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 184) V (Proc.devRef .tc main_v145) = val_main_v145 (F := F) a1 a6 := by
  have e : (ops (F := F)).take 184 = (ops (F := F)).take 160 ++ ((ops (F := F)).drop 160).take 24 := rfl
  rw [e, after_append]; clear e
  have g_main_v127 := at15_main_v127 V a0 a1 a2 a3 a4 a5 a6 a7 a8 h0 h1 h2 h3 h4 h5 h6 h7 h8
  have g_main_arg2 := at15_main_arg2 V a0 a1 a2 a3 a4 a5 a6 a7 a8 h0 h1 h2 h3 h4 h5 h6 h7 h8
  have g_main_arg3 := at15_main_arg3 V a0 a1 a2 a3 a4 a5 a6 a7 a8 h0 h1 h2 h3 h4 h5 h6 h7 h8
  have g_main_arg4 := at15_main_arg4 V a0 a1 a2 a3 a4 a5 a6 a7 a8 h0 h1 h2 h3 h4 h5 h6 h7 h8
  have g_main_arg5 := at15_main_arg5 V a0 a1 a2 a3 a4 a5 a6 a7 a8 h0 h1 h2 h3 h4 h5 h6 h7 h8
  have g_main_arg1 := at15_main_arg1 V a0 a1 a2 a3 a4 a5 a6 a7 a8 h0 h1 h2 h3 h4 h5 h6 h7 h8
  have g_main_arg6 := at15_main_arg6 V a0 a1 a2 a3 a4 a5 a6 a7 a8 h0 h1 h2 h3 h4 h5 h6 h7 h8
  generalize after ((ops (F := F)).take 160) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v127, g_main_arg2, g_main_arg3, g_main_arg4, g_main_arg5, g_main_arg1, g_main_arg6]
  try rfl
theorem at16_main_v146 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 184) V (Proc.devRef .tc main_v146) = val_main_v146 (F := F) := by
  have e : (ops (F := F)).take 184 = (ops (F := F)).take 160 ++ ((ops (F := F)).drop 160).take 24 := rfl
  rw [e, after_append]; clear e
  have g_main_v127 := at15_main_v127 V a0 a1 a2 a3 a4 a5 a6 a7 a8 h0 h1 h2 h3 h4 h5 h6 h7 h8
  have g_main_arg2 := at15_main_arg2 V a0 a1 a2 a3 a4 a5 a6 a7 a8 h0 h1 h2 h3 h4 h5 h6 h7 h8
  have g_main_arg3 := at15_main_arg3 V a0 a1 a2 a3 a4 a5 a6 a7 a8 h0 h1 h2 h3 h4 h5 h6 h7 h8
  have g_main_arg4 := at15_main_arg4 V a0 a1 a2 a3 a4 a5 a6 a7 a8 h0 h1 h2 h3 h4 h5 h6 h7 h8
  have g_main_arg5 := at15_main_arg5 V a0 a1 a2 a3 a4 a5 a6 a7 a8 h0 h1 h2 h3 h4 h5 h6 h7 h8
  have g_main_arg1 := at15_main_arg1 V a0 a1 a2 a3 a4 a5 a6 a7 a8 h0 h1 h2 h3 h4 h5 h6 h7 h8
  have g_main_arg6 := at15_main_arg6 V a0 a1 a2 a3 a4 a5 a6 a7 a8 h0 h1 h2 h3 h4 h5 h6 h7 h8
  generalize after ((ops (F := F)).take 160) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v127, g_main_arg2, g_main_arg3, g_main_arg4, g_main_arg5, g_main_arg1, g_main_arg6]
  try rfl
theorem at17_main_v153 (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after ((ops (F := F)).take 191) V (Proc.devRef .tc main_v153) = val_main_v153 (F := F) a0 a1 a2 a3 a4 a5 a6 a7 a8 := by
  have e : (ops (F := F)).take 191 = (ops (F := F)).take 184 ++ ((ops (F := F)).drop 184).take 7 := rfl
  rw [e, after_append]; clear e
  have g_main_v145 := at16_main_v145 V a0 a1 a2 a3 a4 a5 a6 a7 a8 h0 h1 h2 h3 h4 h5 h6 h7 h8
  have g_main_v146 := at16_main_v146 V a0 a1 a2 a3 a4 a5 a6 a7 a8 h0 h1 h2 h3 h4 h5 h6 h7 h8
  have g_main_v131 := at16_main_v131 V a0 a1 a2 a3 a4 a5 a6 a7 a8 h0 h1 h2 h3 h4 h5 h6 h7 h8
  have g_main_v135 := at16_main_v135 V a0 a1 a2 a3 a4 a5 a6 a7 a8 h0 h1 h2 h3 h4 h5 h6 h7 h8
  have g_main_v139 := at16_main_v139 V a0 a1 a2 a3 a4 a5 a6 a7 a8 h0 h1 h2 h3 h4 h5 h6 h7 h8
  have g_main_v143 := at16_main_v143 V a0 a1 a2 a3 a4 a5 a6 a7 a8 h0 h1 h2 h3 h4 h5 h6 h7 h8
  generalize after ((ops (F := F)).take 184) V = W at *
  simp (disch := decide) only [ops, List.drop, List.take, after_cons, after_nil, nullary_result', unary_result', binary_result', ternary_result', quaternary_result', reshape_result', nary4_result', nary_result', nullary_result_ne', unary_result_ne', binary_result_ne', ternary_result_ne', quaternary_result_ne', reshape_result_ne', nary_result_ne', Matrix.cons_val, TRef.ofBuf, TRef.toBuf, cast_eq, cat2_intro, cat3_intro, cat4_intro, cat5_intro, cat7_intro, g_main_v145, g_main_v146, g_main_v131, g_main_v135, g_main_v139, g_main_v143]
  try rfl

/-- The result buffer after all the operations is the last stage of the argument buffers' contents. -/
theorem result_eq (V : Valuation τ sig (Elt F)) (a0 : (⟨S50000x3, .f32⟩ : BufTy).Contents (Elt F)) (a1 : (⟨S50000x16, .f32⟩ : BufTy).Contents (Elt F)) (a2 : (⟨S16x64, .f32⟩ : BufTy).Contents (Elt F)) (a3 : (⟨S16x64, .f32⟩ : BufTy).Contents (Elt F)) (a4 : (⟨S16x64, .f32⟩ : BufTy).Contents (Elt F)) (a5 : (⟨S16x64, .f32⟩ : BufTy).Contents (Elt F)) (a6 : (⟨S16x64, .f32⟩ : BufTy).Contents (Elt F)) (a7 : (⟨S500000, .i32⟩ : BufTy).Contents (Elt F)) (a8 : (⟨S500000, .i32⟩ : BufTy).Contents (Elt F)) (h0 : V (Proc.devRef .tc main_arg0) = a0) (h1 : V (Proc.devRef .tc main_arg1) = a1) (h2 : V (Proc.devRef .tc main_arg2) = a2) (h3 : V (Proc.devRef .tc main_arg3) = a3) (h4 : V (Proc.devRef .tc main_arg4) = a4) (h5 : V (Proc.devRef .tc main_arg5) = a5) (h6 : V (Proc.devRef .tc main_arg6) = a6) (h7 : V (Proc.devRef .tc main_arg7) = a7) (h8 : V (Proc.devRef .tc main_arg8) = a8) :
    after (ops (F := F)) V (Proc.devRef .tc main_v153) = val_main_v153 (F := F) a0 a1 a2 a3 a4 a5 a6 a7 a8 :=
  at17_main_v153 V a0 a1 a2 a3 a4 a5 a6 a7 a8 h0 h1 h2 h3 h4 h5 h6 h7 h8

end Cert.ReferenceIdeal.ValueP

end
-- ==== Proof.Spec.lean ====
/-
  The mathematics both programs compute, as plain functions on the extended reals.

  Per edge e with relative vector r = pos[recv e] - pos[send e] and sender scalars s (16 channels):
  a direction (x, y, z) = r / |r|, the fifteen real spherical harmonics of degree 1, 2, 3 at that direction
  (component normalisation), and the edge feature  edge[e, i, u] = (i = 0 ? s u : Y_i(x, y, z) * s u).
  Per node n: agg[n, i, u] = (sum over the edges received by n of edge[e, i, u]) / 10, then a linear map
  on the channel axis, one weight matrix per degree (rows i = 0 | 1..3 | 4..8 | 9..15), times 1/4, and in
  row 0 a second linear map of the node's own scalars, times 1/4, added.

  The kernel forms the direction as r * (1 / |r|) with |r| = sqrt((rx*rx + ry*ry) + rz*rz); the reference as
  r / |r| with |r| = sqrt(0 + sum over the three components of r_k * r_k). Off |r| = 0 these agree.
-/
import Idealize.ShloMosaic.PureOps.Ideal
import Idealize.ShloMosaic.PureOps
import Idealize.ShloMosaic.Lib.ValueIdx

noncomputable section

namespace Cert.Spec

open Idealize.ShloMosaic Idealize.ShloMosaic.ValueIdx

abbrev S_ : Shape := ⟨0, ![]⟩
abbrev S500000 : Shape := ⟨1, ![500000]⟩
abbrev S500000x1 : Shape := ⟨2, ![500000, 1]⟩
abbrev S500000x3 : Shape := ⟨2, ![500000, 3]⟩
abbrev S500000x16 : Shape := ⟨2, ![500000, 16]⟩
abbrev S500000x19 : Shape := ⟨2, ![500000, 19]⟩
abbrev S500000x256 : Shape := ⟨2, ![500000, 256]⟩
abbrev S500000x16x16 : Shape := ⟨3, ![500000, 16, 16]⟩
abbrev S50000x3 : Shape := ⟨2, ![50000, 3]⟩
abbrev S50000x16 : Shape := ⟨2, ![50000, 16]⟩
abbrev S50000x256 : Shape := ⟨2, ![50000, 256]⟩
abbrev S50000x16x16 : Shape := ⟨3, ![50000, 16, 16]⟩
abbrev S50000x1024 : Shape := ⟨2, ![50000, 1024]⟩
abbrev S16x64 : Shape := ⟨2, ![16, 64]⟩

/-! ## The gathered per-edge arrays (the operations both programs apply to their arguments) -/

/-- Row gather of a [50000, 3] table at [500000, 1] start indices. -/
def gd3 : GatherDims S50000x3 S500000x1 S500000x3 where
  offsetDims := [1]
  collapsedSliceDims := [0]
  operandBatchingDims := []
  startIndicesBatchingDims := []
  startIndexMap := [0]
  indexVectorDim := 1
  sliceSizes := ![1, 3]

/-- Row gather of a [50000, 16] table at [500000, 1] start indices. -/
def gd16 : GatherDims S50000x16 S500000x1 S500000x16 where
  offsetDims := [1]
  collapsedSliceDims := [0]
  operandBatchingDims := []
  startIndicesBatchingDims := []
  startIndexMap := [0]
  indexVectorDim := 1
  sliceSizes := ![1, 16]

/-- Row scatter-add into [50000, 256] of [500000, 256] updates at [500000, 1] indices. -/
def sd2 : ScatterDims S50000x256 S500000x1 S500000x256 where
  updateWindowDims := [1]
  insertedWindowDims := [0]
  scatterDimsToOperandDims := [0]
  indexVectorDim := 1

/-- Row scatter-add into [50000, 16, 16] of [500000, 16, 16] updates at [500000, 1] indices. -/
def sd3 : ScatterDims S50000x16x16 S500000x1 S500000x16x16 where
  updateWindowDims := [1, 2]
  insertedWindowDims := [0]
  scatterDimsToOperandDims := [0]
  indexVectorDim := 1

/-- A node-index vector as gather start indices: a negative index wraps once by 50000 (NumPy indexing), then
    the vector becomes a column. -/
def nidx (v : IVec S500000 32) : IVec S500000x1 32 :=
  broadcastInDim S500000x1 ![0] (by decide)
    (select (cmpi .slt v (broadcastInDim S500000 ![] (by decide) (constantI S_ 32 0#32)))
      (addi v (broadcastInDim S500000 ![] (by decide) (constantI S_ 32 50000#32))) v)

/-- The relative vector of every edge: pos[recv] - pos[send]. -/
def relArr (pos : FVec Ideal S50000x3 .f32) (snd rcv : IVec S500000 32) : FVec Ideal S500000x3 .f32 :=
  subf (Host.gather gd3 pos (nidx rcv)) (Host.gather gd3 pos (nidx snd))

/-- The sender's sixteen scalars of every edge. -/
def sArr (ns : FVec Ideal S50000x16 .f32) (snd : IVec S500000 32) : FVec Ideal S500000x16 .f32 :=
  Host.gather gd16 ns (nidx snd)

/-! ## Spherical harmonics of degree 1..3 at a direction, as both programs associate them -/

abbrev k3 : EReal := Ideal.ofBits .f32 0x3FDDB3D7#32     -- sqrt 3
abbrev kh : EReal := Ideal.ofBits .f32 0x3F000000#32     -- 1/2
abbrev k32 : EReal := Ideal.ofBits .f32 0x3F5DB3D7#32    -- sqrt 3 / 2
abbrev k5 : EReal := Ideal.ofBits .f32 0x400F1BBD#32     -- sqrt 5
abbrev k426 : EReal := Ideal.ofBits .f32 0x3F8A417C#32   -- sqrt 42 / 6
abbrev k7 : EReal := Ideal.ofBits .f32 0x402953FD#32     -- sqrt 7
abbrev k4 : EReal := Ideal.ofBits .f32 0x40800000#32     -- 4
abbrev k1688 : EReal := Ideal.ofBits .f32 0x3FCF623A#32  -- sqrt 168 / 8
abbrev kh7 : EReal := Ideal.ofBits .f32 0x3FA953FD#32    -- sqrt 7 / 2
abbrev k2 : EReal := Ideal.ofBits .f32 0x40000000#32     -- 2
abbrev k3i : EReal := Ideal.ofBits .f32 0x40400000#32    -- 3

abbrev a0 (x y z : EReal) : EReal := (k3 * x) * z
abbrev a1 (x y z : EReal) : EReal := (k3 * x) * y
abbrev a2 (x y z : EReal) : EReal := y * y - kh * (x * x + z * z)
abbrev a3 (x y z : EReal) : EReal := (k3 * y) * z
abbrev a4 (x y z : EReal) : EReal := k32 * (z * z - x * x)
abbrev b0 (x y z : EReal) : EReal := k426 * (a0 x y z * z + a4 x y z * x)
abbrev b1 (x y z : EReal) : EReal := (k7 * a0 x y z) * y
abbrev b2 (x y z : EReal) : EReal := (k1688 * ((k4 * (y * y) - x * x) - z * z)) * x
abbrev b3 (x y z : EReal) : EReal := (kh7 * y) * ((k2 * (y * y) - k3i * (x * x)) - k3i * (z * z))
abbrev b4 (x y z : EReal) : EReal := (k1688 * z) * ((k4 * (y * y) - x * x) - z * z)
abbrev b5 (x y z : EReal) : EReal := (k7 * a4 x y z) * y
abbrev b6 (x y z : EReal) : EReal := k426 * (a4 x y z * z - a0 x y z * x)

/-- The harmonic of row i (rows 1..15; row 0 carries the raw scalars and its entry here is not used). -/
def shc (x y z : EReal) : Fin 16 → EReal :=
  ![1, k3 * x, k3 * y, k3 * z,
    k5 * a0 x y z, k5 * a1 x y z, k5 * a2 x y z, k5 * a3 x y z, k5 * a4 x y z,
    k7 * b0 x y z, k7 * b1 x y z, k7 * b2 x y z, k7 * b3 x y z, k7 * b4 x y z, k7 * b5 x y z, k7 * b6 x y z]

/-- One entry of an edge's feature: row 0 is the sender's scalar, row i > 0 the harmonic times it. -/
def edgeVal (x y z s : EReal) (i : Fin 16) : EReal := if i = 0 then s else shc x y z i * s

/-- The kernel's norm of a relative vector. -/
def normK (r : Fin 3 → EReal) : EReal := Ideal.sqrt ((r 0 * r 0 + r 1 * r 1) + r 2 * r 2)
/-- The reference's norm of a relative vector: a host sum from a zero initial value. -/
def normR (r : Fin 3 → EReal) : EReal := Ideal.sqrt (Ideal.ofBits .f32 0x00000000#32 + ∑ k : Fin 3, r k * r k)
/-- The kernel's direction component: the component times the reciprocal of the norm. -/
def dirK (r : Fin 3 → EReal) (k : Fin 3) : EReal := r k * Ideal.div (Ideal.ofBits .f32 0x3F800000#32) (normK r)
/-- The reference's direction component: the component over the norm. -/
def dirR (r : Fin 3 → EReal) (k : Fin 3) : EReal := Ideal.div (r k) (normR r)

/-- The kernel's edge feature from a relative vector and the sender's scalars. -/
def edgeK (r : Fin 3 → EReal) (s : Fin 16 → EReal) (i u : Fin 16) : EReal :=
  edgeVal (dirK r 0) (dirK r 1) (dirK r 2) (s u) i
/-- The reference's. -/
def edgeR (r : Fin 3 → EReal) (s : Fin 16 → EReal) (i u : Fin 16) : EReal :=
  edgeVal (dirR r 0) (dirR r 1) (dirR r 2) (s u) i

/-! ## Aggregation over the edges a node receives, and the node's linear maps -/

/-- The edges whose (raw, signed) receiver index is node n. -/
def recvSet (rcv : IVec S500000 32) (n : Fin 50000) : Finset (Fin 500000) :=
  Finset.univ.filter fun e => (rcv (ix1 e)).toInt = (n.val : Int)

/-- A scatter-add into zeros then the division by 10: zero plus the sum over the received edges, over 10. -/
def aggVal (rcv : IVec S500000 32) (n : Fin 50000) (f : Fin 500000 → EReal) : EReal :=
  Ideal.div (Ideal.ofBits .f32 0x00000000#32 + ∑ e ∈ recvSet rcv n, f e) (Ideal.ofBits .f32 0x41200000#32)

abbrev kq : EReal := Ideal.ofBits .f32 0x3E800000#32     -- 1/4

/-- The weight matrix of row i: degree 0 | 1 | 2 | 3 for rows 0 | 1..3 | 4..8 | 9..15. -/
def wsel (w0 w1 w2 w3 : S16x64.Idx → EReal) (i : Fin 16) : S16x64.Idx → EReal :=
  if i.val < 1 then w0 else if i.val < 4 then w1 else if i.val < 9 then w2 else w3

/-- One output entry (row i, output channel v) from the node's aggregated row-i channels a, its own scalars
    nsr and the weights. -/
def nodeVal (a nsr : Fin 16 → EReal) (w0 w1 w2 w3 wsc : S16x64.Idx → EReal) (i : Fin 16) (v : Fin 64) : EReal :=
  if i = 0 then (∑ u : Fin 16, a u * w0 (ix2 u v)) * kq + (∑ u : Fin 16, nsr u * wsc (ix2 u v)) * kq
  else (∑ u : Fin 16, a u * wsel w0 w1 w2 w3 i (ix2 u v)) * kq

end Cert.Spec

end
-- ==== Proof.R0.lean ====
import proofs.«181800_j70411693850655_1_alg».proof.Proof.Gen.KernelIdeal.Frame
import proofs.«181800_j70411693850655_1_alg».proof.Proof.Spec
import Idealize.ShloMosaic.Lib.Pipeline.Value
import Idealize.ShloMosaic.Lib.ValueIdx

set_option maxRecDepth 16384

noncomputable section

namespace Cert.EdgeNode.R0

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-! ## One entry of a block: the pointwise arithmetic -/

/-- The single column of a [4000, 1] vector. -/
abbrev c0 : Fin 1 := ⟨0, Nat.one_pos⟩

/-- A [4000, 1] column broadcast along the sixteen channels reads, at (p, q), the column at p. -/
theorem bcol (w : FVec Ideal S4000x1 .f32) (h : S4000x1.Broadcasts S4000x16) (p : Fin 4000) (q : Fin 16) :
    broadcastTo S4000x16 w h (ix2 p q) = w (ix2 p c0) := by
  refine broadcastTo_apply w h (ix2 p q) (ix2 p c0) fun ax => ?_
  match ax with
  | ⟨0, _⟩ => rfl
  | ⟨1, _⟩ => rfl

/-- A row factor (a column broadcast along the channels) times a [4000, 16] block, at (p, q). -/
theorem row_apply (w : FVec Ideal S4000x1 .f32) (h : S4000x1.Broadcasts S4000x16) (s : FVec Ideal S4000x16 .f32)
    (p : Fin 4000) (q : Fin 16) : mulf (broadcastTo S4000x16 w h) s (ix2 p q) = w (ix2 p c0) * s (ix2 p q) :=
  congrArg (· * s (ix2 p q)) (bcol w h p q)

section Pieces
variable (v0 v2 v4 : Vec Ideal S4000x1 .f32) (v6 : Vec Ideal S4000x16 .f32) (p : Fin 4000) (q : Fin 16)

/-- The direction's three components and the sender's scalar, as the body forms them at row p. -/
abbrev dx : EReal := k0_pay7 v0 v2 v4 (ix2 p c0)
abbrev dy : EReal := k0_pay8 v0 v2 v4 (ix2 p c0)
abbrev dz : EReal := k0_pay9 v0 v2 v4 (ix2 p c0)
abbrev sc : EReal := k0_pay5 v6 (ix2 p q)

theorem piece0 : k0_pay5 v6 (ix2 p q) = Cert.Spec.edgeVal (dx v0 v2 v4 p) (dy v0 v2 v4 p) (dz v0 v2 v4 p) (sc v6 p q) 0 := rfl

theorem piece1 : k0_pay13 v0 v2 v4 v6 (ix2 p q)
    = Cert.Spec.edgeVal (dx v0 v2 v4 p) (dy v0 v2 v4 p) (dz v0 v2 v4 p) (sc v6 p q) 1 := by
  unfold k0_pay13
  exact (row_apply _ _ _ p q).trans rfl

theorem piece2 : (k0_pay14 v0 v2 v4 v6) (ix2 p q)
    = Cert.Spec.edgeVal (dx v0 v2 v4 p) (dy v0 v2 v4 p) (dz v0 v2 v4 p) (sc v6 p q) 2 := by
  unfold k0_pay14
  exact (row_apply _ _ _ p q).trans rfl

theorem piece3 : (k0_pay15 v0 v2 v4 v6) (ix2 p q)
    = Cert.Spec.edgeVal (dx v0 v2 v4 p) (dy v0 v2 v4 p) (dz v0 v2 v4 p) (sc v6 p q) 3 := by
  unfold k0_pay15
  exact (row_apply _ _ _ p q).trans rfl

theorem piece4 : (k0_pay18 (k0_pay5 v6) (k0_pay7 v0 v2 v4) (k0_pay9 v0 v2 v4)) (ix2 p q)
    = Cert.Spec.edgeVal (dx v0 v2 v4 p) (dy v0 v2 v4 p) (dz v0 v2 v4 p) (sc v6 p q) 4 := by
  unfold k0_pay18
  exact (row_apply _ _ _ p q).trans rfl

theorem piece5 : (k0_pay19 (k0_pay5 v6) (k0_pay7 v0 v2 v4) (k0_pay8 v0 v2 v4)) (ix2 p q)
    = Cert.Spec.edgeVal (dx v0 v2 v4 p) (dy v0 v2 v4 p) (dz v0 v2 v4 p) (sc v6 p q) 5 := by
  unfold k0_pay19
  exact (row_apply _ _ _ p q).trans rfl

theorem piece6 : (k0_pay20 (k0_pay5 v6) (k0_pay10 v0 v2 v4) (k0_pay11 v0 v2 v4) (k0_pay12 v0 v2 v4)) (ix2 p q)
    = Cert.Spec.edgeVal (dx v0 v2 v4 p) (dy v0 v2 v4 p) (dz v0 v2 v4 p) (sc v6 p q) 6 := by
  unfold k0_pay20
  exact (row_apply _ _ _ p q).trans rfl

theorem piece7 : (k0_pay21 (k0_pay5 v6) (k0_pay8 v0 v2 v4) (k0_pay9 v0 v2 v4)) (ix2 p q)
    = Cert.Spec.edgeVal (dx v0 v2 v4 p) (dy v0 v2 v4 p) (dz v0 v2 v4 p) (sc v6 p q) 7 := by
  unfold k0_pay21
  exact (row_apply _ _ _ p q).trans rfl

theorem piece8 : (k0_pay22 (k0_pay5 v6) (k0_pay17 (k0_pay10 v0 v2 v4) (k0_pay12 v0 v2 v4))) (ix2 p q)
    = Cert.Spec.edgeVal (dx v0 v2 v4 p) (dy v0 v2 v4 p) (dz v0 v2 v4 p) (sc v6 p q) 8 := by
  unfold k0_pay22
  exact (row_apply _ _ _ p q).trans rfl

theorem piece9 : (k0_pay30 (k0_pay5 v6) (k0_pay23 (k0_pay7 v0 v2 v4) (k0_pay9 v0 v2 v4) (k0_pay16 (k0_pay7 v0 v2 v4) (k0_pay9 v0 v2 v4)) (k0_pay17 (k0_pay10 v0 v2 v4) (k0_pay12 v0 v2 v4)))) (ix2 p q)
    = Cert.Spec.edgeVal (dx v0 v2 v4 p) (dy v0 v2 v4 p) (dz v0 v2 v4 p) (sc v6 p q) 9 := by
  unfold k0_pay30
  exact (row_apply _ _ _ p q).trans rfl

theorem piece10 : (k0_pay31 (k0_pay5 v6) (k0_pay24 (k0_pay8 v0 v2 v4) (k0_pay16 (k0_pay7 v0 v2 v4) (k0_pay9 v0 v2 v4)))) (ix2 p q)
    = Cert.Spec.edgeVal (dx v0 v2 v4 p) (dy v0 v2 v4 p) (dz v0 v2 v4 p) (sc v6 p q) 10 := by
  unfold k0_pay31
  exact (row_apply _ _ _ p q).trans rfl

theorem piece11 : (k0_pay32 (k0_pay5 v6) (k0_pay25 (k0_pay7 v0 v2 v4) (k0_pay10 v0 v2 v4) (k0_pay11 v0 v2 v4) (k0_pay12 v0 v2 v4))) (ix2 p q)
    = Cert.Spec.edgeVal (dx v0 v2 v4 p) (dy v0 v2 v4 p) (dz v0 v2 v4 p) (sc v6 p q) 11 := by
  unfold k0_pay32
  exact (row_apply _ _ _ p q).trans rfl

theorem piece12 : (k0_pay33 (k0_pay5 v6) (k0_pay26 (k0_pay8 v0 v2 v4) (k0_pay10 v0 v2 v4) (k0_pay11 v0 v2 v4) (k0_pay12 v0 v2 v4))) (ix2 p q)
    = Cert.Spec.edgeVal (dx v0 v2 v4 p) (dy v0 v2 v4 p) (dz v0 v2 v4 p) (sc v6 p q) 12 := by
  unfold k0_pay33
  exact (row_apply _ _ _ p q).trans rfl

theorem piece13 : (k0_pay34 (k0_pay5 v6) (k0_pay27 (k0_pay9 v0 v2 v4) (k0_pay10 v0 v2 v4) (k0_pay11 v0 v2 v4) (k0_pay12 v0 v2 v4))) (ix2 p q)
    = Cert.Spec.edgeVal (dx v0 v2 v4 p) (dy v0 v2 v4 p) (dz v0 v2 v4 p) (sc v6 p q) 13 := by
  unfold k0_pay34
  exact (row_apply _ _ _ p q).trans rfl

theorem piece14 : (k0_pay35 (k0_pay5 v6) (k0_pay28 (k0_pay8 v0 v2 v4) (k0_pay17 (k0_pay10 v0 v2 v4) (k0_pay12 v0 v2 v4)))) (ix2 p q)
    = Cert.Spec.edgeVal (dx v0 v2 v4 p) (dy v0 v2 v4 p) (dz v0 v2 v4 p) (sc v6 p q) 14 := by
  unfold k0_pay35
  exact (row_apply _ _ _ p q).trans rfl

theorem piece15 : (k0_pay1 (k0_pay5 v6) (k0_pay36 (k0_pay29 (k0_pay7 v0 v2 v4) (k0_pay9 v0 v2 v4) (k0_pay16 (k0_pay7 v0 v2 v4) (k0_pay9 v0 v2 v4)) (k0_pay17 (k0_pay10 v0 v2 v4) (k0_pay12 v0 v2 v4))) (Scalar.ofBits .f32 0x3F8A417C#32))) (ix2 p q)
    = Cert.Spec.edgeVal (dx v0 v2 v4 p) (dy v0 v2 v4 p) (dz v0 v2 v4 p) (sc v6 p q) 15 := by
  unfold k0_pay1 k0_pay36
  exact (row_apply _ _ _ p q).trans rfl

end Pieces

/-! ## A block's rows -/

section Block
variable (x0 : Vec Ideal S4000x19 .f32)

/-- Row p of an input block: the relative vector (columns 0..2) … -/
def rrow (p : Fin 4000) : Fin 3 → EReal := fun k => x0 (ix2 p ⟨k.val, by omega⟩)
/-- … and the sender's sixteen scalars (columns 3..18). -/
def srow (p : Fin 4000) : Fin 16 → EReal := fun u => x0 (ix2 p ⟨3 + u.val, by omega⟩)

theorem ld_col0 (p : Fin 4000) : View.ld x0 r0_0 (ix2 p c0) = x0 (ix2 p ⟨0, by omega⟩) := by
  refine congrArg x0 (funext fun a => Fin.ext ?_)
  match a with
  | ⟨0, _⟩ => show 0 + 1 * p.val = p.val; omega
  | ⟨1, _⟩ => rfl

theorem ld_col1 (p : Fin 4000) : View.ld x0 r0_1 (ix2 p c0) = x0 (ix2 p ⟨1, by omega⟩) := by
  refine congrArg x0 (funext fun a => Fin.ext ?_)
  match a with
  | ⟨0, _⟩ => show 0 + 1 * p.val = p.val; omega
  | ⟨1, _⟩ => rfl

theorem ld_col2 (p : Fin 4000) : View.ld x0 r0_2 (ix2 p c0) = x0 (ix2 p ⟨2, by omega⟩) := by
  refine congrArg x0 (funext fun a => Fin.ext ?_)
  match a with
  | ⟨0, _⟩ => show 0 + 1 * p.val = p.val; omega
  | ⟨1, _⟩ => rfl

theorem ld_s (p : Fin 4000) (q : Fin 16) : View.ld x0 r0_3 (ix2 p q) = x0 (ix2 p ⟨3 + q.val, by omega⟩) := by
  refine congrArg x0 (funext fun a => Fin.ext ?_)
  match a with
  | ⟨0, _⟩ => show 0 + 1 * p.val = p.val; omega
  | ⟨1, _⟩ => show 3 + 1 * q.val = 3 + q.val; omega

end Block

/-- A shape cast to the same shape changes nothing. -/
theorem pay2_eq (v : Vec Ideal S4000x1 .f32) : k0_pay2 v = v := shapeCast_self _ _
theorem pay3_eq (v : Vec Ideal S4000x1 .f32) : k0_pay3 v = v := shapeCast_self _ _
theorem pay4_eq (v : Vec Ideal S4000x1 .f32) : k0_pay4 v = v := shapeCast_self _ _
theorem pay5_eq (v : Vec Ideal S4000x16 .f32) : k0_pay5 v = v := shapeCast_self _ _

/-- The reciprocal of the norm and the three direction components at a row whose entries are a, b, c. -/
theorem dirx_gen (v0 v2 v4 : Vec Ideal S4000x1 .f32) (j : S4000x1.Idx) (a b c : EReal) (h0 : v0 j = a) (h2 : v2 j = b) (h4 : v4 j = c) :
    k0_pay7 v0 v2 v4 j = a * Ideal.div (Ideal.ofBits .f32 0x3F800000#32) (Ideal.sqrt ((a * a + b * b) + c * c)) := by
  subst h0 h2 h4; unfold k0_pay7 k0_pay6; rw [pay2_eq, pay3_eq, pay4_eq]; rfl
theorem diry_gen (v0 v2 v4 : Vec Ideal S4000x1 .f32) (j : S4000x1.Idx) (a b c : EReal) (h0 : v0 j = a) (h2 : v2 j = b) (h4 : v4 j = c) :
    k0_pay8 v0 v2 v4 j = b * Ideal.div (Ideal.ofBits .f32 0x3F800000#32) (Ideal.sqrt ((a * a + b * b) + c * c)) := by
  subst h0 h2 h4; unfold k0_pay8 k0_pay6; rw [pay2_eq, pay3_eq, pay4_eq]; rfl
theorem dirz_gen (v0 v2 v4 : Vec Ideal S4000x1 .f32) (j : S4000x1.Idx) (a b c : EReal) (h0 : v0 j = a) (h2 : v2 j = b) (h4 : v4 j = c) :
    k0_pay9 v0 v2 v4 j = c * Ideal.div (Ideal.ofBits .f32 0x3F800000#32) (Ideal.sqrt ((a * a + b * b) + c * c)) := by
  subst h0 h2 h4; unfold k0_pay9 k0_pay6; rw [pay2_eq, pay3_eq, pay4_eq]; rfl

section Block2
variable (x0 : Vec Ideal S4000x19 .f32)

theorem dir_x (p : Fin 4000) : k0_pay7 (View.ld x0 r0_0) (View.ld x0 r0_1) (View.ld x0 r0_2) (ix2 p c0) = Cert.Spec.dirK (rrow x0 p) 0 :=
  dirx_gen _ _ _ (ix2 p c0) _ _ _ (ld_col0 x0 p) (ld_col1 x0 p) (ld_col2 x0 p)
theorem dir_y (p : Fin 4000) : k0_pay8 (View.ld x0 r0_0) (View.ld x0 r0_1) (View.ld x0 r0_2) (ix2 p c0) = Cert.Spec.dirK (rrow x0 p) 1 :=
  diry_gen _ _ _ (ix2 p c0) _ _ _ (ld_col0 x0 p) (ld_col1 x0 p) (ld_col2 x0 p)
theorem dir_z (p : Fin 4000) : k0_pay9 (View.ld x0 r0_0) (View.ld x0 r0_1) (View.ld x0 r0_2) (ix2 p c0) = Cert.Spec.dirK (rrow x0 p) 2 :=
  dirz_gen _ _ _ (ix2 p c0) _ _ _ (ld_col0 x0 p) (ld_col1 x0 p) (ld_col2 x0 p)
theorem s_apply (p : Fin 4000) (q : Fin 16) : k0_pay5 (View.ld x0 r0_3) (ix2 p q) = srow x0 p q :=
  (congrFun (pay5_eq (View.ld x0 r0_3)) (ix2 p q)).trans (ld_s x0 p q)

/-- The body's entry in terms of the block's row. -/
theorem ev_eq (p : Fin 4000) (q : Fin 16) (k : Fin 16) :
    Cert.Spec.edgeVal (dx (View.ld x0 r0_0) (View.ld x0 r0_1) (View.ld x0 r0_2) p) (dy (View.ld x0 r0_0) (View.ld x0 r0_1) (View.ld x0 r0_2) p)
        (dz (View.ld x0 r0_0) (View.ld x0 r0_1) (View.ld x0 r0_2) p) (sc (View.ld x0 r0_3) p q) k
      = Cert.Spec.edgeK (rrow x0 p) (srow x0 p) k q := by
  show Cert.Spec.edgeVal (k0_pay7 (View.ld x0 r0_0) (View.ld x0 r0_1) (View.ld x0 r0_2) (ix2 p c0))
      (k0_pay8 (View.ld x0 r0_0) (View.ld x0 r0_1) (View.ld x0 r0_2) (ix2 p c0))
      (k0_pay9 (View.ld x0 r0_0) (View.ld x0 r0_1) (View.ld x0 r0_2) (ix2 p c0)) (k0_pay5 (View.ld x0 r0_3) (ix2 p q)) k = _
  rw [dir_x x0 p, dir_y x0 p, dir_z x0 p, s_apply x0 p q]; rfl

/-- The output block as ONE function of its index: entry (p, 16 k + q) is the edge feature (k, q) of row p. -/
def Gblk (y : S4000x256.Idx) : EReal :=
  Cert.Spec.edgeK (rrow x0 ⟨(y 0).val, idx2_lt0 y⟩) (srow x0 ⟨(y 0).val, idx2_lt0 y⟩)
    ⟨(y 1).val / 16, by have := idx2_lt1 y; omega⟩ ⟨(y 1).val % 16, Nat.mod_lt _ (by decide)⟩

theorem Gblk_at (y : S4000x256.Idx) (p : Fin 4000) (k q : Fin 16) (h0 : (y 0).val = p.val) (h1 : (y 1).val = 16 * k.val + q.val) :
    Gblk x0 y = Cert.Spec.edgeK (rrow x0 p) (srow x0 p) k q := by
  unfold Gblk
  have e0 : (⟨(y 0).val, idx2_lt0 y⟩ : Fin 4000) = p := Fin.ext h0
  have e1 : (⟨(y 1).val / 16, by have := idx2_lt1 y; omega⟩ : Fin 16) = k := Fin.ext (by show (y 1).val / 16 = k.val; omega)
  have e2 : (⟨(y 1).val % 16, Nat.mod_lt _ (by decide)⟩ : Fin 16) = q := Fin.ext (by show (y 1).val % 16 = q.val; omega)
  rw [e0, e1, e2]

theorem hp0 (x : S4000x16.Idx) : (k0_pay5 (View.ld x0 r0_3)) x = Gblk x0 (r0_4.emb x) := by
  obtain ⟨p, q, rfl⟩ : ∃ (p : Fin 4000) (q : Fin 16), x = ix2 p q := ⟨x 0, x 1, eq_ix2 x⟩
  refine (piece0 (View.ld x0 r0_0) (View.ld x0 r0_1) (View.ld x0 r0_2) (View.ld x0 r0_3) p q).trans ?_
  refine (ev_eq x0 p q 0).trans (Gblk_at x0 _ p 0 q ?_ ?_).symm
  · show 0 + 1 * p.val = p.val; omega
  · show 0 + 1 * q.val = 16 * 0 + q.val; omega

theorem hp1 (x : S4000x16.Idx) : (k0_pay13 (View.ld x0 r0_0) (View.ld x0 r0_1) (View.ld x0 r0_2) (View.ld x0 r0_3)) x = Gblk x0 (r0_5.emb x) := by
  obtain ⟨p, q, rfl⟩ : ∃ (p : Fin 4000) (q : Fin 16), x = ix2 p q := ⟨x 0, x 1, eq_ix2 x⟩
  refine (piece1 (View.ld x0 r0_0) (View.ld x0 r0_1) (View.ld x0 r0_2) (View.ld x0 r0_3) p q).trans ?_
  refine (ev_eq x0 p q 1).trans (Gblk_at x0 _ p 1 q ?_ ?_).symm
  · show 0 + 1 * p.val = p.val; omega
  · show 16 + 1 * q.val = 16 * 1 + q.val; omega

theorem hp2 (x : S4000x16.Idx) : (k0_pay14 (View.ld x0 r0_0) (View.ld x0 r0_1) (View.ld x0 r0_2) (View.ld x0 r0_3)) x = Gblk x0 (r0_6.emb x) := by
  obtain ⟨p, q, rfl⟩ : ∃ (p : Fin 4000) (q : Fin 16), x = ix2 p q := ⟨x 0, x 1, eq_ix2 x⟩
  refine (piece2 (View.ld x0 r0_0) (View.ld x0 r0_1) (View.ld x0 r0_2) (View.ld x0 r0_3) p q).trans ?_
  refine (ev_eq x0 p q 2).trans (Gblk_at x0 _ p 2 q ?_ ?_).symm
  · show 0 + 1 * p.val = p.val; omega
  · show 32 + 1 * q.val = 16 * 2 + q.val; omega

theorem hp3 (x : S4000x16.Idx) : (k0_pay15 (View.ld x0 r0_0) (View.ld x0 r0_1) (View.ld x0 r0_2) (View.ld x0 r0_3)) x = Gblk x0 (r0_7.emb x) := by
  obtain ⟨p, q, rfl⟩ : ∃ (p : Fin 4000) (q : Fin 16), x = ix2 p q := ⟨x 0, x 1, eq_ix2 x⟩
  refine (piece3 (View.ld x0 r0_0) (View.ld x0 r0_1) (View.ld x0 r0_2) (View.ld x0 r0_3) p q).trans ?_
  refine (ev_eq x0 p q 3).trans (Gblk_at x0 _ p 3 q ?_ ?_).symm
  · show 0 + 1 * p.val = p.val; omega
  · show 48 + 1 * q.val = 16 * 3 + q.val; omega

theorem hp4 (x : S4000x16.Idx) : (k0_pay18 (k0_pay5 (View.ld x0 r0_3)) (k0_pay7 (View.ld x0 r0_0) (View.ld x0 r0_1) (View.ld x0 r0_2)) (k0_pay9 (View.ld x0 r0_0) (View.ld x0 r0_1) (View.ld x0 r0_2))) x = Gblk x0 (r0_8.emb x) := by
  obtain ⟨p, q, rfl⟩ : ∃ (p : Fin 4000) (q : Fin 16), x = ix2 p q := ⟨x 0, x 1, eq_ix2 x⟩
  refine (piece4 (View.ld x0 r0_0) (View.ld x0 r0_1) (View.ld x0 r0_2) (View.ld x0 r0_3) p q).trans ?_
  refine (ev_eq x0 p q 4).trans (Gblk_at x0 _ p 4 q ?_ ?_).symm
  · show 0 + 1 * p.val = p.val; omega
  · show 64 + 1 * q.val = 16 * 4 + q.val; omega

theorem hp5 (x : S4000x16.Idx) : (k0_pay19 (k0_pay5 (View.ld x0 r0_3)) (k0_pay7 (View.ld x0 r0_0) (View.ld x0 r0_1) (View.ld x0 r0_2)) (k0_pay8 (View.ld x0 r0_0) (View.ld x0 r0_1) (View.ld x0 r0_2))) x = Gblk x0 (r0_9.emb x) := by
  obtain ⟨p, q, rfl⟩ : ∃ (p : Fin 4000) (q : Fin 16), x = ix2 p q := ⟨x 0, x 1, eq_ix2 x⟩
  refine (piece5 (View.ld x0 r0_0) (View.ld x0 r0_1) (View.ld x0 r0_2) (View.ld x0 r0_3) p q).trans ?_
  refine (ev_eq x0 p q 5).trans (Gblk_at x0 _ p 5 q ?_ ?_).symm
  · show 0 + 1 * p.val = p.val; omega
  · show 80 + 1 * q.val = 16 * 5 + q.val; omega

theorem hp6 (x : S4000x16.Idx) : (k0_pay20 (k0_pay5 (View.ld x0 r0_3)) (k0_pay10 (View.ld x0 r0_0) (View.ld x0 r0_1) (View.ld x0 r0_2)) (k0_pay11 (View.ld x0 r0_0) (View.ld x0 r0_1) (View.ld x0 r0_2)) (k0_pay12 (View.ld x0 r0_0) (View.ld x0 r0_1) (View.ld x0 r0_2))) x = Gblk x0 (r0_10.emb x) := by
  obtain ⟨p, q, rfl⟩ : ∃ (p : Fin 4000) (q : Fin 16), x = ix2 p q := ⟨x 0, x 1, eq_ix2 x⟩
  refine (piece6 (View.ld x0 r0_0) (View.ld x0 r0_1) (View.ld x0 r0_2) (View.ld x0 r0_3) p q).trans ?_
  refine (ev_eq x0 p q 6).trans (Gblk_at x0 _ p 6 q ?_ ?_).symm
  · show 0 + 1 * p.val = p.val; omega
  · show 96 + 1 * q.val = 16 * 6 + q.val; omega

theorem hp7 (x : S4000x16.Idx) : (k0_pay21 (k0_pay5 (View.ld x0 r0_3)) (k0_pay8 (View.ld x0 r0_0) (View.ld x0 r0_1) (View.ld x0 r0_2)) (k0_pay9 (View.ld x0 r0_0) (View.ld x0 r0_1) (View.ld x0 r0_2))) x = Gblk x0 (r0_11.emb x) := by
  obtain ⟨p, q, rfl⟩ : ∃ (p : Fin 4000) (q : Fin 16), x = ix2 p q := ⟨x 0, x 1, eq_ix2 x⟩
  refine (piece7 (View.ld x0 r0_0) (View.ld x0 r0_1) (View.ld x0 r0_2) (View.ld x0 r0_3) p q).trans ?_
  refine (ev_eq x0 p q 7).trans (Gblk_at x0 _ p 7 q ?_ ?_).symm
  · show 0 + 1 * p.val = p.val; omega
  · show 112 + 1 * q.val = 16 * 7 + q.val; omega

theorem hp8 (x : S4000x16.Idx) : (k0_pay22 (k0_pay5 (View.ld x0 r0_3)) (k0_pay17 (k0_pay10 (View.ld x0 r0_0) (View.ld x0 r0_1) (View.ld x0 r0_2)) (k0_pay12 (View.ld x0 r0_0) (View.ld x0 r0_1) (View.ld x0 r0_2)))) x = Gblk x0 (r0_12.emb x) := by
  obtain ⟨p, q, rfl⟩ : ∃ (p : Fin 4000) (q : Fin 16), x = ix2 p q := ⟨x 0, x 1, eq_ix2 x⟩
  refine (piece8 (View.ld x0 r0_0) (View.ld x0 r0_1) (View.ld x0 r0_2) (View.ld x0 r0_3) p q).trans ?_
  refine (ev_eq x0 p q 8).trans (Gblk_at x0 _ p 8 q ?_ ?_).symm
  · show 0 + 1 * p.val = p.val; omega
  · show 128 + 1 * q.val = 16 * 8 + q.val; omega

theorem hp9 (x : S4000x16.Idx) : (k0_pay30 (k0_pay5 (View.ld x0 r0_3)) (k0_pay23 (k0_pay7 (View.ld x0 r0_0) (View.ld x0 r0_1) (View.ld x0 r0_2)) (k0_pay9 (View.ld x0 r0_0) (View.ld x0 r0_1) (View.ld x0 r0_2)) (k0_pay16 (k0_pay7 (View.ld x0 r0_0) (View.ld x0 r0_1) (View.ld x0 r0_2)) (k0_pay9 (View.ld x0 r0_0) (View.ld x0 r0_1) (View.ld x0 r0_2))) (k0_pay17 (k0_pay10 (View.ld x0 r0_0) (View.ld x0 r0_1) (View.ld x0 r0_2)) (k0_pay12 (View.ld x0 r0_0) (View.ld x0 r0_1) (View.ld x0 r0_2))))) x = Gblk x0 (r0_13.emb x) := by
  obtain ⟨p, q, rfl⟩ : ∃ (p : Fin 4000) (q : Fin 16), x = ix2 p q := ⟨x 0, x 1, eq_ix2 x⟩
  refine (piece9 (View.ld x0 r0_0) (View.ld x0 r0_1) (View.ld x0 r0_2) (View.ld x0 r0_3) p q).trans ?_
  refine (ev_eq x0 p q 9).trans (Gblk_at x0 _ p 9 q ?_ ?_).symm
  · show 0 + 1 * p.val = p.val; omega
  · show 144 + 1 * q.val = 16 * 9 + q.val; omega

theorem hp10 (x : S4000x16.Idx) : (k0_pay31 (k0_pay5 (View.ld x0 r0_3)) (k0_pay24 (k0_pay8 (View.ld x0 r0_0) (View.ld x0 r0_1) (View.ld x0 r0_2)) (k0_pay16 (k0_pay7 (View.ld x0 r0_0) (View.ld x0 r0_1) (View.ld x0 r0_2)) (k0_pay9 (View.ld x0 r0_0) (View.ld x0 r0_1) (View.ld x0 r0_2))))) x = Gblk x0 (r0_14.emb x) := by
  obtain ⟨p, q, rfl⟩ : ∃ (p : Fin 4000) (q : Fin 16), x = ix2 p q := ⟨x 0, x 1, eq_ix2 x⟩
  refine (piece10 (View.ld x0 r0_0) (View.ld x0 r0_1) (View.ld x0 r0_2) (View.ld x0 r0_3) p q).trans ?_
  refine (ev_eq x0 p q 10).trans (Gblk_at x0 _ p 10 q ?_ ?_).symm
  · show 0 + 1 * p.val = p.val; omega
  · show 160 + 1 * q.val = 16 * 10 + q.val; omega

theorem hp11 (x : S4000x16.Idx) : (k0_pay32 (k0_pay5 (View.ld x0 r0_3)) (k0_pay25 (k0_pay7 (View.ld x0 r0_0) (View.ld x0 r0_1) (View.ld x0 r0_2)) (k0_pay10 (View.ld x0 r0_0) (View.ld x0 r0_1) (View.ld x0 r0_2)) (k0_pay11 (View.ld x0 r0_0) (View.ld x0 r0_1) (View.ld x0 r0_2)) (k0_pay12 (View.ld x0 r0_0) (View.ld x0 r0_1) (View.ld x0 r0_2)))) x = Gblk x0 (r0_15.emb x) := by
  obtain ⟨p, q, rfl⟩ : ∃ (p : Fin 4000) (q : Fin 16), x = ix2 p q := ⟨x 0, x 1, eq_ix2 x⟩
  refine (piece11 (View.ld x0 r0_0) (View.ld x0 r0_1) (View.ld x0 r0_2) (View.ld x0 r0_3) p q).trans ?_
  refine (ev_eq x0 p q 11).trans (Gblk_at x0 _ p 11 q ?_ ?_).symm
  · show 0 + 1 * p.val = p.val; omega
  · show 176 + 1 * q.val = 16 * 11 + q.val; omega

theorem hp12 (x : S4000x16.Idx) : (k0_pay33 (k0_pay5 (View.ld x0 r0_3)) (k0_pay26 (k0_pay8 (View.ld x0 r0_0) (View.ld x0 r0_1) (View.ld x0 r0_2)) (k0_pay10 (View.ld x0 r0_0) (View.ld x0 r0_1) (View.ld x0 r0_2)) (k0_pay11 (View.ld x0 r0_0) (View.ld x0 r0_1) (View.ld x0 r0_2)) (k0_pay12 (View.ld x0 r0_0) (View.ld x0 r0_1) (View.ld x0 r0_2)))) x = Gblk x0 (r0_16.emb x) := by
  obtain ⟨p, q, rfl⟩ : ∃ (p : Fin 4000) (q : Fin 16), x = ix2 p q := ⟨x 0, x 1, eq_ix2 x⟩
  refine (piece12 (View.ld x0 r0_0) (View.ld x0 r0_1) (View.ld x0 r0_2) (View.ld x0 r0_3) p q).trans ?_
  refine (ev_eq x0 p q 12).trans (Gblk_at x0 _ p 12 q ?_ ?_).symm
  · show 0 + 1 * p.val = p.val; omega
  · show 192 + 1 * q.val = 16 * 12 + q.val; omega

theorem hp13 (x : S4000x16.Idx) : (k0_pay34 (k0_pay5 (View.ld x0 r0_3)) (k0_pay27 (k0_pay9 (View.ld x0 r0_0) (View.ld x0 r0_1) (View.ld x0 r0_2)) (k0_pay10 (View.ld x0 r0_0) (View.ld x0 r0_1) (View.ld x0 r0_2)) (k0_pay11 (View.ld x0 r0_0) (View.ld x0 r0_1) (View.ld x0 r0_2)) (k0_pay12 (View.ld x0 r0_0) (View.ld x0 r0_1) (View.ld x0 r0_2)))) x = Gblk x0 (r0_17.emb x) := by
  obtain ⟨p, q, rfl⟩ : ∃ (p : Fin 4000) (q : Fin 16), x = ix2 p q := ⟨x 0, x 1, eq_ix2 x⟩
  refine (piece13 (View.ld x0 r0_0) (View.ld x0 r0_1) (View.ld x0 r0_2) (View.ld x0 r0_3) p q).trans ?_
  refine (ev_eq x0 p q 13).trans (Gblk_at x0 _ p 13 q ?_ ?_).symm
  · show 0 + 1 * p.val = p.val; omega
  · show 208 + 1 * q.val = 16 * 13 + q.val; omega

theorem hp14 (x : S4000x16.Idx) : (k0_pay35 (k0_pay5 (View.ld x0 r0_3)) (k0_pay28 (k0_pay8 (View.ld x0 r0_0) (View.ld x0 r0_1) (View.ld x0 r0_2)) (k0_pay17 (k0_pay10 (View.ld x0 r0_0) (View.ld x0 r0_1) (View.ld x0 r0_2)) (k0_pay12 (View.ld x0 r0_0) (View.ld x0 r0_1) (View.ld x0 r0_2))))) x = Gblk x0 (r0_18.emb x) := by
  obtain ⟨p, q, rfl⟩ : ∃ (p : Fin 4000) (q : Fin 16), x = ix2 p q := ⟨x 0, x 1, eq_ix2 x⟩
  refine (piece14 (View.ld x0 r0_0) (View.ld x0 r0_1) (View.ld x0 r0_2) (View.ld x0 r0_3) p q).trans ?_
  refine (ev_eq x0 p q 14).trans (Gblk_at x0 _ p 14 q ?_ ?_).symm
  · show 0 + 1 * p.val = p.val; omega
  · show 224 + 1 * q.val = 16 * 14 + q.val; omega

theorem hp15 (x : S4000x16.Idx) : (k0_pay1 (k0_pay5 (View.ld x0 r0_3)) (k0_pay36 (k0_pay29 (k0_pay7 (View.ld x0 r0_0) (View.ld x0 r0_1) (View.ld x0 r0_2)) (k0_pay9 (View.ld x0 r0_0) (View.ld x0 r0_1) (View.ld x0 r0_2)) (k0_pay16 (k0_pay7 (View.ld x0 r0_0) (View.ld x0 r0_1) (View.ld x0 r0_2)) (k0_pay9 (View.ld x0 r0_0) (View.ld x0 r0_1) (View.ld x0 r0_2))) (k0_pay17 (k0_pay10 (View.ld x0 r0_0) (View.ld x0 r0_1) (View.ld x0 r0_2)) (k0_pay12 (View.ld x0 r0_0) (View.ld x0 r0_1) (View.ld x0 r0_2)))) (Scalar.ofBits .f32 0x3F8A417C#32))) x = Gblk x0 (r0_19.emb x) := by
  obtain ⟨p, q, rfl⟩ : ∃ (p : Fin 4000) (q : Fin 16), x = ix2 p q := ⟨x 0, x 1, eq_ix2 x⟩
  refine (piece15 (View.ld x0 r0_0) (View.ld x0 r0_1) (View.ld x0 r0_2) (View.ld x0 r0_3) p q).trans ?_
  refine (ev_eq x0 p q 15).trans (Gblk_at x0 _ p 15 q ?_ ?_).symm
  · show 0 + 1 * p.val = p.val; omega
  · show 240 + 1 * q.val = 16 * 15 + q.val; omega

/-- The output block after the body: the sixteen stores read back as one function. -/
theorem out_apply (y : S4000x256.Idx) : out0_1 x0 y = Gblk x0 y := by
  unfold out0_1
  refine View.canon_apply_of_pieces (Val := Elt Ideal) (Gblk x0) _ ?_ y (cover0_1 _ _ _ _ _ _ _ _ _ _ _ _ _ _ _ _ y)
  exact (List.forall_mem_cons.2 ⟨hp15 x0, (List.forall_mem_cons.2 ⟨hp14 x0, (List.forall_mem_cons.2 ⟨hp13 x0, (List.forall_mem_cons.2 ⟨hp12 x0, (List.forall_mem_cons.2 ⟨hp11 x0, (List.forall_mem_cons.2 ⟨hp10 x0, (List.forall_mem_cons.2 ⟨hp9 x0, (List.forall_mem_cons.2 ⟨hp8 x0, (List.forall_mem_cons.2 ⟨hp7 x0, (List.forall_mem_cons.2 ⟨hp6 x0, (List.forall_mem_cons.2 ⟨hp5 x0, (List.forall_mem_cons.2 ⟨hp4 x0, (List.forall_mem_cons.2 ⟨hp3 x0, (List.forall_mem_cons.2 ⟨hp2 x0, (List.forall_mem_cons.2 ⟨hp1 x0, (List.forall_mem_cons.2 ⟨hp0 x0, (List.forall_mem_nil _)⟩)⟩)⟩)⟩)⟩)⟩)⟩)⟩)⟩)⟩)⟩)⟩)⟩)⟩)⟩)⟩)

end Block2

/-! ## From blocks to the array -/

/-- The output array as ONE function of the input array: entry (e, 16 k + q) is the edge feature (k, q) of row e. -/
def GA (A : S500000x19.Idx → EReal) (y : S500000x256.Idx) : EReal :=
  Cert.Spec.edgeK (fun k => A (ix2 (⟨(y 0).val, idx2_lt0 y⟩ : Fin 500000) ⟨k.val, by omega⟩))
    (fun u' => A (ix2 (⟨(y 0).val, idx2_lt0 y⟩ : Fin 500000) ⟨3 + u'.val, by omega⟩))
    ⟨(y 1).val / 16, by have := idx2_lt1 y; omega⟩ ⟨(y 1).val % 16, Nat.mod_lt _ (by decide)⟩

theorem GA_at (A : S500000x19.Idx → EReal) (y : S500000x256.Idx) (e : Fin 500000) (k q : Fin 16)
    (h0 : (y 0).val = e.val) (h1 : (y 1).val = 16 * k.val + q.val) :
    GA A y = Cert.Spec.edgeK (fun k' => A (ix2 e ⟨k'.val, by omega⟩)) (fun u' => A (ix2 e ⟨3 + u'.val, by omega⟩)) k q := by
  unfold GA
  have e0 : (⟨(y 0).val, idx2_lt0 y⟩ : Fin 500000) = e := Fin.ext h0
  have e1 : (⟨(y 1).val / 16, by have := idx2_lt1 y; omega⟩ : Fin 16) = k := Fin.ext (by show (y 1).val / 16 = k.val; omega)
  have e2 : (⟨(y 1).val % 16, Nat.mod_lt _ (by decide)⟩ : Fin 16) = q := Fin.ext (by show (y 1).val % 16 = q.val; omega)
  rw [e0, e1, e2]

/-- A block whose rows are rows 4000 n .. 4000 n + 3999 of the array: its output block is the array function's block. -/
theorem Gblk_eq_GA (x0 : Vec Ideal S4000x19 .f32) (A : S500000x19.Idx → EReal) (n : Nat) (y : S4000x256.Idx) (Y : S500000x256.Idx)
    (hx : ∀ (x : S4000x19.Idx) (k : S500000x19.Idx), (k 0).val = 4000 * n + (x 0).val → (k 1).val = (x 1).val → x0 x = A k)
    (hY0 : (Y 0).val = 4000 * n + (y 0).val) (hY1 : (Y 1).val = (y 1).val) : Gblk x0 y = GA A Y := by
  unfold Gblk GA
  have hr : rrow x0 ⟨(y 0).val, idx2_lt0 y⟩ = fun k : Fin 3 => A (ix2 (⟨(Y 0).val, idx2_lt0 Y⟩ : Fin 500000) ⟨k.val, by omega⟩) :=
    funext fun k => hx _ _ hY0 rfl
  have hs : srow x0 ⟨(y 0).val, idx2_lt0 y⟩ = fun u' : Fin 16 => A (ix2 (⟨(Y 0).val, idx2_lt0 Y⟩ : Fin 500000) ⟨3 + u'.val, by omega⟩) :=
    funext fun u' => hx _ _ hY0 rfl
  have h1 : (⟨(y 1).val / 16, by have := idx2_lt1 y; omega⟩ : Fin 16) = ⟨(Y 1).val / 16, by have := idx2_lt1 Y; omega⟩ :=
    Fin.ext (by show (y 1).val / 16 = (Y 1).val / 16; rw [hY1])
  have h2 : (⟨(y 1).val % 16, Nat.mod_lt _ (by decide)⟩ : Fin 16) = ⟨(Y 1).val % 16, Nat.mod_lt _ (by decide)⟩ :=
    Fin.ext (by show (y 1).val % 16 = (Y 1).val % 16; rw [hY1])
  rw [hr, hs, h1, h2]

section Array

/-- The two windows' index maps, decided over the grid: at point t both windows are at block (t, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The input window's block at point t is rows 4000 t .. 4000 t + 3999 of the input array. -/
theorem iblk_apply (c : Dev nD) (t : Fin cfg0.N) (x : S4000x19.Idx) (k : S500000x19.Idx)
    (hk0 : (k 0).val = 4000 * t.val + (x 0).val) (hk1 : (k 1).val = (x 1).val) :
    (iblk0 V c 0 t : Vec Ideal S4000x19 .f32) x = (V c main_v22 : S500000x19.Idx → EReal) k := by
  obtain ⟨e0, e1, -, -⟩ := idx_facts t
  show (V c main_v22 : S500000x19.Idx → EReal) (((cfg0.win 0).blk t).view.emb x) = _
  refine congrArg _ (funext fun a => Fin.ext ?_)
  match a with
  | ⟨0, _⟩ => show win0_0.index t (0 : Fin 2) * 4000 + 1 * (x 0).val = (k 0).val; rw [e0, hk0]; omega
  | ⟨1, _⟩ => show win0_0.index t (1 : Fin 2) * 19 + 1 * (x 1).val = (k 1).val; rw [e1, hk1]; omega

/-- What point t writes back is block t of the array function of the input array as the region finds it. -/
theorem flushed_eq (c : Dev nD) (t : Fin cfg0.N) :
    (dat0 (F := Ideal) V c).flushed 1 t = ((cfg0.win 1).blk t).view.read (Elt Ideal) (GA (V c main_v22)) := by
  show (cfg0.win 1).cut (grid0.coords t) ((dat0 (F := Ideal) V c).after 1 t) = _
  rw [after0_1]
  obtain ⟨-, -, e2, e3⟩ := idx_facts t
  funext j
  obtain ⟨p, y1, rfl⟩ : ∃ (p : Fin 4000) (y1 : Fin 256), j = ix2 p y1 := ⟨j 0, j 1, eq_ix2 (n0 := 4000) (n1 := 256) j⟩
  show out0_1 (iblk0 V c 0 t) (ix2 p y1) = GA (V c main_v22) (((cfg0.win 1).blk t).view.emb (ix2 p y1))
  refine (out_apply (iblk0 V c 0 t) (ix2 p y1)).trans ?_
  refine Gblk_eq_GA (iblk0 V c 0 t) (V c main_v22) t.val (ix2 p y1) _ (fun x k h0 h1 => iblk_apply V c t x k h0 h1) ?_ ?_
  · show win0_1.index t (0 : Fin 2) * 4000 + 1 * p.val = 4000 * t.val + p.val; rw [e2]; omega
  · show win0_1.index t (1 : Fin 2) * 256 + 1 * y1.val = y1.val; rw [e3]; omega

/-- An index of the array is in point t's block iff each coordinate is in the block's range on its axis. -/
theorem mem_blk (t : Fin cfg0.N) (i : S500000x256.Idx) :
    i ∈ ((cfg0.win 1).blk t).view.set ↔ ∀ a : Fin 2, win0_1.index t a * S4000x256.size a ≤ (i a).val ∧ (i a).val < win0_1.index t a * S4000x256.size a + S4000x256.size a := by
  show i ∈ ((View.whole main_v23).slice (win0_1.rect t)).set ↔ _
  rw [View.set_slice_whole, Rect.mem_set_unit]
  exact Iff.rfl

/-- Row e lies in the block of point e / 4000. -/
theorem cover (i : S500000x256.Idx) : ∃ t : Fin cfg0.N, (cfg0.win 1).flush t = true ∧ i ∈ ((cfg0.win 1).blk t).view.set := by
  have hi0 : (i 0).val < 500000 := idx2_lt0 i
  have hi1 : (i 1).val < 256 := idx2_lt1 i
  obtain ⟨t, ht⟩ : ∃ t : Fin cfg0.N, t.val = (i 0).val / 4000 :=
    ⟨⟨(i 0).val / 4000, by show (i 0).val / 4000 < grid0.N; rw [N_0]; omega⟩, rfl⟩
  obtain ⟨-, -, e2, e3⟩ := idx_facts t
  refine ⟨t, flush0_1 t, ?_⟩
  rw [mem_blk]
  intro a
  match a with
  | ⟨0, _⟩ => show win0_1.index t (0 : Fin 2) * 4000 ≤ (i 0).val ∧ (i 0).val < win0_1.index t (0 : Fin 2) * 4000 + 4000; rw [e2, ht]; omega
  | ⟨1, _⟩ => show win0_1.index t (1 : Fin 2) * 256 ≤ (i 1).val ∧ (i 1).val < win0_1.index t (1 : Fin 2) * 256 + 256; rw [e3]; omega

/-- The output array after the run is the array function of the input array. -/
theorem final (c : Dev nD) : (dat0 (F := Ideal) V c).arrAt 1 cfg0.N = GA (V c main_v22) :=
  (dat0 (F := Ideal) V c).arrAt_eq_of_cover 1 (GA (V c main_v22)) (fun t _ => flushed_eq V c t) cover

end Array

/-- The edge kernel's output array after its 125 grid points, entry (e, 16 i + u): the kernel's edge feature of
    row e of its input array (columns 0..2 the relative vector, columns 3..18 the sender's scalars). -/
theorem edge_array (c : Dev nD) (e : Fin 500000) (i u : Fin 16) :
    ((dat0 (F := Ideal) V c).arrAt 1 cfg0.N : S500000x256.Idx → EReal) (ix2 e ⟨16 * i.val + u.val, by omega⟩)
      = Cert.Spec.edgeK (fun k => (V c main_v22 : S500000x19.Idx → EReal) (ix2 e ⟨k.val, by omega⟩))
          (fun u' => (V c main_v22 : S500000x19.Idx → EReal) (ix2 e ⟨3 + u'.val, by omega⟩)) i u :=
  (congrFun (final V c) _).trans (GA_at _ _ e i u rfl rfl)

end Cert.EdgeNode.R0

end
-- ==== Proof.R1.lean ====
import proofs.«181800_j70411693850655_1_alg».proof.Proof.Gen.KernelIdeal.Frame
import proofs.«181800_j70411693850655_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.EdgeNode.R1

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-! ## The [2000, 16] · [16, 64] product into a zero accumulator, at an index -/

theorem lhs_dot_0 (j : S2000x64.Idx) (q : dot_S2000x16_S16x64_S2000x64_1_0_0_1_n_n.contr.Idx) :
    (dot_S2000x16_S16x64_S2000x64_1_0_0_1_n_n.lhsIdx j q 0).val = (j 0).val := by
  unfold DotDims.lhsIdx
  rw [dif_neg (show ¬(0 : Fin S2000x16.rank) ∈ dot_S2000x16_S16x64_S2000x64_1_0_0_1_n_n.lhsBatch by decide), dif_pos (show (0 : Fin S2000x16.rank) ∈ dot_S2000x16_S16x64_S2000x64_1_0_0_1_n_n.lhsNonContracting by decide)]
  rfl
theorem lhs_dot_1 (j : S2000x64.Idx) (q : dot_S2000x16_S16x64_S2000x64_1_0_0_1_n_n.contr.Idx) :
    (dot_S2000x16_S16x64_S2000x64_1_0_0_1_n_n.lhsIdx j q 1).val = (q ⟨0, by decide⟩).val :=
  dot_S2000x16_S16x64_S2000x64_1_0_0_1_n_n.lhsIdx_val_of_single rfl j q
theorem rhs_dot_0 (j : S2000x64.Idx) (q : dot_S2000x16_S16x64_S2000x64_1_0_0_1_n_n.contr.Idx) :
    (dot_S2000x16_S16x64_S2000x64_1_0_0_1_n_n.rhsIdx j q 0).val = (q ⟨0, by decide⟩).val :=
  dot_S2000x16_S16x64_S2000x64_1_0_0_1_n_n.rhsIdx_val_of_single rfl j q
theorem rhs_dot_1 (j : S2000x64.Idx) (q : dot_S2000x16_S16x64_S2000x64_1_0_0_1_n_n.contr.Idx) :
    (dot_S2000x16_S16x64_S2000x64_1_0_0_1_n_n.rhsIdx j q 1).val = (j 1).val := by
  unfold DotDims.rhsIdx
  rw [dif_neg (show ¬(1 : Fin S16x64.rank) ∈ dot_S2000x16_S16x64_S2000x64_1_0_0_1_n_n.rhsBatch by decide), dif_pos (show (1 : Fin S16x64.rank) ∈ dot_S2000x16_S16x64_S2000x64_1_0_0_1_n_n.rhsNonContracting by decide)]
  rfl

/-- Entry j = (r, v) of the product of a [2000, 16] block and a [16, 64] weight, accumulated into zero, is the
    sum over the sixteen channels u of block (r, u) times weight (u, v). -/
theorem mm_apply {φ₁ φ₂ : FTy} (a : FVec Ideal S2000x16 φ₁) (w : FVec Ideal S16x64 φ₂) (j : S2000x64.Idx) :
    matmul (F := Ideal) dot_S2000x16_S16x64_S2000x64_1_0_0_1_n_n none a w (constant (F := Ideal) S2000x64 .f32 0x00000000#32) j
      = ∑ u : Fin 16, a (ix2 (j 0) u) * w (ix2 u (j 1)) := by
  show FloatOps.matmul dot_S2000x16_S16x64_S2000x64_1_0_0_1_n_n none a w (constant (F := Ideal) S2000x64 .f32 0x00000000#32) j = _
  rw [Ideal.matmul_constant_zero_apply, ← Equiv.sum_comp (ValueIdx.contrEquiv1 dot_S2000x16_S16x64_S2000x64_1_0_0_1_n_n 16 rfl rfl).symm]
  refine Finset.sum_congr rfl fun k _ => ?_
  have hk := ValueIdx.contrEquiv1_symm_val dot_S2000x16_S16x64_S2000x64_1_0_0_1_n_n 16 rfl rfl k
  have el : dot_S2000x16_S16x64_S2000x64_1_0_0_1_n_n.lhsIdx j ((ValueIdx.contrEquiv1 dot_S2000x16_S16x64_S2000x64_1_0_0_1_n_n 16 rfl rfl).symm k) = ix2 (j 0) k := funext fun a => Fin.ext (by
    match a with
    | ⟨0, _⟩ => exact lhs_dot_0 _ _
    | ⟨1, _⟩ => exact (lhs_dot_1 _ _).trans hk)
  have er : dot_S2000x16_S16x64_S2000x64_1_0_0_1_n_n.rhsIdx j ((ValueIdx.contrEquiv1 dot_S2000x16_S16x64_S2000x64_1_0_0_1_n_n 16 rfl rfl).symm k) = ix2 k (j 1) := funext fun a => Fin.ext (by
    match a with
    | ⟨0, _⟩ => exact (rhs_dot_0 _ _).trans hk
    | ⟨1, _⟩ => exact rhs_dot_1 _ _)
  rw [el, er]
  rfl

/-! ## The body's payloads: every stored piece is a block's rows times a weight's columns, times 1/4 -/

/-- One output piece: row (j 0) of a [2000, 16] block times column (j 1) of a weight, times 1/4. -/
def lin (a : S2000x16.Idx → EReal) (w : S16x64.Idx → EReal) : S2000x64.Idx → EReal :=
  fun j => (∑ u : Fin 16, a (ix2 (j 0) u) * w (ix2 u (j 1))) * Cert.Spec.kq

/-- The narrowing of a weight to the product's operand format keeps its values. -/
theorem pay3_eq (w : Vec Ideal S16x64 .f32) : k1_pay3 (F := Ideal) w = w := rfl
theorem pay9_eq (w : Vec Ideal S16x64 .f32) : k1_pay9 (F := Ideal) w = w := rfl
theorem pay17_eq (w : Vec Ideal S16x64 .f32) : k1_pay17 (F := Ideal) w = w := rfl

theorem pay4_eq (w : Vec Ideal S16x64 .f32) (a : Vec Ideal S2000x16 .f32) : k1_pay4 (F := Ideal) w a = lin a w := by
  funext j
  unfold k1_pay4 k1_pay3
  try dsimp only
  rw [shapeCast_self]
  exact congrArg (· * Cert.Spec.kq) (mm_apply _ _ j)

theorem pay10_eq (w : Vec Ideal S16x64 .f32) (a : Vec Ideal S2000x16 .f32) : k1_pay10 (F := Ideal) w a = lin a w := by
  funext j
  unfold k1_pay10 k1_pay9
  try dsimp only
  rw [shapeCast_self]
  exact congrArg (· * Cert.Spec.kq) (mm_apply _ _ j)

theorem pay11_eq (w : Vec Ideal S16x64 .f32) (a : Vec Ideal S2000x16 .f32) : k1_pay11 (F := Ideal) w a = lin a w := by
  funext j
  unfold k1_pay11 k1_pay9
  try dsimp only
  rw [shapeCast_self]
  exact congrArg (· * Cert.Spec.kq) (mm_apply _ _ j)

theorem pay18_eq (w : Vec Ideal S16x64 .f32) (a : Vec Ideal S2000x16 .f32) : k1_pay18 (F := Ideal) w a = lin a w := by
  funext j
  unfold k1_pay18 k1_pay17
  try dsimp only
  rw [shapeCast_self]
  exact congrArg (· * Cert.Spec.kq) (mm_apply _ _ j)

theorem pay1_eq (wb : FVec Ideal S16x64 .bf16) (a : Vec Ideal S2000x16 .f32) : k1_pay1 (F := Ideal) wb a = lin a wb := by
  funext j
  unfold k1_pay1
  try dsimp only
  rw [shapeCast_self]
  exact congrArg (· * Cert.Spec.kq) (mm_apply _ _ j)

theorem pay8_eq (wb : FVec Ideal S16x64 .bf16) (a : Vec Ideal S2000x16 .f32) : k1_pay8 (F := Ideal) wb a = lin a wb := by
  funext j
  unfold k1_pay8
  try dsimp only
  rw [shapeCast_self]
  exact congrArg (· * Cert.Spec.kq) (mm_apply _ _ j)

theorem pay15_eq (wb : FVec Ideal S16x64 .bf16) (a : Vec Ideal S2000x16 .f32) : k1_pay15 (F := Ideal) wb a = lin a wb := by
  funext j
  unfold k1_pay15
  try dsimp only
  rw [shapeCast_self]
  exact congrArg (· * Cert.Spec.kq) (mm_apply _ _ j)

theorem pay16_eq (wb : FVec Ideal S16x64 .bf16) (a : Vec Ideal S2000x16 .f32) : k1_pay16 (F := Ideal) wb a = lin a wb := by
  funext j
  unfold k1_pay16
  try dsimp only
  rw [shapeCast_self]
  exact congrArg (· * Cert.Spec.kq) (mm_apply _ _ j)

theorem pay22_eq (wb : FVec Ideal S16x64 .bf16) (a : Vec Ideal S2000x16 .f32) : k1_pay22 (F := Ideal) wb a = lin a wb := by
  funext j
  unfold k1_pay22
  try dsimp only
  rw [shapeCast_self]
  exact congrArg (· * Cert.Spec.kq) (mm_apply _ _ j)

theorem pay23_eq (wb : FVec Ideal S16x64 .bf16) (a : Vec Ideal S2000x16 .f32) : k1_pay23 (F := Ideal) wb a = lin a wb := by
  funext j
  unfold k1_pay23
  try dsimp only
  rw [shapeCast_self]
  exact congrArg (· * Cert.Spec.kq) (mm_apply _ _ j)

theorem pay24_eq (wb : FVec Ideal S16x64 .bf16) (a : Vec Ideal S2000x16 .f32) : k1_pay24 (F := Ideal) wb a = lin a wb := by
  funext j
  unfold k1_pay24
  try dsimp only
  rw [shapeCast_self]
  exact congrArg (· * Cert.Spec.kq) (mm_apply _ _ j)

theorem pay25_eq (wb : FVec Ideal S16x64 .bf16) (a : Vec Ideal S2000x16 .f32) : k1_pay25 (F := Ideal) wb a = lin a wb := by
  funext j
  unfold k1_pay25
  try dsimp only
  rw [shapeCast_self]
  exact congrArg (· * Cert.Spec.kq) (mm_apply _ _ j)

theorem pay7_eq (w : Vec Ideal S16x64 .f32) (a : Vec Ideal S2000x16 .f32) :
    k1_pay7 (F := Ideal) (k1_pay5 (F := Ideal) w a) (k1_pay6 (F := Ideal)) = lin a w := by
  funext j
  unfold k1_pay7 k1_pay5 k1_pay6 k1_pay3
  try dsimp only
  rw [shapeCast_self]
  exact congrArg (· * Cert.Spec.kq) (mm_apply _ _ j)

theorem pay14_eq (w : Vec Ideal S16x64 .f32) (a : Vec Ideal S2000x16 .f32) :
    k1_pay14 (F := Ideal) (k1_pay12 (F := Ideal) w a) (k1_pay13 (F := Ideal)) = lin a w := by
  funext j
  unfold k1_pay14 k1_pay12 k1_pay13 k1_pay9
  try dsimp only
  rw [shapeCast_self]
  exact congrArg (· * Cert.Spec.kq) (mm_apply _ _ j)

theorem pay21_eq (w : Vec Ideal S16x64 .f32) (a : Vec Ideal S2000x16 .f32) :
    k1_pay21 (F := Ideal) (k1_pay19 (F := Ideal) w a) (k1_pay20 (F := Ideal)) = lin a w := by
  funext j
  unfold k1_pay21 k1_pay19 k1_pay20 k1_pay17
  try dsimp only
  rw [shapeCast_self]
  exact congrArg (· * Cert.Spec.kq) (mm_apply _ _ j)

/-- Piece 0 adds the shortcut product of the node's own scalars to the row-0 product. -/
theorem pay2_eq (n : Vec Ideal S2000x16 .f32) (wsc w0 : Vec Ideal S16x64 .f32) (a : Vec Ideal S2000x16 .f32) :
    k1_pay2 (F := Ideal) n wsc w0 a = fun j => lin a w0 j + lin n wsc j := by
  funext j
  unfold k1_pay2
  try dsimp only
  rw [shapeCast_self]
  exact congr (congrArg (· + ·) (congrArg (· * Cert.Spec.kq) (mm_apply _ _ j))) (congrArg (· * Cert.Spec.kq) (mm_apply _ _ j))

/-! ## The block the body leaves is one function of the input blocks -/

/-- Row r of the block, row-of-harmonics i, output channel v: the node value of the block's row-i channels
    (columns 16 i .. 16 i + 15 of the first input), the node's own scalars and the five weights. -/
def NV (x0 : S2000x256.Idx → EReal) (x1 : S2000x16.Idx → EReal) (x2 x3 x4 x5 x6 : S16x64.Idx → EReal) (r : Fin 2000) (i : Fin 16) (v : Fin 64) : EReal :=
  Cert.Spec.nodeVal (fun u => x0 (ix2 r ⟨16 * i.val + u.val, by omega⟩)) (fun u => x1 (ix2 r u)) x2 x3 x4 x5 x6 i v

/-- The same as a function of the [2000, 1024] block index: column 64 i + v holds row i, channel v. -/
def G (x0 : S2000x256.Idx → EReal) (x1 : S2000x16.Idx → EReal) (x2 x3 x4 x5 x6 : S16x64.Idx → EReal) : S2000x1024.Idx → EReal :=
  fun y => NV x0 x1 x2 x3 x4 x5 x6 (y 0) ⟨(y 1).val / 64, by have := idx2_lt1 y; omega⟩ ⟨(y 1).val % 64, Nat.mod_lt _ (by decide)⟩

theorem G_at (x0 : S2000x256.Idx → EReal) (x1 : S2000x16.Idx → EReal) (x2 x3 x4 x5 x6 : S16x64.Idx → EReal) (y : S2000x1024.Idx) (r : Fin 2000) (i : Fin 16) (v : Fin 64)
    (h0 : (y 0).val = r.val) (h1 : (y 1).val = 64 * i.val + v.val) : G x0 x1 x2 x3 x4 x5 x6 y = NV x0 x1 x2 x3 x4 x5 x6 r i v := by
  unfold G
  congr 1
  · exact Fin.ext h0
  · exact Fin.ext (by show (y 1).val / 64 = i.val; omega)
  · exact Fin.ext (by show (y 1).val % 64 = v.val; omega)

theorem hz : (![0, 0] : Fin 2 → Nat) = fun _ => 0 := funext fun a => by fin_cases a <;> rfl

/-- A load of sixteen columns from column c of the first input, at (r, u), reads column c + u. -/
theorem ld_cols (x0 : S2000x256.Idx → EReal) (c : Nat) (inb : ∀ a, (![0, c] : Fin 2 → Nat) a + S2000x16.size a ≤ S2000x256.size a)
    (hc : c + 16 ≤ 256) (r : Fin 2000) (u : Fin 16) :
    View.ld (Val := Elt Ideal) (e' := .f32) x0 (Rect.unit (s := S2000x256) ![0, c] S2000x16.size inb) (ix2 r u) = x0 (ix2 r ⟨c + u.val, by omega⟩) := by
  show x0 _ = x0 _
  congr 1
  funext a; apply Fin.ext
  match a with
  | ⟨0, _⟩ => show 0 + 1 * r.val = r.val; omega
  | ⟨1, _⟩ => show c + 1 * u.val = c + u.val; omega

/-- Row i ≥ 1: the piece stored at column 64 i is the product of columns 16 i .. 16 i + 15 with row i's weight. -/
theorem piece_pos (x0 : S2000x256.Idx → EReal) (x1 : S2000x16.Idx → EReal) (x2 x3 x4 x5 x6 : S16x64.Idx → EReal) (k : Fin 16) (hk : k ≠ 0) (w : S16x64.Idx → EReal)
    (hw : Cert.Spec.wsel x2 x3 x4 x5 k = w) (wl : S16x64.Idx → EReal) (hwl : wl = w) (c c' : Nat) (hc : c = 64 * k.val) (hc' : c' = 16 * k.val)
    (inb : ∀ a, (![0, c] : Fin 2 → Nat) a + S2000x64.size a ≤ S2000x1024.size a)
    (inb' : ∀ a, (![0, c'] : Fin 2 → Nat) a + S2000x16.size a ≤ S2000x256.size a) (x : S2000x64.Idx) :
    lin (View.ld (Val := Elt Ideal) (e' := .f32) x0 (Rect.unit (s := S2000x256) ![0, c'] S2000x16.size inb')) wl x
      = G x0 x1 x2 x3 x4 x5 x6 ((Rect.unit (s := S2000x1024) ![0, c] S2000x64.size inb).emb x) := by
  subst hwl hc hc'
  have hx0 := idx2_lt0 x
  have hx1 := idx2_lt1 x
  have hkl := k.isLt
  rw [G_at x0 x1 x2 x3 x4 x5 x6 ((Rect.unit (s := S2000x1024) ![0, 64 * k.val] S2000x64.size inb).emb x) (x 0) k (x 1)
    (by show 0 + 1 * (x 0).val = (x 0).val; omega) (by show 64 * k.val + 1 * (x 1).val = 64 * k.val + (x 1).val; omega)]
  unfold NV Cert.Spec.nodeVal
  rw [if_neg hk, hw]
  unfold lin
  refine congrArg (· * Cert.Spec.kq) (Finset.sum_congr rfl fun u _ => ?_)
  rw [ld_cols x0 (16 * k.val) inb' (by omega) (x 0) u]

/-- Row 0: the piece stored at column 0 is the product of columns 0 .. 15 with the degree-0 weight plus the
    shortcut product of the node's own scalars. -/
theorem piece_zero (x0 : S2000x256.Idx → EReal) (x1 : S2000x16.Idx → EReal) (x2 x3 x4 x5 x6 : S16x64.Idx → EReal) (wl wscl : S16x64.Idx → EReal) (hwl : x2 = wl) (hwscl : x6 = wscl)
    (nl : S2000x16.Idx → EReal) (hnl : x1 = nl)
    (inb : ∀ a, (![0, 0] : Fin 2 → Nat) a + S2000x64.size a ≤ S2000x1024.size a)
    (inb' : ∀ a, (![0, 0] : Fin 2 → Nat) a + S2000x16.size a ≤ S2000x256.size a) (x : S2000x64.Idx) :
    lin (View.ld (Val := Elt Ideal) (e' := .f32) x0 (Rect.unit (s := S2000x256) ![0, 0] S2000x16.size inb')) wl x + lin nl wscl x
      = G x0 x1 x2 x3 x4 x5 x6 ((Rect.unit (s := S2000x1024) ![0, 0] S2000x64.size inb).emb x) := by
  subst hwl hwscl hnl
  have hx0 := idx2_lt0 x
  have hx1 := idx2_lt1 x
  rw [G_at x0 x1 x2 x3 x4 x5 x6 ((Rect.unit (s := S2000x1024) ![0, 0] S2000x64.size inb).emb x) (x 0) 0 (x 1)
    (by show 0 + 1 * (x 0).val = (x 0).val; omega) (by show 0 + 1 * (x 1).val = 64 * 0 + (x 1).val; omega)]
  unfold NV Cert.Spec.nodeVal
  rw [if_pos rfl]
  unfold lin
  refine congr (congrArg (· + ·) (congrArg (· * Cert.Spec.kq) (Finset.sum_congr rfl fun u _ => ?_))) rfl
  rw [ld_cols x0 0 inb' (by omega) (x 0) u]
  have e : (⟨0 + u.val, by omega⟩ : Fin 256) = ⟨16 * (0 : Fin 16).val + u.val, by have := u.isLt; show 16 * 0 + u.val < 256; omega⟩ :=
    Fin.ext (by show 0 + u.val = 16 * 0 + u.val; omega)
  rw [e]

/-- The sixteen stored pieces are the sixteen column groups of `G`. -/
theorem out_eq_G (x0 : Vec Ideal S2000x256 .f32) (x1 : Vec Ideal S2000x16 .f32) (x2 x3 x4 x5 x6 : Vec Ideal S16x64 .f32) (y : S2000x1024.Idx) :
    out1_7 (F := Ideal) x0 x1 x2 x3 x4 x5 x6 y = G x0 x1 x2 x3 x4 x5 x6 y := by
  unfold out1_7
  refine View.canon_apply_of_pieces (Val := Elt Ideal) (S := S2000x1024) (e := .f32) (G x0 x1 x2 x3 x4 x5 x6) _ ?_ y (cover1_7 _ _ _ _ _ _ _ _ _ _ _ _ _ _ _ _ y)
  refine List.forall_mem_cons.mpr ⟨fun x => (congrFun (pay1_eq (k1_pay17 (F := Ideal) (View.ld x5 r1_1)) (View.ld x0 r1_32)) x).trans
    (piece_pos x0 x1 x2 x3 x4 x5 x6 15 (by decide) x5 rfl (View.ld x5 r1_1) (View.ld_unit_zero (S := S16x64) hz _ x5) 960 240 rfl rfl inb_S2000x1024_S2000x64_0_960 inb_S2000x256_S2000x16_0_240 x), ?_⟩
  refine List.forall_mem_cons.mpr ⟨fun x => (congrFun (pay25_eq (k1_pay17 (F := Ideal) (View.ld x5 r1_1)) (View.ld x0 r1_30)) x).trans
    (piece_pos x0 x1 x2 x3 x4 x5 x6 14 (by decide) x5 rfl (View.ld x5 r1_1) (View.ld_unit_zero (S := S16x64) hz _ x5) 896 224 rfl rfl inb_S2000x1024_S2000x64_0_896 inb_S2000x256_S2000x16_0_224 x), ?_⟩
  refine List.forall_mem_cons.mpr ⟨fun x => (congrFun (pay24_eq (k1_pay17 (F := Ideal) (View.ld x5 r1_1)) (View.ld x0 r1_28)) x).trans
    (piece_pos x0 x1 x2 x3 x4 x5 x6 13 (by decide) x5 rfl (View.ld x5 r1_1) (View.ld_unit_zero (S := S16x64) hz _ x5) 832 208 rfl rfl inb_S2000x1024_S2000x64_0_832 inb_S2000x256_S2000x16_0_208 x), ?_⟩
  refine List.forall_mem_cons.mpr ⟨fun x => (congrFun (pay23_eq (k1_pay17 (F := Ideal) (View.ld x5 r1_1)) (View.ld x0 r1_26)) x).trans
    (piece_pos x0 x1 x2 x3 x4 x5 x6 12 (by decide) x5 rfl (View.ld x5 r1_1) (View.ld_unit_zero (S := S16x64) hz _ x5) 768 192 rfl rfl inb_S2000x1024_S2000x64_0_768 inb_S2000x256_S2000x16_0_192 x), ?_⟩
  refine List.forall_mem_cons.mpr ⟨fun x => (congrFun (pay22_eq (k1_pay17 (F := Ideal) (View.ld x5 r1_1)) (View.ld x0 r1_24)) x).trans
    (piece_pos x0 x1 x2 x3 x4 x5 x6 11 (by decide) x5 rfl (View.ld x5 r1_1) (View.ld_unit_zero (S := S16x64) hz _ x5) 704 176 rfl rfl inb_S2000x1024_S2000x64_0_704 inb_S2000x256_S2000x16_0_176 x), ?_⟩
  refine List.forall_mem_cons.mpr ⟨fun x => (congrFun (pay21_eq (View.ld x5 r1_1) (View.ld x0 r1_22)) x).trans
    (piece_pos x0 x1 x2 x3 x4 x5 x6 10 (by decide) x5 rfl (View.ld x5 r1_1) (View.ld_unit_zero (S := S16x64) hz _ x5) 640 160 rfl rfl inb_S2000x1024_S2000x64_0_640 inb_S2000x256_S2000x16_0_160 x), ?_⟩
  refine List.forall_mem_cons.mpr ⟨fun x => (congrFun (pay18_eq (View.ld x5 r1_1) (View.ld x0 r1_20)) x).trans
    (piece_pos x0 x1 x2 x3 x4 x5 x6 9 (by decide) x5 rfl (View.ld x5 r1_1) (View.ld_unit_zero (S := S16x64) hz _ x5) 576 144 rfl rfl inb_S2000x1024_S2000x64_0_576 inb_S2000x256_S2000x16_0_144 x), ?_⟩
  refine List.forall_mem_cons.mpr ⟨fun x => (congrFun (pay16_eq (k1_pay9 (F := Ideal) (View.ld x4 r1_1)) (View.ld x0 r1_18)) x).trans
    (piece_pos x0 x1 x2 x3 x4 x5 x6 8 (by decide) x4 rfl (View.ld x4 r1_1) (View.ld_unit_zero (S := S16x64) hz _ x4) 512 128 rfl rfl inb_S2000x1024_S2000x64_0_512 inb_S2000x256_S2000x16_0_128 x), ?_⟩
  refine List.forall_mem_cons.mpr ⟨fun x => (congrFun (pay15_eq (k1_pay9 (F := Ideal) (View.ld x4 r1_1)) (View.ld x0 r1_16)) x).trans
    (piece_pos x0 x1 x2 x3 x4 x5 x6 7 (by decide) x4 rfl (View.ld x4 r1_1) (View.ld_unit_zero (S := S16x64) hz _ x4) 448 112 rfl rfl inb_S2000x1024_S2000x64_0_448 inb_S2000x256_S2000x16_0_112 x), ?_⟩
  refine List.forall_mem_cons.mpr ⟨fun x => (congrFun (pay14_eq (View.ld x4 r1_1) (View.ld x0 r1_14)) x).trans
    (piece_pos x0 x1 x2 x3 x4 x5 x6 6 (by decide) x4 rfl (View.ld x4 r1_1) (View.ld_unit_zero (S := S16x64) hz _ x4) 384 96 rfl rfl inb_S2000x1024_S2000x64_0_384 inb_S2000x256_S2000x16_0_96 x), ?_⟩
  refine List.forall_mem_cons.mpr ⟨fun x => (congrFun (pay11_eq (View.ld x4 r1_1) (View.ld x0 r1_12)) x).trans
    (piece_pos x0 x1 x2 x3 x4 x5 x6 5 (by decide) x4 rfl (View.ld x4 r1_1) (View.ld_unit_zero (S := S16x64) hz _ x4) 320 80 rfl rfl inb_S2000x1024_S2000x64_0_320 inb_S2000x256_S2000x16_0_80 x), ?_⟩
  refine List.forall_mem_cons.mpr ⟨fun x => (congrFun (pay10_eq (View.ld x4 r1_1) (View.ld x0 r1_10)) x).trans
    (piece_pos x0 x1 x2 x3 x4 x5 x6 4 (by decide) x4 rfl (View.ld x4 r1_1) (View.ld_unit_zero (S := S16x64) hz _ x4) 256 64 rfl rfl inb_S2000x1024_S2000x64_0_256 inb_S2000x256_S2000x16_0_64 x), ?_⟩
  refine List.forall_mem_cons.mpr ⟨fun x => (congrFun (pay8_eq (k1_pay3 (F := Ideal) (View.ld x3 r1_1)) (View.ld x0 r1_8)) x).trans
    (piece_pos x0 x1 x2 x3 x4 x5 x6 3 (by decide) x3 rfl (View.ld x3 r1_1) (View.ld_unit_zero (S := S16x64) hz _ x3) 192 48 rfl rfl inb_S2000x1024_S2000x64_0_192 inb_S2000x256_S2000x16_0_48 x), ?_⟩
  refine List.forall_mem_cons.mpr ⟨fun x => (congrFun (pay7_eq (View.ld x3 r1_1) (View.ld x0 r1_6)) x).trans
    (piece_pos x0 x1 x2 x3 x4 x5 x6 2 (by decide) x3 rfl (View.ld x3 r1_1) (View.ld_unit_zero (S := S16x64) hz _ x3) 128 32 rfl rfl inb_S2000x1024_S2000x64_0_128 inb_S2000x256_S2000x16_0_32 x), ?_⟩
  refine List.forall_mem_cons.mpr ⟨fun x => (congrFun (pay4_eq (View.ld x3 r1_1) (View.ld x0 r1_4)) x).trans
    (piece_pos x0 x1 x2 x3 x4 x5 x6 1 (by decide) x3 rfl (View.ld x3 r1_1) (View.ld_unit_zero (S := S16x64) hz _ x3) 64 16 rfl rfl inb_S2000x1024_S2000x64_0_64 inb_S2000x256_S2000x16_0_16 x), ?_⟩
  refine List.forall_mem_cons.mpr ⟨fun x => (congrFun (pay2_eq (View.ld x1 r1_0) (View.ld x6 r1_1) (View.ld x2 r1_1) (View.ld x0 r1_2)) x).trans
    (piece_zero x0 x1 x2 x3 x4 x5 x6 (View.ld x2 r1_1) (View.ld x6 r1_1) (View.ld_unit_zero (S := S16x64) hz _ x2).symm (View.ld_unit_zero (S := S16x64) hz _ x6).symm
      (View.ld x1 r1_0) (View.ld_unit_zero (S := S2000x16) hz _ x1).symm inb_S2000x1024_S2000x64_0_0 inb_S2000x256_S2000x16_0_0 x), ?_⟩
  exact fun p hp => absurd hp List.not_mem_nil

/-- THE BLOCK-LEVEL VALUE: entry (r, 64 i + v) of what the body leaves in the output block is the node value of
    row r's row-i channels. -/
theorem out_block (x0 : Vec Ideal S2000x256 .f32) (x1 : Vec Ideal S2000x16 .f32) (x2 x3 x4 x5 x6 : Vec Ideal S16x64 .f32)
    (r : Fin 2000) (i : Fin 16) (v : Fin 64) :
    out1_7 (F := Ideal) x0 x1 x2 x3 x4 x5 x6 (ix2 r ⟨64 * i.val + v.val, by omega⟩) = NV x0 x1 x2 x3 x4 x5 x6 r i v :=
  (out_eq_G x0 x1 x2 x3 x4 x5 x6 _).trans (G_at x0 x1 x2 x3 x4 x5 x6 _ r i v rfl rfl)

/-! ## From the blocks to the array -/

/-- Node n, row i, output channel v, from the whole arrays: the node value of the node's row-i channels
    (columns 16 i .. 16 i + 15 of its aggregated row), its own scalars and the five weights. -/
def NVA (A0 : S50000x256.Idx → EReal) (A1 : S50000x16.Idx → EReal) (x2 x3 x4 x5 x6 : S16x64.Idx → EReal) (n : Fin 50000) (i : Fin 16) (v : Fin 64) : EReal :=
  Cert.Spec.nodeVal (fun u => A0 (ix2 n ⟨16 * i.val + u.val, by omega⟩)) (fun u => A1 (ix2 n u)) x2 x3 x4 x5 x6 i v

/-- The same as a function of the [50000, 1024] array index: column 64 i + v holds row i, channel v. -/
def GA (A0 : S50000x256.Idx → EReal) (A1 : S50000x16.Idx → EReal) (x2 x3 x4 x5 x6 : S16x64.Idx → EReal) : S50000x1024.Idx → EReal :=
  fun y => NVA A0 A1 x2 x3 x4 x5 x6 (y 0) ⟨(y 1).val / 64, by have := idx2_lt1 y; omega⟩ ⟨(y 1).val % 64, Nat.mod_lt _ (by decide)⟩

theorem GA_at (A0 : S50000x256.Idx → EReal) (A1 : S50000x16.Idx → EReal) (x2 x3 x4 x5 x6 : S16x64.Idx → EReal) (y : S50000x1024.Idx) (n : Fin 50000) (i : Fin 16) (v : Fin 64)
    (h0 : (y 0).val = n.val) (h1 : (y 1).val = 64 * i.val + v.val) : GA A0 A1 x2 x3 x4 x5 x6 y = NVA A0 A1 x2 x3 x4 x5 x6 n i v := by
  unfold GA
  congr 1
  · exact Fin.ext h0
  · exact Fin.ext (by show (y 1).val / 64 = i.val; omega)
  · exact Fin.ext (by show (y 1).val % 64 = v.val; omega)

/-- An entry of the block the body leaves at grid point b is the array function's entry 2000 b rows further down,
    when the row windows hold rows 2000 b .. 2000 b + 1999 of their arrays and the weight windows their whole arrays. -/
theorem block_entry (A0 : S50000x256.Idx → EReal) (A1 : S50000x16.Idx → EReal) (x2 x3 x4 x5 x6 : S16x64.Idx → EReal) (x0 : Vec Ideal S2000x256 .f32) (x1 : Vec Ideal S2000x16 .f32)
    (b2 b3 b4 b5 b6 : Vec Ideal S16x64 .f32) (e2 : b2 = x2) (e3 : b3 = x3) (e4 : b4 = x4) (e5 : b5 = x5) (e6 : b6 = x6)
    (b : Nat) (hb : 2000 * b + 2000 ≤ 50000)
    (h0 : ∀ (r : Fin 2000) (q : Fin 256), x0 (ix2 r q) = A0 (ix2 ⟨2000 * b + r.val, by omega⟩ q))
    (h1 : ∀ (r : Fin 2000) (u : Fin 16), x1 (ix2 r u) = A1 (ix2 ⟨2000 * b + r.val, by omega⟩ u))
    (j : S2000x1024.Idx) (y : S50000x1024.Idx) (hy0 : (y 0).val = 2000 * b + (j 0).val) (hy1 : (y 1).val = (j 1).val) :
    out1_7 (F := Ideal) x0 x1 b2 b3 b4 b5 b6 j = GA A0 A1 x2 x3 x4 x5 x6 y := by
  subst e2 e3 e4 e5 e6
  have hj0 := idx2_lt0 j
  have hj1 := idx2_lt1 j
  rw [out_eq_G, G_at x0 x1 b2 b3 b4 b5 b6 j (j 0) ⟨(j 1).val / 64, by omega⟩ ⟨(j 1).val % 64, Nat.mod_lt _ (by decide)⟩ rfl
      (by show (j 1).val = 64 * ((j 1).val / 64) + (j 1).val % 64; omega),
    GA_at A0 A1 b2 b3 b4 b5 b6 y ⟨2000 * b + (j 0).val, by omega⟩ ⟨(j 1).val / 64, by omega⟩ ⟨(j 1).val % 64, Nat.mod_lt _ (by decide)⟩ hy0
      (by show (y 1).val = 64 * ((j 1).val / 64) + (j 1).val % 64; omega)]
  unfold NV NVA
  congr 1
  · funext u; exact h0 (j 0) _
  · funext u; exact h1 (j 0) u

/-- The index maps over the grid: the row windows (the aggregated block, the node scalars, the output) sit at block
    (t, 0) at point t; the five weight windows at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- What point t writes back is block t of the array function of the arrays as the region finds them. -/
theorem flushed_eq (c : Dev nD) (t : Fin cfg1.N) :
    (dat1 (F := Ideal) V c).flushed 7 t
      = ((cfg1.win 7).blk t).view.read (Elt Ideal) (GA (V c main_v28) (V c main_arg1) (V c main_arg2) (V c main_arg3) (V c main_arg4) (V c main_arg5) (V c main_arg6)) := by
  show (cfg1.win 7).cut (grid1.coords t) ((dat1 (F := Ideal) V c).after 7 t) = _
  rw [after1_7]
  obtain ⟨e00, e01, e10, e11, e20, e21, e30, e31, e40, e41, e50, e51, e60, e61, e70, e71⟩ := idx_facts t
  have hN : grid1.N = 25 := N_1
  have ht : t.val < grid1.N := t.isLt
  funext j
  show out1_7 (F := Ideal) (iblk1 V c 0 t) (iblk1 V c 1 t) (iblk1 V c 2 t) (iblk1 V c 3 t) (iblk1 V c 4 t) (iblk1 V c 5 t) (iblk1 V c 6 t) j
    = GA (V c main_v28) (V c main_arg1) (V c main_arg2) (V c main_arg3) (V c main_arg4) (V c main_arg5) (V c main_arg6) (((cfg1.win 7).blk t).view.emb j)
  refine block_entry (V c main_v28) (V c main_arg1) (V c main_arg2) (V c main_arg3) (V c main_arg4) (V c main_arg5) (V c main_arg6) (iblk1 V c 0 t) (iblk1 V c 1 t)
    (iblk1 V c 2 t) (iblk1 V c 3 t) (iblk1 V c 4 t) (iblk1 V c 5 t) (iblk1 V c 6 t)
    (by
      funext y
      show V c main_arg2 (((cfg1.win 2).blk t).view.emb y) = V c main_arg2 y
      congr 1
      funext a; apply Fin.ext
      match a with
      | ⟨0, _⟩ => show win1_2.index t (0 : Fin 2) * 16 + 1 * (y 0).val = (y 0).val; omega
      | ⟨1, _⟩ => show win1_2.index t (1 : Fin 2) * 64 + 1 * (y 1).val = (y 1).val; omega)
    (by
      funext y
      show V c main_arg3 (((cfg1.win 3).blk t).view.emb y) = V c main_arg3 y
      congr 1
      funext a; apply Fin.ext
      match a with
      | ⟨0, _⟩ => show win1_3.index t (0 : Fin 2) * 16 + 1 * (y 0).val = (y 0).val; omega
      | ⟨1, _⟩ => show win1_3.index t (1 : Fin 2) * 64 + 1 * (y 1).val = (y 1).val; omega)
    (by
      funext y
      show V c main_arg4 (((cfg1.win 4).blk t).view.emb y) = V c main_arg4 y
      congr 1
      funext a; apply Fin.ext
      match a with
      | ⟨0, _⟩ => show win1_4.index t (0 : Fin 2) * 16 + 1 * (y 0).val = (y 0).val; omega
      | ⟨1, _⟩ => show win1_4.index t (1 : Fin 2) * 64 + 1 * (y 1).val = (y 1).val; omega)
    (by
      funext y
      show V c main_arg5 (((cfg1.win 5).blk t).view.emb y) = V c main_arg5 y
      congr 1
      funext a; apply Fin.ext
      match a with
      | ⟨0, _⟩ => show win1_5.index t (0 : Fin 2) * 16 + 1 * (y 0).val = (y 0).val; omega
      | ⟨1, _⟩ => show win1_5.index t (1 : Fin 2) * 64 + 1 * (y 1).val = (y 1).val; omega)
    (by
      funext y
      show V c main_arg6 (((cfg1.win 6).blk t).view.emb y) = V c main_arg6 y
      congr 1
      funext a; apply Fin.ext
      match a with
      | ⟨0, _⟩ => show win1_6.index t (0 : Fin 2) * 16 + 1 * (y 0).val = (y 0).val; omega
      | ⟨1, _⟩ => show win1_6.index t (1 : Fin 2) * 64 + 1 * (y 1).val = (y 1).val; omega)
    t.val (by omega)
    (fun r q => by
      show V c main_v28 (((cfg1.win 0).blk t).view.emb (ix2 r q)) = V c main_v28 _
      congr 1
      funext a; apply Fin.ext
      match a with
      | ⟨0, _⟩ => show win1_0.index t (0 : Fin 2) * 2000 + 1 * r.val = 2000 * t.val + r.val; omega
      | ⟨1, _⟩ => show win1_0.index t (1 : Fin 2) * 256 + 1 * q.val = q.val; omega)
    (fun r u => by
      show V c main_arg1 (((cfg1.win 1).blk t).view.emb (ix2 r u)) = V c main_arg1 _
      congr 1
      funext a; apply Fin.ext
      match a with
      | ⟨0, _⟩ => show win1_1.index t (0 : Fin 2) * 2000 + 1 * r.val = 2000 * t.val + r.val; omega
      | ⟨1, _⟩ => show win1_1.index t (1 : Fin 2) * 16 + 1 * u.val = u.val; omega)
    j (((cfg1.win 7).blk t).view.emb j)
    (by show win1_7.index t (0 : Fin 2) * 2000 + 1 * (j 0).val = 2000 * t.val + (j 0).val; omega)
    (by show win1_7.index t (1 : Fin 2) * 1024 + 1 * (j 1).val = (j 1).val; omega)

/-- An index of the array is in point t's block iff each coordinate is in the block's range on its axis. -/
theorem mem_blk (t : Fin cfg1.N) (i : S50000x1024.Idx) :
    i ∈ ((cfg1.win 7).blk t).view.set ↔ ∀ a : Fin 2, win1_7.index t a * S2000x1024.size a ≤ (i a).val ∧ (i a).val < win1_7.index t a * S2000x1024.size a + S2000x1024.size a := by
  show i ∈ ((View.whole main_v29).slice (win1_7.rect t)).set ↔ _
  rw [View.set_slice_whole, Rect.mem_set_unit]
  exact Iff.rfl

/-- Row n of the array lies in the block of point n / 2000, and every point writes its block back. -/
theorem cover (i : S50000x1024.Idx) : ∃ t : Fin cfg1.N, (cfg1.win 7).flush t = true ∧ i ∈ ((cfg1.win 7).blk t).view.set := by
  have hi0 := idx2_lt0 i
  have hi1 := idx2_lt1 i
  have hN : grid1.N = 25 := N_1
  have hlt : (i 0).val / 2000 < grid1.N := by omega
  obtain ⟨e00, e01, e10, e11, e20, e21, e30, e31, e40, e41, e50, e51, e60, e61, e70, e71⟩ := idx_facts ⟨(i 0).val / 2000, hlt⟩
  refine ⟨⟨(i 0).val / 2000, hlt⟩, flush1_7 _, ?_⟩
  rw [mem_blk]
  intro a
  match a with
  | ⟨0, _⟩ =>
    show win1_7.index ⟨(i 0).val / 2000, hlt⟩ (0 : Fin 2) * 2000 ≤ (i 0).val ∧ (i 0).val < win1_7.index ⟨(i 0).val / 2000, hlt⟩ (0 : Fin 2) * 2000 + 2000
    rw [e70]; show (i 0).val / 2000 * 2000 ≤ (i 0).val ∧ (i 0).val < (i 0).val / 2000 * 2000 + 2000; omega
  | ⟨1, _⟩ =>
    show win1_7.index ⟨(i 0).val / 2000, hlt⟩ (1 : Fin 2) * 1024 ≤ (i 1).val ∧ (i 1).val < win1_7.index ⟨(i 0).val / 2000, hlt⟩ (1 : Fin 2) * 1024 + 1024
    rw [e71]; omega

/-- The output array after the 25 points is the array function of the arrays as the region finds them. -/
theorem final (c : Dev nD) : (dat1 (F := Ideal) V c).arrAt 7 cfg1.N = GA (V c main_v28) (V c main_arg1) (V c main_arg2) (V c main_arg3) (V c main_arg4) (V c main_arg5) (V c main_arg6) :=
  (dat1 (F := Ideal) V c).arrAt_eq_of_cover 7 (GA (V c main_v28) (V c main_arg1) (V c main_arg2) (V c main_arg3) (V c main_arg4) (V c main_arg5) (V c main_arg6)) (fun t _ => flushed_eq V c t) cover

/-- The node kernel's output array after its 25 grid points, entry (n, 64 i + v): row i's linear map of the
    node's aggregated row-i channels (columns 16 i .. 16 i + 15 of its first input), times 1/4, plus in row 0 the
    linear map of the node's own scalars, times 1/4. -/
theorem node_array (c : Dev nD) (n : Fin 50000) (i : Fin 16) (v : Fin 64) :
    ((dat1 (F := Ideal) V c).arrAt 7 cfg1.N : S50000x1024.Idx → EReal) (ix2 n ⟨64 * i.val + v.val, by omega⟩)
      = Cert.Spec.nodeVal (fun u => (V c main_v28 : S50000x256.Idx → EReal) (ix2 n ⟨16 * i.val + u.val, by omega⟩))
          (fun u => (V c main_arg1 : S50000x16.Idx → EReal) (ix2 n u))
          (V c main_arg2) (V c main_arg3) (V c main_arg4) (V c main_arg5) (V c main_arg6) i v :=
  (congrFun (final V c) _).trans (GA_at (V c main_v28) (V c main_arg1) (V c main_arg2) (V c main_arg3) (V c main_arg4) (V c main_arg5) (V c main_arg6) _ n i v rfl rfl)

end Cert.EdgeNode.R1

end
-- ==== Proof.Scatter.lean ====
import proofs.«181800_j70411693850655_1_alg».proof.Proof.Spec
import Idealize.ShloMosaic.PureOps.Ideal
import Idealize.ShloMosaic.Lib.ValueIdx
import Idealize.ShloMosaic.Lib.Pipeline.Value

set_option maxRecDepth 16384

noncomputable section

namespace Cert.EdgeNode.Scatter

open Idealize.ShloMosaic Idealize.ShloMosaic.TcCoe Idealize.ShloMosaic.ValueIdx Idealize.SL.Sem
open Cert.Spec

/-- Where an update lands: the result index of update index `q` is `i` exactly when, on every operand axis, the
    window's start plus the window coordinate is `i`'s coordinate. (An update that leaves the operand on some axis
    has no result index, and no `i` satisfies the right-hand side either.) -/
theorem resultIdx?_eq_some_iff {s si u : Shape} (d : ScatterDims s si u) {w : Nat} (q : u.Idx) (idx : IVec si w)
    (i : s.Idx) :
    d.resultIdx? q idx = some i ↔ ∀ a, d.start q idx a + (d.window q a : Int) = ((i a).val : Int) := by
  unfold ScatterDims.resultIdx?
  split
  · rename_i hin
    rw [Option.some.injEq]
    constructor
    · intro hf a
      have h1 := congrArg Fin.val (congrFun hf a)
      have h2 := (hin a).1
      simp only at h1
      omega
    · intro hf
      funext a
      apply Fin.ext
      have h1 := hf a
      show (d.start q idx a + (d.window q a : Int)).toNat = (i a).val
      omega
  · rename_i hout
    constructor
    · intro hf; cases hf
    · intro hf
      exfalso
      apply hout
      intro a
      have h1 := hf a
      have h2 := (i a).isLt
      omega

/-! ## The row scatter of a matrix: update (e, j') lands at (start, j'), start the index read at (e, 0) -/

theorem start2_zero {w : Nat} (q : S500000x256.Idx) (idx : IVec S500000x1 w) :
    sd2.start q idx 0 = (idx (ix2 (q 0) 0)).toInt := by
  unfold ScatterDims.start
  rw [dif_pos (show (0 : Fin 2) ∈ sd2.scatterDimsToOperandDims from List.mem_singleton.mpr rfl)]
  congr 2
  funext b
  apply Fin.ext
  match b with
  | ⟨0, _⟩ => rfl
  | ⟨1, _⟩ => rfl

theorem start2_one {w : Nat} (q : S500000x256.Idx) (idx : IVec S500000x1 w) :
    sd2.start q idx 1 = 0 := by
  unfold ScatterDims.start
  rw [dif_neg (show ¬ (1 : Fin 2) ∈ sd2.scatterDimsToOperandDims by decide)]

theorem window2_zero (q : S500000x256.Idx) : sd2.window q 0 = 0 := by
  unfold ScatterDims.window
  rw [dif_neg (show ¬ (0 : Fin 2) ∈ sd2.sKept by decide)]

theorem window2_one (q : S500000x256.Idx) : sd2.window q 1 = (q 1).val := by
  unfold ScatterDims.window
  rw [dif_pos (show (1 : Fin 2) ∈ sd2.sKept by decide)]
  rfl

theorem resultIdx2_iff {w : Nat} (q : S500000x256.Idx) (idx : IVec S500000x1 w) (n : Fin 50000) (j : Fin 256) :
    sd2.resultIdx? q idx = some (ix2 n j) ↔ (idx (ix2 (q 0) 0)).toInt = (n.val : Int) ∧ q 1 = j := by
  rw [resultIdx?_eq_some_iff, Fin.forall_fin_two, start2_zero, start2_one, window2_zero, window2_one]
  have e0 : ((ix2 n j : S50000x256.Idx) 0).val = n.val := rfl
  have e1 : ((ix2 n j : S50000x256.Idx) 1).val = j.val := rfl
  rw [e0, e1]
  constructor
  · rintro ⟨h0, h1⟩
    exact ⟨by omega, Fin.ext (by omega)⟩
  · rintro ⟨h0, h1⟩
    subst h1
    exact ⟨by omega, by omega⟩

/-- The column of raw indices read at (e, 0) is the index vector at e. -/
theorem col_apply (h : S500000.BroadcastsInDim S500000x1 (![0] : Fin 1 → Fin S500000x1.rank))
    (rcv : IVec S500000 32) (e : Fin 500000) :
    broadcastInDim S500000x1 ![0] h rcv (ix2 e 0) = rcv (ix1 e) := by
  apply broadcastInDim_apply
  intro a
  match a with
  | ⟨0, _⟩ => rfl

/-- A row scatter-add of [500000, 256] updates at a column of raw node indices, read at (n, j): the operand's
    entry plus the sum, over the edges whose index is n, of the update's entry (e, j). -/
theorem scatterAdd2_apply (h : S500000.BroadcastsInDim S500000x1 (![0] : Fin 1 → Fin S500000x1.rank))
    (x : FVec Ideal S50000x256 .f32) (rcv : IVec S500000 32) (upd : FVec Ideal S500000x256 .f32)
    (n : Fin 50000) (j : Fin 256) :
    Host.scatterAdd (F := Ideal) sd2 x (broadcastInDim S500000x1 ![0] h rcv) upd (ix2 n j)
      = x (ix2 n j) + ∑ e ∈ recvSet rcv n, upd (ix2 e j) := by
  unfold Host.scatterAdd
  rw [Ideal.hostScatterAdd_def]
  unfold Ideal.hostScatterAdd
  refine congrArg (fun t => x (ix2 n j) + t) ?_
  symm
  apply Finset.sum_bij (fun e _ => (ix2 e j : S500000x256.Idx))
  · intro e he
    rw [Finset.mem_filter]
    refine ⟨Finset.mem_univ _, ?_⟩
    rw [resultIdx2_iff]
    unfold recvSet at he
    rw [Finset.mem_filter] at he
    refine ⟨?_, rfl⟩
    show (broadcastInDim S500000x1 ![0] h rcv (ix2 e 0)).toInt = _
    rw [col_apply]
    exact he.2
  · intro e1 _ e2 _ heq
    exact congrFun heq 0
  · intro q hq
    obtain ⟨a, b, rfl⟩ : ∃ a b, q = ix2 a b := ⟨q 0, q 1, eq_ix2 q⟩
    rw [Finset.mem_filter, resultIdx2_iff] at hq
    obtain ⟨-, h0, h1⟩ := hq
    change (broadcastInDim S500000x1 ![0] h rcv (ix2 a 0)).toInt = _ at h0
    change b = j at h1
    rw [col_apply] at h0
    subst h1
    exact ⟨a, Finset.mem_filter.mpr ⟨Finset.mem_univ _, h0⟩, rfl⟩
  · intro e _
    rfl

/-! ## The row scatter of a rank-3 array: update (e, i', u') lands at (start, i', u') -/

theorem start3_zero {w : Nat} (q : S500000x16x16.Idx) (idx : IVec S500000x1 w) :
    sd3.start q idx 0 = (idx (ix2 (q 0) 0)).toInt := by
  unfold ScatterDims.start
  rw [dif_pos (show (0 : Fin 3) ∈ sd3.scatterDimsToOperandDims from List.mem_singleton.mpr rfl)]
  congr 2
  funext b
  apply Fin.ext
  match b with
  | ⟨0, _⟩ => rfl
  | ⟨1, _⟩ => rfl

theorem start3_one {w : Nat} (q : S500000x16x16.Idx) (idx : IVec S500000x1 w) :
    sd3.start q idx 1 = 0 := by
  unfold ScatterDims.start
  rw [dif_neg (show ¬ (1 : Fin 3) ∈ sd3.scatterDimsToOperandDims by decide)]

theorem start3_two {w : Nat} (q : S500000x16x16.Idx) (idx : IVec S500000x1 w) :
    sd3.start q idx 2 = 0 := by
  unfold ScatterDims.start
  rw [dif_neg (show ¬ (2 : Fin 3) ∈ sd3.scatterDimsToOperandDims by decide)]

theorem window3_zero (q : S500000x16x16.Idx) : sd3.window q 0 = 0 := by
  unfold ScatterDims.window
  rw [dif_neg (show ¬ (0 : Fin 3) ∈ sd3.sKept by decide)]

theorem window3_one (q : S500000x16x16.Idx) : sd3.window q 1 = (q 1).val := by
  unfold ScatterDims.window
  rw [dif_pos (show (1 : Fin 3) ∈ sd3.sKept by decide)]
  rfl

theorem window3_two (q : S500000x16x16.Idx) : sd3.window q 2 = (q 2).val := by
  unfold ScatterDims.window
  rw [dif_pos (show (2 : Fin 3) ∈ sd3.sKept by decide)]
  rfl

theorem resultIdx3_iff {w : Nat} (q : S500000x16x16.Idx) (idx : IVec S500000x1 w) (n : Fin 50000) (i u : Fin 16) :
    sd3.resultIdx? q idx = some (ix3 n i u)
      ↔ (idx (ix2 (q 0) 0)).toInt = (n.val : Int) ∧ q 1 = i ∧ q 2 = u := by
  rw [resultIdx?_eq_some_iff]
  have e0 : ((ix3 n i u : S50000x16x16.Idx) 0).val = n.val := rfl
  have e1 : ((ix3 n i u : S50000x16x16.Idx) 1).val = i.val := rfl
  have e2 : ((ix3 n i u : S50000x16x16.Idx) 2).val = u.val := rfl
  constructor
  · intro hall
    have h0 := hall 0
    have h1 := hall 1
    have h2 := hall 2
    rw [start3_zero, window3_zero, e0] at h0
    rw [start3_one, window3_one, e1] at h1
    rw [start3_two, window3_two, e2] at h2
    exact ⟨by omega, Fin.ext (by omega), Fin.ext (by omega)⟩
  · rintro ⟨h0, h1, h2⟩ a
    subst h1
    subst h2
    match a with
    | ⟨0, _⟩ =>
      show sd3.start q idx 0 + (sd3.window q 0 : Int) = (n.val : Int)
      rw [start3_zero, window3_zero]
      omega
    | ⟨1, _⟩ =>
      show sd3.start q idx 1 + (sd3.window q 1 : Int) = ((q 1).val : Int)
      rw [start3_one, window3_one]
      omega
    | ⟨2, _⟩ =>
      show sd3.start q idx 2 + (sd3.window q 2 : Int) = ((q 2).val : Int)
      rw [start3_two, window3_two]
      omega

/-- The same for [500000, 16, 16] updates, read at (n, i, u). -/
theorem scatterAdd3_apply (h : S500000.BroadcastsInDim S500000x1 (![0] : Fin 1 → Fin S500000x1.rank))
    (x : FVec Ideal S50000x16x16 .f32) (rcv : IVec S500000 32) (upd : FVec Ideal S500000x16x16 .f32)
    (n : Fin 50000) (i u : Fin 16) :
    Host.scatterAdd (F := Ideal) sd3 x (broadcastInDim S500000x1 ![0] h rcv) upd (ix3 n i u)
      = x (ix3 n i u) + ∑ e ∈ recvSet rcv n, upd (ix3 e i u) := by
  unfold Host.scatterAdd
  rw [Ideal.hostScatterAdd_def]
  unfold Ideal.hostScatterAdd
  refine congrArg (fun t => x (ix3 n i u) + t) ?_
  symm
  apply Finset.sum_bij (fun e _ => (ix3 e i u : S500000x16x16.Idx))
  · intro e he
    rw [Finset.mem_filter]
    refine ⟨Finset.mem_univ _, ?_⟩
    rw [resultIdx3_iff]
    unfold recvSet at he
    rw [Finset.mem_filter] at he
    refine ⟨?_, rfl, rfl⟩
    show (broadcastInDim S500000x1 ![0] h rcv (ix2 e 0)).toInt = _
    rw [col_apply]
    exact he.2
  · intro e1 _ e2 _ heq
    exact congrFun heq 0
  · intro q hq
    obtain ⟨a, b, c, rfl⟩ : ∃ a b c, q = ix3 a b c := ⟨q 0, q 1, q 2, eq_ix3 q⟩
    rw [Finset.mem_filter, resultIdx3_iff] at hq
    obtain ⟨-, h0, h1, h2⟩ := hq
    change (broadcastInDim S500000x1 ![0] h rcv (ix2 a 0)).toInt = _ at h0
    change b = i at h1
    change c = u at h2
    rw [col_apply] at h0
    subst h1
    subst h2
    exact ⟨a, Finset.mem_filter.mpr ⟨Finset.mem_univ _, h0⟩, rfl⟩
  · intro e _
    rfl

end Cert.EdgeNode.Scatter

end
-- ==== Proof.HostK.lean ====
import proofs.«181800_j70411693850655_1_alg».proof.Proof.Gen.KernelIdeal.Frame
import proofs.«181800_j70411693850655_1_alg».proof.Proof.Spec
import proofs.«181800_j70411693850655_1_alg».proof.Proof.Scatter
import Idealize.ShloMosaic.Lib.StableHlo.Run
import Idealize.ShloMosaic.Lib.Pipeline.Value
import Idealize.ShloMosaic.Lib.ValueIdx
import Idealize.ShloMosaic.Lib.IdealHost

set_option maxRecDepth 16384

noncomputable section

namespace Cert.EdgeNode.HostK

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The relative vectors as the first host stretch computes them: the positions gathered at the wrapped
    receiver column less the positions gathered at the wrapped sender column. -/
theorem W1_main_v14 (c : Dev nD) :
    StableHlo.after hostOps0 (W0 (F := Ideal) m ρ c) (Proc.devRef .tc main_v14)
      = Cert.Spec.relArr (m ((c : Thread nD τ).loc main_arg0)) (m ((c : Thread nD τ).loc main_arg7)) (m ((c : Thread nD τ).loc main_arg8)) := by
  after_results_simp
  rfl

/-- The senders' scalars as the first host stretch computes them: the node scalars gathered at the wrapped
    sender column. -/
theorem W1_main_v21 (c : Dev nD) :
    StableHlo.after hostOps0 (W0 (F := Ideal) m ρ c) (Proc.devRef .tc main_v21)
      = Cert.Spec.sArr (m ((c : Thread nD τ).loc main_arg1)) (m ((c : Thread nD τ).loc main_arg7)) := by
  after_results_simp
  rfl

/-- The edge kernel's input array, whole: the concatenation along the column axis of the relative vectors and
    the senders' scalars. -/
theorem V1_main_v22 (c : Dev nD) :
    (V1 (F := Ideal) m ρ c main_v22 : S500000x19.Idx → EReal)
      = concatenate S500000x19 1
          [⟨S500000x3, Cert.Spec.relArr (m ((c : Thread nD τ).loc main_arg0)) (m ((c : Thread nD τ).loc main_arg7)) (m ((c : Thread nD τ).loc main_arg8))⟩,
           ⟨S500000x16, Cert.Spec.sArr (m ((c : Thread nD τ).loc main_arg1)) (m ((c : Thread nD τ).loc main_arg7))⟩]
          concatenates_S500000x3_S500000x16_S500000x19_d1 := by
  show StableHlo.after hostOps0 (W0 m ρ c) (Proc.devRef .tc main_v22) = _
  rw [← W1_main_v14 m ρ c, ← W1_main_v21 m ρ c]
  simp only [StableHlo.after_cons, StableHlo.after_nil]
  rw [StableHlo.binary_result]
  rw [StableHlo.binary_result_ne (y := main_v22) (r := main_v14)]; rotate_left; decide
  rw [StableHlo.binary_result_ne (y := main_v22) (r := main_v21)]; rotate_left; decide

/-- The edge kernel's input array as the first host stretch leaves it: columns 0..2 are the relative vectors. -/
theorem edge_in_rel (c : Dev nD) (e : Fin 500000) (k : Fin 3) :
    (V1 (F := Ideal) m ρ c main_v22 : S500000x19.Idx → EReal) (ix2 e ⟨k.val, by omega⟩)
      = Cert.Spec.relArr (m ((c : Thread nD τ).loc main_arg0)) (m ((c : Thread nD τ).loc main_arg7)) (m ((c : Thread nD τ).loc main_arg8)) (ix2 e k) := by
  rw [V1_main_v22]
  refine concatenate_pair_apply_left (t := S500000x19) (s₁ := S500000x3) (s₂ := S500000x16) 1 _ _ _ _ rfl (ix2 e k) ?_
  intro b
  fin_cases b <;> rfl

/-- Columns 3..18 are the senders' scalars. -/
theorem edge_in_s (c : Dev nD) (e : Fin 500000) (u : Fin 16) :
    (V1 (F := Ideal) m ρ c main_v22 : S500000x19.Idx → EReal) (ix2 e ⟨3 + u.val, by omega⟩)
      = Cert.Spec.sArr (m ((c : Thread nD τ).loc main_arg1)) (m ((c : Thread nD τ).loc main_arg7)) (ix2 e u) := by
  rw [V1_main_v22]
  refine concatenate_pair_apply_right (t := S500000x19) (s₁ := S500000x3) (s₂ := S500000x16) 1 _ _ _ _ rfl rfl (ix2 e u) ?_ ?_
  · intro b hb
    fin_cases b
    · rfl
    · exact absurd rfl hb
  · show u.val + 3 = 3 + u.val
    omega

/-- No operation of a literal stretch writes the given buffer: one decided inequality of references an operation. -/
local macro "writes_none" l:ident : tactic =>
  `(tactic| (refine List.forall_iff_forall_mem.mp ?_
             simp only [$l:ident, List.Forall, StableHlo.nullary_writes, StableHlo.unary_writes, StableHlo.binary_writes,
               StableHlo.ternary_writes, Finset.mem_singleton]
             repeat' apply And.intro
             all_goals exact StableHlo.devRef_ne_of_ne (by decide)))

/-- A buffer that the first host stretch does not write and that is not one of the edge kernel's arrays holds
    at that kernel's exit what it held at launch. -/
theorem W2_of_untouched (c : Dev nD) (b : Ref sig .tc) (hw : ∀ w, Pipeline.arrRef spec0 w ≠ b)
    (h0 : ∀ op ∈ (hostOps0 : List (HloOp τ sig (Elt Ideal))), Proc.devRef .tc b ∉ op.writes) :
    W2 (F := Ideal) m ρ c (Proc.devRef .tc b) = m ((c : Thread nD τ).loc b) :=
  calc W2 (F := Ideal) m ρ c (Proc.devRef .tc b)
    _ = W1 m ρ c (Proc.devRef .tc b) := W2_of_ne m ρ c b hw
    _ = W0 m ρ c (Proc.devRef .tc b) := StableHlo.after_of_forall_not_mem (b := Proc.devRef .tc b) _ _ h0
    _ = m ((c : Thread nD τ).loc b) := rfl

/-- If the second host stretch does not write it either, it still holds that at the node kernel's entry. -/
theorem V3_of_untouched (c : Dev nD) (b : Ref sig .tc)
    (h1 : ∀ op ∈ (hostOps1 : List (HloOp τ sig (Elt Ideal))), Proc.devRef .tc b ∉ op.writes)
    (hw : ∀ w, Pipeline.arrRef spec0 w ≠ b)
    (h0 : ∀ op ∈ (hostOps0 : List (HloOp τ sig (Elt Ideal))), Proc.devRef .tc b ∉ op.writes) :
    V3 (F := Ideal) m ρ c b = m ((c : Thread nD τ).loc b) :=
  calc V3 (F := Ideal) m ρ c b
    _ = W2 m ρ c (Proc.devRef .tc b) := StableHlo.after_of_forall_not_mem (b := Proc.devRef .tc b) _ _ h1
    _ = m ((c : Thread nD τ).loc b) := W2_of_untouched m ρ c b hw h0

/-- The raw receiver column is an argument nothing writes before the second host stretch. -/
theorem W2_main_arg8 (c : Dev nD) :
    W2 (F := Ideal) m ρ c (Proc.devRef .tc main_arg8) = m ((c : Thread nD τ).loc main_arg8) :=
  W2_of_untouched m ρ c main_arg8 (by decide) (by writes_none hostOps0)

/-- The node kernel's first input, whole: the edge kernel's output array scatter-added into zeros at the raw
    receiver column, divided by the constant 10. -/
theorem V3_main_v28 (c : Dev nD) :
    (V3 (F := Ideal) m ρ c main_v28 : S50000x256.Idx → EReal)
      = Host.divf
          (Host.scatterAdd (F := Ideal) Cert.Spec.sd2
            (broadcastInDim S50000x256 ![] bcast_S_S50000x256 (constant (F := Ideal) S_ .f32 0x00000000#32))
            (broadcastInDim S500000x1 ![0] bcast_S500000_S500000x1_0 (m ((c : Thread nD τ).loc main_arg8)))
            (V2 (F := Ideal) m ρ c main_v23))
          (broadcastInDim S50000x256 ![] bcast_S_S50000x256 (constant (F := Ideal) S_ .f32 0x41200000#32)) := by
  show StableHlo.after hostOps1 (W2 m ρ c) (Proc.devRef .tc main_v28) = _
  after_results_simp
  rw [W2_main_arg8]
  rfl

/-- The node kernel's first input as the second host stretch leaves it: the edge kernel's output array summed
    over the edges each node receives, over 10. -/
theorem agg_in (c : Dev nD) (n : Fin 50000) (j : Fin 256) :
    (V3 (F := Ideal) m ρ c main_v28 : S50000x256.Idx → EReal) (ix2 n j)
      = Cert.Spec.aggVal (m ((c : Thread nD τ).loc main_arg8)) n (fun e => (V2 (F := Ideal) m ρ c main_v23 : S500000x256.Idx → EReal) (ix2 e j)) := by
  rw [V3_main_v28, hostDivf_apply, Cert.EdgeNode.Scatter.scatterAdd2_apply, broadcastInDim_scalar_apply,
    broadcastInDim_scalar_apply, constant_apply, constant_apply]
  rfl

/-- The node kernel's other inputs are argument arrays, as launched. -/
theorem V3_main_arg1 (c : Dev nD) : V3 (F := Ideal) m ρ c main_arg1 = m ((c : Thread nD τ).loc main_arg1) :=
  V3_of_untouched m ρ c main_arg1 (by writes_none hostOps1) (by decide) (by writes_none hostOps0)
theorem V3_main_arg2 (c : Dev nD) : V3 (F := Ideal) m ρ c main_arg2 = m ((c : Thread nD τ).loc main_arg2) :=
  V3_of_untouched m ρ c main_arg2 (by writes_none hostOps1) (by decide) (by writes_none hostOps0)
theorem V3_main_arg3 (c : Dev nD) : V3 (F := Ideal) m ρ c main_arg3 = m ((c : Thread nD τ).loc main_arg3) :=
  V3_of_untouched m ρ c main_arg3 (by writes_none hostOps1) (by decide) (by writes_none hostOps0)
theorem V3_main_arg4 (c : Dev nD) : V3 (F := Ideal) m ρ c main_arg4 = m ((c : Thread nD τ).loc main_arg4) :=
  V3_of_untouched m ρ c main_arg4 (by writes_none hostOps1) (by decide) (by writes_none hostOps0)
theorem V3_main_arg5 (c : Dev nD) : V3 (F := Ideal) m ρ c main_arg5 = m ((c : Thread nD τ).loc main_arg5) :=
  V3_of_untouched m ρ c main_arg5 (by writes_none hostOps1) (by decide) (by writes_none hostOps0)
theorem V3_main_arg6 (c : Dev nD) : V3 (F := Ideal) m ρ c main_arg6 = m ((c : Thread nD τ).loc main_arg6) :=
  V3_of_untouched m ρ c main_arg6 (by writes_none hostOps1) (by decide) (by writes_none hostOps0)

end Cert.EdgeNode.HostK

end
-- ==== Proof.Law.lean ====
/-
  The one law that joins the two programs: for a relative vector whose norm is not zero, the kernel's
  direction r_k * (1 / |r|) is the reference's r_k / |r|, on the extended reals (at the infinities too: both are
  r_k times the inverse of |r|). At |r| = 0 they differ (0 * (1/0) = 0 against 0 / 0), which is why the statement
  keeps every edge's relative vector away from zero. The two norms are one number: the kernel adds the three
  squares left to right, the reference sums them from a zero initial value.
-/
import proofs.«181800_j70411693850655_1_alg».proof.Proof.Spec
import Idealize.ShloMosaic.PureOps.Ideal.Laws
import Idealize.ShloMosaic.Lib.IdealHost

noncomputable section

namespace Cert.Spec

open Idealize.ShloMosaic

/-- The kernel's and the reference's norm of a vector are the same extended real. -/
theorem normK_eq_normR (r : Fin 3 → EReal) : normK r = normR r := by
  unfold normK normR
  rw [Fin.sum_univ_three, Ideal.ofBits_zero_f32, zero_add]

/-- Off a zero norm, the component times the norm's reciprocal is the component over the norm. -/
theorem dirK_eq_dirR (r : Fin 3 → EReal) (h : normR r ≠ 0) (k : Fin 3) : dirK r k = dirR r k := by
  unfold dirK dirR
  rw [normK_eq_normR, Ideal.ofBits_one_f32]
  unfold Ideal.div
  rw [if_neg h, if_neg h, one_mul]

/-- So the two edge features agree wherever the relative vector's norm is not zero. -/
theorem edgeK_eq_edgeR (r : Fin 3 → EReal) (s : Fin 16 → EReal) (h : normR r ≠ 0) (i u : Fin 16) :
    edgeK r s i u = edgeR r s i u := by
  unfold edgeK edgeR
  rw [dirK_eq_dirR r h 0, dirK_eq_dirR r h 1, dirK_eq_dirR r h 2]

/-! ## The specification's functions respect pointwise equality of what they are given -/

theorem edgeK_congr {r r' : Fin 3 → EReal} {s s' : Fin 16 → EReal} (hr : ∀ k, r k = r' k) (hs : ∀ u, s u = s' u)
    (i u : Fin 16) : edgeK r s i u = edgeK r' s' i u := by
  obtain rfl : r = r' := funext hr
  obtain rfl : s = s' := funext hs
  rfl

theorem aggVal_congr (rcv : IVec S500000 32) (n : Fin 50000) {f g : Fin 500000 → EReal} (h : ∀ e, f e = g e) :
    aggVal rcv n f = aggVal rcv n g := by
  obtain rfl : f = g := funext h
  rfl

theorem nodeVal_congr {a a' nsr nsr' : Fin 16 → EReal} {w0 w1 w2 w3 wsc w0' w1' w2' w3' wsc' : S16x64.Idx → EReal}
    (ha : ∀ u, a u = a' u) (hn : ∀ u, nsr u = nsr' u) (h0 : w0 = w0') (h1 : w1 = w1') (h2 : w2 = w2') (h3 : w3 = w3')
    (hsc : wsc = wsc') (i : Fin 16) (v : Fin 64) :
    nodeVal a nsr w0 w1 w2 w3 wsc i v = nodeVal a' nsr' w0' w1' w2' w3' wsc' i v := by
  obtain rfl : a = a' := funext ha
  obtain rfl : nsr = nsr' := funext hn
  subst h0 h1 h2 h3 hsc
  rfl

end Cert.Spec

end
-- ==== Proof.KSide.lean ====
import proofs.«181800_j70411693850655_1_alg».proof.Proof.R0
import proofs.«181800_j70411693850655_1_alg».proof.Proof.R1
import proofs.«181800_j70411693850655_1_alg».proof.Proof.HostK
import proofs.«181800_j70411693850655_1_alg».proof.Proof.Law

set_option maxRecDepth 16384

noncomputable section

namespace Cert.EdgeNode.KSide

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The kernel program's result array, entry (n, 64 i + v), as a function of the argument arrays: the node
    kernel's output over the aggregated output of the edge kernel over the gathered per-edge arrays. -/
theorem kernel_result (c : Dev nD) (n : Fin 50000) (i : Fin 16) (v : Fin 64) :
    (W4 (F := Ideal) m ρ c (Proc.devRef .tc main_v29) : S50000x1024.Idx → EReal) (ix2 n ⟨64 * i.val + v.val, by omega⟩)
      = Cert.Spec.nodeVal
          (fun u => Cert.Spec.aggVal (m ((c : Thread nD τ).loc main_arg8)) n (fun e =>
            Cert.Spec.edgeK
              (fun k => Cert.Spec.relArr (m ((c : Thread nD τ).loc main_arg0)) (m ((c : Thread nD τ).loc main_arg7)) (m ((c : Thread nD τ).loc main_arg8)) (ix2 e k))
              (fun u' => Cert.Spec.sArr (m ((c : Thread nD τ).loc main_arg1)) (m ((c : Thread nD τ).loc main_arg7)) (ix2 e u')) i u))
          (fun u => (m ((c : Thread nD τ).loc main_arg1) : S50000x16.Idx → EReal) (ix2 n u))
          (m ((c : Thread nD τ).loc main_arg2)) (m ((c : Thread nD τ).loc main_arg3)) (m ((c : Thread nD τ).loc main_arg4))
          (m ((c : Thread nD τ).loc main_arg5)) (m ((c : Thread nD τ).loc main_arg6)) i v := by
  have hW4 : (W4 (F := Ideal) m ρ c (Proc.devRef .tc main_v29) : S50000x1024.Idx → EReal)
      = ((dat1 (F := Ideal) (V3 m ρ) c).arrAt 7 cfg1.N : S50000x1024.Idx → EReal) := W4_arr m ρ c 7
  have hW2 : (V2 (F := Ideal) m ρ c main_v23 : S500000x256.Idx → EReal)
      = ((dat0 (F := Ideal) (V1 m ρ) c).arrAt 1 cfg0.N : S500000x256.Idx → EReal) := W2_arr m ρ c 1
  refine (congrFun hW4 _).trans ?_
  refine (R1.node_array (V3 m ρ) c n i v).trans ?_
  refine Cert.Spec.nodeVal_congr (fun u => ?_) (fun u => ?_) (HostK.V3_main_arg2 m ρ c) (HostK.V3_main_arg3 m ρ c)
    (HostK.V3_main_arg4 m ρ c) (HostK.V3_main_arg5 m ρ c) (HostK.V3_main_arg6 m ρ c) i v
  · refine (HostK.agg_in m ρ c n ⟨16 * i.val + u.val, by omega⟩).trans ?_
    refine Cert.Spec.aggVal_congr _ n (fun e => ?_)
    refine (congrFun hW2 _).trans ?_
    refine (R0.edge_array (V1 m ρ) c e i u).trans ?_
    exact Cert.Spec.edgeK_congr (fun k => HostK.edge_in_rel m ρ c e k) (fun u' => HostK.edge_in_s m ρ c e u') i u
  · exact congrFun (HostK.V3_main_arg1 m ρ c) (ix2 n u)

end Cert.EdgeNode.KSide

end
-- ==== Proof.RefEdge.lean ====
import proofs.«181800_j70411693850655_1_alg».proof.Proof.RefRead
import proofs.«181800_j70411693850655_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.EdgeNode.RefEdge

open Idealize.ShloMosaic Idealize.ShloMosaic.TcCoe Idealize.ShloMosaic.ValueIdx Idealize.SL.Sem
open Cert.ReferenceIdeal Cert.ReferenceIdeal.Gen Cert.ReferenceIdeal.ReadP

section Stages

open Cert.Spec (a0 a1 a2 a3 a4 b0 b1 b2 b3 b4 b5 b6 k3 k5 k7 shc dirR normR edgeR)

/-! ## A reading used throughout -/

/-- A per-edge vector `f` made a column `g` (entry `(e, 0)` of `g` is entry `e` of `f`), read at `(e, 0)`. -/
theorem bcol (f : S500000.Idx → EReal) (g : S500000x1.Idx → EReal) (idx : S500000x1.Idx → S500000.Idx)
    (hg : ∀ i, g i = f (idx i)) (hidx : ∀ i, ((idx i) 0).val = (i 0).val) (e : Fin 500000) :
    g (ix2 e 0) = f (ix1 e) := by
  rw [hg]
  refine congrArg f (funext fun a => ?_)
  match a with
  | ⟨0, _⟩ => exact Fin.ext (hidx _)

variable (x0 : FVec Ideal S50000x3 .f32) (x1 : FVec Ideal S50000x16 .f32) (x7 x8 : IVec S500000 32)

/-! ## The gathered arrays

The reference wraps a negative node index once by 50000, makes the index vector a column and gathers rows: of the
positions at the receivers and at the senders (their difference is the relative vector), and of the node scalars at
the senders. These are the shared definitions at the same arguments. -/

theorem rel_eq : val_main_v14 (F := Ideal) x0 x7 x8 = Cert.Spec.relArr x0 x7 x8 := rfl

theorem s_eq : val_main_v115 (F := Ideal) x1 x7 = Cert.Spec.sArr x1 x7 := rfl

/-! ## The norm and the direction -/

/-- The norm column at `(e, 0)`: the square root of zero plus the sum of the three squared components. -/
theorem norm_eq (e : Fin 500000) :
    val_main_v15 (F := Ideal) x0 x7 x8 (ix2 e 0) = normR (fun k => val_main_v14 (F := Ideal) x0 x7 x8 (ix2 e k)) := by
  rewrite [val_main_v15_apply, val_main_call0_v2_apply, val_main_call0_v1_apply, val_main_call0_cst_apply]
  refine congrArg (fun t => Ideal.sqrt (Ideal.ofBits .f32 0x00000000#32 + t)) (Finset.sum_congr rfl fun k _ => ?_)
  have hidx : idx_main_call0_v1 (idx_main_call0_v2 (ix2 e 0)) k = ix2 e k :=
    funext fun a => by match a with | ⟨0, _⟩ => rfl | ⟨1, _⟩ => rfl
  rewrite [hidx]
  rfl

/-- The quotient array at `(e, k)`: component `k` over the norm. -/
theorem dir_eq (e : Fin 500000) (k : Fin 3) :
    val_main_v17 (F := Ideal) x0 x7 x8 (ix2 e k) = dirR (fun k => val_main_v14 (F := Ideal) x0 x7 x8 (ix2 e k)) k := by
  rw [val_main_v17_apply, val_main_v16_apply]
  have hidx : idx_main_v16 (ix2 e k) = ix2 e 0 :=
    funext fun a => by match a with | ⟨0, _⟩ => rfl | ⟨1, _⟩ => rfl
  rewrite [hidx, norm_eq]
  rfl

/-- The three components as per-edge vectors (a column sliced out of the quotient array, then flattened). -/
theorem x_eq (e : Fin 500000) :
    val_main_v19 (F := Ideal) x0 x7 x8 (ix1 e) = dirR (fun k => val_main_v14 (F := Ideal) x0 x7 x8 (ix2 e k)) 0 := by
  rw [val_main_v19_apply, val_main_v18_apply]
  have hidx : idx_main_v18 (idx_main_v19 (ix1 e)) = ix2 e 0 :=
    funext fun a => by
      match a with
      | ⟨0, _⟩ => exact Fin.ext (Nat.div_one _)
      | ⟨1, _⟩ => rfl
  rw [hidx]
  exact dir_eq x0 x7 x8 e 0

theorem y_eq (e : Fin 500000) :
    val_main_v21 (F := Ideal) x0 x7 x8 (ix1 e) = dirR (fun k => val_main_v14 (F := Ideal) x0 x7 x8 (ix2 e k)) 1 := by
  rw [val_main_v21_apply, val_main_v20_apply]
  have hidx : idx_main_v20 (idx_main_v21 (ix1 e)) = ix2 e 1 :=
    funext fun a => by
      match a with
      | ⟨0, _⟩ => exact Fin.ext (Nat.div_one _)
      | ⟨1, _⟩ => rfl
  rw [hidx]
  exact dir_eq x0 x7 x8 e 1

theorem z_eq (e : Fin 500000) :
    val_main_v23 (F := Ideal) x0 x7 x8 (ix1 e) = dirR (fun k => val_main_v14 (F := Ideal) x0 x7 x8 (ix2 e k)) 2 := by
  rw [val_main_v23_apply, val_main_v22_apply]
  have hidx : idx_main_v22 (idx_main_v23 (ix1 e)) = ix2 e 2 :=
    funext fun a => by
      match a with
      | ⟨0, _⟩ => exact Fin.ext (Nat.div_one _)
      | ⟨1, _⟩ => rfl
  rw [hidx]
  exact dir_eq x0 x7 x8 e 2

/-! ## The harmonics before their common factors

Each per-edge stage is, entry by entry, the shared expression in the three direction components: products, sums and
differences of entries and of constants spread over the edges. -/

theorem st_a0 (i : S500000.Idx) :
    val_main_v35 (F := Ideal) x0 x7 x8 i = a0 (val_main_v19 (F := Ideal) x0 x7 x8 i) (val_main_v21 (F := Ideal) x0 x7 x8 i) (val_main_v23 (F := Ideal) x0 x7 x8 i) := by
  rewrite [val_main_v35_apply, val_main_v34_apply, val_main_v33_apply, val_main_cst_3_apply]
  rfl

theorem st_a1 (i : S500000.Idx) :
    val_main_v38 (F := Ideal) x0 x7 x8 i = a1 (val_main_v19 (F := Ideal) x0 x7 x8 i) (val_main_v21 (F := Ideal) x0 x7 x8 i) (val_main_v23 (F := Ideal) x0 x7 x8 i) := by
  rewrite [val_main_v38_apply, val_main_v37_apply, val_main_v36_apply, val_main_cst_4_apply]
  rfl

theorem st_a2 (i : S500000.Idx) :
    val_main_v42 (F := Ideal) x0 x7 x8 i = a2 (val_main_v19 (F := Ideal) x0 x7 x8 i) (val_main_v21 (F := Ideal) x0 x7 x8 i) (val_main_v23 (F := Ideal) x0 x7 x8 i) := by
  rewrite [val_main_v42_apply, val_main_v25_apply, val_main_v41_apply, val_main_v40_apply, val_main_cst_5_apply,
    val_main_v39_apply, val_main_v24_apply, val_main_v26_apply]
  rfl

theorem st_a3 (i : S500000.Idx) :
    val_main_v45 (F := Ideal) x0 x7 x8 i = a3 (val_main_v19 (F := Ideal) x0 x7 x8 i) (val_main_v21 (F := Ideal) x0 x7 x8 i) (val_main_v23 (F := Ideal) x0 x7 x8 i) := by
  rewrite [val_main_v45_apply, val_main_v44_apply, val_main_v43_apply, val_main_cst_6_apply]
  rfl

theorem st_a4 (i : S500000.Idx) :
    val_main_v48 (F := Ideal) x0 x7 x8 i = a4 (val_main_v19 (F := Ideal) x0 x7 x8 i) (val_main_v21 (F := Ideal) x0 x7 x8 i) (val_main_v23 (F := Ideal) x0 x7 x8 i) := by
  rewrite [val_main_v48_apply, val_main_v47_apply, val_main_cst_7_apply, val_main_v46_apply, val_main_v26_apply,
    val_main_v24_apply]
  rfl

theorem st_b0 (i : S500000.Idx) :
    val_main_v61 (F := Ideal) x0 x7 x8 i = b0 (val_main_v19 (F := Ideal) x0 x7 x8 i) (val_main_v21 (F := Ideal) x0 x7 x8 i) (val_main_v23 (F := Ideal) x0 x7 x8 i) := by
  rewrite [val_main_v61_apply, val_main_v60_apply, val_main_cst_9_apply, val_main_v59_apply, val_main_v57_apply,
    val_main_v58_apply, st_a0 x0 x7 x8 i, st_a4 x0 x7 x8 i]
  rfl

theorem st_b1 (i : S500000.Idx) :
    val_main_v64 (F := Ideal) x0 x7 x8 i = b1 (val_main_v19 (F := Ideal) x0 x7 x8 i) (val_main_v21 (F := Ideal) x0 x7 x8 i) (val_main_v23 (F := Ideal) x0 x7 x8 i) := by
  rewrite [val_main_v64_apply, val_main_v63_apply, val_main_v62_apply, val_main_cst_10_apply, st_a0 x0 x7 x8 i]
  rfl

theorem st_b2 (i : S500000.Idx) :
    val_main_v71 (F := Ideal) x0 x7 x8 i = b2 (val_main_v19 (F := Ideal) x0 x7 x8 i) (val_main_v21 (F := Ideal) x0 x7 x8 i) (val_main_v23 (F := Ideal) x0 x7 x8 i) := by
  rewrite [val_main_v71_apply, val_main_v70_apply, val_main_v69_apply, val_main_cst_12_apply,
    val_main_v68_apply, val_main_v67_apply, val_main_v66_apply, val_main_v65_apply,
    val_main_cst_11_apply, val_main_v25_apply, val_main_v24_apply, val_main_v26_apply]
  rfl

theorem st_b3 (i : S500000.Idx) :
    val_main_v82 (F := Ideal) x0 x7 x8 i = b3 (val_main_v19 (F := Ideal) x0 x7 x8 i) (val_main_v21 (F := Ideal) x0 x7 x8 i) (val_main_v23 (F := Ideal) x0 x7 x8 i) := by
  rewrite [val_main_v82_apply, val_main_v73_apply, val_main_v72_apply, val_main_cst_13_apply,
    val_main_v81_apply, val_main_v78_apply, val_main_v75_apply, val_main_v74_apply,
    val_main_cst_14_apply, val_main_v77_apply, val_main_v76_apply, val_main_cst_15_apply,
    val_main_v80_apply, val_main_v79_apply, val_main_cst_16_apply, val_main_v25_apply,
    val_main_v24_apply, val_main_v26_apply]
  rfl

theorem st_b4 (i : S500000.Idx) :
    val_main_v89 (F := Ideal) x0 x7 x8 i = b4 (val_main_v19 (F := Ideal) x0 x7 x8 i) (val_main_v21 (F := Ideal) x0 x7 x8 i) (val_main_v23 (F := Ideal) x0 x7 x8 i) := by
  rewrite [val_main_v89_apply, val_main_v84_apply, val_main_v83_apply, val_main_cst_17_apply,
    val_main_v88_apply, val_main_v87_apply, val_main_v86_apply, val_main_v85_apply,
    val_main_cst_18_apply, val_main_v25_apply, val_main_v24_apply, val_main_v26_apply]
  rfl

theorem st_b5 (i : S500000.Idx) :
    val_main_v92 (F := Ideal) x0 x7 x8 i = b5 (val_main_v19 (F := Ideal) x0 x7 x8 i) (val_main_v21 (F := Ideal) x0 x7 x8 i) (val_main_v23 (F := Ideal) x0 x7 x8 i) := by
  rewrite [val_main_v92_apply, val_main_v91_apply, val_main_v90_apply, val_main_cst_19_apply, st_a4 x0 x7 x8 i]
  rfl

theorem st_b6 (i : S500000.Idx) :
    val_main_v97 (F := Ideal) x0 x7 x8 i = b6 (val_main_v19 (F := Ideal) x0 x7 x8 i) (val_main_v21 (F := Ideal) x0 x7 x8 i) (val_main_v23 (F := Ideal) x0 x7 x8 i) := by
  rewrite [val_main_v97_apply, val_main_v96_apply, val_main_cst_20_apply, val_main_v95_apply,
    val_main_v93_apply, val_main_v94_apply, st_a4 x0 x7 x8 i, st_a0 x0 x7 x8 i]
  rfl

/-! ## The fifteen columns joined: columns 0..2, 3..7, 8..14 come from the three groups -/

theorem v108_lo (e : Fin 500000) (c : Fin 3) :
    val_main_v108 (F := Ideal) x0 x7 x8 (ix2 e ⟨c.val, Nat.lt_of_lt_of_le c.isLt (by decide)⟩) = val_main_v32 (F := Ideal) x0 x7 x8 (ix2 e c) := by
  unfold val_main_v108
  exact concatenate_apply_piece (t := S500000x15) 1
    [⟨S500000x3, val_main_v32 (F := Ideal) x0 x7 x8⟩, ⟨S500000x5, val_main_v56 (F := Ideal) x0 x7 x8⟩, ⟨S500000x7, val_main_v107 (F := Ideal) x0 x7 x8⟩]
    concatenates_S500000x3_S500000x5_S500000x7_S500000x15_d1 _
    0 (show (0 : Nat) < 3 by decide) S500000x3 _ rfl rfl 0 rfl (ix2 e c)
    (fun b hb => by match b with | ⟨0, _⟩ => rfl | ⟨1, _⟩ => exact absurd rfl hb) (Nat.zero_add _)

theorem v108_mid (e : Fin 500000) (c : Fin 5) :
    val_main_v108 (F := Ideal) x0 x7 x8 (ix2 e ⟨3 + c.val, by have := c.isLt; omega⟩) = val_main_v56 (F := Ideal) x0 x7 x8 (ix2 e c) := by
  unfold val_main_v108
  exact concatenate_apply_piece (t := S500000x15) 1
    [⟨S500000x3, val_main_v32 (F := Ideal) x0 x7 x8⟩, ⟨S500000x5, val_main_v56 (F := Ideal) x0 x7 x8⟩, ⟨S500000x7, val_main_v107 (F := Ideal) x0 x7 x8⟩]
    concatenates_S500000x3_S500000x5_S500000x7_S500000x15_d1 _
    1 (show (1 : Nat) < 3 by decide) S500000x5 _ rfl rfl 3 rfl (ix2 e c)
    (fun b hb => by match b with | ⟨0, _⟩ => rfl | ⟨1, _⟩ => exact absurd rfl hb) rfl

theorem v108_hi (e : Fin 500000) (c : Fin 7) :
    val_main_v108 (F := Ideal) x0 x7 x8 (ix2 e ⟨8 + c.val, by have := c.isLt; omega⟩) = val_main_v107 (F := Ideal) x0 x7 x8 (ix2 e c) := by
  unfold val_main_v108
  exact concatenate_apply_piece (t := S500000x15) 1
    [⟨S500000x3, val_main_v32 (F := Ideal) x0 x7 x8⟩, ⟨S500000x5, val_main_v56 (F := Ideal) x0 x7 x8⟩, ⟨S500000x7, val_main_v107 (F := Ideal) x0 x7 x8⟩]
    concatenates_S500000x3_S500000x5_S500000x7_S500000x15_d1 _
    2 (show (2 : Nat) < 3 by decide) S500000x7 _ rfl rfl 8 rfl (ix2 e c)
    (fun b hb => by match b with | ⟨0, _⟩ => rfl | ⟨1, _⟩ => exact absurd rfl hb) rfl

/-! ## One column at a time: the joined array's column, the group's column times the group's factor, the per-edge stage -/

theorem col_0 (e : Fin 500000) :
    val_main_v108 (F := Ideal) x0 x7 x8 (ix2 e ⟨0, by decide⟩) = k3 * (val_main_v19 (F := Ideal) x0 x7 x8 (ix1 e)) := by
  have hin : val_main_v30 (F := Ideal) x0 x7 x8 (ix2 e 0) = val_main_v19 (F := Ideal) x0 x7 x8 (ix1 e) := by
    unfold val_main_v30
    refine (concatenate_apply_piece (t := S500000x3) 1
      [⟨S500000x1, val_main_v27 (F := Ideal) x0 x7 x8⟩, ⟨S500000x1, val_main_v28 (F := Ideal) x0 x7 x8⟩, ⟨S500000x1, val_main_v29 (F := Ideal) x0 x7 x8⟩]
      concatenates_S500000x1_S500000x1_S500000x1_S500000x3_d1 _
      0 (show (0 : Nat) < 3 by decide) S500000x1 _ rfl rfl 0 rfl (ix2 e 0)
      (fun b hb => by match b with | ⟨0, _⟩ => rfl | ⟨1, _⟩ => exact absurd rfl hb) rfl).trans ?_
    exact bcol (val_main_v19 (F := Ideal) x0 x7 x8) (val_main_v27 (F := Ideal) x0 x7 x8) idx_main_v27 (val_main_v27_apply (F := Ideal) x0 x7 x8)
      (fun _ => rfl) e
  refine (v108_lo x0 x7 x8 e 0).trans ?_
  rewrite [val_main_v32_apply, val_main_v31_apply, val_main_cst_apply, hin]
  rfl

theorem col_1 (e : Fin 500000) :
    val_main_v108 (F := Ideal) x0 x7 x8 (ix2 e ⟨1, by decide⟩) = k3 * (val_main_v21 (F := Ideal) x0 x7 x8 (ix1 e)) := by
  have hin : val_main_v30 (F := Ideal) x0 x7 x8 (ix2 e 1) = val_main_v21 (F := Ideal) x0 x7 x8 (ix1 e) := by
    unfold val_main_v30
    refine (concatenate_apply_piece (t := S500000x3) 1
      [⟨S500000x1, val_main_v27 (F := Ideal) x0 x7 x8⟩, ⟨S500000x1, val_main_v28 (F := Ideal) x0 x7 x8⟩, ⟨S500000x1, val_main_v29 (F := Ideal) x0 x7 x8⟩]
      concatenates_S500000x1_S500000x1_S500000x1_S500000x3_d1 _
      1 (show (1 : Nat) < 3 by decide) S500000x1 _ rfl rfl 1 rfl (ix2 e 0)
      (fun b hb => by match b with | ⟨0, _⟩ => rfl | ⟨1, _⟩ => exact absurd rfl hb) rfl).trans ?_
    exact bcol (val_main_v21 (F := Ideal) x0 x7 x8) (val_main_v28 (F := Ideal) x0 x7 x8) idx_main_v28 (val_main_v28_apply (F := Ideal) x0 x7 x8)
      (fun _ => rfl) e
  refine (v108_lo x0 x7 x8 e 1).trans ?_
  rewrite [val_main_v32_apply, val_main_v31_apply, val_main_cst_apply, hin]
  rfl

theorem col_2 (e : Fin 500000) :
    val_main_v108 (F := Ideal) x0 x7 x8 (ix2 e ⟨2, by decide⟩) = k3 * (val_main_v23 (F := Ideal) x0 x7 x8 (ix1 e)) := by
  have hin : val_main_v30 (F := Ideal) x0 x7 x8 (ix2 e 2) = val_main_v23 (F := Ideal) x0 x7 x8 (ix1 e) := by
    unfold val_main_v30
    refine (concatenate_apply_piece (t := S500000x3) 1
      [⟨S500000x1, val_main_v27 (F := Ideal) x0 x7 x8⟩, ⟨S500000x1, val_main_v28 (F := Ideal) x0 x7 x8⟩, ⟨S500000x1, val_main_v29 (F := Ideal) x0 x7 x8⟩]
      concatenates_S500000x1_S500000x1_S500000x1_S500000x3_d1 _
      2 (show (2 : Nat) < 3 by decide) S500000x1 _ rfl rfl 2 rfl (ix2 e 0)
      (fun b hb => by match b with | ⟨0, _⟩ => rfl | ⟨1, _⟩ => exact absurd rfl hb) rfl).trans ?_
    exact bcol (val_main_v23 (F := Ideal) x0 x7 x8) (val_main_v29 (F := Ideal) x0 x7 x8) idx_main_v29 (val_main_v29_apply (F := Ideal) x0 x7 x8)
      (fun _ => rfl) e
  refine (v108_lo x0 x7 x8 e 2).trans ?_
  rewrite [val_main_v32_apply, val_main_v31_apply, val_main_cst_apply, hin]
  rfl

theorem col_3 (e : Fin 500000) :
    val_main_v108 (F := Ideal) x0 x7 x8 (ix2 e ⟨3, by decide⟩) = k5 * (a0 (val_main_v19 (F := Ideal) x0 x7 x8 (ix1 e)) (val_main_v21 (F := Ideal) x0 x7 x8 (ix1 e)) (val_main_v23 (F := Ideal) x0 x7 x8 (ix1 e))) := by
  have hin : val_main_v54 (F := Ideal) x0 x7 x8 (ix2 e 0) = a0 (val_main_v19 (F := Ideal) x0 x7 x8 (ix1 e)) (val_main_v21 (F := Ideal) x0 x7 x8 (ix1 e)) (val_main_v23 (F := Ideal) x0 x7 x8 (ix1 e)) := by
    unfold val_main_v54
    refine (concatenate_apply_piece (t := S500000x5) 1
      [⟨S500000x1, val_main_v49 (F := Ideal) x0 x7 x8⟩, ⟨S500000x1, val_main_v50 (F := Ideal) x0 x7 x8⟩, ⟨S500000x1, val_main_v51 (F := Ideal) x0 x7 x8⟩, ⟨S500000x1, val_main_v52 (F := Ideal) x0 x7 x8⟩, ⟨S500000x1, val_main_v53 (F := Ideal) x0 x7 x8⟩]
      concatenates_S500000x1_S500000x1_S500000x1_S500000x1_S500000x1_S500000x5_d1 _
      0 (show (0 : Nat) < 5 by decide) S500000x1 _ rfl rfl 0 rfl (ix2 e 0)
      (fun b hb => by match b with | ⟨0, _⟩ => rfl | ⟨1, _⟩ => exact absurd rfl hb) rfl).trans ?_
    exact (bcol (val_main_v35 (F := Ideal) x0 x7 x8) (val_main_v49 (F := Ideal) x0 x7 x8) idx_main_v49 (val_main_v49_apply (F := Ideal) x0 x7 x8)
      (fun _ => rfl) e).trans (st_a0 x0 x7 x8 (ix1 e))
  refine (v108_mid x0 x7 x8 e 0).trans ?_
  rewrite [val_main_v56_apply, val_main_v55_apply, val_main_cst_8_apply, hin]
  rfl

theorem col_4 (e : Fin 500000) :
    val_main_v108 (F := Ideal) x0 x7 x8 (ix2 e ⟨4, by decide⟩) = k5 * (a1 (val_main_v19 (F := Ideal) x0 x7 x8 (ix1 e)) (val_main_v21 (F := Ideal) x0 x7 x8 (ix1 e)) (val_main_v23 (F := Ideal) x0 x7 x8 (ix1 e))) := by
  have hin : val_main_v54 (F := Ideal) x0 x7 x8 (ix2 e 1) = a1 (val_main_v19 (F := Ideal) x0 x7 x8 (ix1 e)) (val_main_v21 (F := Ideal) x0 x7 x8 (ix1 e)) (val_main_v23 (F := Ideal) x0 x7 x8 (ix1 e)) := by
    unfold val_main_v54
    refine (concatenate_apply_piece (t := S500000x5) 1
      [⟨S500000x1, val_main_v49 (F := Ideal) x0 x7 x8⟩, ⟨S500000x1, val_main_v50 (F := Ideal) x0 x7 x8⟩, ⟨S500000x1, val_main_v51 (F := Ideal) x0 x7 x8⟩, ⟨S500000x1, val_main_v52 (F := Ideal) x0 x7 x8⟩, ⟨S500000x1, val_main_v53 (F := Ideal) x0 x7 x8⟩]
      concatenates_S500000x1_S500000x1_S500000x1_S500000x1_S500000x1_S500000x5_d1 _
      1 (show (1 : Nat) < 5 by decide) S500000x1 _ rfl rfl 1 rfl (ix2 e 0)
      (fun b hb => by match b with | ⟨0, _⟩ => rfl | ⟨1, _⟩ => exact absurd rfl hb) rfl).trans ?_
    exact (bcol (val_main_v38 (F := Ideal) x0 x7 x8) (val_main_v50 (F := Ideal) x0 x7 x8) idx_main_v50 (val_main_v50_apply (F := Ideal) x0 x7 x8)
      (fun _ => rfl) e).trans (st_a1 x0 x7 x8 (ix1 e))
  refine (v108_mid x0 x7 x8 e 1).trans ?_
  rewrite [val_main_v56_apply, val_main_v55_apply, val_main_cst_8_apply, hin]
  rfl

theorem col_5 (e : Fin 500000) :
    val_main_v108 (F := Ideal) x0 x7 x8 (ix2 e ⟨5, by decide⟩) = k5 * (a2 (val_main_v19 (F := Ideal) x0 x7 x8 (ix1 e)) (val_main_v21 (F := Ideal) x0 x7 x8 (ix1 e)) (val_main_v23 (F := Ideal) x0 x7 x8 (ix1 e))) := by
  have hin : val_main_v54 (F := Ideal) x0 x7 x8 (ix2 e 2) = a2 (val_main_v19 (F := Ideal) x0 x7 x8 (ix1 e)) (val_main_v21 (F := Ideal) x0 x7 x8 (ix1 e)) (val_main_v23 (F := Ideal) x0 x7 x8 (ix1 e)) := by
    unfold val_main_v54
    refine (concatenate_apply_piece (t := S500000x5) 1
      [⟨S500000x1, val_main_v49 (F := Ideal) x0 x7 x8⟩, ⟨S500000x1, val_main_v50 (F := Ideal) x0 x7 x8⟩, ⟨S500000x1, val_main_v51 (F := Ideal) x0 x7 x8⟩, ⟨S500000x1, val_main_v52 (F := Ideal) x0 x7 x8⟩, ⟨S500000x1, val_main_v53 (F := Ideal) x0 x7 x8⟩]
      concatenates_S500000x1_S500000x1_S500000x1_S500000x1_S500000x1_S500000x5_d1 _
      2 (show (2 : Nat) < 5 by decide) S500000x1 _ rfl rfl 2 rfl (ix2 e 0)
      (fun b hb => by match b with | ⟨0, _⟩ => rfl | ⟨1, _⟩ => exact absurd rfl hb) rfl).trans ?_
    exact (bcol (val_main_v42 (F := Ideal) x0 x7 x8) (val_main_v51 (F := Ideal) x0 x7 x8) idx_main_v51 (val_main_v51_apply (F := Ideal) x0 x7 x8)
      (fun _ => rfl) e).trans (st_a2 x0 x7 x8 (ix1 e))
  refine (v108_mid x0 x7 x8 e 2).trans ?_
  rewrite [val_main_v56_apply, val_main_v55_apply, val_main_cst_8_apply, hin]
  rfl

theorem col_6 (e : Fin 500000) :
    val_main_v108 (F := Ideal) x0 x7 x8 (ix2 e ⟨6, by decide⟩) = k5 * (a3 (val_main_v19 (F := Ideal) x0 x7 x8 (ix1 e)) (val_main_v21 (F := Ideal) x0 x7 x8 (ix1 e)) (val_main_v23 (F := Ideal) x0 x7 x8 (ix1 e))) := by
  have hin : val_main_v54 (F := Ideal) x0 x7 x8 (ix2 e 3) = a3 (val_main_v19 (F := Ideal) x0 x7 x8 (ix1 e)) (val_main_v21 (F := Ideal) x0 x7 x8 (ix1 e)) (val_main_v23 (F := Ideal) x0 x7 x8 (ix1 e)) := by
    unfold val_main_v54
    refine (concatenate_apply_piece (t := S500000x5) 1
      [⟨S500000x1, val_main_v49 (F := Ideal) x0 x7 x8⟩, ⟨S500000x1, val_main_v50 (F := Ideal) x0 x7 x8⟩, ⟨S500000x1, val_main_v51 (F := Ideal) x0 x7 x8⟩, ⟨S500000x1, val_main_v52 (F := Ideal) x0 x7 x8⟩, ⟨S500000x1, val_main_v53 (F := Ideal) x0 x7 x8⟩]
      concatenates_S500000x1_S500000x1_S500000x1_S500000x1_S500000x1_S500000x5_d1 _
      3 (show (3 : Nat) < 5 by decide) S500000x1 _ rfl rfl 3 rfl (ix2 e 0)
      (fun b hb => by match b with | ⟨0, _⟩ => rfl | ⟨1, _⟩ => exact absurd rfl hb) rfl).trans ?_
    exact (bcol (val_main_v45 (F := Ideal) x0 x7 x8) (val_main_v52 (F := Ideal) x0 x7 x8) idx_main_v52 (val_main_v52_apply (F := Ideal) x0 x7 x8)
      (fun _ => rfl) e).trans (st_a3 x0 x7 x8 (ix1 e))
  refine (v108_mid x0 x7 x8 e 3).trans ?_
  rewrite [val_main_v56_apply, val_main_v55_apply, val_main_cst_8_apply, hin]
  rfl

theorem col_7 (e : Fin 500000) :
    val_main_v108 (F := Ideal) x0 x7 x8 (ix2 e ⟨7, by decide⟩) = k5 * (a4 (val_main_v19 (F := Ideal) x0 x7 x8 (ix1 e)) (val_main_v21 (F := Ideal) x0 x7 x8 (ix1 e)) (val_main_v23 (F := Ideal) x0 x7 x8 (ix1 e))) := by
  have hin : val_main_v54 (F := Ideal) x0 x7 x8 (ix2 e 4) = a4 (val_main_v19 (F := Ideal) x0 x7 x8 (ix1 e)) (val_main_v21 (F := Ideal) x0 x7 x8 (ix1 e)) (val_main_v23 (F := Ideal) x0 x7 x8 (ix1 e)) := by
    unfold val_main_v54
    refine (concatenate_apply_piece (t := S500000x5) 1
      [⟨S500000x1, val_main_v49 (F := Ideal) x0 x7 x8⟩, ⟨S500000x1, val_main_v50 (F := Ideal) x0 x7 x8⟩, ⟨S500000x1, val_main_v51 (F := Ideal) x0 x7 x8⟩, ⟨S500000x1, val_main_v52 (F := Ideal) x0 x7 x8⟩, ⟨S500000x1, val_main_v53 (F := Ideal) x0 x7 x8⟩]
      concatenates_S500000x1_S500000x1_S500000x1_S500000x1_S500000x1_S500000x5_d1 _
      4 (show (4 : Nat) < 5 by decide) S500000x1 _ rfl rfl 4 rfl (ix2 e 0)
      (fun b hb => by match b with | ⟨0, _⟩ => rfl | ⟨1, _⟩ => exact absurd rfl hb) rfl).trans ?_
    exact (bcol (val_main_v48 (F := Ideal) x0 x7 x8) (val_main_v53 (F := Ideal) x0 x7 x8) idx_main_v53 (val_main_v53_apply (F := Ideal) x0 x7 x8)
      (fun _ => rfl) e).trans (st_a4 x0 x7 x8 (ix1 e))
  refine (v108_mid x0 x7 x8 e 4).trans ?_
  rewrite [val_main_v56_apply, val_main_v55_apply, val_main_cst_8_apply, hin]
  rfl

theorem col_8 (e : Fin 500000) :
    val_main_v108 (F := Ideal) x0 x7 x8 (ix2 e ⟨8, by decide⟩) = k7 * (b0 (val_main_v19 (F := Ideal) x0 x7 x8 (ix1 e)) (val_main_v21 (F := Ideal) x0 x7 x8 (ix1 e)) (val_main_v23 (F := Ideal) x0 x7 x8 (ix1 e))) := by
  have hin : val_main_v105 (F := Ideal) x0 x7 x8 (ix2 e 0) = b0 (val_main_v19 (F := Ideal) x0 x7 x8 (ix1 e)) (val_main_v21 (F := Ideal) x0 x7 x8 (ix1 e)) (val_main_v23 (F := Ideal) x0 x7 x8 (ix1 e)) := by
    unfold val_main_v105
    refine (concatenate_apply_piece (t := S500000x7) 1
      [⟨S500000x1, val_main_v98 (F := Ideal) x0 x7 x8⟩, ⟨S500000x1, val_main_v99 (F := Ideal) x0 x7 x8⟩, ⟨S500000x1, val_main_v100 (F := Ideal) x0 x7 x8⟩, ⟨S500000x1, val_main_v101 (F := Ideal) x0 x7 x8⟩, ⟨S500000x1, val_main_v102 (F := Ideal) x0 x7 x8⟩, ⟨S500000x1, val_main_v103 (F := Ideal) x0 x7 x8⟩, ⟨S500000x1, val_main_v104 (F := Ideal) x0 x7 x8⟩]
      concatenates_S500000x1_S500000x1_S500000x1_S500000x1_S500000x1_S500000x1_S500000x1_S500000x7_d1 _
      0 (show (0 : Nat) < 7 by decide) S500000x1 _ rfl rfl 0 rfl (ix2 e 0)
      (fun b hb => by match b with | ⟨0, _⟩ => rfl | ⟨1, _⟩ => exact absurd rfl hb) rfl).trans ?_
    exact (bcol (val_main_v61 (F := Ideal) x0 x7 x8) (val_main_v98 (F := Ideal) x0 x7 x8) idx_main_v98 (val_main_v98_apply (F := Ideal) x0 x7 x8)
      (fun _ => rfl) e).trans (st_b0 x0 x7 x8 (ix1 e))
  refine (v108_hi x0 x7 x8 e 0).trans ?_
  rewrite [val_main_v107_apply, val_main_v106_apply, val_main_cst_21_apply, hin]
  rfl

theorem col_9 (e : Fin 500000) :
    val_main_v108 (F := Ideal) x0 x7 x8 (ix2 e ⟨9, by decide⟩) = k7 * (b1 (val_main_v19 (F := Ideal) x0 x7 x8 (ix1 e)) (val_main_v21 (F := Ideal) x0 x7 x8 (ix1 e)) (val_main_v23 (F := Ideal) x0 x7 x8 (ix1 e))) := by
  have hin : val_main_v105 (F := Ideal) x0 x7 x8 (ix2 e 1) = b1 (val_main_v19 (F := Ideal) x0 x7 x8 (ix1 e)) (val_main_v21 (F := Ideal) x0 x7 x8 (ix1 e)) (val_main_v23 (F := Ideal) x0 x7 x8 (ix1 e)) := by
    unfold val_main_v105
    refine (concatenate_apply_piece (t := S500000x7) 1
      [⟨S500000x1, val_main_v98 (F := Ideal) x0 x7 x8⟩, ⟨S500000x1, val_main_v99 (F := Ideal) x0 x7 x8⟩, ⟨S500000x1, val_main_v100 (F := Ideal) x0 x7 x8⟩, ⟨S500000x1, val_main_v101 (F := Ideal) x0 x7 x8⟩, ⟨S500000x1, val_main_v102 (F := Ideal) x0 x7 x8⟩, ⟨S500000x1, val_main_v103 (F := Ideal) x0 x7 x8⟩, ⟨S500000x1, val_main_v104 (F := Ideal) x0 x7 x8⟩]
      concatenates_S500000x1_S500000x1_S500000x1_S500000x1_S500000x1_S500000x1_S500000x1_S500000x7_d1 _
      1 (show (1 : Nat) < 7 by decide) S500000x1 _ rfl rfl 1 rfl (ix2 e 0)
      (fun b hb => by match b with | ⟨0, _⟩ => rfl | ⟨1, _⟩ => exact absurd rfl hb) rfl).trans ?_
    exact (bcol (val_main_v64 (F := Ideal) x0 x7 x8) (val_main_v99 (F := Ideal) x0 x7 x8) idx_main_v99 (val_main_v99_apply (F := Ideal) x0 x7 x8)
      (fun _ => rfl) e).trans (st_b1 x0 x7 x8 (ix1 e))
  refine (v108_hi x0 x7 x8 e 1).trans ?_
  rewrite [val_main_v107_apply, val_main_v106_apply, val_main_cst_21_apply, hin]
  rfl

theorem col_10 (e : Fin 500000) :
    val_main_v108 (F := Ideal) x0 x7 x8 (ix2 e ⟨10, by decide⟩) = k7 * (b2 (val_main_v19 (F := Ideal) x0 x7 x8 (ix1 e)) (val_main_v21 (F := Ideal) x0 x7 x8 (ix1 e)) (val_main_v23 (F := Ideal) x0 x7 x8 (ix1 e))) := by
  have hin : val_main_v105 (F := Ideal) x0 x7 x8 (ix2 e 2) = b2 (val_main_v19 (F := Ideal) x0 x7 x8 (ix1 e)) (val_main_v21 (F := Ideal) x0 x7 x8 (ix1 e)) (val_main_v23 (F := Ideal) x0 x7 x8 (ix1 e)) := by
    unfold val_main_v105
    refine (concatenate_apply_piece (t := S500000x7) 1
      [⟨S500000x1, val_main_v98 (F := Ideal) x0 x7 x8⟩, ⟨S500000x1, val_main_v99 (F := Ideal) x0 x7 x8⟩, ⟨S500000x1, val_main_v100 (F := Ideal) x0 x7 x8⟩, ⟨S500000x1, val_main_v101 (F := Ideal) x0 x7 x8⟩, ⟨S500000x1, val_main_v102 (F := Ideal) x0 x7 x8⟩, ⟨S500000x1, val_main_v103 (F := Ideal) x0 x7 x8⟩, ⟨S500000x1, val_main_v104 (F := Ideal) x0 x7 x8⟩]
      concatenates_S500000x1_S500000x1_S500000x1_S500000x1_S500000x1_S500000x1_S500000x1_S500000x7_d1 _
      2 (show (2 : Nat) < 7 by decide) S500000x1 _ rfl rfl 2 rfl (ix2 e 0)
      (fun b hb => by match b with | ⟨0, _⟩ => rfl | ⟨1, _⟩ => exact absurd rfl hb) rfl).trans ?_
    exact (bcol (val_main_v71 (F := Ideal) x0 x7 x8) (val_main_v100 (F := Ideal) x0 x7 x8) idx_main_v100 (val_main_v100_apply (F := Ideal) x0 x7 x8)
      (fun _ => rfl) e).trans (st_b2 x0 x7 x8 (ix1 e))
  refine (v108_hi x0 x7 x8 e 2).trans ?_
  rewrite [val_main_v107_apply, val_main_v106_apply, val_main_cst_21_apply, hin]
  rfl

theorem col_11 (e : Fin 500000) :
    val_main_v108 (F := Ideal) x0 x7 x8 (ix2 e ⟨11, by decide⟩) = k7 * (b3 (val_main_v19 (F := Ideal) x0 x7 x8 (ix1 e)) (val_main_v21 (F := Ideal) x0 x7 x8 (ix1 e)) (val_main_v23 (F := Ideal) x0 x7 x8 (ix1 e))) := by
  have hin : val_main_v105 (F := Ideal) x0 x7 x8 (ix2 e 3) = b3 (val_main_v19 (F := Ideal) x0 x7 x8 (ix1 e)) (val_main_v21 (F := Ideal) x0 x7 x8 (ix1 e)) (val_main_v23 (F := Ideal) x0 x7 x8 (ix1 e)) := by
    unfold val_main_v105
    refine (concatenate_apply_piece (t := S500000x7) 1
      [⟨S500000x1, val_main_v98 (F := Ideal) x0 x7 x8⟩, ⟨S500000x1, val_main_v99 (F := Ideal) x0 x7 x8⟩, ⟨S500000x1, val_main_v100 (F := Ideal) x0 x7 x8⟩, ⟨S500000x1, val_main_v101 (F := Ideal) x0 x7 x8⟩, ⟨S500000x1, val_main_v102 (F := Ideal) x0 x7 x8⟩, ⟨S500000x1, val_main_v103 (F := Ideal) x0 x7 x8⟩, ⟨S500000x1, val_main_v104 (F := Ideal) x0 x7 x8⟩]
      concatenates_S500000x1_S500000x1_S500000x1_S500000x1_S500000x1_S500000x1_S500000x1_S500000x7_d1 _
      3 (show (3 : Nat) < 7 by decide) S500000x1 _ rfl rfl 3 rfl (ix2 e 0)
      (fun b hb => by match b with | ⟨0, _⟩ => rfl | ⟨1, _⟩ => exact absurd rfl hb) rfl).trans ?_
    exact (bcol (val_main_v82 (F := Ideal) x0 x7 x8) (val_main_v101 (F := Ideal) x0 x7 x8) idx_main_v101 (val_main_v101_apply (F := Ideal) x0 x7 x8)
      (fun _ => rfl) e).trans (st_b3 x0 x7 x8 (ix1 e))
  refine (v108_hi x0 x7 x8 e 3).trans ?_
  rewrite [val_main_v107_apply, val_main_v106_apply, val_main_cst_21_apply, hin]
  rfl

theorem col_12 (e : Fin 500000) :
    val_main_v108 (F := Ideal) x0 x7 x8 (ix2 e ⟨12, by decide⟩) = k7 * (b4 (val_main_v19 (F := Ideal) x0 x7 x8 (ix1 e)) (val_main_v21 (F := Ideal) x0 x7 x8 (ix1 e)) (val_main_v23 (F := Ideal) x0 x7 x8 (ix1 e))) := by
  have hin : val_main_v105 (F := Ideal) x0 x7 x8 (ix2 e 4) = b4 (val_main_v19 (F := Ideal) x0 x7 x8 (ix1 e)) (val_main_v21 (F := Ideal) x0 x7 x8 (ix1 e)) (val_main_v23 (F := Ideal) x0 x7 x8 (ix1 e)) := by
    unfold val_main_v105
    refine (concatenate_apply_piece (t := S500000x7) 1
      [⟨S500000x1, val_main_v98 (F := Ideal) x0 x7 x8⟩, ⟨S500000x1, val_main_v99 (F := Ideal) x0 x7 x8⟩, ⟨S500000x1, val_main_v100 (F := Ideal) x0 x7 x8⟩, ⟨S500000x1, val_main_v101 (F := Ideal) x0 x7 x8⟩, ⟨S500000x1, val_main_v102 (F := Ideal) x0 x7 x8⟩, ⟨S500000x1, val_main_v103 (F := Ideal) x0 x7 x8⟩, ⟨S500000x1, val_main_v104 (F := Ideal) x0 x7 x8⟩]
      concatenates_S500000x1_S500000x1_S500000x1_S500000x1_S500000x1_S500000x1_S500000x1_S500000x7_d1 _
      4 (show (4 : Nat) < 7 by decide) S500000x1 _ rfl rfl 4 rfl (ix2 e 0)
      (fun b hb => by match b with | ⟨0, _⟩ => rfl | ⟨1, _⟩ => exact absurd rfl hb) rfl).trans ?_
    exact (bcol (val_main_v89 (F := Ideal) x0 x7 x8) (val_main_v102 (F := Ideal) x0 x7 x8) idx_main_v102 (val_main_v102_apply (F := Ideal) x0 x7 x8)
      (fun _ => rfl) e).trans (st_b4 x0 x7 x8 (ix1 e))
  refine (v108_hi x0 x7 x8 e 4).trans ?_
  rewrite [val_main_v107_apply, val_main_v106_apply, val_main_cst_21_apply, hin]
  rfl

theorem col_13 (e : Fin 500000) :
    val_main_v108 (F := Ideal) x0 x7 x8 (ix2 e ⟨13, by decide⟩) = k7 * (b5 (val_main_v19 (F := Ideal) x0 x7 x8 (ix1 e)) (val_main_v21 (F := Ideal) x0 x7 x8 (ix1 e)) (val_main_v23 (F := Ideal) x0 x7 x8 (ix1 e))) := by
  have hin : val_main_v105 (F := Ideal) x0 x7 x8 (ix2 e 5) = b5 (val_main_v19 (F := Ideal) x0 x7 x8 (ix1 e)) (val_main_v21 (F := Ideal) x0 x7 x8 (ix1 e)) (val_main_v23 (F := Ideal) x0 x7 x8 (ix1 e)) := by
    unfold val_main_v105
    refine (concatenate_apply_piece (t := S500000x7) 1
      [⟨S500000x1, val_main_v98 (F := Ideal) x0 x7 x8⟩, ⟨S500000x1, val_main_v99 (F := Ideal) x0 x7 x8⟩, ⟨S500000x1, val_main_v100 (F := Ideal) x0 x7 x8⟩, ⟨S500000x1, val_main_v101 (F := Ideal) x0 x7 x8⟩, ⟨S500000x1, val_main_v102 (F := Ideal) x0 x7 x8⟩, ⟨S500000x1, val_main_v103 (F := Ideal) x0 x7 x8⟩, ⟨S500000x1, val_main_v104 (F := Ideal) x0 x7 x8⟩]
      concatenates_S500000x1_S500000x1_S500000x1_S500000x1_S500000x1_S500000x1_S500000x1_S500000x7_d1 _
      5 (show (5 : Nat) < 7 by decide) S500000x1 _ rfl rfl 5 rfl (ix2 e 0)
      (fun b hb => by match b with | ⟨0, _⟩ => rfl | ⟨1, _⟩ => exact absurd rfl hb) rfl).trans ?_
    exact (bcol (val_main_v92 (F := Ideal) x0 x7 x8) (val_main_v103 (F := Ideal) x0 x7 x8) idx_main_v103 (val_main_v103_apply (F := Ideal) x0 x7 x8)
      (fun _ => rfl) e).trans (st_b5 x0 x7 x8 (ix1 e))
  refine (v108_hi x0 x7 x8 e 5).trans ?_
  rewrite [val_main_v107_apply, val_main_v106_apply, val_main_cst_21_apply, hin]
  rfl

theorem col_14 (e : Fin 500000) :
    val_main_v108 (F := Ideal) x0 x7 x8 (ix2 e ⟨14, by decide⟩) = k7 * (b6 (val_main_v19 (F := Ideal) x0 x7 x8 (ix1 e)) (val_main_v21 (F := Ideal) x0 x7 x8 (ix1 e)) (val_main_v23 (F := Ideal) x0 x7 x8 (ix1 e))) := by
  have hin : val_main_v105 (F := Ideal) x0 x7 x8 (ix2 e 6) = b6 (val_main_v19 (F := Ideal) x0 x7 x8 (ix1 e)) (val_main_v21 (F := Ideal) x0 x7 x8 (ix1 e)) (val_main_v23 (F := Ideal) x0 x7 x8 (ix1 e)) := by
    unfold val_main_v105
    refine (concatenate_apply_piece (t := S500000x7) 1
      [⟨S500000x1, val_main_v98 (F := Ideal) x0 x7 x8⟩, ⟨S500000x1, val_main_v99 (F := Ideal) x0 x7 x8⟩, ⟨S500000x1, val_main_v100 (F := Ideal) x0 x7 x8⟩, ⟨S500000x1, val_main_v101 (F := Ideal) x0 x7 x8⟩, ⟨S500000x1, val_main_v102 (F := Ideal) x0 x7 x8⟩, ⟨S500000x1, val_main_v103 (F := Ideal) x0 x7 x8⟩, ⟨S500000x1, val_main_v104 (F := Ideal) x0 x7 x8⟩]
      concatenates_S500000x1_S500000x1_S500000x1_S500000x1_S500000x1_S500000x1_S500000x1_S500000x7_d1 _
      6 (show (6 : Nat) < 7 by decide) S500000x1 _ rfl rfl 6 rfl (ix2 e 0)
      (fun b hb => by match b with | ⟨0, _⟩ => rfl | ⟨1, _⟩ => exact absurd rfl hb) rfl).trans ?_
    exact (bcol (val_main_v97 (F := Ideal) x0 x7 x8) (val_main_v104 (F := Ideal) x0 x7 x8) idx_main_v104 (val_main_v104_apply (F := Ideal) x0 x7 x8)
      (fun _ => rfl) e).trans (st_b6 x0 x7 x8 (ix1 e))
  refine (v108_hi x0 x7 x8 e 6).trans ?_
  rewrite [val_main_v107_apply, val_main_v106_apply, val_main_cst_21_apply, hin]
  rfl

/-! ## A sixteen-entry vector read at a numeral row (entries arbitrary), and the harmonics' rows -/

theorem vec16_1 {α : Type} (c0 c1 c2 c3 c4 c5 c6 c7 c8 c9 c10 c11 c12 c13 c14 c15 : α) :
    (![c0, c1, c2, c3, c4, c5, c6, c7, c8, c9, c10, c11, c12, c13, c14, c15] : Fin 16 → α) ⟨1, by decide⟩ = c1 := rfl
theorem vec16_2 {α : Type} (c0 c1 c2 c3 c4 c5 c6 c7 c8 c9 c10 c11 c12 c13 c14 c15 : α) :
    (![c0, c1, c2, c3, c4, c5, c6, c7, c8, c9, c10, c11, c12, c13, c14, c15] : Fin 16 → α) ⟨2, by decide⟩ = c2 := rfl
theorem vec16_3 {α : Type} (c0 c1 c2 c3 c4 c5 c6 c7 c8 c9 c10 c11 c12 c13 c14 c15 : α) :
    (![c0, c1, c2, c3, c4, c5, c6, c7, c8, c9, c10, c11, c12, c13, c14, c15] : Fin 16 → α) ⟨3, by decide⟩ = c3 := rfl
theorem vec16_4 {α : Type} (c0 c1 c2 c3 c4 c5 c6 c7 c8 c9 c10 c11 c12 c13 c14 c15 : α) :
    (![c0, c1, c2, c3, c4, c5, c6, c7, c8, c9, c10, c11, c12, c13, c14, c15] : Fin 16 → α) ⟨4, by decide⟩ = c4 := rfl
theorem vec16_5 {α : Type} (c0 c1 c2 c3 c4 c5 c6 c7 c8 c9 c10 c11 c12 c13 c14 c15 : α) :
    (![c0, c1, c2, c3, c4, c5, c6, c7, c8, c9, c10, c11, c12, c13, c14, c15] : Fin 16 → α) ⟨5, by decide⟩ = c5 := rfl
theorem vec16_6 {α : Type} (c0 c1 c2 c3 c4 c5 c6 c7 c8 c9 c10 c11 c12 c13 c14 c15 : α) :
    (![c0, c1, c2, c3, c4, c5, c6, c7, c8, c9, c10, c11, c12, c13, c14, c15] : Fin 16 → α) ⟨6, by decide⟩ = c6 := rfl
theorem vec16_7 {α : Type} (c0 c1 c2 c3 c4 c5 c6 c7 c8 c9 c10 c11 c12 c13 c14 c15 : α) :
    (![c0, c1, c2, c3, c4, c5, c6, c7, c8, c9, c10, c11, c12, c13, c14, c15] : Fin 16 → α) ⟨7, by decide⟩ = c7 := rfl
theorem vec16_8 {α : Type} (c0 c1 c2 c3 c4 c5 c6 c7 c8 c9 c10 c11 c12 c13 c14 c15 : α) :
    (![c0, c1, c2, c3, c4, c5, c6, c7, c8, c9, c10, c11, c12, c13, c14, c15] : Fin 16 → α) ⟨8, by decide⟩ = c8 := rfl
theorem vec16_9 {α : Type} (c0 c1 c2 c3 c4 c5 c6 c7 c8 c9 c10 c11 c12 c13 c14 c15 : α) :
    (![c0, c1, c2, c3, c4, c5, c6, c7, c8, c9, c10, c11, c12, c13, c14, c15] : Fin 16 → α) ⟨9, by decide⟩ = c9 := rfl
theorem vec16_10 {α : Type} (c0 c1 c2 c3 c4 c5 c6 c7 c8 c9 c10 c11 c12 c13 c14 c15 : α) :
    (![c0, c1, c2, c3, c4, c5, c6, c7, c8, c9, c10, c11, c12, c13, c14, c15] : Fin 16 → α) ⟨10, by decide⟩ = c10 := rfl
theorem vec16_11 {α : Type} (c0 c1 c2 c3 c4 c5 c6 c7 c8 c9 c10 c11 c12 c13 c14 c15 : α) :
    (![c0, c1, c2, c3, c4, c5, c6, c7, c8, c9, c10, c11, c12, c13, c14, c15] : Fin 16 → α) ⟨11, by decide⟩ = c11 := rfl
theorem vec16_12 {α : Type} (c0 c1 c2 c3 c4 c5 c6 c7 c8 c9 c10 c11 c12 c13 c14 c15 : α) :
    (![c0, c1, c2, c3, c4, c5, c6, c7, c8, c9, c10, c11, c12, c13, c14, c15] : Fin 16 → α) ⟨12, by decide⟩ = c12 := rfl
theorem vec16_13 {α : Type} (c0 c1 c2 c3 c4 c5 c6 c7 c8 c9 c10 c11 c12 c13 c14 c15 : α) :
    (![c0, c1, c2, c3, c4, c5, c6, c7, c8, c9, c10, c11, c12, c13, c14, c15] : Fin 16 → α) ⟨13, by decide⟩ = c13 := rfl
theorem vec16_14 {α : Type} (c0 c1 c2 c3 c4 c5 c6 c7 c8 c9 c10 c11 c12 c13 c14 c15 : α) :
    (![c0, c1, c2, c3, c4, c5, c6, c7, c8, c9, c10, c11, c12, c13, c14, c15] : Fin 16 → α) ⟨14, by decide⟩ = c14 := rfl
theorem vec16_15 {α : Type} (c0 c1 c2 c3 c4 c5 c6 c7 c8 c9 c10 c11 c12 c13 c14 c15 : α) :
    (![c0, c1, c2, c3, c4, c5, c6, c7, c8, c9, c10, c11, c12, c13, c14, c15] : Fin 16 → α) ⟨15, by decide⟩ = c15 := rfl

theorem shc_1 (x y z : EReal) : shc x y z ⟨1, by decide⟩ = k3 * x := by
  unfold Cert.Spec.shc
  exact vec16_1 _ _ _ _ _ _ _ _ _ _ _ _ _ _ _ _
theorem shc_2 (x y z : EReal) : shc x y z ⟨2, by decide⟩ = k3 * y := by
  unfold Cert.Spec.shc
  exact vec16_2 _ _ _ _ _ _ _ _ _ _ _ _ _ _ _ _
theorem shc_3 (x y z : EReal) : shc x y z ⟨3, by decide⟩ = k3 * z := by
  unfold Cert.Spec.shc
  exact vec16_3 _ _ _ _ _ _ _ _ _ _ _ _ _ _ _ _
theorem shc_4 (x y z : EReal) : shc x y z ⟨4, by decide⟩ = k5 * a0 x y z := by
  unfold Cert.Spec.shc
  exact vec16_4 _ _ _ _ _ _ _ _ _ _ _ _ _ _ _ _
theorem shc_5 (x y z : EReal) : shc x y z ⟨5, by decide⟩ = k5 * a1 x y z := by
  unfold Cert.Spec.shc
  exact vec16_5 _ _ _ _ _ _ _ _ _ _ _ _ _ _ _ _
theorem shc_6 (x y z : EReal) : shc x y z ⟨6, by decide⟩ = k5 * a2 x y z := by
  unfold Cert.Spec.shc
  exact vec16_6 _ _ _ _ _ _ _ _ _ _ _ _ _ _ _ _
theorem shc_7 (x y z : EReal) : shc x y z ⟨7, by decide⟩ = k5 * a3 x y z := by
  unfold Cert.Spec.shc
  exact vec16_7 _ _ _ _ _ _ _ _ _ _ _ _ _ _ _ _
theorem shc_8 (x y z : EReal) : shc x y z ⟨8, by decide⟩ = k5 * a4 x y z := by
  unfold Cert.Spec.shc
  exact vec16_8 _ _ _ _ _ _ _ _ _ _ _ _ _ _ _ _
theorem shc_9 (x y z : EReal) : shc x y z ⟨9, by decide⟩ = k7 * b0 x y z := by
  unfold Cert.Spec.shc
  exact vec16_9 _ _ _ _ _ _ _ _ _ _ _ _ _ _ _ _
theorem shc_10 (x y z : EReal) : shc x y z ⟨10, by decide⟩ = k7 * b1 x y z := by
  unfold Cert.Spec.shc
  exact vec16_10 _ _ _ _ _ _ _ _ _ _ _ _ _ _ _ _
theorem shc_11 (x y z : EReal) : shc x y z ⟨11, by decide⟩ = k7 * b2 x y z := by
  unfold Cert.Spec.shc
  exact vec16_11 _ _ _ _ _ _ _ _ _ _ _ _ _ _ _ _
theorem shc_12 (x y z : EReal) : shc x y z ⟨12, by decide⟩ = k7 * b3 x y z := by
  unfold Cert.Spec.shc
  exact vec16_12 _ _ _ _ _ _ _ _ _ _ _ _ _ _ _ _
theorem shc_13 (x y z : EReal) : shc x y z ⟨13, by decide⟩ = k7 * b4 x y z := by
  unfold Cert.Spec.shc
  exact vec16_13 _ _ _ _ _ _ _ _ _ _ _ _ _ _ _ _
theorem shc_14 (x y z : EReal) : shc x y z ⟨14, by decide⟩ = k7 * b5 x y z := by
  unfold Cert.Spec.shc
  exact vec16_14 _ _ _ _ _ _ _ _ _ _ _ _ _ _ _ _
theorem shc_15 (x y z : EReal) : shc x y z ⟨15, by decide⟩ = k7 * b6 x y z := by
  unfold Cert.Spec.shc
  exact vec16_15 _ _ _ _ _ _ _ _ _ _ _ _ _ _ _ _

/-- Column `j` of the joined array is the harmonic of row `j + 1` at the edge's direction. -/
theorem harm (e : Fin 500000) (j : Fin 15) :
    val_main_v108 (F := Ideal) x0 x7 x8 (ix2 e j) = shc (val_main_v19 (F := Ideal) x0 x7 x8 (ix1 e)) (val_main_v21 (F := Ideal) x0 x7 x8 (ix1 e)) (val_main_v23 (F := Ideal) x0 x7 x8 (ix1 e)) j.succ := by
  fin_cases j
  · exact (col_0 x0 x7 x8 e).trans (shc_1 _ _ _).symm
  · exact (col_1 x0 x7 x8 e).trans (shc_2 _ _ _).symm
  · exact (col_2 x0 x7 x8 e).trans (shc_3 _ _ _).symm
  · exact (col_3 x0 x7 x8 e).trans (shc_4 _ _ _).symm
  · exact (col_4 x0 x7 x8 e).trans (shc_5 _ _ _).symm
  · exact (col_5 x0 x7 x8 e).trans (shc_6 _ _ _).symm
  · exact (col_6 x0 x7 x8 e).trans (shc_7 _ _ _).symm
  · exact (col_7 x0 x7 x8 e).trans (shc_8 _ _ _).symm
  · exact (col_8 x0 x7 x8 e).trans (shc_9 _ _ _).symm
  · exact (col_9 x0 x7 x8 e).trans (shc_10 _ _ _).symm
  · exact (col_10 x0 x7 x8 e).trans (shc_11 _ _ _).symm
  · exact (col_11 x0 x7 x8 e).trans (shc_12 _ _ _).symm
  · exact (col_12 x0 x7 x8 e).trans (shc_13 _ _ _).symm
  · exact (col_13 x0 x7 x8 e).trans (shc_14 _ _ _).symm
  · exact (col_14 x0 x7 x8 e).trans (shc_15 _ _ _).symm

/-! ## The edge features: row 0 the scalars, rows 1..15 the harmonics times the scalars -/

theorem row_zero (e : Fin 500000) (u : Fin 16) :
    val_main_v122 (F := Ideal) x0 x1 x7 x8 (ix3 e 0 u)
      = edgeR (fun k => val_main_v14 (F := Ideal) x0 x7 x8 (ix2 e k)) (fun u' => val_main_v115 (F := Ideal) x1 x7 (ix2 e u')) 0 u := by
  unfold val_main_v122
  refine (concatenate_pair_apply_left (t := S500000x16x16) 1 _ _ concatenates_S500000x1x16_S500000x15x16_S500000x16x16_d1
    (ix3 e 0 u) rfl (ix3 e 0 u) (fun b => by match b with | ⟨0, _⟩ => rfl | ⟨1, _⟩ => rfl | ⟨2, _⟩ => rfl)).trans ?_
  rw [val_main_v121_apply]
  have hidx : idx_main_v121 (ix3 e 0 u) = ix2 e u :=
    funext fun a => by match a with | ⟨0, _⟩ => rfl | ⟨1, _⟩ => rfl
  rw [hidx]
  unfold Cert.Spec.edgeR Cert.Spec.edgeVal
  exact (if_pos rfl).symm

theorem row_succ (e : Fin 500000) (j : Fin 15) (u : Fin 16) :
    val_main_v122 (F := Ideal) x0 x1 x7 x8 (ix3 e j.succ u)
      = edgeR (fun k => val_main_v14 (F := Ideal) x0 x7 x8 (ix2 e k)) (fun u' => val_main_v115 (F := Ideal) x1 x7 (ix2 e u')) j.succ u := by
  unfold val_main_v122
  refine (concatenate_pair_apply_right (t := S500000x16x16) 1 _ _ concatenates_S500000x1x16_S500000x15x16_S500000x16x16_d1
    (ix3 e j.succ u) rfl rfl (ix3 e j u)
    (fun b hb => by match b with | ⟨0, _⟩ => rfl | ⟨1, _⟩ => exact absurd rfl hb | ⟨2, _⟩ => rfl)
    (Fin.val_succ j).symm).trans ?_
  rw [val_main_v120_apply, val_main_v118_apply, val_main_v116_apply, val_main_v119_apply, val_main_v117_apply]
  have h1 : idx_main_v116 (idx_main_v118 (ix3 e j u)) = ix2 e j :=
    funext fun a => by match a with | ⟨0, _⟩ => rfl | ⟨1, _⟩ => rfl
  have h2 : idx_main_v117 (idx_main_v119 (ix3 e j u)) = ix2 e u :=
    funext fun a => by match a with | ⟨0, _⟩ => rfl | ⟨1, _⟩ => rfl
  rw [h1, h2, harm x0 x7 x8 e j, x_eq x0 x7 x8 e, y_eq x0 x7 x8 e, z_eq x0 x7 x8 e]
  unfold Cert.Spec.edgeR Cert.Spec.edgeVal
  exact (if_neg (Fin.succ_ne_zero j)).symm

end Stages

/-- The reference's [500000, 16, 16] edge features at (e, i, u): the reference's edge feature of the edge's
    relative vector and the sender's scalars. -/
theorem ref_edge (x0 : FVec Ideal S50000x3 .f32) (x1 : FVec Ideal S50000x16 .f32) (x7 x8 : IVec S500000 32)
    (e : Fin 500000) (i u : Fin 16) :
    val_main_v122 (F := Ideal) x0 x1 x7 x8 (ix3 e i u)
      = Cert.Spec.edgeR (fun k => Cert.Spec.relArr x0 x7 x8 (ix2 e k)) (fun u' => Cert.Spec.sArr x1 x7 (ix2 e u')) i u := by
  rw [← rel_eq x0 x7 x8, ← s_eq x1 x7]
  refine Fin.cases ?_ (fun j => ?_) i
  · exact row_zero x0 x1 x7 x8 e u
  · exact row_succ x0 x1 x7 x8 e j u

end Cert.EdgeNode.RefEdge

end
-- ==== Proof.RefNode.lean ====
import proofs.«181800_j70411693850655_1_alg».proof.Proof.RefRead
import proofs.«181800_j70411693850655_1_alg».proof.Proof.Spec
import proofs.«181800_j70411693850655_1_alg».proof.Proof.Scatter
import Idealize.ShloMosaic.Lib.Pipeline.Value
import Idealize.ShloMosaic.Lib.ValueIdx
import Idealize.ShloMosaic.PureOps.Ideal.Laws

set_option maxRecDepth 16384

noncomputable section

namespace Cert.EdgeNode.RefNode

open Idealize.ShloMosaic Idealize.ShloMosaic.TcCoe Idealize.ShloMosaic.ValueIdx Idealize.SL.Sem
open Cert.ReferenceIdeal Cert.ReferenceIdeal.Gen Cert.ReferenceIdeal.ReadP

section Stages

variable (x0 : FVec Ideal S50000x3 .f32) (x1 : FVec Ideal S50000x16 .f32) (x2 x3 x4 x5 x6 : FVec Ideal S16x64 .f32)
  (x7 x8 : IVec S500000 32)

/-- The aggregated edge feature of node n, row i, channel u. -/
abbrev agg (n : Fin 50000) (i u : Fin 16) : EReal :=
  Cert.Spec.aggVal x8 n (fun e => val_main_v122 (F := Ideal) x0 x1 x7 x8 (ix3 e i u))

/-! ## The aggregation: scatter-add into zeros, over 10 -/

theorem agg_at (n : Fin 50000) (i u : Fin 16) :
    val_main_v127 (F := Ideal) x0 x1 x7 x8 (ix3 n i u) = agg x0 x1 x7 x8 n i u := by
  rw [val_main_v127_apply, val_main_v126_apply, val_main_cst_25_apply]
  have hs : val_main_v125 (F := Ideal) x0 x1 x7 x8 (ix3 n i u)
      = val_main_v123 (F := Ideal) (ix3 n i u)
        + ∑ e ∈ Cert.Spec.recvSet x8 n, val_main_v122 (F := Ideal) x0 x1 x7 x8 (ix3 e i u) :=
    Cert.EdgeNode.Scatter.scatterAdd3_apply bcast_S500000_S500000x1_0 (val_main_v123 (F := Ideal)) x8
      (val_main_v122 (F := Ideal) x0 x1 x7 x8) n i u
  rw [hs, val_main_v123_apply, val_main_cst_24_apply]
  rfl

/-! ## The four row ranges of the aggregated array -/

theorem v128_at (n : Fin 50000) (k : Fin 16) :
    val_main_v128 (F := Ideal) x0 x1 x7 x8 (ix3 n 0 k) = agg x0 x1 x7 x8 n 0 k := by
  rw [val_main_v128_apply]
  have e : idx_main_v128 (ix3 n 0 k) = ix3 n 0 k := funext fun a => by
    match a with
    | ⟨0, _⟩ => rfl
    | ⟨1, _⟩ => rfl
    | ⟨2, _⟩ => rfl
  rw [e, agg_at]

theorem v132_at (n : Fin 50000) (i : Fin 16) (r : Fin 3) (hi : i.val = 1 + r.val) (k : Fin 16) :
    val_main_v132 (F := Ideal) x0 x1 x7 x8 (ix3 n r k) = agg x0 x1 x7 x8 n i k := by
  rw [val_main_v132_apply]
  have e : idx_main_v132 (ix3 n r k) = ix3 n i k := funext fun a => by
    match a with
    | ⟨0, _⟩ => rfl
    | ⟨1, _⟩ => exact Fin.ext hi.symm
    | ⟨2, _⟩ => rfl
  rw [e, agg_at]

theorem v136_at (n : Fin 50000) (i : Fin 16) (r : Fin 5) (hi : i.val = 4 + r.val) (k : Fin 16) :
    val_main_v136 (F := Ideal) x0 x1 x7 x8 (ix3 n r k) = agg x0 x1 x7 x8 n i k := by
  rw [val_main_v136_apply]
  have e : idx_main_v136 (ix3 n r k) = ix3 n i k := funext fun a => by
    match a with
    | ⟨0, _⟩ => rfl
    | ⟨1, _⟩ => exact Fin.ext hi.symm
    | ⟨2, _⟩ => rfl
  rw [e, agg_at]

theorem v140_at (n : Fin 50000) (i : Fin 16) (r : Fin 7) (hi : i.val = 9 + r.val) (k : Fin 16) :
    val_main_v140 (F := Ideal) x0 x1 x7 x8 (ix3 n r k) = agg x0 x1 x7 x8 n i k := by
  rw [val_main_v140_apply]
  have e : idx_main_v140 (ix3 n r k) = ix3 n i k := funext fun a => by
    match a with
    | ⟨0, _⟩ => rfl
    | ⟨1, _⟩ => exact Fin.ext hi.symm
    | ⟨2, _⟩ => rfl
  rw [e, agg_at]

/-! ## The linear maps on the channel axis, times 1/4 -/

theorem v131_at (n : Fin 50000) (v : Fin 64) :
    val_main_v131 (F := Ideal) x0 x1 x2 x7 x8 (ix3 n 0 v)
      = (∑ k : Fin 16, agg x0 x1 x7 x8 n 0 k * x2 (ix2 k v)) * Cert.Spec.kq := by
  rw [val_main_v131_apply, val_main_v130_apply, val_main_cst_26_apply, val_main_v129_apply]
  have es : ∀ k : Fin 16, val_main_v128 (F := Ideal) x0 x1 x7 x8 (lidx_main_v129 (ix3 n 0 v) k) * x2 (ridx_main_v129 (ix3 n 0 v) k)
      = agg x0 x1 x7 x8 n 0 k * x2 (ix2 k v) := fun k => by
    have el : lidx_main_v129 (ix3 n 0 v) k = ix3 n 0 k := funext fun a => by
      match a with
      | ⟨0, _⟩ => rfl
      | ⟨1, _⟩ => rfl
      | ⟨2, _⟩ => rfl
    have er : ridx_main_v129 (ix3 n 0 v) k = ix2 k v := funext fun a => by
      match a with
      | ⟨0, _⟩ => rfl
      | ⟨1, _⟩ => rfl
    rw [el, er, v128_at]
  rw [Finset.sum_congr rfl fun k _ => es k]
  rfl

theorem v135_at (n : Fin 50000) (i : Fin 16) (r : Fin 3) (hi : i.val = 1 + r.val) (v : Fin 64) :
    val_main_v135 (F := Ideal) x0 x1 x3 x7 x8 (ix3 n r v)
      = (∑ k : Fin 16, agg x0 x1 x7 x8 n i k * x3 (ix2 k v)) * Cert.Spec.kq := by
  rw [val_main_v135_apply, val_main_v134_apply, val_main_cst_27_apply, val_main_v133_apply]
  have es : ∀ k : Fin 16, val_main_v132 (F := Ideal) x0 x1 x7 x8 (lidx_main_v133 (ix3 n r v) k) * x3 (ridx_main_v133 (ix3 n r v) k)
      = agg x0 x1 x7 x8 n i k * x3 (ix2 k v) := fun k => by
    have el : lidx_main_v133 (ix3 n r v) k = ix3 n r k := funext fun a => by
      match a with
      | ⟨0, _⟩ => rfl
      | ⟨1, _⟩ => rfl
      | ⟨2, _⟩ => rfl
    have er : ridx_main_v133 (ix3 n r v) k = ix2 k v := funext fun a => by
      match a with
      | ⟨0, _⟩ => rfl
      | ⟨1, _⟩ => rfl
    rw [el, er, v132_at x0 x1 x7 x8 n i r hi]
  rw [Finset.sum_congr rfl fun k _ => es k]
  rfl

theorem v139_at (n : Fin 50000) (i : Fin 16) (r : Fin 5) (hi : i.val = 4 + r.val) (v : Fin 64) :
    val_main_v139 (F := Ideal) x0 x1 x4 x7 x8 (ix3 n r v)
      = (∑ k : Fin 16, agg x0 x1 x7 x8 n i k * x4 (ix2 k v)) * Cert.Spec.kq := by
  rw [val_main_v139_apply, val_main_v138_apply, val_main_cst_28_apply, val_main_v137_apply]
  have es : ∀ k : Fin 16, val_main_v136 (F := Ideal) x0 x1 x7 x8 (lidx_main_v137 (ix3 n r v) k) * x4 (ridx_main_v137 (ix3 n r v) k)
      = agg x0 x1 x7 x8 n i k * x4 (ix2 k v) := fun k => by
    have el : lidx_main_v137 (ix3 n r v) k = ix3 n r k := funext fun a => by
      match a with
      | ⟨0, _⟩ => rfl
      | ⟨1, _⟩ => rfl
      | ⟨2, _⟩ => rfl
    have er : ridx_main_v137 (ix3 n r v) k = ix2 k v := funext fun a => by
      match a with
      | ⟨0, _⟩ => rfl
      | ⟨1, _⟩ => rfl
    rw [el, er, v136_at x0 x1 x7 x8 n i r hi]
  rw [Finset.sum_congr rfl fun k _ => es k]
  rfl

theorem v143_at (n : Fin 50000) (i : Fin 16) (r : Fin 7) (hi : i.val = 9 + r.val) (v : Fin 64) :
    val_main_v143 (F := Ideal) x0 x1 x5 x7 x8 (ix3 n r v)
      = (∑ k : Fin 16, agg x0 x1 x7 x8 n i k * x5 (ix2 k v)) * Cert.Spec.kq := by
  rw [val_main_v143_apply, val_main_v142_apply, val_main_cst_29_apply, val_main_v141_apply]
  have es : ∀ k : Fin 16, val_main_v140 (F := Ideal) x0 x1 x7 x8 (lidx_main_v141 (ix3 n r v) k) * x5 (ridx_main_v141 (ix3 n r v) k)
      = agg x0 x1 x7 x8 n i k * x5 (ix2 k v) := fun k => by
    have el : lidx_main_v141 (ix3 n r v) k = ix3 n r k := funext fun a => by
      match a with
      | ⟨0, _⟩ => rfl
      | ⟨1, _⟩ => rfl
      | ⟨2, _⟩ => rfl
    have er : ridx_main_v141 (ix3 n r v) k = ix2 k v := funext fun a => by
      match a with
      | ⟨0, _⟩ => rfl
      | ⟨1, _⟩ => rfl
    rw [el, er, v140_at x0 x1 x7 x8 n i r hi]
  rw [Finset.sum_congr rfl fun k _ => es k]
  rfl

/-- The node's own scalars through their weight matrix, times 1/4. -/
theorem v147_at (n : Fin 50000) (v : Fin 64) :
    val_main_v147 (F := Ideal) x1 x6 (ix3 n 0 v)
      = (∑ k : Fin 16, x1 (ix2 n k) * x6 (ix2 k v)) * Cert.Spec.kq := by
  rw [val_main_v147_apply, val_main_v146_apply, val_main_cst_30_apply, val_main_v145_apply]
  have e : idx_main_v145 (ix3 n 0 v) = ix2 n v := funext fun a => by
    match a with
    | ⟨0, _⟩ => rfl
    | ⟨1, _⟩ => rfl
  rw [e, val_main_v144_apply]
  have es : ∀ k : Fin 16, x1 (lidx_main_v144 (ix2 n v) k) * x6 (ridx_main_v144 (ix2 n v) k)
      = x1 (ix2 n k) * x6 (ix2 k v) := fun k => by
    have el : lidx_main_v144 (ix2 n v) k = ix2 n k := funext fun a => by
      match a with
      | ⟨0, _⟩ => rfl
      | ⟨1, _⟩ => rfl
    have er : ridx_main_v144 (ix2 n v) k = ix2 k v := funext fun a => by
      match a with
      | ⟨0, _⟩ => rfl
      | ⟨1, _⟩ => rfl
    rw [el, er]
  rw [Finset.sum_congr rfl fun k _ => es k]
  rfl

/-! ## The reshapes to [50000, 64 d] -/

theorem v149_at (n : Fin 50000) (v : Fin 64) :
    val_main_v149 (F := Ideal) x0 x1 x2 x6 x7 x8 (ix2 n v)
      = val_main_v148 (F := Ideal) x0 x1 x2 x6 x7 x8 (ix3 n 0 v) := by
  rw [val_main_v149_apply]
  have hv := v.isLt
  have e : idx_main_v149 (ix2 n v) = ix3 n 0 v := funext fun a => by
    match a with
    | ⟨0, _⟩ => exact Fin.ext (by show (n.val * 64 + v.val) / 64 = n.val; omega)
    | ⟨1, _⟩ => rfl
    | ⟨2, _⟩ => exact Fin.ext (by show (n.val * 64 + v.val) % 64 = v.val; omega)
  rw [e]

theorem v150_at (n : Fin 50000) (r : Fin 3) (v : Fin 64) (c : Fin 192) (hc : c.val = 64 * r.val + v.val) :
    val_main_v150 (F := Ideal) x0 x1 x3 x7 x8 (ix2 n c)
      = val_main_v135 (F := Ideal) x0 x1 x3 x7 x8 (ix3 n r v) := by
  rw [val_main_v150_apply]
  have hv := v.isLt
  have hr := r.isLt
  have e : idx_main_v150 (ix2 n c) = ix3 n r v := funext fun a => by
    match a with
    | ⟨0, _⟩ => exact Fin.ext (by show (n.val * 192 + c.val) / 192 = n.val; omega)
    | ⟨1, _⟩ => exact Fin.ext (by show (n.val * 192 + c.val) / 64 % 3 = r.val; omega)
    | ⟨2, _⟩ => exact Fin.ext (by show (n.val * 192 + c.val) % 64 = v.val; omega)
  rw [e]

theorem v151_at (n : Fin 50000) (r : Fin 5) (v : Fin 64) (c : Fin 320) (hc : c.val = 64 * r.val + v.val) :
    val_main_v151 (F := Ideal) x0 x1 x4 x7 x8 (ix2 n c)
      = val_main_v139 (F := Ideal) x0 x1 x4 x7 x8 (ix3 n r v) := by
  rw [val_main_v151_apply]
  have hv := v.isLt
  have hr := r.isLt
  have e : idx_main_v151 (ix2 n c) = ix3 n r v := funext fun a => by
    match a with
    | ⟨0, _⟩ => exact Fin.ext (by show (n.val * 320 + c.val) / 320 = n.val; omega)
    | ⟨1, _⟩ => exact Fin.ext (by show (n.val * 320 + c.val) / 64 % 5 = r.val; omega)
    | ⟨2, _⟩ => exact Fin.ext (by show (n.val * 320 + c.val) % 64 = v.val; omega)
  rw [e]

theorem v152_at (n : Fin 50000) (r : Fin 7) (v : Fin 64) (c : Fin 448) (hc : c.val = 64 * r.val + v.val) :
    val_main_v152 (F := Ideal) x0 x1 x5 x7 x8 (ix2 n c)
      = val_main_v143 (F := Ideal) x0 x1 x5 x7 x8 (ix3 n r v) := by
  rw [val_main_v152_apply]
  have hv := v.isLt
  have hr := r.isLt
  have e : idx_main_v152 (ix2 n c) = ix3 n r v := funext fun a => by
    match a with
    | ⟨0, _⟩ => exact Fin.ext (by show (n.val * 448 + c.val) / 448 = n.val; omega)
    | ⟨1, _⟩ => exact Fin.ext (by show (n.val * 448 + c.val) / 64 % 7 = r.val; omega)
    | ⟨2, _⟩ => exact Fin.ext (by show (n.val * 448 + c.val) % 64 = v.val; omega)
  rw [e]

/-! ## The concatenation along the columns: the piece is decided by the column's range -/

theorem v153_piece0 (n : Fin 50000) (c : Fin 1024) (c' : Fin 64) (hc : c.val = c'.val) :
    val_main_v153 (F := Ideal) x0 x1 x2 x3 x4 x5 x6 x7 x8 (ix2 n c)
      = val_main_v149 (F := Ideal) x0 x1 x2 x6 x7 x8 (ix2 n c') := by
  unfold val_main_v153
  refine concatenate_apply_piece _ _ _ (ix2 n c) 0 (by show 0 < 4; omega) S50000x64 _ rfl rfl 0 rfl (ix2 n c') ?_ ?_
  · intro b hb
    match b with
    | ⟨0, _⟩ => rfl
    | ⟨1, _⟩ => exact absurd rfl hb
  · show 0 + c'.val = c.val
    omega

theorem v153_piece1 (n : Fin 50000) (c : Fin 1024) (c' : Fin 192) (hc : c.val = 64 + c'.val) :
    val_main_v153 (F := Ideal) x0 x1 x2 x3 x4 x5 x6 x7 x8 (ix2 n c)
      = val_main_v150 (F := Ideal) x0 x1 x3 x7 x8 (ix2 n c') := by
  unfold val_main_v153
  refine concatenate_apply_piece _ _ _ (ix2 n c) 1 (by show 1 < 4; omega) S50000x192 _ rfl rfl 64 rfl (ix2 n c') ?_ ?_
  · intro b hb
    match b with
    | ⟨0, _⟩ => rfl
    | ⟨1, _⟩ => exact absurd rfl hb
  · show 64 + c'.val = c.val
    omega

theorem v153_piece2 (n : Fin 50000) (c : Fin 1024) (c' : Fin 320) (hc : c.val = 256 + c'.val) :
    val_main_v153 (F := Ideal) x0 x1 x2 x3 x4 x5 x6 x7 x8 (ix2 n c)
      = val_main_v151 (F := Ideal) x0 x1 x4 x7 x8 (ix2 n c') := by
  unfold val_main_v153
  refine concatenate_apply_piece _ _ _ (ix2 n c) 2 (by show 2 < 4; omega) S50000x320 _ rfl rfl 256 rfl (ix2 n c') ?_ ?_
  · intro b hb
    match b with
    | ⟨0, _⟩ => rfl
    | ⟨1, _⟩ => exact absurd rfl hb
  · show 256 + c'.val = c.val
    omega

theorem v153_piece3 (n : Fin 50000) (c : Fin 1024) (c' : Fin 448) (hc : c.val = 576 + c'.val) :
    val_main_v153 (F := Ideal) x0 x1 x2 x3 x4 x5 x6 x7 x8 (ix2 n c)
      = val_main_v152 (F := Ideal) x0 x1 x5 x7 x8 (ix2 n c') := by
  unfold val_main_v153
  refine concatenate_apply_piece _ _ _ (ix2 n c) 3 (by show 3 < 4; omega) S50000x448 _ rfl rfl 576 rfl (ix2 n c') ?_ ?_
  · intro b hb
    match b with
    | ⟨0, _⟩ => rfl
    | ⟨1, _⟩ => exact absurd rfl hb
  · show 576 + c'.val = c.val
    omega

/-! ## One lemma per row range -/

theorem node0 (n : Fin 50000) (v : Fin 64) (c : Fin 1024) (hc : c.val = v.val) :
    val_main_v153 (F := Ideal) x0 x1 x2 x3 x4 x5 x6 x7 x8 (ix2 n c)
      = (∑ k : Fin 16, agg x0 x1 x7 x8 n 0 k * x2 (ix2 k v)) * Cert.Spec.kq
        + (∑ k : Fin 16, x1 (ix2 n k) * x6 (ix2 k v)) * Cert.Spec.kq := by
  rw [v153_piece0 x0 x1 x2 x3 x4 x5 x6 x7 x8 n c v hc, v149_at, val_main_v148_apply, v131_at, v147_at]
  rfl

theorem node1 (n : Fin 50000) (i : Fin 16) (r : Fin 3) (hi : i.val = 1 + r.val) (v : Fin 64) (c : Fin 1024)
    (hc : c.val = 64 * i.val + v.val) :
    val_main_v153 (F := Ideal) x0 x1 x2 x3 x4 x5 x6 x7 x8 (ix2 n c)
      = (∑ k : Fin 16, agg x0 x1 x7 x8 n i k * x3 (ix2 k v)) * Cert.Spec.kq := by
  have hv := v.isLt
  have hr := r.isLt
  rw [v153_piece1 x0 x1 x2 x3 x4 x5 x6 x7 x8 n c ⟨64 * r.val + v.val, by omega⟩ (by show c.val = 64 + (64 * r.val + v.val); omega),
    v150_at x0 x1 x3 x7 x8 n r v _ rfl, v135_at x0 x1 x3 x7 x8 n i r hi]

theorem node2 (n : Fin 50000) (i : Fin 16) (r : Fin 5) (hi : i.val = 4 + r.val) (v : Fin 64) (c : Fin 1024)
    (hc : c.val = 64 * i.val + v.val) :
    val_main_v153 (F := Ideal) x0 x1 x2 x3 x4 x5 x6 x7 x8 (ix2 n c)
      = (∑ k : Fin 16, agg x0 x1 x7 x8 n i k * x4 (ix2 k v)) * Cert.Spec.kq := by
  have hv := v.isLt
  have hr := r.isLt
  rw [v153_piece2 x0 x1 x2 x3 x4 x5 x6 x7 x8 n c ⟨64 * r.val + v.val, by omega⟩ (by show c.val = 256 + (64 * r.val + v.val); omega),
    v151_at x0 x1 x4 x7 x8 n r v _ rfl, v139_at x0 x1 x4 x7 x8 n i r hi]

theorem node3 (n : Fin 50000) (i : Fin 16) (r : Fin 7) (hi : i.val = 9 + r.val) (v : Fin 64) (c : Fin 1024)
    (hc : c.val = 64 * i.val + v.val) :
    val_main_v153 (F := Ideal) x0 x1 x2 x3 x4 x5 x6 x7 x8 (ix2 n c)
      = (∑ k : Fin 16, agg x0 x1 x7 x8 n i k * x5 (ix2 k v)) * Cert.Spec.kq := by
  have hv := v.isLt
  have hr := r.isLt
  rw [v153_piece3 x0 x1 x2 x3 x4 x5 x6 x7 x8 n c ⟨64 * r.val + v.val, by omega⟩ (by show c.val = 576 + (64 * r.val + v.val); omega),
    v152_at x0 x1 x5 x7 x8 n r v _ rfl, v143_at x0 x1 x5 x7 x8 n i r hi]

end Stages

/-- The reference's result at (n, 64 i + v): row i's linear map of the edge features summed over the edges the
    node receives, over 10, times 1/4, plus in row 0 the linear map of the node's own scalars times 1/4. -/
theorem ref_node (x0 : FVec Ideal S50000x3 .f32) (x1 : FVec Ideal S50000x16 .f32) (x2 x3 x4 x5 x6 : FVec Ideal S16x64 .f32)
    (x7 x8 : IVec S500000 32) (n : Fin 50000) (i : Fin 16) (v : Fin 64) :
    val_main_v153 (F := Ideal) x0 x1 x2 x3 x4 x5 x6 x7 x8 (ix2 n ⟨64 * i.val + v.val, by omega⟩)
      = Cert.Spec.nodeVal (fun u => Cert.Spec.aggVal x8 n (fun e => val_main_v122 (F := Ideal) x0 x1 x7 x8 (ix3 e i u)))
          (fun u => x1 (ix2 n u)) x2 x3 x4 x5 x6 i v := by
  have hi := i.isLt
  unfold Cert.Spec.nodeVal
  by_cases h0 : i.val < 1
  · obtain rfl : i = 0 := Fin.ext (by show i.val = 0; omega)
    rw [if_pos rfl]
    exact node0 x0 x1 x2 x3 x4 x5 x6 x7 x8 n v _ (by show 64 * 0 + v.val = v.val; omega)
  · have hne : i ≠ 0 := fun h => h0 (by rw [h]; decide)
    rw [if_neg hne]
    unfold Cert.Spec.wsel
    rw [if_neg h0]
    by_cases h1 : i.val < 4
    · rw [if_pos h1]
      exact node1 x0 x1 x2 x3 x4 x5 x6 x7 x8 n i ⟨i.val - 1, by omega⟩ (by show i.val = 1 + (i.val - 1); omega) v _ rfl
    · rw [if_neg h1]
      by_cases h2 : i.val < 9
      · rw [if_pos h2]
        exact node2 x0 x1 x2 x3 x4 x5 x6 x7 x8 n i ⟨i.val - 4, by omega⟩ (by show i.val = 4 + (i.val - 4); omega) v _ rfl
      · rw [if_neg h2]
        exact node3 x0 x1 x2 x3 x4 x5 x6 x7 x8 n i ⟨i.val - 9, by omega⟩ (by show i.val = 9 + (i.val - 9); omega) v _ rfl

end Cert.EdgeNode.RefNode

end
-- ==== Proof.RSide.lean ====
import proofs.«181800_j70411693850655_1_alg».proof.Proof.RefRead
import proofs.«181800_j70411693850655_1_alg».proof.Proof.RefEdge
import proofs.«181800_j70411693850655_1_alg».proof.Proof.RefNode
import proofs.«181800_j70411693850655_1_alg».proof.Proof.Law

set_option maxRecDepth 16384

noncomputable section

namespace Cert.EdgeNode.RSide

open Idealize.ShloMosaic Idealize.ShloMosaic.TcCoe Idealize.ShloMosaic.ValueIdx Idealize.SL.Sem
open Cert.ReferenceIdeal Cert.ReferenceIdeal.Gen

variable (m : (ℓ : Loc nD τ sig) → Buf (Elt Ideal) ℓ)

/-- The reference program's result (its last stage, of the argument arrays), entry (n, 64 i + v), in the
    specification's terms. -/
theorem ref_result (c : Dev nD) (n : Fin 50000) (i : Fin 16) (v : Fin 64) :
    (Cert.ReferenceIdeal.ReadP.val_main_v153 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) : S50000x1024.Idx → EReal) (ix2 n ⟨64 * i.val + v.val, by omega⟩)
      = Cert.Spec.nodeVal
          (fun u => Cert.Spec.aggVal (m ((c.tc : Thread nD τ).loc main_arg8)) n (fun e =>
            Cert.Spec.edgeR
              (fun k => Cert.Spec.relArr (m ((c.tc : Thread nD τ).loc main_arg0)) (m ((c.tc : Thread nD τ).loc main_arg7)) (m ((c.tc : Thread nD τ).loc main_arg8)) (ix2 e k))
              (fun u' => Cert.Spec.sArr (m ((c.tc : Thread nD τ).loc main_arg1)) (m ((c.tc : Thread nD τ).loc main_arg7)) (ix2 e u')) i u))
          (fun u => (m ((c.tc : Thread nD τ).loc main_arg1) : S50000x16.Idx → EReal) (ix2 n u))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) i v := by
  refine (RefNode.ref_node _ _ _ _ _ _ _ _ _ n i v).trans ?_
  exact Cert.Spec.nodeVal_congr (fun u => Cert.Spec.aggVal_congr _ n (fun e => RefEdge.ref_edge _ _ _ _ e i u))
    (fun u => rfl) rfl rfl rfl rfl rfl i v

end Cert.EdgeNode.RSide

end
-- ==== Proof.PreDecode.lean ====
/-
  What the added conjunct of the precondition says, read back: on every edge the reference's divisor — the norm
  sqrt(0 + sum of the squares of the relative vector's three components) — is not zero.
  The precondition is a conjunction of `all`s; its last conjunct is `all (norm ≠ 0)` over the 500000 edges.
-/
import proofs.«181800_j70411693850655_1_alg».proof.Pre_finite_inputs
import proofs.«181800_j70411693850655_1_alg».proof.Proof.Spec
import Idealize.ShloMosaic.Lib.ReduceAll
import Idealize.ShloMosaic.Lib.ValueIdx
import Idealize.ShloMosaic.PureOps.Ideal.Laws

set_option maxRecDepth 16384

noncomputable section

namespace Cert.EdgeNode.PreDecode

open Idealize.ShloMosaic Idealize.ShloMosaic.ValueIdx Cert.Pre_finite_inputs

variable [Cert.Pre_finite_inputs.Facts]

instance : Subsingleton S_.Idx := ⟨fun a b => funext fun d => d.elim0⟩

/-- The three components of a [500000, 3] array's row e, summed: the host sum over axis 1 at e. -/
theorem sum_row (h' : S500000x3.ReducesTo [1] S500000) (x : S500000x3.Idx → EReal) (init : EReal) (e : Fin 500000) :
    Ideal.hostReduceAdd h' x init (ix1 e) = init + ∑ k : Fin 3, x (ix2 e k) := by
  have h : S500000x3.Reduces [1] S500000 := by decide
  rw [Ideal.hostReduceAdd_single h' h x init (ix1 e)]
  congr 1
  refine Finset.sum_congr rfl fun k _ => congrArg x ?_
  funext a
  apply Fin.ext
  match a with
  | ⟨0, _⟩ => rfl
  | ⟨1, _⟩ => rfl

theorem norm_ne (a0 : FVec Ideal S50000x3 .f32) (a1 : FVec Ideal S50000x16 .f32) (a2 a3 a4 a5 a6 : FVec Ideal S16x64 .f32)
    (a7 a8 : IVec S500000 32)
    (h : fn (F := Ideal) a0 a1 a2 a3 a4 a5 a6 a7 a8 = fun _ => 1#1) (e : Fin 500000) :
    Cert.Spec.normR (fun k => Cert.Spec.relArr a0 a7 a8 (ix2 e k)) ≠ 0 := by
  have h0 := congrFun h ix0
  dsimp only [fn, fn_part1, fn_part2, fn_part3] at h0
  have h1 := (IntOp.andi_eq_one.mp h0).2
  have h2 := Host.reduce_andi_all _ _ _ _ ix0 h1 (ix1 e)
  -- the relative vectors, as one opaque array
  change cmpf CmpFPredicate.une
      (Host.sqrt (Host.reduceAdd (mulf (Cert.Spec.relArr a0 a7 a8) (Cert.Spec.relArr a0 a7 a8)) (constant S_ .f32 0x00000000#32)
        Facts.reducesTo_S500000x3_S500000_d1 Facts.h_S_))
      (broadcastInDim S500000 ![] Facts.bcast_S_S500000 (constant S_ .f32 0x00000000#32)) (ix1 e) = 1#1 at h2
  generalize Cert.Spec.relArr a0 a7 a8 = R at h2 ⊢
  -- the compared entry is the norm of row e
  have key : (Host.sqrt (Host.reduceAdd (F := Ideal) (mulf R R) (constant S_ .f32 0x00000000#32)
        Facts.reducesTo_S500000x3_S500000_d1 Facts.h_S_) : FVec Ideal S500000 .f32) (ix1 e)
      = Cert.Spec.normR (fun k => R (ix2 e k)) := by
    unfold Host.sqrt Host.reduceAdd Cert.Spec.normR
    rw [Ideal.hostUnary_sqrt_def, Ideal.hostReduceAdd_def, sum_row]
    rfl
  have h3 : Ideal.cmp .une (Cert.Spec.normR fun k => R (ix2 e k)) (Ideal.ofBits .f32 0x00000000#32) = 1#1 := by
    rw [← key]
    unfold cmpf at h2
    exact h2
  rw [Ideal.ofBits_zero_f32] at h3
  intro hz
  rw [hz] at h3
  simp [Ideal.cmp] at h3

end Cert.EdgeNode.PreDecode

end
-- ==== Proof.lean ====
/-
  The certificate: the Pallas program (an edge kernel, a host scatter-add, a node kernel) and its jnp reference compute
  the same [50000, 1024] array over the extended reals, on every input whose float arrays are finite and on which no
  edge's relative vector pos[recv] - pos[send] is zero.

  Both programs gather the same per-edge arrays. Per edge the kernel's direction is r * (1 / |r|) and the reference's
  r / |r|; these are one extended real exactly when |r| ≠ 0, which the precondition's last conjunct states (at |r| = 0 the
  reference divides 0 by 0). From the direction on, the two programs apply the same tree of products and differences
  (the real spherical harmonics of degree 1 to 3 times the sender's scalars), the same sum over the edges a node receives,
  the same division by 10 and the same per-degree linear maps; the kernel works on flat [·, 256] / [·, 1024] rows and in
  blocks, the reference on [·, 16, 16] / [·, d, 64] arrays, and the index (16 i + u, 64 i + v) against (i, u), (i, v) is the
  only difference in arrangement. The three frames are the generated ones (the reference's is its run with the result
  dropped); the idealization rewrote nothing, so `preserves` is trivial.
-/
import proofs.«181800_j70411693850655_1_alg».proof.Defs
import proofs.«181800_j70411693850655_1_alg».proof.Proof.Gen.Kernel
import proofs.«181800_j70411693850655_1_alg».proof.Proof.Gen.Kernel.Skeleton
import proofs.«181800_j70411693850655_1_alg».proof.Proof.Gen.Kernel.Launch
import proofs.«181800_j70411693850655_1_alg».proof.Proof.Gen.Kernel.Points
import proofs.«181800_j70411693850655_1_alg».proof.Proof.Gen.Kernel.Frame
import proofs.«181800_j70411693850655_1_alg».proof.Proof.Gen.KernelIdeal
import proofs.«181800_j70411693850655_1_alg».proof.Proof.Gen.KernelIdeal.Skeleton
import proofs.«181800_j70411693850655_1_alg».proof.Proof.Gen.KernelIdeal.Launch
import proofs.«181800_j70411693850655_1_alg».proof.Proof.Gen.KernelIdeal.Points
import proofs.«181800_j70411693850655_1_alg».proof.Proof.Gen.KernelIdeal.Frame
import proofs.«181800_j70411693850655_1_alg».proof.Proof.Gen.ReferenceIdeal
import proofs.«181800_j70411693850655_1_alg».proof.Proof.Gen.Pre_finite_inputs
import proofs.«181800_j70411693850655_1_alg».proof.Proof.RefRunP
import proofs.«181800_j70411693850655_1_alg».proof.Proof.KRun
import proofs.«181800_j70411693850655_1_alg».proof.Proof.KSide
import proofs.«181800_j70411693850655_1_alg».proof.Proof.RSide
import proofs.«181800_j70411693850655_1_alg».proof.Proof.PreDecode
import proofs.«181800_j70411693850655_1_alg».proof.Proof.Law
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Entry by entry, (n, 64 i + v): both results are the node map of the aggregated edge features; the edge features
    agree because every edge's norm is nonzero. -/
theorem algebraic : Cert.algebraic_KernelIdeal_ReferenceIdeal := by
  intro m ρ m' ρ' hpre hagree
  refine ⟨fun c => Cert.KernelIdeal.Gen.W4 (F := Ideal) m ρ c (Proc.devRef .tc Cert.KernelIdeal.main_v29),
    Cert.EdgeNode.KRun.run_value m ρ, ?_⟩
  refine (θ_run Cert.ReferenceIdeal.defs _ _).mono (fun r h c => ⟨(h c).1.trans ?_, (h c).2⟩)
    (Cert.ReferenceIdeal.ValueP.run (F := Ideal) m' ρ')
  obtain ⟨e0, e1, e2, e3, e4, e5, e6, e7, e8⟩ := hagree c
  show (Cert.ReferenceIdeal.ReadP.val_main_v153 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) : Cert.Spec.S50000x1024.Idx → EReal)
    = (Cert.KernelIdeal.Gen.W4 (F := Ideal) m ρ c (Proc.devRef .tc Cert.KernelIdeal.main_v29) : Cert.Spec.S50000x1024.Idx → EReal)
  funext j
  obtain ⟨n, J, rfl⟩ : ∃ (n : Fin 50000) (J : Fin 1024), j = ix2 n J := ⟨j 0, j 1, eq_ix2 j⟩
  obtain ⟨i, v, rfl⟩ : ∃ (i : Fin 16) (v : Fin 64), J = ⟨64 * i.val + v.val, by omega⟩ :=
    ⟨⟨J.val / 64, by omega⟩, ⟨J.val % 64, Nat.mod_lt _ (by norm_num)⟩, Fin.ext (by simp only []; omega)⟩
  refine (Cert.EdgeNode.RSide.ref_result m' c n i v).trans ?_
  refine Eq.trans ?_ (Cert.EdgeNode.KSide.kernel_result m ρ c n i v).symm
  rw [e0, e1, e2, e3, e4, e5, e6, e7, e8]
  refine Cert.Spec.nodeVal_congr (fun u => Cert.Spec.aggVal_congr _ n fun e => ?_) (fun _ => rfl) rfl rfl rfl rfl rfl i v
  exact (Cert.Spec.edgeK_eq_edgeR _ _ (Cert.EdgeNode.PreDecode.norm_ne _ _ _ _ _ _ _ _ _ (hpre c) e) i u).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
